-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1000x300 : Shape := ⟨2, ![1000, 300]⟩
abbrev S1024x50 : Shape := ⟨2, ![1024, 50]⟩
abbrev S_ : Shape := ⟨0, ![]⟩

class Facts : Prop where
  bcast_S_S1000x300 : S_.BroadcastsInDim S1000x300 (![] : Fin 0 → Fin S1000x300.rank)
  reducesTo_S1000x300_S_d0_1 : S1000x300.ReducesTo [0, 1] S_
  h_S_ : 0 < S_.numel
  bcast_S_S1024x50 : S_.BroadcastsInDim S1024x50 (![] : Fin 0 → Fin S1024x50.rank)
  reducesTo_S1024x50_S_d0_1 : S1024x50.ReducesTo [0, 1] S_

variable [Facts]

def fn {F : FTy → Type} [FloatOps F] (main_arg0 : FVec F S1000x300 .f32) (main_arg1 : IVec S1024x50 32) : IVec S_ 1 :=
  let main_v0 : FVec F S1000x300 .f32 := Host.absf main_arg0
  let main_cst : FVec F S_ .f32 := constant S_ .f32 0x7F800000#32
  let main_v1 : FVec F S1000x300 .f32 := broadcastInDim S1000x300 ![] bcast_S_S1000x300 main_cst
  let main_v2 : IVec S1000x300 1 := cmpf .olt main_v0 main_v1
  let main_c : IVec S_ 1 := constantI S_ 1 1#1
  let main_v3 : IVec S_ 1 := (fun x v => Host.reduce IntOp.andi x v reducesTo_S1000x300_S_d0_1 h_S_) main_v2 main_c
  let main_c_0 : IVec S_ 32 := constantI S_ 32 0#32
  let main_v4 : IVec S1024x50 32 := broadcastInDim S1024x50 ![] bcast_S_S1024x50 main_c_0
  let main_v5 : IVec S1024x50 1 := cmpi .sge main_arg1 main_v4
  let main_c_1 : IVec S_ 32 := constantI S_ 32 999#32
  let main_v6 : IVec S1024x50 32 := broadcastInDim S1024x50 ![] bcast_S_S1024x50 main_c_1
  let main_v7 : IVec S1024x50 1 := cmpi .sle main_arg1 main_v6
  let main_v8 : IVec S1024x50 1 := andi main_v5 main_v7
  let main_c_2 : IVec S_ 1 := constantI S_ 1 1#1
  let main_v9 : IVec S_ 1 := (fun x v => Host.reduce IntOp.andi x v reducesTo_S1024x50_S_d0_1 h_S_) main_v8 main_c_2
  let main_v10 : IVec S_ 1 := andi main_v3 main_v9
  main_v10
-- ==== Kernel.lean ====
abbrev S1000x300 : Shape := ⟨2, ![1000, 300]⟩
abbrev S1024x50 : Shape := ⟨2, ![1024, 50]⟩
abbrev S51200 : Shape := ⟨1, ![51200]⟩
abbrev S_ : Shape := ⟨0, ![]⟩
abbrev S1000x384 : Shape := ⟨2, ![1000, 384]⟩
abbrev S3000x128 : Shape := ⟨2, ![3000, 128]⟩
abbrev S153600x128 : Shape := ⟨2, ![153600, 128]⟩
abbrev S1600 : Shape := ⟨1, ![1600]⟩
abbrev S2x120 : Shape := ⟨2, ![2, 120]⟩
abbrev S2x120x128 : Shape := ⟨3, ![2, 120, 128]⟩
abbrev S16 : Shape := ⟨1, ![16]⟩
abbrev S1x120 : Shape := ⟨2, ![1, 120]⟩
abbrev S120 : Shape := ⟨1, ![120]⟩
abbrev S1x120x128 : Shape := ⟨3, ![1, 120, 128]⟩
abbrev S120x128 : Shape := ⟨2, ![120, 128]⟩
abbrev S1024x50x384 : Shape := ⟨3, ![1024, 50, 384]⟩
abbrev S1024x50x300 : Shape := ⟨3, ![1024, 50, 300]⟩

abbrev nBuf : Table → Nat
  | .hbm => 10
  | .local .scVector .vmem => 3
  | _ => 0

abbrev bufTy : (tb : Table) → Fin (nBuf tb) → BufTy
  | .hbm, ⟨0, _⟩ => ⟨S1000x300, .f32⟩
  | .hbm, ⟨1, _⟩ => ⟨S1024x50, .i32⟩
  | .hbm, ⟨2, _⟩ => ⟨S51200, .i32⟩
  | .hbm, ⟨3, _⟩ => ⟨S_, .i32⟩
  | .hbm, ⟨4, _⟩ => ⟨S_, .f32⟩
  | .hbm, ⟨5, _⟩ => ⟨S1000x384, .f32⟩
  | .hbm, ⟨6, _⟩ => ⟨S3000x128, .f32⟩
  | .hbm, ⟨7, _⟩ => ⟨S153600x128, .f32⟩
  | .hbm, ⟨8, _⟩ => ⟨S1024x50x384, .f32⟩
  | .hbm, ⟨9, _⟩ => ⟨S1024x50x300, .f32⟩
  | .local .scVector .vmem, ⟨0, _⟩ => ⟨S1600, .i32⟩
  | .local .scVector .vmem, ⟨1, _⟩ => ⟨S2x120, .i32⟩
  | .local .scVector .vmem, ⟨2, _⟩ => ⟨S2x120x128, .f32⟩
  | _, _ => ⟨S1000x300, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v2_scv : Ref sig .scVector := ⟨.hbm, 6, rfl⟩
abbrev main_v0_scv : Ref sig .scVector := ⟨.hbm, 2, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  ![v2.toNat]

def k0_chk1 (v10 : IVec S16 32) : Prop :=
  (∀ a x, ((![v10] : Fin 1 → IVec S16 32) a x).toNat < S120.size a)
instance k0_chk1.dec : ∀ (v10 : IVec S16 32), Decidable (k0_chk1 v10) := fun v10 => decidable_of_iff' _ (Iff.of_eq (k0_chk1.eq_1 v10))
theorem k0_idx1_inb : ∀ (v10 : IVec S16 32) (k0_hw1 : k0_chk1 v10), ∀ a x, ((![v10] : Fin 1 → IVec S16 32) a x).toNat < S120.size a := fun v10 k0_hw1 => k0_hw1

def k0_chk2 (v16 : IVec S16 32) : Prop :=
  (∀ a x, ((![v16] : Fin 1 → IVec S16 32) a x).toNat < S120.size a)
instance k0_chk2.dec : ∀ (v16 : IVec S16 32), Decidable (k0_chk2 v16) := fun v16 => decidable_of_iff' _ (Iff.of_eq (k0_chk2.eq_1 v16))
theorem k0_idx2_inb : ∀ (v16 : IVec S16 32) (k0_hw2 : k0_chk2 v16), ∀ a x, ((![v16] : Fin 1 → IVec S16 32) a x).toNat < S120.size a := fun v16 k0_hw2 => k0_hw2

def k0_chk3 (v22 : IVec S16 32) : Prop :=
  (∀ a x, ((![v22] : Fin 1 → IVec S16 32) a x).toNat < S120.size a)
instance k0_chk3.dec : ∀ (v22 : IVec S16 32), Decidable (k0_chk3 v22) := fun v22 => decidable_of_iff' _ (Iff.of_eq (k0_chk3.eq_1 v22))
theorem k0_idx3_inb : ∀ (v22 : IVec S16 32) (k0_hw3 : k0_chk3 v22), ∀ a x, ((![v22] : Fin 1 → IVec S16 32) a x).toNat < S120.size a := fun v22 k0_hw3 => k0_hw3

def k0_chk4 (v31 : IVec S16 32) : Prop :=
  (∀ a x, ((![v31] : Fin 1 → IVec S16 32) a x).toNat < S120.size a)
instance k0_chk4.dec : ∀ (v31 : IVec S16 32), Decidable (k0_chk4 v31) := fun v31 => decidable_of_iff' _ (Iff.of_eq (k0_chk4.eq_1 v31))
theorem k0_idx4_inb : ∀ (v31 : IVec S16 32) (k0_hw4 : k0_chk4 v31), ∀ a x, ((![v31] : Fin 1 → IVec S16 32) a x).toNat < S120.size a := fun v31 k0_hw4 => k0_hw4

def k0_chk5 (v37 : IVec S16 32) : Prop :=
  (∀ a x, ((![v37] : Fin 1 → IVec S16 32) a x).toNat < S120.size a)
instance k0_chk5.dec : ∀ (v37 : IVec S16 32), Decidable (k0_chk5 v37) := fun v37 => decidable_of_iff' _ (Iff.of_eq (k0_chk5.eq_1 v37))
theorem k0_idx5_inb : ∀ (v37 : IVec S16 32) (k0_hw5 : k0_chk5 v37), ∀ a x, ((![v37] : Fin 1 → IVec S16 32) a x).toNat < S120.size a := fun v37 k0_hw5 => k0_hw5

def k0_chk6 (v43 : IVec S16 32) : Prop :=
  (∀ a x, ((![v43] : Fin 1 → IVec S16 32) a x).toNat < S120.size a)
instance k0_chk6.dec : ∀ (v43 : IVec S16 32), Decidable (k0_chk6 v43) := fun v43 => decidable_of_iff' _ (Iff.of_eq (k0_chk6.eq_1 v43))
theorem k0_idx6_inb : ∀ (v43 : IVec S16 32) (k0_hw6 : k0_chk6 v43), ∀ a x, ((![v43] : Fin 1 → IVec S16 32) a x).toNat < S120.size a := fun v43 k0_hw6 => k0_hw6

def k0_chk7 (v52 : IVec S16 32) : Prop :=
  (∀ a x, ((![v52] : Fin 1 → IVec S16 32) a x).toNat < S120.size a)
instance k0_chk7.dec : ∀ (v52 : IVec S16 32), Decidable (k0_chk7 v52) := fun v52 => decidable_of_iff' _ (Iff.of_eq (k0_chk7.eq_1 v52))
theorem k0_idx7_inb : ∀ (v52 : IVec S16 32) (k0_hw7 : k0_chk7 v52), ∀ a x, ((![v52] : Fin 1 → IVec S16 32) a x).toNat < S120.size a := fun v52 k0_hw7 => k0_hw7

def k0_chk8 (v58 : IVec S16 32) : Prop :=
  (∀ a x, ((![v58] : Fin 1 → IVec S16 32) a x).toNat < S120.size a)
instance k0_chk8.dec : ∀ (v58 : IVec S16 32), Decidable (k0_chk8 v58) := fun v58 => decidable_of_iff' _ (Iff.of_eq (k0_chk8.eq_1 v58))
theorem k0_idx8_inb : ∀ (v58 : IVec S16 32) (k0_hw8 : k0_chk8 v58), ∀ a x, ((![v58] : Fin 1 → IVec S16 32) a x).toNat < S120.size a := fun v58 k0_hw8 => k0_hw8

def k0_chk9 (v64 : IVec S16 32) : Prop :=
  (∀ a x, ((![v64] : Fin 1 → IVec S16 32) a x).toNat < S120.size a)
instance k0_chk9.dec : ∀ (v64 : IVec S16 32), Decidable (k0_chk9 v64) := fun v64 => decidable_of_iff' _ (Iff.of_eq (k0_chk9.eq_1 v64))
theorem k0_idx9_inb : ∀ (v64 : IVec S16 32) (k0_hw9 : k0_chk9 v64), ∀ a x, ((![v64] : Fin 1 → IVec S16 32) a x).toNat < S120.size a := fun v64 k0_hw9 => k0_hw9

def k0_chk10 (v78 : IVec S16 32) : Prop :=
  (∀ a x, ((![v78] : Fin 1 → IVec S16 32) a x).toNat < S120.size a)
instance k0_chk10.dec : ∀ (v78 : IVec S16 32), Decidable (k0_chk10 v78) := fun v78 => decidable_of_iff' _ (Iff.of_eq (k0_chk10.eq_1 v78))
theorem k0_idx10_inb : ∀ (v78 : IVec S16 32) (k0_hw10 : k0_chk10 v78), ∀ a x, ((![v78] : Fin 1 → IVec S16 32) a x).toNat < S120.size a := fun v78 k0_hw10 => k0_hw10

def k0_chk11 (v84 : IVec S16 32) : Prop :=
  (∀ a x, ((![v84] : Fin 1 → IVec S16 32) a x).toNat < S120.size a)
instance k0_chk11.dec : ∀ (v84 : IVec S16 32), Decidable (k0_chk11 v84) := fun v84 => decidable_of_iff' _ (Iff.of_eq (k0_chk11.eq_1 v84))
theorem k0_idx11_inb : ∀ (v84 : IVec S16 32) (k0_hw11 : k0_chk11 v84), ∀ a x, ((![v84] : Fin 1 → IVec S16 32) a x).toNat < S120.size a := fun v84 k0_hw11 => k0_hw11

def k0_chk12 (v90 : IVec S16 32) : Prop :=
  (∀ a x, ((![v90] : Fin 1 → IVec S16 32) a x).toNat < S120.size a)
instance k0_chk12.dec : ∀ (v90 : IVec S16 32), Decidable (k0_chk12 v90) := fun v90 => decidable_of_iff' _ (Iff.of_eq (k0_chk12.eq_1 v90))
theorem k0_idx12_inb : ∀ (v90 : IVec S16 32) (k0_hw12 : k0_chk12 v90), ∀ a x, ((![v90] : Fin 1 → IVec S16 32) a x).toNat < S120.size a := fun v90 k0_hw12 => k0_hw12

def k0_chk13 (v99 : IVec S16 32) : Prop :=
  (∀ a x, ((![v99] : Fin 1 → IVec S16 32) a x).toNat < S120.size a)
instance k0_chk13.dec : ∀ (v99 : IVec S16 32), Decidable (k0_chk13 v99) := fun v99 => decidable_of_iff' _ (Iff.of_eq (k0_chk13.eq_1 v99))
theorem k0_idx13_inb : ∀ (v99 : IVec S16 32) (k0_hw13 : k0_chk13 v99), ∀ a x, ((![v99] : Fin 1 → IVec S16 32) a x).toNat < S120.size a := fun v99 k0_hw13 => k0_hw13

def k0_chk14 (v105 : IVec S16 32) : Prop :=
  (∀ a x, ((![v105] : Fin 1 → IVec S16 32) a x).toNat < S120.size a)
instance k0_chk14.dec : ∀ (v105 : IVec S16 32), Decidable (k0_chk14 v105) := fun v105 => decidable_of_iff' _ (Iff.of_eq (k0_chk14.eq_1 v105))
theorem k0_idx14_inb : ∀ (v105 : IVec S16 32) (k0_hw14 : k0_chk14 v105), ∀ a x, ((![v105] : Fin 1 → IVec S16 32) a x).toNat < S120.size a := fun v105 k0_hw14 => k0_hw14

def k0_chk15 (v111 : IVec S16 32) : Prop :=
  (∀ a x, ((![v111] : Fin 1 → IVec S16 32) a x).toNat < S120.size a)
instance k0_chk15.dec : ∀ (v111 : IVec S16 32), Decidable (k0_chk15 v111) := fun v111 => decidable_of_iff' _ (Iff.of_eq (k0_chk15.eq_1 v111))
theorem k0_idx15_inb : ∀ (v111 : IVec S16 32) (k0_hw15 : k0_chk15 v111), ∀ a x, ((![v111] : Fin 1 → IVec S16 32) a x).toNat < S120.size a := fun v111 k0_hw15 => k0_hw15

def k0_chk16 (v120 : IVec S16 32) : Prop :=
  (∀ a x, ((![v120] : Fin 1 → IVec S16 32) a x).toNat < S120.size a)
instance k0_chk16.dec : ∀ (v120 : IVec S16 32), Decidable (k0_chk16 v120) := fun v120 => decidable_of_iff' _ (Iff.of_eq (k0_chk16.eq_1 v120))
theorem k0_idx16_inb : ∀ (v120 : IVec S16 32) (k0_hw16 : k0_chk16 v120), ∀ a x, ((![v120] : Fin 1 → IVec S16 32) a x).toNat < S120.size a := fun v120 k0_hw16 => k0_hw16

def k0_chk17 (v126 : IVec S16 32) : Prop :=
  (∀ a x, ((![v126] : Fin 1 → IVec S16 32) a x).toNat < S120.size a)
instance k0_chk17.dec : ∀ (v126 : IVec S16 32), Decidable (k0_chk17 v126) := fun v126 => decidable_of_iff' _ (Iff.of_eq (k0_chk17.eq_1 v126))
theorem k0_idx17_inb : ∀ (v126 : IVec S16 32) (k0_hw17 : k0_chk17 v126), ∀ a x, ((![v126] : Fin 1 → IVec S16 32) a x).toNat < S120.size a := fun v126 k0_hw17 => k0_hw17

def k0_chk18 (v132 : IVec S16 32) : Prop :=
  (∀ a x, ((![v132] : Fin 1 → IVec S16 32) a x).toNat < S120.size a)
instance k0_chk18.dec : ∀ (v132 : IVec S16 32), Decidable (k0_chk18 v132) := fun v132 => decidable_of_iff' _ (Iff.of_eq (k0_chk18.eq_1 v132))
theorem k0_idx18_inb : ∀ (v132 : IVec S16 32) (k0_hw18 : k0_chk18 v132), ∀ a x, ((![v132] : Fin 1 → IVec S16 32) a x).toNat < S120.size a := fun v132 k0_hw18 => k0_hw18
def k0_off2 (i : grid0.Coords) : Fin 2 → Nat :=
  let c3_i32_92 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let c0_i32_91 : BitVec 32 := 0#32
  let v147 : BitVec 32 := Scalar.addi v2 c0_i32_91
  let v148 : BitVec 32 := Scalar.muli c3_i32_92 v147
  let c0_i32_96 : BitVec 32 := 0#32
  ![v148.toNat, 0]

def k0_chk19 (v159 : IVec S16 32) : Prop :=
  (∀ a x, ((![v159] : Fin 1 → IVec S16 32) a x).toNat < S120.size a)
instance k0_chk19.dec : ∀ (v159 : IVec S16 32), Decidable (k0_chk19 v159) := fun v159 => decidable_of_iff' _ (Iff.of_eq (k0_chk19.eq_1 v159))
theorem k0_idx19_inb : ∀ (v159 : IVec S16 32) (k0_hw19 : k0_chk19 v159), ∀ a x, ((![v159] : Fin 1 → IVec S16 32) a x).toNat < S120.size a := fun v159 k0_hw19 => k0_hw19

def k0_chk20 (v165 : IVec S16 32) : Prop :=
  (∀ a x, ((![v165] : Fin 1 → IVec S16 32) a x).toNat < S120.size a)
instance k0_chk20.dec : ∀ (v165 : IVec S16 32), Decidable (k0_chk20 v165) := fun v165 => decidable_of_iff' _ (Iff.of_eq (k0_chk20.eq_1 v165))
theorem k0_idx20_inb : ∀ (v165 : IVec S16 32) (k0_hw20 : k0_chk20 v165), ∀ a x, ((![v165] : Fin 1 → IVec S16 32) a x).toNat < S120.size a := fun v165 k0_hw20 => k0_hw20

def k0_chk21 (v171 : IVec S16 32) : Prop :=
  (∀ a x, ((![v171] : Fin 1 → IVec S16 32) a x).toNat < S120.size a)
instance k0_chk21.dec : ∀ (v171 : IVec S16 32), Decidable (k0_chk21 v171) := fun v171 => decidable_of_iff' _ (Iff.of_eq (k0_chk21.eq_1 v171))
theorem k0_idx21_inb : ∀ (v171 : IVec S16 32) (k0_hw21 : k0_chk21 v171), ∀ a x, ((![v171] : Fin 1 → IVec S16 32) a x).toNat < S120.size a := fun v171 k0_hw21 => k0_hw21

def k0_chk22 (v180 : IVec S16 32) : Prop :=
  (∀ a x, ((![v180] : Fin 1 → IVec S16 32) a x).toNat < S120.size a)
instance k0_chk22.dec : ∀ (v180 : IVec S16 32), Decidable (k0_chk22 v180) := fun v180 => decidable_of_iff' _ (Iff.of_eq (k0_chk22.eq_1 v180))
theorem k0_idx22_inb : ∀ (v180 : IVec S16 32) (k0_hw22 : k0_chk22 v180), ∀ a x, ((![v180] : Fin 1 → IVec S16 32) a x).toNat < S120.size a := fun v180 k0_hw22 => k0_hw22

def k0_chk23 (v186 : IVec S16 32) : Prop :=
  (∀ a x, ((![v186] : Fin 1 → IVec S16 32) a x).toNat < S120.size a)
instance k0_chk23.dec : ∀ (v186 : IVec S16 32), Decidable (k0_chk23 v186) := fun v186 => decidable_of_iff' _ (Iff.of_eq (k0_chk23.eq_1 v186))
theorem k0_idx23_inb : ∀ (v186 : IVec S16 32) (k0_hw23 : k0_chk23 v186), ∀ a x, ((![v186] : Fin 1 → IVec S16 32) a x).toNat < S120.size a := fun v186 k0_hw23 => k0_hw23

def k0_chk24 (v192 : IVec S16 32) : Prop :=
  (∀ a x, ((![v192] : Fin 1 → IVec S16 32) a x).toNat < S120.size a)
instance k0_chk24.dec : ∀ (v192 : IVec S16 32), Decidable (k0_chk24 v192) := fun v192 => decidable_of_iff' _ (Iff.of_eq (k0_chk24.eq_1 v192))
theorem k0_idx24_inb : ∀ (v192 : IVec S16 32) (k0_hw24 : k0_chk24 v192), ∀ a x, ((![v192] : Fin 1 → IVec S16 32) a x).toNat < S120.size a := fun v192 k0_hw24 => k0_hw24

def k0_chk25 (v201 : IVec S16 32) : Prop :=
  (∀ a x, ((![v201] : Fin 1 → IVec S16 32) a x).toNat < S120.size a)
instance k0_chk25.dec : ∀ (v201 : IVec S16 32), Decidable (k0_chk25 v201) := fun v201 => decidable_of_iff' _ (Iff.of_eq (k0_chk25.eq_1 v201))
theorem k0_idx25_inb : ∀ (v201 : IVec S16 32) (k0_hw25 : k0_chk25 v201), ∀ a x, ((![v201] : Fin 1 → IVec S16 32) a x).toNat < S120.size a := fun v201 k0_hw25 => k0_hw25

def k0_chk26 (v207 : IVec S16 32) : Prop :=
  (∀ a x, ((![v207] : Fin 1 → IVec S16 32) a x).toNat < S120.size a)
instance k0_chk26.dec : ∀ (v207 : IVec S16 32), Decidable (k0_chk26 v207) := fun v207 => decidable_of_iff' _ (Iff.of_eq (k0_chk26.eq_1 v207))
theorem k0_idx26_inb : ∀ (v207 : IVec S16 32) (k0_hw26 : k0_chk26 v207), ∀ a x, ((![v207] : Fin 1 → IVec S16 32) a x).toNat < S120.size a := fun v207 k0_hw26 => k0_hw26

def k0_chk27 (v213 : IVec S16 32) : Prop :=
  (∀ a x, ((![v213] : Fin 1 → IVec S16 32) a x).toNat < S120.size a)
instance k0_chk27.dec : ∀ (v213 : IVec S16 32), Decidable (k0_chk27 v213) := fun v213 => decidable_of_iff' _ (Iff.of_eq (k0_chk27.eq_1 v213))
theorem k0_idx27_inb : ∀ (v213 : IVec S16 32) (k0_hw27 : k0_chk27 v213), ∀ a x, ((![v213] : Fin 1 → IVec S16 32) a x).toNat < S120.size a := fun v213 k0_hw27 => k0_hw27
def k0_off3 (i : grid0.Coords) (c0_i32_91 : BitVec 32) : Fin 2 → Nat :=
  let c3_i32_92 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v147 : BitVec 32 := Scalar.addi v2 c0_i32_91
  let v148 : BitVec 32 := Scalar.muli c3_i32_92 v147
  let c0_i32_149 : BitVec 32 := 0#32
  ![v148.toNat, 0]

def k0_chk28 (v246 : IVec S16 32) : Prop :=
  (∀ a x, ((![v246] : Fin 1 → IVec S16 32) a x).toNat < S120.size a)
instance k0_chk28.dec : ∀ (v246 : IVec S16 32), Decidable (k0_chk28 v246) := fun v246 => decidable_of_iff' _ (Iff.of_eq (k0_chk28.eq_1 v246))
theorem k0_idx28_inb : ∀ (v246 : IVec S16 32) (k0_hw28 : k0_chk28 v246), ∀ a x, ((![v246] : Fin 1 → IVec S16 32) a x).toNat < S120.size a := fun v246 k0_hw28 => k0_hw28

def k0_chk29 (v252 : IVec S16 32) : Prop :=
  (∀ a x, ((![v252] : Fin 1 → IVec S16 32) a x).toNat < S120.size a)
instance k0_chk29.dec : ∀ (v252 : IVec S16 32), Decidable (k0_chk29 v252) := fun v252 => decidable_of_iff' _ (Iff.of_eq (k0_chk29.eq_1 v252))
theorem k0_idx29_inb : ∀ (v252 : IVec S16 32) (k0_hw29 : k0_chk29 v252), ∀ a x, ((![v252] : Fin 1 → IVec S16 32) a x).toNat < S120.size a := fun v252 k0_hw29 => k0_hw29

def k0_chk30 (v258 : IVec S16 32) : Prop :=
  (∀ a x, ((![v258] : Fin 1 → IVec S16 32) a x).toNat < S120.size a)
instance k0_chk30.dec : ∀ (v258 : IVec S16 32), Decidable (k0_chk30 v258) := fun v258 => decidable_of_iff' _ (Iff.of_eq (k0_chk30.eq_1 v258))
theorem k0_idx30_inb : ∀ (v258 : IVec S16 32) (k0_hw30 : k0_chk30 v258), ∀ a x, ((![v258] : Fin 1 → IVec S16 32) a x).toNat < S120.size a := fun v258 k0_hw30 => k0_hw30

def k0_chk31 (v267 : IVec S16 32) : Prop :=
  (∀ a x, ((![v267] : Fin 1 → IVec S16 32) a x).toNat < S120.size a)
instance k0_chk31.dec : ∀ (v267 : IVec S16 32), Decidable (k0_chk31 v267) := fun v267 => decidable_of_iff' _ (Iff.of_eq (k0_chk31.eq_1 v267))
theorem k0_idx31_inb : ∀ (v267 : IVec S16 32) (k0_hw31 : k0_chk31 v267), ∀ a x, ((![v267] : Fin 1 → IVec S16 32) a x).toNat < S120.size a := fun v267 k0_hw31 => k0_hw31

def k0_chk32 (v273 : IVec S16 32) : Prop :=
  (∀ a x, ((![v273] : Fin 1 → IVec S16 32) a x).toNat < S120.size a)
instance k0_chk32.dec : ∀ (v273 : IVec S16 32), Decidable (k0_chk32 v273) := fun v273 => decidable_of_iff' _ (Iff.of_eq (k0_chk32.eq_1 v273))
theorem k0_idx32_inb : ∀ (v273 : IVec S16 32) (k0_hw32 : k0_chk32 v273), ∀ a x, ((![v273] : Fin 1 → IVec S16 32) a x).toNat < S120.size a := fun v273 k0_hw32 => k0_hw32

def k0_chk33 (v279 : IVec S16 32) : Prop :=
  (∀ a x, ((![v279] : Fin 1 → IVec S16 32) a x).toNat < S120.size a)
instance k0_chk33.dec : ∀ (v279 : IVec S16 32), Decidable (k0_chk33 v279) := fun v279 => decidable_of_iff' _ (Iff.of_eq (k0_chk33.eq_1 v279))
theorem k0_idx33_inb : ∀ (v279 : IVec S16 32) (k0_hw33 : k0_chk33 v279), ∀ a x, ((![v279] : Fin 1 → IVec S16 32) a x).toNat < S120.size a := fun v279 k0_hw33 => k0_hw33

def k0_chk34 (v288 : IVec S16 32) : Prop :=
  (∀ a x, ((![v288] : Fin 1 → IVec S16 32) a x).toNat < S120.size a)
instance k0_chk34.dec : ∀ (v288 : IVec S16 32), Decidable (k0_chk34 v288) := fun v288 => decidable_of_iff' _ (Iff.of_eq (k0_chk34.eq_1 v288))
theorem k0_idx34_inb : ∀ (v288 : IVec S16 32) (k0_hw34 : k0_chk34 v288), ∀ a x, ((![v288] : Fin 1 → IVec S16 32) a x).toNat < S120.size a := fun v288 k0_hw34 => k0_hw34

def k0_chk35 (v294 : IVec S16 32) : Prop :=
  (∀ a x, ((![v294] : Fin 1 → IVec S16 32) a x).toNat < S120.size a)
instance k0_chk35.dec : ∀ (v294 : IVec S16 32), Decidable (k0_chk35 v294) := fun v294 => decidable_of_iff' _ (Iff.of_eq (k0_chk35.eq_1 v294))
theorem k0_idx35_inb : ∀ (v294 : IVec S16 32) (k0_hw35 : k0_chk35 v294), ∀ a x, ((![v294] : Fin 1 → IVec S16 32) a x).toNat < S120.size a := fun v294 k0_hw35 => k0_hw35

def k0_chk36 (v300 : IVec S16 32) : Prop :=
  (∀ a x, ((![v300] : Fin 1 → IVec S16 32) a x).toNat < S120.size a)
instance k0_chk36.dec : ∀ (v300 : IVec S16 32), Decidable (k0_chk36 v300) := fun v300 => decidable_of_iff' _ (Iff.of_eq (k0_chk36.eq_1 v300))
theorem k0_idx36_inb : ∀ (v300 : IVec S16 32) (k0_hw36 : k0_chk36 v300), ∀ a x, ((![v300] : Fin 1 → IVec S16 32) a x).toNat < S120.size a := fun v300 k0_hw36 => k0_hw36
def k0_off4 (i : grid0.Coords) (c40_i32 : BitVec 32) : Fin 2 → Nat :=
  let c3_i32_160 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v234 : BitVec 32 := Scalar.addi v2 c40_i32
  let v235 : BitVec 32 := Scalar.muli c3_i32_160 v234
  let c0_i32_217 : BitVec 32 := 0#32
  ![v235.toNat, 0]

def k0_chk37 (v333 : IVec S16 32) : Prop :=
  (∀ a x, ((![v333] : Fin 1 → IVec S16 32) a x).toNat < S120.size a)
instance k0_chk37.dec : ∀ (v333 : IVec S16 32), Decidable (k0_chk37 v333) := fun v333 => decidable_of_iff' _ (Iff.of_eq (k0_chk37.eq_1 v333))
theorem k0_idx37_inb : ∀ (v333 : IVec S16 32) (k0_hw37 : k0_chk37 v333), ∀ a x, ((![v333] : Fin 1 → IVec S16 32) a x).toNat < S120.size a := fun v333 k0_hw37 => k0_hw37

def k0_chk38 (v339 : IVec S16 32) : Prop :=
  (∀ a x, ((![v339] : Fin 1 → IVec S16 32) a x).toNat < S120.size a)
instance k0_chk38.dec : ∀ (v339 : IVec S16 32), Decidable (k0_chk38 v339) := fun v339 => decidable_of_iff' _ (Iff.of_eq (k0_chk38.eq_1 v339))
theorem k0_idx38_inb : ∀ (v339 : IVec S16 32) (k0_hw38 : k0_chk38 v339), ∀ a x, ((![v339] : Fin 1 → IVec S16 32) a x).toNat < S120.size a := fun v339 k0_hw38 => k0_hw38

def k0_chk39 (v345 : IVec S16 32) : Prop :=
  (∀ a x, ((![v345] : Fin 1 → IVec S16 32) a x).toNat < S120.size a)
instance k0_chk39.dec : ∀ (v345 : IVec S16 32), Decidable (k0_chk39 v345) := fun v345 => decidable_of_iff' _ (Iff.of_eq (k0_chk39.eq_1 v345))
theorem k0_idx39_inb : ∀ (v345 : IVec S16 32) (k0_hw39 : k0_chk39 v345), ∀ a x, ((![v345] : Fin 1 → IVec S16 32) a x).toNat < S120.size a := fun v345 k0_hw39 => k0_hw39

def k0_chk40 (v354 : IVec S16 32) : Prop :=
  (∀ a x, ((![v354] : Fin 1 → IVec S16 32) a x).toNat < S120.size a)
instance k0_chk40.dec : ∀ (v354 : IVec S16 32), Decidable (k0_chk40 v354) := fun v354 => decidable_of_iff' _ (Iff.of_eq (k0_chk40.eq_1 v354))
theorem k0_idx40_inb : ∀ (v354 : IVec S16 32) (k0_hw40 : k0_chk40 v354), ∀ a x, ((![v354] : Fin 1 → IVec S16 32) a x).toNat < S120.size a := fun v354 k0_hw40 => k0_hw40

def k0_chk41 (v360 : IVec S16 32) : Prop :=
  (∀ a x, ((![v360] : Fin 1 → IVec S16 32) a x).toNat < S120.size a)
instance k0_chk41.dec : ∀ (v360 : IVec S16 32), Decidable (k0_chk41 v360) := fun v360 => decidable_of_iff' _ (Iff.of_eq (k0_chk41.eq_1 v360))
theorem k0_idx41_inb : ∀ (v360 : IVec S16 32) (k0_hw41 : k0_chk41 v360), ∀ a x, ((![v360] : Fin 1 → IVec S16 32) a x).toNat < S120.size a := fun v360 k0_hw41 => k0_hw41

def k0_chk42 (v366 : IVec S16 32) : Prop :=
  (∀ a x, ((![v366] : Fin 1 → IVec S16 32) a x).toNat < S120.size a)
instance k0_chk42.dec : ∀ (v366 : IVec S16 32), Decidable (k0_chk42 v366) := fun v366 => decidable_of_iff' _ (Iff.of_eq (k0_chk42.eq_1 v366))
theorem k0_idx42_inb : ∀ (v366 : IVec S16 32) (k0_hw42 : k0_chk42 v366), ∀ a x, ((![v366] : Fin 1 → IVec S16 32) a x).toNat < S120.size a := fun v366 k0_hw42 => k0_hw42

def k0_chk43 (v375 : IVec S16 32) : Prop :=
  (∀ a x, ((![v375] : Fin 1 → IVec S16 32) a x).toNat < S120.size a)
instance k0_chk43.dec : ∀ (v375 : IVec S16 32), Decidable (k0_chk43 v375) := fun v375 => decidable_of_iff' _ (Iff.of_eq (k0_chk43.eq_1 v375))
theorem k0_idx43_inb : ∀ (v375 : IVec S16 32) (k0_hw43 : k0_chk43 v375), ∀ a x, ((![v375] : Fin 1 → IVec S16 32) a x).toNat < S120.size a := fun v375 k0_hw43 => k0_hw43

def k0_chk44 (v381 : IVec S16 32) : Prop :=
  (∀ a x, ((![v381] : Fin 1 → IVec S16 32) a x).toNat < S120.size a)
instance k0_chk44.dec : ∀ (v381 : IVec S16 32), Decidable (k0_chk44 v381) := fun v381 => decidable_of_iff' _ (Iff.of_eq (k0_chk44.eq_1 v381))
theorem k0_idx44_inb : ∀ (v381 : IVec S16 32) (k0_hw44 : k0_chk44 v381), ∀ a x, ((![v381] : Fin 1 → IVec S16 32) a x).toNat < S120.size a := fun v381 k0_hw44 => k0_hw44

def k0_chk45 (v387 : IVec S16 32) : Prop :=
  (∀ a x, ((![v387] : Fin 1 → IVec S16 32) a x).toNat < S120.size a)
instance k0_chk45.dec : ∀ (v387 : IVec S16 32), Decidable (k0_chk45 v387) := fun v387 => decidable_of_iff' _ (Iff.of_eq (k0_chk45.eq_1 v387))
theorem k0_idx45_inb : ∀ (v387 : IVec S16 32) (k0_hw45 : k0_chk45 v387), ∀ a x, ((![v387] : Fin 1 → IVec S16 32) a x).toNat < S120.size a := fun v387 k0_hw45 => k0_hw45
def k0_off5 (i : grid0.Coords) (c80_i32 : BitVec 32) : Fin 2 → Nat :=
  let c3_i32_228 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v321 : BitVec 32 := Scalar.addi v2 c80_i32
  let v322 : BitVec 32 := Scalar.muli c3_i32_228 v321
  let c0_i32_285 : BitVec 32 := 0#32
  ![v322.toNat, 0]

def k0_chk46 (v420 : IVec S16 32) : Prop :=
  (∀ a x, ((![v420] : Fin 1 → IVec S16 32) a x).toNat < S120.size a)
instance k0_chk46.dec : ∀ (v420 : IVec S16 32), Decidable (k0_chk46 v420) := fun v420 => decidable_of_iff' _ (Iff.of_eq (k0_chk46.eq_1 v420))
theorem k0_idx46_inb : ∀ (v420 : IVec S16 32) (k0_hw46 : k0_chk46 v420), ∀ a x, ((![v420] : Fin 1 → IVec S16 32) a x).toNat < S120.size a := fun v420 k0_hw46 => k0_hw46

def k0_chk47 (v426 : IVec S16 32) : Prop :=
  (∀ a x, ((![v426] : Fin 1 → IVec S16 32) a x).toNat < S120.size a)
instance k0_chk47.dec : ∀ (v426 : IVec S16 32), Decidable (k0_chk47 v426) := fun v426 => decidable_of_iff' _ (Iff.of_eq (k0_chk47.eq_1 v426))
theorem k0_idx47_inb : ∀ (v426 : IVec S16 32) (k0_hw47 : k0_chk47 v426), ∀ a x, ((![v426] : Fin 1 → IVec S16 32) a x).toNat < S120.size a := fun v426 k0_hw47 => k0_hw47

def k0_chk48 (v432 : IVec S16 32) : Prop :=
  (∀ a x, ((![v432] : Fin 1 → IVec S16 32) a x).toNat < S120.size a)
instance k0_chk48.dec : ∀ (v432 : IVec S16 32), Decidable (k0_chk48 v432) := fun v432 => decidable_of_iff' _ (Iff.of_eq (k0_chk48.eq_1 v432))
theorem k0_idx48_inb : ∀ (v432 : IVec S16 32) (k0_hw48 : k0_chk48 v432), ∀ a x, ((![v432] : Fin 1 → IVec S16 32) a x).toNat < S120.size a := fun v432 k0_hw48 => k0_hw48

def k0_chk49 (v441 : IVec S16 32) : Prop :=
  (∀ a x, ((![v441] : Fin 1 → IVec S16 32) a x).toNat < S120.size a)
instance k0_chk49.dec : ∀ (v441 : IVec S16 32), Decidable (k0_chk49 v441) := fun v441 => decidable_of_iff' _ (Iff.of_eq (k0_chk49.eq_1 v441))
theorem k0_idx49_inb : ∀ (v441 : IVec S16 32) (k0_hw49 : k0_chk49 v441), ∀ a x, ((![v441] : Fin 1 → IVec S16 32) a x).toNat < S120.size a := fun v441 k0_hw49 => k0_hw49

def k0_chk50 (v447 : IVec S16 32) : Prop :=
  (∀ a x, ((![v447] : Fin 1 → IVec S16 32) a x).toNat < S120.size a)
instance k0_chk50.dec : ∀ (v447 : IVec S16 32), Decidable (k0_chk50 v447) := fun v447 => decidable_of_iff' _ (Iff.of_eq (k0_chk50.eq_1 v447))
theorem k0_idx50_inb : ∀ (v447 : IVec S16 32) (k0_hw50 : k0_chk50 v447), ∀ a x, ((![v447] : Fin 1 → IVec S16 32) a x).toNat < S120.size a := fun v447 k0_hw50 => k0_hw50

def k0_chk51 (v453 : IVec S16 32) : Prop :=
  (∀ a x, ((![v453] : Fin 1 → IVec S16 32) a x).toNat < S120.size a)
instance k0_chk51.dec : ∀ (v453 : IVec S16 32), Decidable (k0_chk51 v453) := fun v453 => decidable_of_iff' _ (Iff.of_eq (k0_chk51.eq_1 v453))
theorem k0_idx51_inb : ∀ (v453 : IVec S16 32) (k0_hw51 : k0_chk51 v453), ∀ a x, ((![v453] : Fin 1 → IVec S16 32) a x).toNat < S120.size a := fun v453 k0_hw51 => k0_hw51

def k0_chk52 (v462 : IVec S16 32) : Prop :=
  (∀ a x, ((![v462] : Fin 1 → IVec S16 32) a x).toNat < S120.size a)
instance k0_chk52.dec : ∀ (v462 : IVec S16 32), Decidable (k0_chk52 v462) := fun v462 => decidable_of_iff' _ (Iff.of_eq (k0_chk52.eq_1 v462))
theorem k0_idx52_inb : ∀ (v462 : IVec S16 32) (k0_hw52 : k0_chk52 v462), ∀ a x, ((![v462] : Fin 1 → IVec S16 32) a x).toNat < S120.size a := fun v462 k0_hw52 => k0_hw52

def k0_chk53 (v468 : IVec S16 32) : Prop :=
  (∀ a x, ((![v468] : Fin 1 → IVec S16 32) a x).toNat < S120.size a)
instance k0_chk53.dec : ∀ (v468 : IVec S16 32), Decidable (k0_chk53 v468) := fun v468 => decidable_of_iff' _ (Iff.of_eq (k0_chk53.eq_1 v468))
theorem k0_idx53_inb : ∀ (v468 : IVec S16 32) (k0_hw53 : k0_chk53 v468), ∀ a x, ((![v468] : Fin 1 → IVec S16 32) a x).toNat < S120.size a := fun v468 k0_hw53 => k0_hw53

def k0_chk54 (v474 : IVec S16 32) : Prop :=
  (∀ a x, ((![v474] : Fin 1 → IVec S16 32) a x).toNat < S120.size a)
instance k0_chk54.dec : ∀ (v474 : IVec S16 32), Decidable (k0_chk54 v474) := fun v474 => decidable_of_iff' _ (Iff.of_eq (k0_chk54.eq_1 v474))
theorem k0_idx54_inb : ∀ (v474 : IVec S16 32) (k0_hw54 : k0_chk54 v474), ∀ a x, ((![v474] : Fin 1 → IVec S16 32) a x).toNat < S120.size a := fun v474 k0_hw54 => k0_hw54
def k0_off6 (i : grid0.Coords) (c120_i32 : BitVec 32) : Fin 2 → Nat :=
  let c3_i32_296 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v408 : BitVec 32 := Scalar.addi v2 c120_i32
  let v409 : BitVec 32 := Scalar.muli c3_i32_296 v408
  let c0_i32_353 : BitVec 32 := 0#32
  ![v409.toNat, 0]

def k0_chk55 (v507 : IVec S16 32) : Prop :=
  (∀ a x, ((![v507] : Fin 1 → IVec S16 32) a x).toNat < S120.size a)
instance k0_chk55.dec : ∀ (v507 : IVec S16 32), Decidable (k0_chk55 v507) := fun v507 => decidable_of_iff' _ (Iff.of_eq (k0_chk55.eq_1 v507))
theorem k0_idx55_inb : ∀ (v507 : IVec S16 32) (k0_hw55 : k0_chk55 v507), ∀ a x, ((![v507] : Fin 1 → IVec S16 32) a x).toNat < S120.size a := fun v507 k0_hw55 => k0_hw55

def k0_chk56 (v513 : IVec S16 32) : Prop :=
  (∀ a x, ((![v513] : Fin 1 → IVec S16 32) a x).toNat < S120.size a)
instance k0_chk56.dec : ∀ (v513 : IVec S16 32), Decidable (k0_chk56 v513) := fun v513 => decidable_of_iff' _ (Iff.of_eq (k0_chk56.eq_1 v513))
theorem k0_idx56_inb : ∀ (v513 : IVec S16 32) (k0_hw56 : k0_chk56 v513), ∀ a x, ((![v513] : Fin 1 → IVec S16 32) a x).toNat < S120.size a := fun v513 k0_hw56 => k0_hw56

def k0_chk57 (v519 : IVec S16 32) : Prop :=
  (∀ a x, ((![v519] : Fin 1 → IVec S16 32) a x).toNat < S120.size a)
instance k0_chk57.dec : ∀ (v519 : IVec S16 32), Decidable (k0_chk57 v519) := fun v519 => decidable_of_iff' _ (Iff.of_eq (k0_chk57.eq_1 v519))
theorem k0_idx57_inb : ∀ (v519 : IVec S16 32) (k0_hw57 : k0_chk57 v519), ∀ a x, ((![v519] : Fin 1 → IVec S16 32) a x).toNat < S120.size a := fun v519 k0_hw57 => k0_hw57

def k0_chk58 (v528 : IVec S16 32) : Prop :=
  (∀ a x, ((![v528] : Fin 1 → IVec S16 32) a x).toNat < S120.size a)
instance k0_chk58.dec : ∀ (v528 : IVec S16 32), Decidable (k0_chk58 v528) := fun v528 => decidable_of_iff' _ (Iff.of_eq (k0_chk58.eq_1 v528))
theorem k0_idx58_inb : ∀ (v528 : IVec S16 32) (k0_hw58 : k0_chk58 v528), ∀ a x, ((![v528] : Fin 1 → IVec S16 32) a x).toNat < S120.size a := fun v528 k0_hw58 => k0_hw58

def k0_chk59 (v534 : IVec S16 32) : Prop :=
  (∀ a x, ((![v534] : Fin 1 → IVec S16 32) a x).toNat < S120.size a)
instance k0_chk59.dec : ∀ (v534 : IVec S16 32), Decidable (k0_chk59 v534) := fun v534 => decidable_of_iff' _ (Iff.of_eq (k0_chk59.eq_1 v534))
theorem k0_idx59_inb : ∀ (v534 : IVec S16 32) (k0_hw59 : k0_chk59 v534), ∀ a x, ((![v534] : Fin 1 → IVec S16 32) a x).toNat < S120.size a := fun v534 k0_hw59 => k0_hw59

def k0_chk60 (v540 : IVec S16 32) : Prop :=
  (∀ a x, ((![v540] : Fin 1 → IVec S16 32) a x).toNat < S120.size a)
instance k0_chk60.dec : ∀ (v540 : IVec S16 32), Decidable (k0_chk60 v540) := fun v540 => decidable_of_iff' _ (Iff.of_eq (k0_chk60.eq_1 v540))
theorem k0_idx60_inb : ∀ (v540 : IVec S16 32) (k0_hw60 : k0_chk60 v540), ∀ a x, ((![v540] : Fin 1 → IVec S16 32) a x).toNat < S120.size a := fun v540 k0_hw60 => k0_hw60

def k0_chk61 (v549 : IVec S16 32) : Prop :=
  (∀ a x, ((![v549] : Fin 1 → IVec S16 32) a x).toNat < S120.size a)
instance k0_chk61.dec : ∀ (v549 : IVec S16 32), Decidable (k0_chk61 v549) := fun v549 => decidable_of_iff' _ (Iff.of_eq (k0_chk61.eq_1 v549))
theorem k0_idx61_inb : ∀ (v549 : IVec S16 32) (k0_hw61 : k0_chk61 v549), ∀ a x, ((![v549] : Fin 1 → IVec S16 32) a x).toNat < S120.size a := fun v549 k0_hw61 => k0_hw61

def k0_chk62 (v555 : IVec S16 32) : Prop :=
  (∀ a x, ((![v555] : Fin 1 → IVec S16 32) a x).toNat < S120.size a)
instance k0_chk62.dec : ∀ (v555 : IVec S16 32), Decidable (k0_chk62 v555) := fun v555 => decidable_of_iff' _ (Iff.of_eq (k0_chk62.eq_1 v555))
theorem k0_idx62_inb : ∀ (v555 : IVec S16 32) (k0_hw62 : k0_chk62 v555), ∀ a x, ((![v555] : Fin 1 → IVec S16 32) a x).toNat < S120.size a := fun v555 k0_hw62 => k0_hw62

def k0_chk63 (v561 : IVec S16 32) : Prop :=
  (∀ a x, ((![v561] : Fin 1 → IVec S16 32) a x).toNat < S120.size a)
instance k0_chk63.dec : ∀ (v561 : IVec S16 32), Decidable (k0_chk63 v561) := fun v561 => decidable_of_iff' _ (Iff.of_eq (k0_chk63.eq_1 v561))
theorem k0_idx63_inb : ∀ (v561 : IVec S16 32) (k0_hw63 : k0_chk63 v561), ∀ a x, ((![v561] : Fin 1 → IVec S16 32) a x).toNat < S120.size a := fun v561 k0_hw63 => k0_hw63
def k0_off7 (i : grid0.Coords) (c160_i32 : BitVec 32) : Fin 2 → Nat :=
  let c3_i32_364 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v495 : BitVec 32 := Scalar.addi v2 c160_i32
  let v496 : BitVec 32 := Scalar.muli c3_i32_364 v495
  let c0_i32_421 : BitVec 32 := 0#32
  ![v496.toNat, 0]

def k0_chk64 (v594 : IVec S16 32) : Prop :=
  (∀ a x, ((![v594] : Fin 1 → IVec S16 32) a x).toNat < S120.size a)
instance k0_chk64.dec : ∀ (v594 : IVec S16 32), Decidable (k0_chk64 v594) := fun v594 => decidable_of_iff' _ (Iff.of_eq (k0_chk64.eq_1 v594))
theorem k0_idx64_inb : ∀ (v594 : IVec S16 32) (k0_hw64 : k0_chk64 v594), ∀ a x, ((![v594] : Fin 1 → IVec S16 32) a x).toNat < S120.size a := fun v594 k0_hw64 => k0_hw64

def k0_chk65 (v600 : IVec S16 32) : Prop :=
  (∀ a x, ((![v600] : Fin 1 → IVec S16 32) a x).toNat < S120.size a)
instance k0_chk65.dec : ∀ (v600 : IVec S16 32), Decidable (k0_chk65 v600) := fun v600 => decidable_of_iff' _ (Iff.of_eq (k0_chk65.eq_1 v600))
theorem k0_idx65_inb : ∀ (v600 : IVec S16 32) (k0_hw65 : k0_chk65 v600), ∀ a x, ((![v600] : Fin 1 → IVec S16 32) a x).toNat < S120.size a := fun v600 k0_hw65 => k0_hw65

def k0_chk66 (v606 : IVec S16 32) : Prop :=
  (∀ a x, ((![v606] : Fin 1 → IVec S16 32) a x).toNat < S120.size a)
instance k0_chk66.dec : ∀ (v606 : IVec S16 32), Decidable (k0_chk66 v606) := fun v606 => decidable_of_iff' _ (Iff.of_eq (k0_chk66.eq_1 v606))
theorem k0_idx66_inb : ∀ (v606 : IVec S16 32) (k0_hw66 : k0_chk66 v606), ∀ a x, ((![v606] : Fin 1 → IVec S16 32) a x).toNat < S120.size a := fun v606 k0_hw66 => k0_hw66

def k0_chk67 (v615 : IVec S16 32) : Prop :=
  (∀ a x, ((![v615] : Fin 1 → IVec S16 32) a x).toNat < S120.size a)
instance k0_chk67.dec : ∀ (v615 : IVec S16 32), Decidable (k0_chk67 v615) := fun v615 => decidable_of_iff' _ (Iff.of_eq (k0_chk67.eq_1 v615))
theorem k0_idx67_inb : ∀ (v615 : IVec S16 32) (k0_hw67 : k0_chk67 v615), ∀ a x, ((![v615] : Fin 1 → IVec S16 32) a x).toNat < S120.size a := fun v615 k0_hw67 => k0_hw67

def k0_chk68 (v621 : IVec S16 32) : Prop :=
  (∀ a x, ((![v621] : Fin 1 → IVec S16 32) a x).toNat < S120.size a)
instance k0_chk68.dec : ∀ (v621 : IVec S16 32), Decidable (k0_chk68 v621) := fun v621 => decidable_of_iff' _ (Iff.of_eq (k0_chk68.eq_1 v621))
theorem k0_idx68_inb : ∀ (v621 : IVec S16 32) (k0_hw68 : k0_chk68 v621), ∀ a x, ((![v621] : Fin 1 → IVec S16 32) a x).toNat < S120.size a := fun v621 k0_hw68 => k0_hw68

def k0_chk69 (v627 : IVec S16 32) : Prop :=
  (∀ a x, ((![v627] : Fin 1 → IVec S16 32) a x).toNat < S120.size a)
instance k0_chk69.dec : ∀ (v627 : IVec S16 32), Decidable (k0_chk69 v627) := fun v627 => decidable_of_iff' _ (Iff.of_eq (k0_chk69.eq_1 v627))
theorem k0_idx69_inb : ∀ (v627 : IVec S16 32) (k0_hw69 : k0_chk69 v627), ∀ a x, ((![v627] : Fin 1 → IVec S16 32) a x).toNat < S120.size a := fun v627 k0_hw69 => k0_hw69

def k0_chk70 (v636 : IVec S16 32) : Prop :=
  (∀ a x, ((![v636] : Fin 1 → IVec S16 32) a x).toNat < S120.size a)
instance k0_chk70.dec : ∀ (v636 : IVec S16 32), Decidable (k0_chk70 v636) := fun v636 => decidable_of_iff' _ (Iff.of_eq (k0_chk70.eq_1 v636))
theorem k0_idx70_inb : ∀ (v636 : IVec S16 32) (k0_hw70 : k0_chk70 v636), ∀ a x, ((![v636] : Fin 1 → IVec S16 32) a x).toNat < S120.size a := fun v636 k0_hw70 => k0_hw70

def k0_chk71 (v642 : IVec S16 32) : Prop :=
  (∀ a x, ((![v642] : Fin 1 → IVec S16 32) a x).toNat < S120.size a)
instance k0_chk71.dec : ∀ (v642 : IVec S16 32), Decidable (k0_chk71 v642) := fun v642 => decidable_of_iff' _ (Iff.of_eq (k0_chk71.eq_1 v642))
theorem k0_idx71_inb : ∀ (v642 : IVec S16 32) (k0_hw71 : k0_chk71 v642), ∀ a x, ((![v642] : Fin 1 → IVec S16 32) a x).toNat < S120.size a := fun v642 k0_hw71 => k0_hw71

def k0_chk72 (v648 : IVec S16 32) : Prop :=
  (∀ a x, ((![v648] : Fin 1 → IVec S16 32) a x).toNat < S120.size a)
instance k0_chk72.dec : ∀ (v648 : IVec S16 32), Decidable (k0_chk72 v648) := fun v648 => decidable_of_iff' _ (Iff.of_eq (k0_chk72.eq_1 v648))
theorem k0_idx72_inb : ∀ (v648 : IVec S16 32) (k0_hw72 : k0_chk72 v648), ∀ a x, ((![v648] : Fin 1 → IVec S16 32) a x).toNat < S120.size a := fun v648 k0_hw72 => k0_hw72
def k0_off8 (i : grid0.Coords) (c200_i32 : BitVec 32) : Fin 2 → Nat :=
  let c3_i32_432 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v582 : BitVec 32 := Scalar.addi v2 c200_i32
  let v583 : BitVec 32 := Scalar.muli c3_i32_432 v582
  let c0_i32_489 : BitVec 32 := 0#32
  ![v583.toNat, 0]

def k0_chk73 (v681 : IVec S16 32) : Prop :=
  (∀ a x, ((![v681] : Fin 1 → IVec S16 32) a x).toNat < S120.size a)
instance k0_chk73.dec : ∀ (v681 : IVec S16 32), Decidable (k0_chk73 v681) := fun v681 => decidable_of_iff' _ (Iff.of_eq (k0_chk73.eq_1 v681))
theorem k0_idx73_inb : ∀ (v681 : IVec S16 32) (k0_hw73 : k0_chk73 v681), ∀ a x, ((![v681] : Fin 1 → IVec S16 32) a x).toNat < S120.size a := fun v681 k0_hw73 => k0_hw73

def k0_chk74 (v687 : IVec S16 32) : Prop :=
  (∀ a x, ((![v687] : Fin 1 → IVec S16 32) a x).toNat < S120.size a)
instance k0_chk74.dec : ∀ (v687 : IVec S16 32), Decidable (k0_chk74 v687) := fun v687 => decidable_of_iff' _ (Iff.of_eq (k0_chk74.eq_1 v687))
theorem k0_idx74_inb : ∀ (v687 : IVec S16 32) (k0_hw74 : k0_chk74 v687), ∀ a x, ((![v687] : Fin 1 → IVec S16 32) a x).toNat < S120.size a := fun v687 k0_hw74 => k0_hw74

def k0_chk75 (v693 : IVec S16 32) : Prop :=
  (∀ a x, ((![v693] : Fin 1 → IVec S16 32) a x).toNat < S120.size a)
instance k0_chk75.dec : ∀ (v693 : IVec S16 32), Decidable (k0_chk75 v693) := fun v693 => decidable_of_iff' _ (Iff.of_eq (k0_chk75.eq_1 v693))
theorem k0_idx75_inb : ∀ (v693 : IVec S16 32) (k0_hw75 : k0_chk75 v693), ∀ a x, ((![v693] : Fin 1 → IVec S16 32) a x).toNat < S120.size a := fun v693 k0_hw75 => k0_hw75

def k0_chk76 (v702 : IVec S16 32) : Prop :=
  (∀ a x, ((![v702] : Fin 1 → IVec S16 32) a x).toNat < S120.size a)
instance k0_chk76.dec : ∀ (v702 : IVec S16 32), Decidable (k0_chk76 v702) := fun v702 => decidable_of_iff' _ (Iff.of_eq (k0_chk76.eq_1 v702))
theorem k0_idx76_inb : ∀ (v702 : IVec S16 32) (k0_hw76 : k0_chk76 v702), ∀ a x, ((![v702] : Fin 1 → IVec S16 32) a x).toNat < S120.size a := fun v702 k0_hw76 => k0_hw76

def k0_chk77 (v708 : IVec S16 32) : Prop :=
  (∀ a x, ((![v708] : Fin 1 → IVec S16 32) a x).toNat < S120.size a)
instance k0_chk77.dec : ∀ (v708 : IVec S16 32), Decidable (k0_chk77 v708) := fun v708 => decidable_of_iff' _ (Iff.of_eq (k0_chk77.eq_1 v708))
theorem k0_idx77_inb : ∀ (v708 : IVec S16 32) (k0_hw77 : k0_chk77 v708), ∀ a x, ((![v708] : Fin 1 → IVec S16 32) a x).toNat < S120.size a := fun v708 k0_hw77 => k0_hw77

def k0_chk78 (v714 : IVec S16 32) : Prop :=
  (∀ a x, ((![v714] : Fin 1 → IVec S16 32) a x).toNat < S120.size a)
instance k0_chk78.dec : ∀ (v714 : IVec S16 32), Decidable (k0_chk78 v714) := fun v714 => decidable_of_iff' _ (Iff.of_eq (k0_chk78.eq_1 v714))
theorem k0_idx78_inb : ∀ (v714 : IVec S16 32) (k0_hw78 : k0_chk78 v714), ∀ a x, ((![v714] : Fin 1 → IVec S16 32) a x).toNat < S120.size a := fun v714 k0_hw78 => k0_hw78

def k0_chk79 (v723 : IVec S16 32) : Prop :=
  (∀ a x, ((![v723] : Fin 1 → IVec S16 32) a x).toNat < S120.size a)
instance k0_chk79.dec : ∀ (v723 : IVec S16 32), Decidable (k0_chk79 v723) := fun v723 => decidable_of_iff' _ (Iff.of_eq (k0_chk79.eq_1 v723))
theorem k0_idx79_inb : ∀ (v723 : IVec S16 32) (k0_hw79 : k0_chk79 v723), ∀ a x, ((![v723] : Fin 1 → IVec S16 32) a x).toNat < S120.size a := fun v723 k0_hw79 => k0_hw79

def k0_chk80 (v729 : IVec S16 32) : Prop :=
  (∀ a x, ((![v729] : Fin 1 → IVec S16 32) a x).toNat < S120.size a)
instance k0_chk80.dec : ∀ (v729 : IVec S16 32), Decidable (k0_chk80 v729) := fun v729 => decidable_of_iff' _ (Iff.of_eq (k0_chk80.eq_1 v729))
theorem k0_idx80_inb : ∀ (v729 : IVec S16 32) (k0_hw80 : k0_chk80 v729), ∀ a x, ((![v729] : Fin 1 → IVec S16 32) a x).toNat < S120.size a := fun v729 k0_hw80 => k0_hw80

def k0_chk81 (v735 : IVec S16 32) : Prop :=
  (∀ a x, ((![v735] : Fin 1 → IVec S16 32) a x).toNat < S120.size a)
instance k0_chk81.dec : ∀ (v735 : IVec S16 32), Decidable (k0_chk81 v735) := fun v735 => decidable_of_iff' _ (Iff.of_eq (k0_chk81.eq_1 v735))
theorem k0_idx81_inb : ∀ (v735 : IVec S16 32) (k0_hw81 : k0_chk81 v735), ∀ a x, ((![v735] : Fin 1 → IVec S16 32) a x).toNat < S120.size a := fun v735 k0_hw81 => k0_hw81
def k0_off9 (i : grid0.Coords) (c240_i32 : BitVec 32) : Fin 2 → Nat :=
  let c3_i32_500 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v669 : BitVec 32 := Scalar.addi v2 c240_i32
  let v670 : BitVec 32 := Scalar.muli c3_i32_500 v669
  let c0_i32_557 : BitVec 32 := 0#32
  ![v670.toNat, 0]

def k0_chk82 (v768 : IVec S16 32) : Prop :=
  (∀ a x, ((![v768] : Fin 1 → IVec S16 32) a x).toNat < S120.size a)
instance k0_chk82.dec : ∀ (v768 : IVec S16 32), Decidable (k0_chk82 v768) := fun v768 => decidable_of_iff' _ (Iff.of_eq (k0_chk82.eq_1 v768))
theorem k0_idx82_inb : ∀ (v768 : IVec S16 32) (k0_hw82 : k0_chk82 v768), ∀ a x, ((![v768] : Fin 1 → IVec S16 32) a x).toNat < S120.size a := fun v768 k0_hw82 => k0_hw82

def k0_chk83 (v774 : IVec S16 32) : Prop :=
  (∀ a x, ((![v774] : Fin 1 → IVec S16 32) a x).toNat < S120.size a)
instance k0_chk83.dec : ∀ (v774 : IVec S16 32), Decidable (k0_chk83 v774) := fun v774 => decidable_of_iff' _ (Iff.of_eq (k0_chk83.eq_1 v774))
theorem k0_idx83_inb : ∀ (v774 : IVec S16 32) (k0_hw83 : k0_chk83 v774), ∀ a x, ((![v774] : Fin 1 → IVec S16 32) a x).toNat < S120.size a := fun v774 k0_hw83 => k0_hw83

def k0_chk84 (v780 : IVec S16 32) : Prop :=
  (∀ a x, ((![v780] : Fin 1 → IVec S16 32) a x).toNat < S120.size a)
instance k0_chk84.dec : ∀ (v780 : IVec S16 32), Decidable (k0_chk84 v780) := fun v780 => decidable_of_iff' _ (Iff.of_eq (k0_chk84.eq_1 v780))
theorem k0_idx84_inb : ∀ (v780 : IVec S16 32) (k0_hw84 : k0_chk84 v780), ∀ a x, ((![v780] : Fin 1 → IVec S16 32) a x).toNat < S120.size a := fun v780 k0_hw84 => k0_hw84

def k0_chk85 (v789 : IVec S16 32) : Prop :=
  (∀ a x, ((![v789] : Fin 1 → IVec S16 32) a x).toNat < S120.size a)
instance k0_chk85.dec : ∀ (v789 : IVec S16 32), Decidable (k0_chk85 v789) := fun v789 => decidable_of_iff' _ (Iff.of_eq (k0_chk85.eq_1 v789))
theorem k0_idx85_inb : ∀ (v789 : IVec S16 32) (k0_hw85 : k0_chk85 v789), ∀ a x, ((![v789] : Fin 1 → IVec S16 32) a x).toNat < S120.size a := fun v789 k0_hw85 => k0_hw85

def k0_chk86 (v795 : IVec S16 32) : Prop :=
  (∀ a x, ((![v795] : Fin 1 → IVec S16 32) a x).toNat < S120.size a)
instance k0_chk86.dec : ∀ (v795 : IVec S16 32), Decidable (k0_chk86 v795) := fun v795 => decidable_of_iff' _ (Iff.of_eq (k0_chk86.eq_1 v795))
theorem k0_idx86_inb : ∀ (v795 : IVec S16 32) (k0_hw86 : k0_chk86 v795), ∀ a x, ((![v795] : Fin 1 → IVec S16 32) a x).toNat < S120.size a := fun v795 k0_hw86 => k0_hw86

def k0_chk87 (v801 : IVec S16 32) : Prop :=
  (∀ a x, ((![v801] : Fin 1 → IVec S16 32) a x).toNat < S120.size a)
instance k0_chk87.dec : ∀ (v801 : IVec S16 32), Decidable (k0_chk87 v801) := fun v801 => decidable_of_iff' _ (Iff.of_eq (k0_chk87.eq_1 v801))
theorem k0_idx87_inb : ∀ (v801 : IVec S16 32) (k0_hw87 : k0_chk87 v801), ∀ a x, ((![v801] : Fin 1 → IVec S16 32) a x).toNat < S120.size a := fun v801 k0_hw87 => k0_hw87

def k0_chk88 (v810 : IVec S16 32) : Prop :=
  (∀ a x, ((![v810] : Fin 1 → IVec S16 32) a x).toNat < S120.size a)
instance k0_chk88.dec : ∀ (v810 : IVec S16 32), Decidable (k0_chk88 v810) := fun v810 => decidable_of_iff' _ (Iff.of_eq (k0_chk88.eq_1 v810))
theorem k0_idx88_inb : ∀ (v810 : IVec S16 32) (k0_hw88 : k0_chk88 v810), ∀ a x, ((![v810] : Fin 1 → IVec S16 32) a x).toNat < S120.size a := fun v810 k0_hw88 => k0_hw88

def k0_chk89 (v816 : IVec S16 32) : Prop :=
  (∀ a x, ((![v816] : Fin 1 → IVec S16 32) a x).toNat < S120.size a)
instance k0_chk89.dec : ∀ (v816 : IVec S16 32), Decidable (k0_chk89 v816) := fun v816 => decidable_of_iff' _ (Iff.of_eq (k0_chk89.eq_1 v816))
theorem k0_idx89_inb : ∀ (v816 : IVec S16 32) (k0_hw89 : k0_chk89 v816), ∀ a x, ((![v816] : Fin 1 → IVec S16 32) a x).toNat < S120.size a := fun v816 k0_hw89 => k0_hw89

def k0_chk90 (v822 : IVec S16 32) : Prop :=
  (∀ a x, ((![v822] : Fin 1 → IVec S16 32) a x).toNat < S120.size a)
instance k0_chk90.dec : ∀ (v822 : IVec S16 32), Decidable (k0_chk90 v822) := fun v822 => decidable_of_iff' _ (Iff.of_eq (k0_chk90.eq_1 v822))
theorem k0_idx90_inb : ∀ (v822 : IVec S16 32) (k0_hw90 : k0_chk90 v822), ∀ a x, ((![v822] : Fin 1 → IVec S16 32) a x).toNat < S120.size a := fun v822 k0_hw90 => k0_hw90
def k0_off10 (i : grid0.Coords) (c280_i32 : BitVec 32) : Fin 2 → Nat :=
  let c3_i32_568 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v756 : BitVec 32 := Scalar.addi v2 c280_i32
  let v757 : BitVec 32 := Scalar.muli c3_i32_568 v756
  let c0_i32_625 : BitVec 32 := 0#32
  ![v757.toNat, 0]

def k0_chk91 (v855 : IVec S16 32) : Prop :=
  (∀ a x, ((![v855] : Fin 1 → IVec S16 32) a x).toNat < S120.size a)
instance k0_chk91.dec : ∀ (v855 : IVec S16 32), Decidable (k0_chk91 v855) := fun v855 => decidable_of_iff' _ (Iff.of_eq (k0_chk91.eq_1 v855))
theorem k0_idx91_inb : ∀ (v855 : IVec S16 32) (k0_hw91 : k0_chk91 v855), ∀ a x, ((![v855] : Fin 1 → IVec S16 32) a x).toNat < S120.size a := fun v855 k0_hw91 => k0_hw91

def k0_chk92 (v861 : IVec S16 32) : Prop :=
  (∀ a x, ((![v861] : Fin 1 → IVec S16 32) a x).toNat < S120.size a)
instance k0_chk92.dec : ∀ (v861 : IVec S16 32), Decidable (k0_chk92 v861) := fun v861 => decidable_of_iff' _ (Iff.of_eq (k0_chk92.eq_1 v861))
theorem k0_idx92_inb : ∀ (v861 : IVec S16 32) (k0_hw92 : k0_chk92 v861), ∀ a x, ((![v861] : Fin 1 → IVec S16 32) a x).toNat < S120.size a := fun v861 k0_hw92 => k0_hw92

def k0_chk93 (v867 : IVec S16 32) : Prop :=
  (∀ a x, ((![v867] : Fin 1 → IVec S16 32) a x).toNat < S120.size a)
instance k0_chk93.dec : ∀ (v867 : IVec S16 32), Decidable (k0_chk93 v867) := fun v867 => decidable_of_iff' _ (Iff.of_eq (k0_chk93.eq_1 v867))
theorem k0_idx93_inb : ∀ (v867 : IVec S16 32) (k0_hw93 : k0_chk93 v867), ∀ a x, ((![v867] : Fin 1 → IVec S16 32) a x).toNat < S120.size a := fun v867 k0_hw93 => k0_hw93

def k0_chk94 (v876 : IVec S16 32) : Prop :=
  (∀ a x, ((![v876] : Fin 1 → IVec S16 32) a x).toNat < S120.size a)
instance k0_chk94.dec : ∀ (v876 : IVec S16 32), Decidable (k0_chk94 v876) := fun v876 => decidable_of_iff' _ (Iff.of_eq (k0_chk94.eq_1 v876))
theorem k0_idx94_inb : ∀ (v876 : IVec S16 32) (k0_hw94 : k0_chk94 v876), ∀ a x, ((![v876] : Fin 1 → IVec S16 32) a x).toNat < S120.size a := fun v876 k0_hw94 => k0_hw94

def k0_chk95 (v882 : IVec S16 32) : Prop :=
  (∀ a x, ((![v882] : Fin 1 → IVec S16 32) a x).toNat < S120.size a)
instance k0_chk95.dec : ∀ (v882 : IVec S16 32), Decidable (k0_chk95 v882) := fun v882 => decidable_of_iff' _ (Iff.of_eq (k0_chk95.eq_1 v882))
theorem k0_idx95_inb : ∀ (v882 : IVec S16 32) (k0_hw95 : k0_chk95 v882), ∀ a x, ((![v882] : Fin 1 → IVec S16 32) a x).toNat < S120.size a := fun v882 k0_hw95 => k0_hw95

def k0_chk96 (v888 : IVec S16 32) : Prop :=
  (∀ a x, ((![v888] : Fin 1 → IVec S16 32) a x).toNat < S120.size a)
instance k0_chk96.dec : ∀ (v888 : IVec S16 32), Decidable (k0_chk96 v888) := fun v888 => decidable_of_iff' _ (Iff.of_eq (k0_chk96.eq_1 v888))
theorem k0_idx96_inb : ∀ (v888 : IVec S16 32) (k0_hw96 : k0_chk96 v888), ∀ a x, ((![v888] : Fin 1 → IVec S16 32) a x).toNat < S120.size a := fun v888 k0_hw96 => k0_hw96

def k0_chk97 (v897 : IVec S16 32) : Prop :=
  (∀ a x, ((![v897] : Fin 1 → IVec S16 32) a x).toNat < S120.size a)
instance k0_chk97.dec : ∀ (v897 : IVec S16 32), Decidable (k0_chk97 v897) := fun v897 => decidable_of_iff' _ (Iff.of_eq (k0_chk97.eq_1 v897))
theorem k0_idx97_inb : ∀ (v897 : IVec S16 32) (k0_hw97 : k0_chk97 v897), ∀ a x, ((![v897] : Fin 1 → IVec S16 32) a x).toNat < S120.size a := fun v897 k0_hw97 => k0_hw97

def k0_chk98 (v903 : IVec S16 32) : Prop :=
  (∀ a x, ((![v903] : Fin 1 → IVec S16 32) a x).toNat < S120.size a)
instance k0_chk98.dec : ∀ (v903 : IVec S16 32), Decidable (k0_chk98 v903) := fun v903 => decidable_of_iff' _ (Iff.of_eq (k0_chk98.eq_1 v903))
theorem k0_idx98_inb : ∀ (v903 : IVec S16 32) (k0_hw98 : k0_chk98 v903), ∀ a x, ((![v903] : Fin 1 → IVec S16 32) a x).toNat < S120.size a := fun v903 k0_hw98 => k0_hw98

def k0_chk99 (v909 : IVec S16 32) : Prop :=
  (∀ a x, ((![v909] : Fin 1 → IVec S16 32) a x).toNat < S120.size a)
instance k0_chk99.dec : ∀ (v909 : IVec S16 32), Decidable (k0_chk99 v909) := fun v909 => decidable_of_iff' _ (Iff.of_eq (k0_chk99.eq_1 v909))
theorem k0_idx99_inb : ∀ (v909 : IVec S16 32) (k0_hw99 : k0_chk99 v909), ∀ a x, ((![v909] : Fin 1 → IVec S16 32) a x).toNat < S120.size a := fun v909 k0_hw99 => k0_hw99
def k0_off11 (i : grid0.Coords) (c320_i32 : BitVec 32) : Fin 2 → Nat :=
  let c3_i32_636 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v843 : BitVec 32 := Scalar.addi v2 c320_i32
  let v844 : BitVec 32 := Scalar.muli c3_i32_636 v843
  let c0_i32_693 : BitVec 32 := 0#32
  ![v844.toNat, 0]

def k0_chk100 (v942 : IVec S16 32) : Prop :=
  (∀ a x, ((![v942] : Fin 1 → IVec S16 32) a x).toNat < S120.size a)
instance k0_chk100.dec : ∀ (v942 : IVec S16 32), Decidable (k0_chk100 v942) := fun v942 => decidable_of_iff' _ (Iff.of_eq (k0_chk100.eq_1 v942))
theorem k0_idx100_inb : ∀ (v942 : IVec S16 32) (k0_hw100 : k0_chk100 v942), ∀ a x, ((![v942] : Fin 1 → IVec S16 32) a x).toNat < S120.size a := fun v942 k0_hw100 => k0_hw100

def k0_chk101 (v948 : IVec S16 32) : Prop :=
  (∀ a x, ((![v948] : Fin 1 → IVec S16 32) a x).toNat < S120.size a)
instance k0_chk101.dec : ∀ (v948 : IVec S16 32), Decidable (k0_chk101 v948) := fun v948 => decidable_of_iff' _ (Iff.of_eq (k0_chk101.eq_1 v948))
theorem k0_idx101_inb : ∀ (v948 : IVec S16 32) (k0_hw101 : k0_chk101 v948), ∀ a x, ((![v948] : Fin 1 → IVec S16 32) a x).toNat < S120.size a := fun v948 k0_hw101 => k0_hw101

def k0_chk102 (v954 : IVec S16 32) : Prop :=
  (∀ a x, ((![v954] : Fin 1 → IVec S16 32) a x).toNat < S120.size a)
instance k0_chk102.dec : ∀ (v954 : IVec S16 32), Decidable (k0_chk102 v954) := fun v954 => decidable_of_iff' _ (Iff.of_eq (k0_chk102.eq_1 v954))
theorem k0_idx102_inb : ∀ (v954 : IVec S16 32) (k0_hw102 : k0_chk102 v954), ∀ a x, ((![v954] : Fin 1 → IVec S16 32) a x).toNat < S120.size a := fun v954 k0_hw102 => k0_hw102

def k0_chk103 (v963 : IVec S16 32) : Prop :=
  (∀ a x, ((![v963] : Fin 1 → IVec S16 32) a x).toNat < S120.size a)
instance k0_chk103.dec : ∀ (v963 : IVec S16 32), Decidable (k0_chk103 v963) := fun v963 => decidable_of_iff' _ (Iff.of_eq (k0_chk103.eq_1 v963))
theorem k0_idx103_inb : ∀ (v963 : IVec S16 32) (k0_hw103 : k0_chk103 v963), ∀ a x, ((![v963] : Fin 1 → IVec S16 32) a x).toNat < S120.size a := fun v963 k0_hw103 => k0_hw103

def k0_chk104 (v969 : IVec S16 32) : Prop :=
  (∀ a x, ((![v969] : Fin 1 → IVec S16 32) a x).toNat < S120.size a)
instance k0_chk104.dec : ∀ (v969 : IVec S16 32), Decidable (k0_chk104 v969) := fun v969 => decidable_of_iff' _ (Iff.of_eq (k0_chk104.eq_1 v969))
theorem k0_idx104_inb : ∀ (v969 : IVec S16 32) (k0_hw104 : k0_chk104 v969), ∀ a x, ((![v969] : Fin 1 → IVec S16 32) a x).toNat < S120.size a := fun v969 k0_hw104 => k0_hw104

def k0_chk105 (v975 : IVec S16 32) : Prop :=
  (∀ a x, ((![v975] : Fin 1 → IVec S16 32) a x).toNat < S120.size a)
instance k0_chk105.dec : ∀ (v975 : IVec S16 32), Decidable (k0_chk105 v975) := fun v975 => decidable_of_iff' _ (Iff.of_eq (k0_chk105.eq_1 v975))
theorem k0_idx105_inb : ∀ (v975 : IVec S16 32) (k0_hw105 : k0_chk105 v975), ∀ a x, ((![v975] : Fin 1 → IVec S16 32) a x).toNat < S120.size a := fun v975 k0_hw105 => k0_hw105

def k0_chk106 (v984 : IVec S16 32) : Prop :=
  (∀ a x, ((![v984] : Fin 1 → IVec S16 32) a x).toNat < S120.size a)
instance k0_chk106.dec : ∀ (v984 : IVec S16 32), Decidable (k0_chk106 v984) := fun v984 => decidable_of_iff' _ (Iff.of_eq (k0_chk106.eq_1 v984))
theorem k0_idx106_inb : ∀ (v984 : IVec S16 32) (k0_hw106 : k0_chk106 v984), ∀ a x, ((![v984] : Fin 1 → IVec S16 32) a x).toNat < S120.size a := fun v984 k0_hw106 => k0_hw106

def k0_chk107 (v990 : IVec S16 32) : Prop :=
  (∀ a x, ((![v990] : Fin 1 → IVec S16 32) a x).toNat < S120.size a)
instance k0_chk107.dec : ∀ (v990 : IVec S16 32), Decidable (k0_chk107 v990) := fun v990 => decidable_of_iff' _ (Iff.of_eq (k0_chk107.eq_1 v990))
theorem k0_idx107_inb : ∀ (v990 : IVec S16 32) (k0_hw107 : k0_chk107 v990), ∀ a x, ((![v990] : Fin 1 → IVec S16 32) a x).toNat < S120.size a := fun v990 k0_hw107 => k0_hw107

def k0_chk108 (v996 : IVec S16 32) : Prop :=
  (∀ a x, ((![v996] : Fin 1 → IVec S16 32) a x).toNat < S120.size a)
instance k0_chk108.dec : ∀ (v996 : IVec S16 32), Decidable (k0_chk108 v996) := fun v996 => decidable_of_iff' _ (Iff.of_eq (k0_chk108.eq_1 v996))
theorem k0_idx108_inb : ∀ (v996 : IVec S16 32) (k0_hw108 : k0_chk108 v996), ∀ a x, ((![v996] : Fin 1 → IVec S16 32) a x).toNat < S120.size a := fun v996 k0_hw108 => k0_hw108
def k0_off12 (i : grid0.Coords) (c360_i32 : BitVec 32) : Fin 2 → Nat :=
  let c3_i32_704 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v930 : BitVec 32 := Scalar.addi v2 c360_i32
  let v931 : BitVec 32 := Scalar.muli c3_i32_704 v930
  let c0_i32_761 : BitVec 32 := 0#32
  ![v931.toNat, 0]

def k0_chk109 (v1029 : IVec S16 32) : Prop :=
  (∀ a x, ((![v1029] : Fin 1 → IVec S16 32) a x).toNat < S120.size a)
instance k0_chk109.dec : ∀ (v1029 : IVec S16 32), Decidable (k0_chk109 v1029) := fun v1029 => decidable_of_iff' _ (Iff.of_eq (k0_chk109.eq_1 v1029))
theorem k0_idx109_inb : ∀ (v1029 : IVec S16 32) (k0_hw109 : k0_chk109 v1029), ∀ a x, ((![v1029] : Fin 1 → IVec S16 32) a x).toNat < S120.size a := fun v1029 k0_hw109 => k0_hw109

def k0_chk110 (v1035 : IVec S16 32) : Prop :=
  (∀ a x, ((![v1035] : Fin 1 → IVec S16 32) a x).toNat < S120.size a)
instance k0_chk110.dec : ∀ (v1035 : IVec S16 32), Decidable (k0_chk110 v1035) := fun v1035 => decidable_of_iff' _ (Iff.of_eq (k0_chk110.eq_1 v1035))
theorem k0_idx110_inb : ∀ (v1035 : IVec S16 32) (k0_hw110 : k0_chk110 v1035), ∀ a x, ((![v1035] : Fin 1 → IVec S16 32) a x).toNat < S120.size a := fun v1035 k0_hw110 => k0_hw110

def k0_chk111 (v1041 : IVec S16 32) : Prop :=
  (∀ a x, ((![v1041] : Fin 1 → IVec S16 32) a x).toNat < S120.size a)
instance k0_chk111.dec : ∀ (v1041 : IVec S16 32), Decidable (k0_chk111 v1041) := fun v1041 => decidable_of_iff' _ (Iff.of_eq (k0_chk111.eq_1 v1041))
theorem k0_idx111_inb : ∀ (v1041 : IVec S16 32) (k0_hw111 : k0_chk111 v1041), ∀ a x, ((![v1041] : Fin 1 → IVec S16 32) a x).toNat < S120.size a := fun v1041 k0_hw111 => k0_hw111

def k0_chk112 (v1050 : IVec S16 32) : Prop :=
  (∀ a x, ((![v1050] : Fin 1 → IVec S16 32) a x).toNat < S120.size a)
instance k0_chk112.dec : ∀ (v1050 : IVec S16 32), Decidable (k0_chk112 v1050) := fun v1050 => decidable_of_iff' _ (Iff.of_eq (k0_chk112.eq_1 v1050))
theorem k0_idx112_inb : ∀ (v1050 : IVec S16 32) (k0_hw112 : k0_chk112 v1050), ∀ a x, ((![v1050] : Fin 1 → IVec S16 32) a x).toNat < S120.size a := fun v1050 k0_hw112 => k0_hw112

def k0_chk113 (v1056 : IVec S16 32) : Prop :=
  (∀ a x, ((![v1056] : Fin 1 → IVec S16 32) a x).toNat < S120.size a)
instance k0_chk113.dec : ∀ (v1056 : IVec S16 32), Decidable (k0_chk113 v1056) := fun v1056 => decidable_of_iff' _ (Iff.of_eq (k0_chk113.eq_1 v1056))
theorem k0_idx113_inb : ∀ (v1056 : IVec S16 32) (k0_hw113 : k0_chk113 v1056), ∀ a x, ((![v1056] : Fin 1 → IVec S16 32) a x).toNat < S120.size a := fun v1056 k0_hw113 => k0_hw113

def k0_chk114 (v1062 : IVec S16 32) : Prop :=
  (∀ a x, ((![v1062] : Fin 1 → IVec S16 32) a x).toNat < S120.size a)
instance k0_chk114.dec : ∀ (v1062 : IVec S16 32), Decidable (k0_chk114 v1062) := fun v1062 => decidable_of_iff' _ (Iff.of_eq (k0_chk114.eq_1 v1062))
theorem k0_idx114_inb : ∀ (v1062 : IVec S16 32) (k0_hw114 : k0_chk114 v1062), ∀ a x, ((![v1062] : Fin 1 → IVec S16 32) a x).toNat < S120.size a := fun v1062 k0_hw114 => k0_hw114

def k0_chk115 (v1071 : IVec S16 32) : Prop :=
  (∀ a x, ((![v1071] : Fin 1 → IVec S16 32) a x).toNat < S120.size a)
instance k0_chk115.dec : ∀ (v1071 : IVec S16 32), Decidable (k0_chk115 v1071) := fun v1071 => decidable_of_iff' _ (Iff.of_eq (k0_chk115.eq_1 v1071))
theorem k0_idx115_inb : ∀ (v1071 : IVec S16 32) (k0_hw115 : k0_chk115 v1071), ∀ a x, ((![v1071] : Fin 1 → IVec S16 32) a x).toNat < S120.size a := fun v1071 k0_hw115 => k0_hw115

def k0_chk116 (v1077 : IVec S16 32) : Prop :=
  (∀ a x, ((![v1077] : Fin 1 → IVec S16 32) a x).toNat < S120.size a)
instance k0_chk116.dec : ∀ (v1077 : IVec S16 32), Decidable (k0_chk116 v1077) := fun v1077 => decidable_of_iff' _ (Iff.of_eq (k0_chk116.eq_1 v1077))
theorem k0_idx116_inb : ∀ (v1077 : IVec S16 32) (k0_hw116 : k0_chk116 v1077), ∀ a x, ((![v1077] : Fin 1 → IVec S16 32) a x).toNat < S120.size a := fun v1077 k0_hw116 => k0_hw116

def k0_chk117 (v1083 : IVec S16 32) : Prop :=
  (∀ a x, ((![v1083] : Fin 1 → IVec S16 32) a x).toNat < S120.size a)
instance k0_chk117.dec : ∀ (v1083 : IVec S16 32), Decidable (k0_chk117 v1083) := fun v1083 => decidable_of_iff' _ (Iff.of_eq (k0_chk117.eq_1 v1083))
theorem k0_idx117_inb : ∀ (v1083 : IVec S16 32) (k0_hw117 : k0_chk117 v1083), ∀ a x, ((![v1083] : Fin 1 → IVec S16 32) a x).toNat < S120.size a := fun v1083 k0_hw117 => k0_hw117
def k0_off13 (i : grid0.Coords) (c400_i32 : BitVec 32) : Fin 2 → Nat :=
  let c3_i32_772 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1017 : BitVec 32 := Scalar.addi v2 c400_i32
  let v1018 : BitVec 32 := Scalar.muli c3_i32_772 v1017
  let c0_i32_829 : BitVec 32 := 0#32
  ![v1018.toNat, 0]

def k0_chk118 (v1116 : IVec S16 32) : Prop :=
  (∀ a x, ((![v1116] : Fin 1 → IVec S16 32) a x).toNat < S120.size a)
instance k0_chk118.dec : ∀ (v1116 : IVec S16 32), Decidable (k0_chk118 v1116) := fun v1116 => decidable_of_iff' _ (Iff.of_eq (k0_chk118.eq_1 v1116))
theorem k0_idx118_inb : ∀ (v1116 : IVec S16 32) (k0_hw118 : k0_chk118 v1116), ∀ a x, ((![v1116] : Fin 1 → IVec S16 32) a x).toNat < S120.size a := fun v1116 k0_hw118 => k0_hw118

def k0_chk119 (v1122 : IVec S16 32) : Prop :=
  (∀ a x, ((![v1122] : Fin 1 → IVec S16 32) a x).toNat < S120.size a)
instance k0_chk119.dec : ∀ (v1122 : IVec S16 32), Decidable (k0_chk119 v1122) := fun v1122 => decidable_of_iff' _ (Iff.of_eq (k0_chk119.eq_1 v1122))
theorem k0_idx119_inb : ∀ (v1122 : IVec S16 32) (k0_hw119 : k0_chk119 v1122), ∀ a x, ((![v1122] : Fin 1 → IVec S16 32) a x).toNat < S120.size a := fun v1122 k0_hw119 => k0_hw119

def k0_chk120 (v1128 : IVec S16 32) : Prop :=
  (∀ a x, ((![v1128] : Fin 1 → IVec S16 32) a x).toNat < S120.size a)
instance k0_chk120.dec : ∀ (v1128 : IVec S16 32), Decidable (k0_chk120 v1128) := fun v1128 => decidable_of_iff' _ (Iff.of_eq (k0_chk120.eq_1 v1128))
theorem k0_idx120_inb : ∀ (v1128 : IVec S16 32) (k0_hw120 : k0_chk120 v1128), ∀ a x, ((![v1128] : Fin 1 → IVec S16 32) a x).toNat < S120.size a := fun v1128 k0_hw120 => k0_hw120

def k0_chk121 (v1137 : IVec S16 32) : Prop :=
  (∀ a x, ((![v1137] : Fin 1 → IVec S16 32) a x).toNat < S120.size a)
instance k0_chk121.dec : ∀ (v1137 : IVec S16 32), Decidable (k0_chk121 v1137) := fun v1137 => decidable_of_iff' _ (Iff.of_eq (k0_chk121.eq_1 v1137))
theorem k0_idx121_inb : ∀ (v1137 : IVec S16 32) (k0_hw121 : k0_chk121 v1137), ∀ a x, ((![v1137] : Fin 1 → IVec S16 32) a x).toNat < S120.size a := fun v1137 k0_hw121 => k0_hw121

def k0_chk122 (v1143 : IVec S16 32) : Prop :=
  (∀ a x, ((![v1143] : Fin 1 → IVec S16 32) a x).toNat < S120.size a)
instance k0_chk122.dec : ∀ (v1143 : IVec S16 32), Decidable (k0_chk122 v1143) := fun v1143 => decidable_of_iff' _ (Iff.of_eq (k0_chk122.eq_1 v1143))
theorem k0_idx122_inb : ∀ (v1143 : IVec S16 32) (k0_hw122 : k0_chk122 v1143), ∀ a x, ((![v1143] : Fin 1 → IVec S16 32) a x).toNat < S120.size a := fun v1143 k0_hw122 => k0_hw122

def k0_chk123 (v1149 : IVec S16 32) : Prop :=
  (∀ a x, ((![v1149] : Fin 1 → IVec S16 32) a x).toNat < S120.size a)
instance k0_chk123.dec : ∀ (v1149 : IVec S16 32), Decidable (k0_chk123 v1149) := fun v1149 => decidable_of_iff' _ (Iff.of_eq (k0_chk123.eq_1 v1149))
theorem k0_idx123_inb : ∀ (v1149 : IVec S16 32) (k0_hw123 : k0_chk123 v1149), ∀ a x, ((![v1149] : Fin 1 → IVec S16 32) a x).toNat < S120.size a := fun v1149 k0_hw123 => k0_hw123

def k0_chk124 (v1158 : IVec S16 32) : Prop :=
  (∀ a x, ((![v1158] : Fin 1 → IVec S16 32) a x).toNat < S120.size a)
instance k0_chk124.dec : ∀ (v1158 : IVec S16 32), Decidable (k0_chk124 v1158) := fun v1158 => decidable_of_iff' _ (Iff.of_eq (k0_chk124.eq_1 v1158))
theorem k0_idx124_inb : ∀ (v1158 : IVec S16 32) (k0_hw124 : k0_chk124 v1158), ∀ a x, ((![v1158] : Fin 1 → IVec S16 32) a x).toNat < S120.size a := fun v1158 k0_hw124 => k0_hw124

def k0_chk125 (v1164 : IVec S16 32) : Prop :=
  (∀ a x, ((![v1164] : Fin 1 → IVec S16 32) a x).toNat < S120.size a)
instance k0_chk125.dec : ∀ (v1164 : IVec S16 32), Decidable (k0_chk125 v1164) := fun v1164 => decidable_of_iff' _ (Iff.of_eq (k0_chk125.eq_1 v1164))
theorem k0_idx125_inb : ∀ (v1164 : IVec S16 32) (k0_hw125 : k0_chk125 v1164), ∀ a x, ((![v1164] : Fin 1 → IVec S16 32) a x).toNat < S120.size a := fun v1164 k0_hw125 => k0_hw125

def k0_chk126 (v1170 : IVec S16 32) : Prop :=
  (∀ a x, ((![v1170] : Fin 1 → IVec S16 32) a x).toNat < S120.size a)
instance k0_chk126.dec : ∀ (v1170 : IVec S16 32), Decidable (k0_chk126 v1170) := fun v1170 => decidable_of_iff' _ (Iff.of_eq (k0_chk126.eq_1 v1170))
theorem k0_idx126_inb : ∀ (v1170 : IVec S16 32) (k0_hw126 : k0_chk126 v1170), ∀ a x, ((![v1170] : Fin 1 → IVec S16 32) a x).toNat < S120.size a := fun v1170 k0_hw126 => k0_hw126
def k0_off14 (i : grid0.Coords) (c440_i32 : BitVec 32) : Fin 2 → Nat :=
  let c3_i32_840 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1104 : BitVec 32 := Scalar.addi v2 c440_i32
  let v1105 : BitVec 32 := Scalar.muli c3_i32_840 v1104
  let c0_i32_897 : BitVec 32 := 0#32
  ![v1105.toNat, 0]

def k0_chk127 (v1203 : IVec S16 32) : Prop :=
  (∀ a x, ((![v1203] : Fin 1 → IVec S16 32) a x).toNat < S120.size a)
instance k0_chk127.dec : ∀ (v1203 : IVec S16 32), Decidable (k0_chk127 v1203) := fun v1203 => decidable_of_iff' _ (Iff.of_eq (k0_chk127.eq_1 v1203))
theorem k0_idx127_inb : ∀ (v1203 : IVec S16 32) (k0_hw127 : k0_chk127 v1203), ∀ a x, ((![v1203] : Fin 1 → IVec S16 32) a x).toNat < S120.size a := fun v1203 k0_hw127 => k0_hw127

def k0_chk128 (v1209 : IVec S16 32) : Prop :=
  (∀ a x, ((![v1209] : Fin 1 → IVec S16 32) a x).toNat < S120.size a)
instance k0_chk128.dec : ∀ (v1209 : IVec S16 32), Decidable (k0_chk128 v1209) := fun v1209 => decidable_of_iff' _ (Iff.of_eq (k0_chk128.eq_1 v1209))
theorem k0_idx128_inb : ∀ (v1209 : IVec S16 32) (k0_hw128 : k0_chk128 v1209), ∀ a x, ((![v1209] : Fin 1 → IVec S16 32) a x).toNat < S120.size a := fun v1209 k0_hw128 => k0_hw128

def k0_chk129 (v1215 : IVec S16 32) : Prop :=
  (∀ a x, ((![v1215] : Fin 1 → IVec S16 32) a x).toNat < S120.size a)
instance k0_chk129.dec : ∀ (v1215 : IVec S16 32), Decidable (k0_chk129 v1215) := fun v1215 => decidable_of_iff' _ (Iff.of_eq (k0_chk129.eq_1 v1215))
theorem k0_idx129_inb : ∀ (v1215 : IVec S16 32) (k0_hw129 : k0_chk129 v1215), ∀ a x, ((![v1215] : Fin 1 → IVec S16 32) a x).toNat < S120.size a := fun v1215 k0_hw129 => k0_hw129

def k0_chk130 (v1224 : IVec S16 32) : Prop :=
  (∀ a x, ((![v1224] : Fin 1 → IVec S16 32) a x).toNat < S120.size a)
instance k0_chk130.dec : ∀ (v1224 : IVec S16 32), Decidable (k0_chk130 v1224) := fun v1224 => decidable_of_iff' _ (Iff.of_eq (k0_chk130.eq_1 v1224))
theorem k0_idx130_inb : ∀ (v1224 : IVec S16 32) (k0_hw130 : k0_chk130 v1224), ∀ a x, ((![v1224] : Fin 1 → IVec S16 32) a x).toNat < S120.size a := fun v1224 k0_hw130 => k0_hw130

def k0_chk131 (v1230 : IVec S16 32) : Prop :=
  (∀ a x, ((![v1230] : Fin 1 → IVec S16 32) a x).toNat < S120.size a)
instance k0_chk131.dec : ∀ (v1230 : IVec S16 32), Decidable (k0_chk131 v1230) := fun v1230 => decidable_of_iff' _ (Iff.of_eq (k0_chk131.eq_1 v1230))
theorem k0_idx131_inb : ∀ (v1230 : IVec S16 32) (k0_hw131 : k0_chk131 v1230), ∀ a x, ((![v1230] : Fin 1 → IVec S16 32) a x).toNat < S120.size a := fun v1230 k0_hw131 => k0_hw131

def k0_chk132 (v1236 : IVec S16 32) : Prop :=
  (∀ a x, ((![v1236] : Fin 1 → IVec S16 32) a x).toNat < S120.size a)
instance k0_chk132.dec : ∀ (v1236 : IVec S16 32), Decidable (k0_chk132 v1236) := fun v1236 => decidable_of_iff' _ (Iff.of_eq (k0_chk132.eq_1 v1236))
theorem k0_idx132_inb : ∀ (v1236 : IVec S16 32) (k0_hw132 : k0_chk132 v1236), ∀ a x, ((![v1236] : Fin 1 → IVec S16 32) a x).toNat < S120.size a := fun v1236 k0_hw132 => k0_hw132

def k0_chk133 (v1245 : IVec S16 32) : Prop :=
  (∀ a x, ((![v1245] : Fin 1 → IVec S16 32) a x).toNat < S120.size a)
instance k0_chk133.dec : ∀ (v1245 : IVec S16 32), Decidable (k0_chk133 v1245) := fun v1245 => decidable_of_iff' _ (Iff.of_eq (k0_chk133.eq_1 v1245))
theorem k0_idx133_inb : ∀ (v1245 : IVec S16 32) (k0_hw133 : k0_chk133 v1245), ∀ a x, ((![v1245] : Fin 1 → IVec S16 32) a x).toNat < S120.size a := fun v1245 k0_hw133 => k0_hw133

def k0_chk134 (v1251 : IVec S16 32) : Prop :=
  (∀ a x, ((![v1251] : Fin 1 → IVec S16 32) a x).toNat < S120.size a)
instance k0_chk134.dec : ∀ (v1251 : IVec S16 32), Decidable (k0_chk134 v1251) := fun v1251 => decidable_of_iff' _ (Iff.of_eq (k0_chk134.eq_1 v1251))
theorem k0_idx134_inb : ∀ (v1251 : IVec S16 32) (k0_hw134 : k0_chk134 v1251), ∀ a x, ((![v1251] : Fin 1 → IVec S16 32) a x).toNat < S120.size a := fun v1251 k0_hw134 => k0_hw134

def k0_chk135 (v1257 : IVec S16 32) : Prop :=
  (∀ a x, ((![v1257] : Fin 1 → IVec S16 32) a x).toNat < S120.size a)
instance k0_chk135.dec : ∀ (v1257 : IVec S16 32), Decidable (k0_chk135 v1257) := fun v1257 => decidable_of_iff' _ (Iff.of_eq (k0_chk135.eq_1 v1257))
theorem k0_idx135_inb : ∀ (v1257 : IVec S16 32) (k0_hw135 : k0_chk135 v1257), ∀ a x, ((![v1257] : Fin 1 → IVec S16 32) a x).toNat < S120.size a := fun v1257 k0_hw135 => k0_hw135
def k0_off15 (i : grid0.Coords) (c480_i32 : BitVec 32) : Fin 2 → Nat :=
  let c3_i32_908 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1191 : BitVec 32 := Scalar.addi v2 c480_i32
  let v1192 : BitVec 32 := Scalar.muli c3_i32_908 v1191
  let c0_i32_965 : BitVec 32 := 0#32
  ![v1192.toNat, 0]

def k0_chk136 (v1290 : IVec S16 32) : Prop :=
  (∀ a x, ((![v1290] : Fin 1 → IVec S16 32) a x).toNat < S120.size a)
instance k0_chk136.dec : ∀ (v1290 : IVec S16 32), Decidable (k0_chk136 v1290) := fun v1290 => decidable_of_iff' _ (Iff.of_eq (k0_chk136.eq_1 v1290))
theorem k0_idx136_inb : ∀ (v1290 : IVec S16 32) (k0_hw136 : k0_chk136 v1290), ∀ a x, ((![v1290] : Fin 1 → IVec S16 32) a x).toNat < S120.size a := fun v1290 k0_hw136 => k0_hw136

def k0_chk137 (v1296 : IVec S16 32) : Prop :=
  (∀ a x, ((![v1296] : Fin 1 → IVec S16 32) a x).toNat < S120.size a)
instance k0_chk137.dec : ∀ (v1296 : IVec S16 32), Decidable (k0_chk137 v1296) := fun v1296 => decidable_of_iff' _ (Iff.of_eq (k0_chk137.eq_1 v1296))
theorem k0_idx137_inb : ∀ (v1296 : IVec S16 32) (k0_hw137 : k0_chk137 v1296), ∀ a x, ((![v1296] : Fin 1 → IVec S16 32) a x).toNat < S120.size a := fun v1296 k0_hw137 => k0_hw137

def k0_chk138 (v1302 : IVec S16 32) : Prop :=
  (∀ a x, ((![v1302] : Fin 1 → IVec S16 32) a x).toNat < S120.size a)
instance k0_chk138.dec : ∀ (v1302 : IVec S16 32), Decidable (k0_chk138 v1302) := fun v1302 => decidable_of_iff' _ (Iff.of_eq (k0_chk138.eq_1 v1302))
theorem k0_idx138_inb : ∀ (v1302 : IVec S16 32) (k0_hw138 : k0_chk138 v1302), ∀ a x, ((![v1302] : Fin 1 → IVec S16 32) a x).toNat < S120.size a := fun v1302 k0_hw138 => k0_hw138

def k0_chk139 (v1311 : IVec S16 32) : Prop :=
  (∀ a x, ((![v1311] : Fin 1 → IVec S16 32) a x).toNat < S120.size a)
instance k0_chk139.dec : ∀ (v1311 : IVec S16 32), Decidable (k0_chk139 v1311) := fun v1311 => decidable_of_iff' _ (Iff.of_eq (k0_chk139.eq_1 v1311))
theorem k0_idx139_inb : ∀ (v1311 : IVec S16 32) (k0_hw139 : k0_chk139 v1311), ∀ a x, ((![v1311] : Fin 1 → IVec S16 32) a x).toNat < S120.size a := fun v1311 k0_hw139 => k0_hw139

def k0_chk140 (v1317 : IVec S16 32) : Prop :=
  (∀ a x, ((![v1317] : Fin 1 → IVec S16 32) a x).toNat < S120.size a)
instance k0_chk140.dec : ∀ (v1317 : IVec S16 32), Decidable (k0_chk140 v1317) := fun v1317 => decidable_of_iff' _ (Iff.of_eq (k0_chk140.eq_1 v1317))
theorem k0_idx140_inb : ∀ (v1317 : IVec S16 32) (k0_hw140 : k0_chk140 v1317), ∀ a x, ((![v1317] : Fin 1 → IVec S16 32) a x).toNat < S120.size a := fun v1317 k0_hw140 => k0_hw140

def k0_chk141 (v1323 : IVec S16 32) : Prop :=
  (∀ a x, ((![v1323] : Fin 1 → IVec S16 32) a x).toNat < S120.size a)
instance k0_chk141.dec : ∀ (v1323 : IVec S16 32), Decidable (k0_chk141 v1323) := fun v1323 => decidable_of_iff' _ (Iff.of_eq (k0_chk141.eq_1 v1323))
theorem k0_idx141_inb : ∀ (v1323 : IVec S16 32) (k0_hw141 : k0_chk141 v1323), ∀ a x, ((![v1323] : Fin 1 → IVec S16 32) a x).toNat < S120.size a := fun v1323 k0_hw141 => k0_hw141

def k0_chk142 (v1332 : IVec S16 32) : Prop :=
  (∀ a x, ((![v1332] : Fin 1 → IVec S16 32) a x).toNat < S120.size a)
instance k0_chk142.dec : ∀ (v1332 : IVec S16 32), Decidable (k0_chk142 v1332) := fun v1332 => decidable_of_iff' _ (Iff.of_eq (k0_chk142.eq_1 v1332))
theorem k0_idx142_inb : ∀ (v1332 : IVec S16 32) (k0_hw142 : k0_chk142 v1332), ∀ a x, ((![v1332] : Fin 1 → IVec S16 32) a x).toNat < S120.size a := fun v1332 k0_hw142 => k0_hw142

def k0_chk143 (v1338 : IVec S16 32) : Prop :=
  (∀ a x, ((![v1338] : Fin 1 → IVec S16 32) a x).toNat < S120.size a)
instance k0_chk143.dec : ∀ (v1338 : IVec S16 32), Decidable (k0_chk143 v1338) := fun v1338 => decidable_of_iff' _ (Iff.of_eq (k0_chk143.eq_1 v1338))
theorem k0_idx143_inb : ∀ (v1338 : IVec S16 32) (k0_hw143 : k0_chk143 v1338), ∀ a x, ((![v1338] : Fin 1 → IVec S16 32) a x).toNat < S120.size a := fun v1338 k0_hw143 => k0_hw143

def k0_chk144 (v1344 : IVec S16 32) : Prop :=
  (∀ a x, ((![v1344] : Fin 1 → IVec S16 32) a x).toNat < S120.size a)
instance k0_chk144.dec : ∀ (v1344 : IVec S16 32), Decidable (k0_chk144 v1344) := fun v1344 => decidable_of_iff' _ (Iff.of_eq (k0_chk144.eq_1 v1344))
theorem k0_idx144_inb : ∀ (v1344 : IVec S16 32) (k0_hw144 : k0_chk144 v1344), ∀ a x, ((![v1344] : Fin 1 → IVec S16 32) a x).toNat < S120.size a := fun v1344 k0_hw144 => k0_hw144
def k0_off16 (i : grid0.Coords) (c520_i32 : BitVec 32) : Fin 2 → Nat :=
  let c3_i32_976 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1278 : BitVec 32 := Scalar.addi v2 c520_i32
  let v1279 : BitVec 32 := Scalar.muli c3_i32_976 v1278
  let c0_i32_1033 : BitVec 32 := 0#32
  ![v1279.toNat, 0]

def k0_chk145 (v1377 : IVec S16 32) : Prop :=
  (∀ a x, ((![v1377] : Fin 1 → IVec S16 32) a x).toNat < S120.size a)
instance k0_chk145.dec : ∀ (v1377 : IVec S16 32), Decidable (k0_chk145 v1377) := fun v1377 => decidable_of_iff' _ (Iff.of_eq (k0_chk145.eq_1 v1377))
theorem k0_idx145_inb : ∀ (v1377 : IVec S16 32) (k0_hw145 : k0_chk145 v1377), ∀ a x, ((![v1377] : Fin 1 → IVec S16 32) a x).toNat < S120.size a := fun v1377 k0_hw145 => k0_hw145

def k0_chk146 (v1383 : IVec S16 32) : Prop :=
  (∀ a x, ((![v1383] : Fin 1 → IVec S16 32) a x).toNat < S120.size a)
instance k0_chk146.dec : ∀ (v1383 : IVec S16 32), Decidable (k0_chk146 v1383) := fun v1383 => decidable_of_iff' _ (Iff.of_eq (k0_chk146.eq_1 v1383))
theorem k0_idx146_inb : ∀ (v1383 : IVec S16 32) (k0_hw146 : k0_chk146 v1383), ∀ a x, ((![v1383] : Fin 1 → IVec S16 32) a x).toNat < S120.size a := fun v1383 k0_hw146 => k0_hw146

def k0_chk147 (v1389 : IVec S16 32) : Prop :=
  (∀ a x, ((![v1389] : Fin 1 → IVec S16 32) a x).toNat < S120.size a)
instance k0_chk147.dec : ∀ (v1389 : IVec S16 32), Decidable (k0_chk147 v1389) := fun v1389 => decidable_of_iff' _ (Iff.of_eq (k0_chk147.eq_1 v1389))
theorem k0_idx147_inb : ∀ (v1389 : IVec S16 32) (k0_hw147 : k0_chk147 v1389), ∀ a x, ((![v1389] : Fin 1 → IVec S16 32) a x).toNat < S120.size a := fun v1389 k0_hw147 => k0_hw147

def k0_chk148 (v1398 : IVec S16 32) : Prop :=
  (∀ a x, ((![v1398] : Fin 1 → IVec S16 32) a x).toNat < S120.size a)
instance k0_chk148.dec : ∀ (v1398 : IVec S16 32), Decidable (k0_chk148 v1398) := fun v1398 => decidable_of_iff' _ (Iff.of_eq (k0_chk148.eq_1 v1398))
theorem k0_idx148_inb : ∀ (v1398 : IVec S16 32) (k0_hw148 : k0_chk148 v1398), ∀ a x, ((![v1398] : Fin 1 → IVec S16 32) a x).toNat < S120.size a := fun v1398 k0_hw148 => k0_hw148

def k0_chk149 (v1404 : IVec S16 32) : Prop :=
  (∀ a x, ((![v1404] : Fin 1 → IVec S16 32) a x).toNat < S120.size a)
instance k0_chk149.dec : ∀ (v1404 : IVec S16 32), Decidable (k0_chk149 v1404) := fun v1404 => decidable_of_iff' _ (Iff.of_eq (k0_chk149.eq_1 v1404))
theorem k0_idx149_inb : ∀ (v1404 : IVec S16 32) (k0_hw149 : k0_chk149 v1404), ∀ a x, ((![v1404] : Fin 1 → IVec S16 32) a x).toNat < S120.size a := fun v1404 k0_hw149 => k0_hw149

def k0_chk150 (v1410 : IVec S16 32) : Prop :=
  (∀ a x, ((![v1410] : Fin 1 → IVec S16 32) a x).toNat < S120.size a)
instance k0_chk150.dec : ∀ (v1410 : IVec S16 32), Decidable (k0_chk150 v1410) := fun v1410 => decidable_of_iff' _ (Iff.of_eq (k0_chk150.eq_1 v1410))
theorem k0_idx150_inb : ∀ (v1410 : IVec S16 32) (k0_hw150 : k0_chk150 v1410), ∀ a x, ((![v1410] : Fin 1 → IVec S16 32) a x).toNat < S120.size a := fun v1410 k0_hw150 => k0_hw150

def k0_chk151 (v1419 : IVec S16 32) : Prop :=
  (∀ a x, ((![v1419] : Fin 1 → IVec S16 32) a x).toNat < S120.size a)
instance k0_chk151.dec : ∀ (v1419 : IVec S16 32), Decidable (k0_chk151 v1419) := fun v1419 => decidable_of_iff' _ (Iff.of_eq (k0_chk151.eq_1 v1419))
theorem k0_idx151_inb : ∀ (v1419 : IVec S16 32) (k0_hw151 : k0_chk151 v1419), ∀ a x, ((![v1419] : Fin 1 → IVec S16 32) a x).toNat < S120.size a := fun v1419 k0_hw151 => k0_hw151

def k0_chk152 (v1425 : IVec S16 32) : Prop :=
  (∀ a x, ((![v1425] : Fin 1 → IVec S16 32) a x).toNat < S120.size a)
instance k0_chk152.dec : ∀ (v1425 : IVec S16 32), Decidable (k0_chk152 v1425) := fun v1425 => decidable_of_iff' _ (Iff.of_eq (k0_chk152.eq_1 v1425))
theorem k0_idx152_inb : ∀ (v1425 : IVec S16 32) (k0_hw152 : k0_chk152 v1425), ∀ a x, ((![v1425] : Fin 1 → IVec S16 32) a x).toNat < S120.size a := fun v1425 k0_hw152 => k0_hw152

def k0_chk153 (v1431 : IVec S16 32) : Prop :=
  (∀ a x, ((![v1431] : Fin 1 → IVec S16 32) a x).toNat < S120.size a)
instance k0_chk153.dec : ∀ (v1431 : IVec S16 32), Decidable (k0_chk153 v1431) := fun v1431 => decidable_of_iff' _ (Iff.of_eq (k0_chk153.eq_1 v1431))
theorem k0_idx153_inb : ∀ (v1431 : IVec S16 32) (k0_hw153 : k0_chk153 v1431), ∀ a x, ((![v1431] : Fin 1 → IVec S16 32) a x).toNat < S120.size a := fun v1431 k0_hw153 => k0_hw153
def k0_off17 (i : grid0.Coords) (c560_i32 : BitVec 32) : Fin 2 → Nat :=
  let c3_i32_1044 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1365 : BitVec 32 := Scalar.addi v2 c560_i32
  let v1366 : BitVec 32 := Scalar.muli c3_i32_1044 v1365
  let c0_i32_1101 : BitVec 32 := 0#32
  ![v1366.toNat, 0]

def k0_chk154 (v1464 : IVec S16 32) : Prop :=
  (∀ a x, ((![v1464] : Fin 1 → IVec S16 32) a x).toNat < S120.size a)
instance k0_chk154.dec : ∀ (v1464 : IVec S16 32), Decidable (k0_chk154 v1464) := fun v1464 => decidable_of_iff' _ (Iff.of_eq (k0_chk154.eq_1 v1464))
theorem k0_idx154_inb : ∀ (v1464 : IVec S16 32) (k0_hw154 : k0_chk154 v1464), ∀ a x, ((![v1464] : Fin 1 → IVec S16 32) a x).toNat < S120.size a := fun v1464 k0_hw154 => k0_hw154

def k0_chk155 (v1470 : IVec S16 32) : Prop :=
  (∀ a x, ((![v1470] : Fin 1 → IVec S16 32) a x).toNat < S120.size a)
instance k0_chk155.dec : ∀ (v1470 : IVec S16 32), Decidable (k0_chk155 v1470) := fun v1470 => decidable_of_iff' _ (Iff.of_eq (k0_chk155.eq_1 v1470))
theorem k0_idx155_inb : ∀ (v1470 : IVec S16 32) (k0_hw155 : k0_chk155 v1470), ∀ a x, ((![v1470] : Fin 1 → IVec S16 32) a x).toNat < S120.size a := fun v1470 k0_hw155 => k0_hw155

def k0_chk156 (v1476 : IVec S16 32) : Prop :=
  (∀ a x, ((![v1476] : Fin 1 → IVec S16 32) a x).toNat < S120.size a)
instance k0_chk156.dec : ∀ (v1476 : IVec S16 32), Decidable (k0_chk156 v1476) := fun v1476 => decidable_of_iff' _ (Iff.of_eq (k0_chk156.eq_1 v1476))
theorem k0_idx156_inb : ∀ (v1476 : IVec S16 32) (k0_hw156 : k0_chk156 v1476), ∀ a x, ((![v1476] : Fin 1 → IVec S16 32) a x).toNat < S120.size a := fun v1476 k0_hw156 => k0_hw156

def k0_chk157 (v1485 : IVec S16 32) : Prop :=
  (∀ a x, ((![v1485] : Fin 1 → IVec S16 32) a x).toNat < S120.size a)
instance k0_chk157.dec : ∀ (v1485 : IVec S16 32), Decidable (k0_chk157 v1485) := fun v1485 => decidable_of_iff' _ (Iff.of_eq (k0_chk157.eq_1 v1485))
theorem k0_idx157_inb : ∀ (v1485 : IVec S16 32) (k0_hw157 : k0_chk157 v1485), ∀ a x, ((![v1485] : Fin 1 → IVec S16 32) a x).toNat < S120.size a := fun v1485 k0_hw157 => k0_hw157

def k0_chk158 (v1491 : IVec S16 32) : Prop :=
  (∀ a x, ((![v1491] : Fin 1 → IVec S16 32) a x).toNat < S120.size a)
instance k0_chk158.dec : ∀ (v1491 : IVec S16 32), Decidable (k0_chk158 v1491) := fun v1491 => decidable_of_iff' _ (Iff.of_eq (k0_chk158.eq_1 v1491))
theorem k0_idx158_inb : ∀ (v1491 : IVec S16 32) (k0_hw158 : k0_chk158 v1491), ∀ a x, ((![v1491] : Fin 1 → IVec S16 32) a x).toNat < S120.size a := fun v1491 k0_hw158 => k0_hw158

def k0_chk159 (v1497 : IVec S16 32) : Prop :=
  (∀ a x, ((![v1497] : Fin 1 → IVec S16 32) a x).toNat < S120.size a)
instance k0_chk159.dec : ∀ (v1497 : IVec S16 32), Decidable (k0_chk159 v1497) := fun v1497 => decidable_of_iff' _ (Iff.of_eq (k0_chk159.eq_1 v1497))
theorem k0_idx159_inb : ∀ (v1497 : IVec S16 32) (k0_hw159 : k0_chk159 v1497), ∀ a x, ((![v1497] : Fin 1 → IVec S16 32) a x).toNat < S120.size a := fun v1497 k0_hw159 => k0_hw159

def k0_chk160 (v1506 : IVec S16 32) : Prop :=
  (∀ a x, ((![v1506] : Fin 1 → IVec S16 32) a x).toNat < S120.size a)
instance k0_chk160.dec : ∀ (v1506 : IVec S16 32), Decidable (k0_chk160 v1506) := fun v1506 => decidable_of_iff' _ (Iff.of_eq (k0_chk160.eq_1 v1506))
theorem k0_idx160_inb : ∀ (v1506 : IVec S16 32) (k0_hw160 : k0_chk160 v1506), ∀ a x, ((![v1506] : Fin 1 → IVec S16 32) a x).toNat < S120.size a := fun v1506 k0_hw160 => k0_hw160

def k0_chk161 (v1512 : IVec S16 32) : Prop :=
  (∀ a x, ((![v1512] : Fin 1 → IVec S16 32) a x).toNat < S120.size a)
instance k0_chk161.dec : ∀ (v1512 : IVec S16 32), Decidable (k0_chk161 v1512) := fun v1512 => decidable_of_iff' _ (Iff.of_eq (k0_chk161.eq_1 v1512))
theorem k0_idx161_inb : ∀ (v1512 : IVec S16 32) (k0_hw161 : k0_chk161 v1512), ∀ a x, ((![v1512] : Fin 1 → IVec S16 32) a x).toNat < S120.size a := fun v1512 k0_hw161 => k0_hw161

def k0_chk162 (v1518 : IVec S16 32) : Prop :=
  (∀ a x, ((![v1518] : Fin 1 → IVec S16 32) a x).toNat < S120.size a)
instance k0_chk162.dec : ∀ (v1518 : IVec S16 32), Decidable (k0_chk162 v1518) := fun v1518 => decidable_of_iff' _ (Iff.of_eq (k0_chk162.eq_1 v1518))
theorem k0_idx162_inb : ∀ (v1518 : IVec S16 32) (k0_hw162 : k0_chk162 v1518), ∀ a x, ((![v1518] : Fin 1 → IVec S16 32) a x).toNat < S120.size a := fun v1518 k0_hw162 => k0_hw162
def k0_off18 (i : grid0.Coords) (c600_i32 : BitVec 32) : Fin 2 → Nat :=
  let c3_i32_1112 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1452 : BitVec 32 := Scalar.addi v2 c600_i32
  let v1453 : BitVec 32 := Scalar.muli c3_i32_1112 v1452
  let c0_i32_1169 : BitVec 32 := 0#32
  ![v1453.toNat, 0]

def k0_chk163 (v1551 : IVec S16 32) : Prop :=
  (∀ a x, ((![v1551] : Fin 1 → IVec S16 32) a x).toNat < S120.size a)
instance k0_chk163.dec : ∀ (v1551 : IVec S16 32), Decidable (k0_chk163 v1551) := fun v1551 => decidable_of_iff' _ (Iff.of_eq (k0_chk163.eq_1 v1551))
theorem k0_idx163_inb : ∀ (v1551 : IVec S16 32) (k0_hw163 : k0_chk163 v1551), ∀ a x, ((![v1551] : Fin 1 → IVec S16 32) a x).toNat < S120.size a := fun v1551 k0_hw163 => k0_hw163

def k0_chk164 (v1557 : IVec S16 32) : Prop :=
  (∀ a x, ((![v1557] : Fin 1 → IVec S16 32) a x).toNat < S120.size a)
instance k0_chk164.dec : ∀ (v1557 : IVec S16 32), Decidable (k0_chk164 v1557) := fun v1557 => decidable_of_iff' _ (Iff.of_eq (k0_chk164.eq_1 v1557))
theorem k0_idx164_inb : ∀ (v1557 : IVec S16 32) (k0_hw164 : k0_chk164 v1557), ∀ a x, ((![v1557] : Fin 1 → IVec S16 32) a x).toNat < S120.size a := fun v1557 k0_hw164 => k0_hw164

def k0_chk165 (v1563 : IVec S16 32) : Prop :=
  (∀ a x, ((![v1563] : Fin 1 → IVec S16 32) a x).toNat < S120.size a)
instance k0_chk165.dec : ∀ (v1563 : IVec S16 32), Decidable (k0_chk165 v1563) := fun v1563 => decidable_of_iff' _ (Iff.of_eq (k0_chk165.eq_1 v1563))
theorem k0_idx165_inb : ∀ (v1563 : IVec S16 32) (k0_hw165 : k0_chk165 v1563), ∀ a x, ((![v1563] : Fin 1 → IVec S16 32) a x).toNat < S120.size a := fun v1563 k0_hw165 => k0_hw165

def k0_chk166 (v1572 : IVec S16 32) : Prop :=
  (∀ a x, ((![v1572] : Fin 1 → IVec S16 32) a x).toNat < S120.size a)
instance k0_chk166.dec : ∀ (v1572 : IVec S16 32), Decidable (k0_chk166 v1572) := fun v1572 => decidable_of_iff' _ (Iff.of_eq (k0_chk166.eq_1 v1572))
theorem k0_idx166_inb : ∀ (v1572 : IVec S16 32) (k0_hw166 : k0_chk166 v1572), ∀ a x, ((![v1572] : Fin 1 → IVec S16 32) a x).toNat < S120.size a := fun v1572 k0_hw166 => k0_hw166

def k0_chk167 (v1578 : IVec S16 32) : Prop :=
  (∀ a x, ((![v1578] : Fin 1 → IVec S16 32) a x).toNat < S120.size a)
instance k0_chk167.dec : ∀ (v1578 : IVec S16 32), Decidable (k0_chk167 v1578) := fun v1578 => decidable_of_iff' _ (Iff.of_eq (k0_chk167.eq_1 v1578))
theorem k0_idx167_inb : ∀ (v1578 : IVec S16 32) (k0_hw167 : k0_chk167 v1578), ∀ a x, ((![v1578] : Fin 1 → IVec S16 32) a x).toNat < S120.size a := fun v1578 k0_hw167 => k0_hw167

def k0_chk168 (v1584 : IVec S16 32) : Prop :=
  (∀ a x, ((![v1584] : Fin 1 → IVec S16 32) a x).toNat < S120.size a)
instance k0_chk168.dec : ∀ (v1584 : IVec S16 32), Decidable (k0_chk168 v1584) := fun v1584 => decidable_of_iff' _ (Iff.of_eq (k0_chk168.eq_1 v1584))
theorem k0_idx168_inb : ∀ (v1584 : IVec S16 32) (k0_hw168 : k0_chk168 v1584), ∀ a x, ((![v1584] : Fin 1 → IVec S16 32) a x).toNat < S120.size a := fun v1584 k0_hw168 => k0_hw168

def k0_chk169 (v1593 : IVec S16 32) : Prop :=
  (∀ a x, ((![v1593] : Fin 1 → IVec S16 32) a x).toNat < S120.size a)
instance k0_chk169.dec : ∀ (v1593 : IVec S16 32), Decidable (k0_chk169 v1593) := fun v1593 => decidable_of_iff' _ (Iff.of_eq (k0_chk169.eq_1 v1593))
theorem k0_idx169_inb : ∀ (v1593 : IVec S16 32) (k0_hw169 : k0_chk169 v1593), ∀ a x, ((![v1593] : Fin 1 → IVec S16 32) a x).toNat < S120.size a := fun v1593 k0_hw169 => k0_hw169

def k0_chk170 (v1599 : IVec S16 32) : Prop :=
  (∀ a x, ((![v1599] : Fin 1 → IVec S16 32) a x).toNat < S120.size a)
instance k0_chk170.dec : ∀ (v1599 : IVec S16 32), Decidable (k0_chk170 v1599) := fun v1599 => decidable_of_iff' _ (Iff.of_eq (k0_chk170.eq_1 v1599))
theorem k0_idx170_inb : ∀ (v1599 : IVec S16 32) (k0_hw170 : k0_chk170 v1599), ∀ a x, ((![v1599] : Fin 1 → IVec S16 32) a x).toNat < S120.size a := fun v1599 k0_hw170 => k0_hw170

def k0_chk171 (v1605 : IVec S16 32) : Prop :=
  (∀ a x, ((![v1605] : Fin 1 → IVec S16 32) a x).toNat < S120.size a)
instance k0_chk171.dec : ∀ (v1605 : IVec S16 32), Decidable (k0_chk171 v1605) := fun v1605 => decidable_of_iff' _ (Iff.of_eq (k0_chk171.eq_1 v1605))
theorem k0_idx171_inb : ∀ (v1605 : IVec S16 32) (k0_hw171 : k0_chk171 v1605), ∀ a x, ((![v1605] : Fin 1 → IVec S16 32) a x).toNat < S120.size a := fun v1605 k0_hw171 => k0_hw171
def k0_off19 (i : grid0.Coords) (c640_i32 : BitVec 32) : Fin 2 → Nat :=
  let c3_i32_1180 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1539 : BitVec 32 := Scalar.addi v2 c640_i32
  let v1540 : BitVec 32 := Scalar.muli c3_i32_1180 v1539
  let c0_i32_1237 : BitVec 32 := 0#32
  ![v1540.toNat, 0]

def k0_chk172 (v1638 : IVec S16 32) : Prop :=
  (∀ a x, ((![v1638] : Fin 1 → IVec S16 32) a x).toNat < S120.size a)
instance k0_chk172.dec : ∀ (v1638 : IVec S16 32), Decidable (k0_chk172 v1638) := fun v1638 => decidable_of_iff' _ (Iff.of_eq (k0_chk172.eq_1 v1638))
theorem k0_idx172_inb : ∀ (v1638 : IVec S16 32) (k0_hw172 : k0_chk172 v1638), ∀ a x, ((![v1638] : Fin 1 → IVec S16 32) a x).toNat < S120.size a := fun v1638 k0_hw172 => k0_hw172

def k0_chk173 (v1644 : IVec S16 32) : Prop :=
  (∀ a x, ((![v1644] : Fin 1 → IVec S16 32) a x).toNat < S120.size a)
instance k0_chk173.dec : ∀ (v1644 : IVec S16 32), Decidable (k0_chk173 v1644) := fun v1644 => decidable_of_iff' _ (Iff.of_eq (k0_chk173.eq_1 v1644))
theorem k0_idx173_inb : ∀ (v1644 : IVec S16 32) (k0_hw173 : k0_chk173 v1644), ∀ a x, ((![v1644] : Fin 1 → IVec S16 32) a x).toNat < S120.size a := fun v1644 k0_hw173 => k0_hw173

def k0_chk174 (v1650 : IVec S16 32) : Prop :=
  (∀ a x, ((![v1650] : Fin 1 → IVec S16 32) a x).toNat < S120.size a)
instance k0_chk174.dec : ∀ (v1650 : IVec S16 32), Decidable (k0_chk174 v1650) := fun v1650 => decidable_of_iff' _ (Iff.of_eq (k0_chk174.eq_1 v1650))
theorem k0_idx174_inb : ∀ (v1650 : IVec S16 32) (k0_hw174 : k0_chk174 v1650), ∀ a x, ((![v1650] : Fin 1 → IVec S16 32) a x).toNat < S120.size a := fun v1650 k0_hw174 => k0_hw174

def k0_chk175 (v1659 : IVec S16 32) : Prop :=
  (∀ a x, ((![v1659] : Fin 1 → IVec S16 32) a x).toNat < S120.size a)
instance k0_chk175.dec : ∀ (v1659 : IVec S16 32), Decidable (k0_chk175 v1659) := fun v1659 => decidable_of_iff' _ (Iff.of_eq (k0_chk175.eq_1 v1659))
theorem k0_idx175_inb : ∀ (v1659 : IVec S16 32) (k0_hw175 : k0_chk175 v1659), ∀ a x, ((![v1659] : Fin 1 → IVec S16 32) a x).toNat < S120.size a := fun v1659 k0_hw175 => k0_hw175

def k0_chk176 (v1665 : IVec S16 32) : Prop :=
  (∀ a x, ((![v1665] : Fin 1 → IVec S16 32) a x).toNat < S120.size a)
instance k0_chk176.dec : ∀ (v1665 : IVec S16 32), Decidable (k0_chk176 v1665) := fun v1665 => decidable_of_iff' _ (Iff.of_eq (k0_chk176.eq_1 v1665))
theorem k0_idx176_inb : ∀ (v1665 : IVec S16 32) (k0_hw176 : k0_chk176 v1665), ∀ a x, ((![v1665] : Fin 1 → IVec S16 32) a x).toNat < S120.size a := fun v1665 k0_hw176 => k0_hw176

def k0_chk177 (v1671 : IVec S16 32) : Prop :=
  (∀ a x, ((![v1671] : Fin 1 → IVec S16 32) a x).toNat < S120.size a)
instance k0_chk177.dec : ∀ (v1671 : IVec S16 32), Decidable (k0_chk177 v1671) := fun v1671 => decidable_of_iff' _ (Iff.of_eq (k0_chk177.eq_1 v1671))
theorem k0_idx177_inb : ∀ (v1671 : IVec S16 32) (k0_hw177 : k0_chk177 v1671), ∀ a x, ((![v1671] : Fin 1 → IVec S16 32) a x).toNat < S120.size a := fun v1671 k0_hw177 => k0_hw177

def k0_chk178 (v1680 : IVec S16 32) : Prop :=
  (∀ a x, ((![v1680] : Fin 1 → IVec S16 32) a x).toNat < S120.size a)
instance k0_chk178.dec : ∀ (v1680 : IVec S16 32), Decidable (k0_chk178 v1680) := fun v1680 => decidable_of_iff' _ (Iff.of_eq (k0_chk178.eq_1 v1680))
theorem k0_idx178_inb : ∀ (v1680 : IVec S16 32) (k0_hw178 : k0_chk178 v1680), ∀ a x, ((![v1680] : Fin 1 → IVec S16 32) a x).toNat < S120.size a := fun v1680 k0_hw178 => k0_hw178

def k0_chk179 (v1686 : IVec S16 32) : Prop :=
  (∀ a x, ((![v1686] : Fin 1 → IVec S16 32) a x).toNat < S120.size a)
instance k0_chk179.dec : ∀ (v1686 : IVec S16 32), Decidable (k0_chk179 v1686) := fun v1686 => decidable_of_iff' _ (Iff.of_eq (k0_chk179.eq_1 v1686))
theorem k0_idx179_inb : ∀ (v1686 : IVec S16 32) (k0_hw179 : k0_chk179 v1686), ∀ a x, ((![v1686] : Fin 1 → IVec S16 32) a x).toNat < S120.size a := fun v1686 k0_hw179 => k0_hw179

def k0_chk180 (v1692 : IVec S16 32) : Prop :=
  (∀ a x, ((![v1692] : Fin 1 → IVec S16 32) a x).toNat < S120.size a)
instance k0_chk180.dec : ∀ (v1692 : IVec S16 32), Decidable (k0_chk180 v1692) := fun v1692 => decidable_of_iff' _ (Iff.of_eq (k0_chk180.eq_1 v1692))
theorem k0_idx180_inb : ∀ (v1692 : IVec S16 32) (k0_hw180 : k0_chk180 v1692), ∀ a x, ((![v1692] : Fin 1 → IVec S16 32) a x).toNat < S120.size a := fun v1692 k0_hw180 => k0_hw180
def k0_off20 (i : grid0.Coords) (c680_i32 : BitVec 32) : Fin 2 → Nat :=
  let c3_i32_1248 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1626 : BitVec 32 := Scalar.addi v2 c680_i32
  let v1627 : BitVec 32 := Scalar.muli c3_i32_1248 v1626
  let c0_i32_1305 : BitVec 32 := 0#32
  ![v1627.toNat, 0]

def k0_chk181 (v1725 : IVec S16 32) : Prop :=
  (∀ a x, ((![v1725] : Fin 1 → IVec S16 32) a x).toNat < S120.size a)
instance k0_chk181.dec : ∀ (v1725 : IVec S16 32), Decidable (k0_chk181 v1725) := fun v1725 => decidable_of_iff' _ (Iff.of_eq (k0_chk181.eq_1 v1725))
theorem k0_idx181_inb : ∀ (v1725 : IVec S16 32) (k0_hw181 : k0_chk181 v1725), ∀ a x, ((![v1725] : Fin 1 → IVec S16 32) a x).toNat < S120.size a := fun v1725 k0_hw181 => k0_hw181

def k0_chk182 (v1731 : IVec S16 32) : Prop :=
  (∀ a x, ((![v1731] : Fin 1 → IVec S16 32) a x).toNat < S120.size a)
instance k0_chk182.dec : ∀ (v1731 : IVec S16 32), Decidable (k0_chk182 v1731) := fun v1731 => decidable_of_iff' _ (Iff.of_eq (k0_chk182.eq_1 v1731))
theorem k0_idx182_inb : ∀ (v1731 : IVec S16 32) (k0_hw182 : k0_chk182 v1731), ∀ a x, ((![v1731] : Fin 1 → IVec S16 32) a x).toNat < S120.size a := fun v1731 k0_hw182 => k0_hw182

def k0_chk183 (v1737 : IVec S16 32) : Prop :=
  (∀ a x, ((![v1737] : Fin 1 → IVec S16 32) a x).toNat < S120.size a)
instance k0_chk183.dec : ∀ (v1737 : IVec S16 32), Decidable (k0_chk183 v1737) := fun v1737 => decidable_of_iff' _ (Iff.of_eq (k0_chk183.eq_1 v1737))
theorem k0_idx183_inb : ∀ (v1737 : IVec S16 32) (k0_hw183 : k0_chk183 v1737), ∀ a x, ((![v1737] : Fin 1 → IVec S16 32) a x).toNat < S120.size a := fun v1737 k0_hw183 => k0_hw183

def k0_chk184 (v1746 : IVec S16 32) : Prop :=
  (∀ a x, ((![v1746] : Fin 1 → IVec S16 32) a x).toNat < S120.size a)
instance k0_chk184.dec : ∀ (v1746 : IVec S16 32), Decidable (k0_chk184 v1746) := fun v1746 => decidable_of_iff' _ (Iff.of_eq (k0_chk184.eq_1 v1746))
theorem k0_idx184_inb : ∀ (v1746 : IVec S16 32) (k0_hw184 : k0_chk184 v1746), ∀ a x, ((![v1746] : Fin 1 → IVec S16 32) a x).toNat < S120.size a := fun v1746 k0_hw184 => k0_hw184

def k0_chk185 (v1752 : IVec S16 32) : Prop :=
  (∀ a x, ((![v1752] : Fin 1 → IVec S16 32) a x).toNat < S120.size a)
instance k0_chk185.dec : ∀ (v1752 : IVec S16 32), Decidable (k0_chk185 v1752) := fun v1752 => decidable_of_iff' _ (Iff.of_eq (k0_chk185.eq_1 v1752))
theorem k0_idx185_inb : ∀ (v1752 : IVec S16 32) (k0_hw185 : k0_chk185 v1752), ∀ a x, ((![v1752] : Fin 1 → IVec S16 32) a x).toNat < S120.size a := fun v1752 k0_hw185 => k0_hw185

def k0_chk186 (v1758 : IVec S16 32) : Prop :=
  (∀ a x, ((![v1758] : Fin 1 → IVec S16 32) a x).toNat < S120.size a)
instance k0_chk186.dec : ∀ (v1758 : IVec S16 32), Decidable (k0_chk186 v1758) := fun v1758 => decidable_of_iff' _ (Iff.of_eq (k0_chk186.eq_1 v1758))
theorem k0_idx186_inb : ∀ (v1758 : IVec S16 32) (k0_hw186 : k0_chk186 v1758), ∀ a x, ((![v1758] : Fin 1 → IVec S16 32) a x).toNat < S120.size a := fun v1758 k0_hw186 => k0_hw186

def k0_chk187 (v1767 : IVec S16 32) : Prop :=
  (∀ a x, ((![v1767] : Fin 1 → IVec S16 32) a x).toNat < S120.size a)
instance k0_chk187.dec : ∀ (v1767 : IVec S16 32), Decidable (k0_chk187 v1767) := fun v1767 => decidable_of_iff' _ (Iff.of_eq (k0_chk187.eq_1 v1767))
theorem k0_idx187_inb : ∀ (v1767 : IVec S16 32) (k0_hw187 : k0_chk187 v1767), ∀ a x, ((![v1767] : Fin 1 → IVec S16 32) a x).toNat < S120.size a := fun v1767 k0_hw187 => k0_hw187

def k0_chk188 (v1773 : IVec S16 32) : Prop :=
  (∀ a x, ((![v1773] : Fin 1 → IVec S16 32) a x).toNat < S120.size a)
instance k0_chk188.dec : ∀ (v1773 : IVec S16 32), Decidable (k0_chk188 v1773) := fun v1773 => decidable_of_iff' _ (Iff.of_eq (k0_chk188.eq_1 v1773))
theorem k0_idx188_inb : ∀ (v1773 : IVec S16 32) (k0_hw188 : k0_chk188 v1773), ∀ a x, ((![v1773] : Fin 1 → IVec S16 32) a x).toNat < S120.size a := fun v1773 k0_hw188 => k0_hw188

def k0_chk189 (v1779 : IVec S16 32) : Prop :=
  (∀ a x, ((![v1779] : Fin 1 → IVec S16 32) a x).toNat < S120.size a)
instance k0_chk189.dec : ∀ (v1779 : IVec S16 32), Decidable (k0_chk189 v1779) := fun v1779 => decidable_of_iff' _ (Iff.of_eq (k0_chk189.eq_1 v1779))
theorem k0_idx189_inb : ∀ (v1779 : IVec S16 32) (k0_hw189 : k0_chk189 v1779), ∀ a x, ((![v1779] : Fin 1 → IVec S16 32) a x).toNat < S120.size a := fun v1779 k0_hw189 => k0_hw189
def k0_off21 (i : grid0.Coords) (c720_i32 : BitVec 32) : Fin 2 → Nat :=
  let c3_i32_1316 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1713 : BitVec 32 := Scalar.addi v2 c720_i32
  let v1714 : BitVec 32 := Scalar.muli c3_i32_1316 v1713
  let c0_i32_1373 : BitVec 32 := 0#32
  ![v1714.toNat, 0]

def k0_chk190 (v1812 : IVec S16 32) : Prop :=
  (∀ a x, ((![v1812] : Fin 1 → IVec S16 32) a x).toNat < S120.size a)
instance k0_chk190.dec : ∀ (v1812 : IVec S16 32), Decidable (k0_chk190 v1812) := fun v1812 => decidable_of_iff' _ (Iff.of_eq (k0_chk190.eq_1 v1812))
theorem k0_idx190_inb : ∀ (v1812 : IVec S16 32) (k0_hw190 : k0_chk190 v1812), ∀ a x, ((![v1812] : Fin 1 → IVec S16 32) a x).toNat < S120.size a := fun v1812 k0_hw190 => k0_hw190

def k0_chk191 (v1818 : IVec S16 32) : Prop :=
  (∀ a x, ((![v1818] : Fin 1 → IVec S16 32) a x).toNat < S120.size a)
instance k0_chk191.dec : ∀ (v1818 : IVec S16 32), Decidable (k0_chk191 v1818) := fun v1818 => decidable_of_iff' _ (Iff.of_eq (k0_chk191.eq_1 v1818))
theorem k0_idx191_inb : ∀ (v1818 : IVec S16 32) (k0_hw191 : k0_chk191 v1818), ∀ a x, ((![v1818] : Fin 1 → IVec S16 32) a x).toNat < S120.size a := fun v1818 k0_hw191 => k0_hw191

def k0_chk192 (v1824 : IVec S16 32) : Prop :=
  (∀ a x, ((![v1824] : Fin 1 → IVec S16 32) a x).toNat < S120.size a)
instance k0_chk192.dec : ∀ (v1824 : IVec S16 32), Decidable (k0_chk192 v1824) := fun v1824 => decidable_of_iff' _ (Iff.of_eq (k0_chk192.eq_1 v1824))
theorem k0_idx192_inb : ∀ (v1824 : IVec S16 32) (k0_hw192 : k0_chk192 v1824), ∀ a x, ((![v1824] : Fin 1 → IVec S16 32) a x).toNat < S120.size a := fun v1824 k0_hw192 => k0_hw192

def k0_chk193 (v1833 : IVec S16 32) : Prop :=
  (∀ a x, ((![v1833] : Fin 1 → IVec S16 32) a x).toNat < S120.size a)
instance k0_chk193.dec : ∀ (v1833 : IVec S16 32), Decidable (k0_chk193 v1833) := fun v1833 => decidable_of_iff' _ (Iff.of_eq (k0_chk193.eq_1 v1833))
theorem k0_idx193_inb : ∀ (v1833 : IVec S16 32) (k0_hw193 : k0_chk193 v1833), ∀ a x, ((![v1833] : Fin 1 → IVec S16 32) a x).toNat < S120.size a := fun v1833 k0_hw193 => k0_hw193

def k0_chk194 (v1839 : IVec S16 32) : Prop :=
  (∀ a x, ((![v1839] : Fin 1 → IVec S16 32) a x).toNat < S120.size a)
instance k0_chk194.dec : ∀ (v1839 : IVec S16 32), Decidable (k0_chk194 v1839) := fun v1839 => decidable_of_iff' _ (Iff.of_eq (k0_chk194.eq_1 v1839))
theorem k0_idx194_inb : ∀ (v1839 : IVec S16 32) (k0_hw194 : k0_chk194 v1839), ∀ a x, ((![v1839] : Fin 1 → IVec S16 32) a x).toNat < S120.size a := fun v1839 k0_hw194 => k0_hw194

def k0_chk195 (v1845 : IVec S16 32) : Prop :=
  (∀ a x, ((![v1845] : Fin 1 → IVec S16 32) a x).toNat < S120.size a)
instance k0_chk195.dec : ∀ (v1845 : IVec S16 32), Decidable (k0_chk195 v1845) := fun v1845 => decidable_of_iff' _ (Iff.of_eq (k0_chk195.eq_1 v1845))
theorem k0_idx195_inb : ∀ (v1845 : IVec S16 32) (k0_hw195 : k0_chk195 v1845), ∀ a x, ((![v1845] : Fin 1 → IVec S16 32) a x).toNat < S120.size a := fun v1845 k0_hw195 => k0_hw195

def k0_chk196 (v1854 : IVec S16 32) : Prop :=
  (∀ a x, ((![v1854] : Fin 1 → IVec S16 32) a x).toNat < S120.size a)
instance k0_chk196.dec : ∀ (v1854 : IVec S16 32), Decidable (k0_chk196 v1854) := fun v1854 => decidable_of_iff' _ (Iff.of_eq (k0_chk196.eq_1 v1854))
theorem k0_idx196_inb : ∀ (v1854 : IVec S16 32) (k0_hw196 : k0_chk196 v1854), ∀ a x, ((![v1854] : Fin 1 → IVec S16 32) a x).toNat < S120.size a := fun v1854 k0_hw196 => k0_hw196

def k0_chk197 (v1860 : IVec S16 32) : Prop :=
  (∀ a x, ((![v1860] : Fin 1 → IVec S16 32) a x).toNat < S120.size a)
instance k0_chk197.dec : ∀ (v1860 : IVec S16 32), Decidable (k0_chk197 v1860) := fun v1860 => decidable_of_iff' _ (Iff.of_eq (k0_chk197.eq_1 v1860))
theorem k0_idx197_inb : ∀ (v1860 : IVec S16 32) (k0_hw197 : k0_chk197 v1860), ∀ a x, ((![v1860] : Fin 1 → IVec S16 32) a x).toNat < S120.size a := fun v1860 k0_hw197 => k0_hw197

def k0_chk198 (v1866 : IVec S16 32) : Prop :=
  (∀ a x, ((![v1866] : Fin 1 → IVec S16 32) a x).toNat < S120.size a)
instance k0_chk198.dec : ∀ (v1866 : IVec S16 32), Decidable (k0_chk198 v1866) := fun v1866 => decidable_of_iff' _ (Iff.of_eq (k0_chk198.eq_1 v1866))
theorem k0_idx198_inb : ∀ (v1866 : IVec S16 32) (k0_hw198 : k0_chk198 v1866), ∀ a x, ((![v1866] : Fin 1 → IVec S16 32) a x).toNat < S120.size a := fun v1866 k0_hw198 => k0_hw198
def k0_off22 (i : grid0.Coords) (c760_i32 : BitVec 32) : Fin 2 → Nat :=
  let c3_i32_1384 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1800 : BitVec 32 := Scalar.addi v2 c760_i32
  let v1801 : BitVec 32 := Scalar.muli c3_i32_1384 v1800
  let c0_i32_1441 : BitVec 32 := 0#32
  ![v1801.toNat, 0]

def k0_chk199 (v1899 : IVec S16 32) : Prop :=
  (∀ a x, ((![v1899] : Fin 1 → IVec S16 32) a x).toNat < S120.size a)
instance k0_chk199.dec : ∀ (v1899 : IVec S16 32), Decidable (k0_chk199 v1899) := fun v1899 => decidable_of_iff' _ (Iff.of_eq (k0_chk199.eq_1 v1899))
theorem k0_idx199_inb : ∀ (v1899 : IVec S16 32) (k0_hw199 : k0_chk199 v1899), ∀ a x, ((![v1899] : Fin 1 → IVec S16 32) a x).toNat < S120.size a := fun v1899 k0_hw199 => k0_hw199

def k0_chk200 (v1905 : IVec S16 32) : Prop :=
  (∀ a x, ((![v1905] : Fin 1 → IVec S16 32) a x).toNat < S120.size a)
instance k0_chk200.dec : ∀ (v1905 : IVec S16 32), Decidable (k0_chk200 v1905) := fun v1905 => decidable_of_iff' _ (Iff.of_eq (k0_chk200.eq_1 v1905))
theorem k0_idx200_inb : ∀ (v1905 : IVec S16 32) (k0_hw200 : k0_chk200 v1905), ∀ a x, ((![v1905] : Fin 1 → IVec S16 32) a x).toNat < S120.size a := fun v1905 k0_hw200 => k0_hw200

def k0_chk201 (v1911 : IVec S16 32) : Prop :=
  (∀ a x, ((![v1911] : Fin 1 → IVec S16 32) a x).toNat < S120.size a)
instance k0_chk201.dec : ∀ (v1911 : IVec S16 32), Decidable (k0_chk201 v1911) := fun v1911 => decidable_of_iff' _ (Iff.of_eq (k0_chk201.eq_1 v1911))
theorem k0_idx201_inb : ∀ (v1911 : IVec S16 32) (k0_hw201 : k0_chk201 v1911), ∀ a x, ((![v1911] : Fin 1 → IVec S16 32) a x).toNat < S120.size a := fun v1911 k0_hw201 => k0_hw201

def k0_chk202 (v1920 : IVec S16 32) : Prop :=
  (∀ a x, ((![v1920] : Fin 1 → IVec S16 32) a x).toNat < S120.size a)
instance k0_chk202.dec : ∀ (v1920 : IVec S16 32), Decidable (k0_chk202 v1920) := fun v1920 => decidable_of_iff' _ (Iff.of_eq (k0_chk202.eq_1 v1920))
theorem k0_idx202_inb : ∀ (v1920 : IVec S16 32) (k0_hw202 : k0_chk202 v1920), ∀ a x, ((![v1920] : Fin 1 → IVec S16 32) a x).toNat < S120.size a := fun v1920 k0_hw202 => k0_hw202

def k0_chk203 (v1926 : IVec S16 32) : Prop :=
  (∀ a x, ((![v1926] : Fin 1 → IVec S16 32) a x).toNat < S120.size a)
instance k0_chk203.dec : ∀ (v1926 : IVec S16 32), Decidable (k0_chk203 v1926) := fun v1926 => decidable_of_iff' _ (Iff.of_eq (k0_chk203.eq_1 v1926))
theorem k0_idx203_inb : ∀ (v1926 : IVec S16 32) (k0_hw203 : k0_chk203 v1926), ∀ a x, ((![v1926] : Fin 1 → IVec S16 32) a x).toNat < S120.size a := fun v1926 k0_hw203 => k0_hw203

def k0_chk204 (v1932 : IVec S16 32) : Prop :=
  (∀ a x, ((![v1932] : Fin 1 → IVec S16 32) a x).toNat < S120.size a)
instance k0_chk204.dec : ∀ (v1932 : IVec S16 32), Decidable (k0_chk204 v1932) := fun v1932 => decidable_of_iff' _ (Iff.of_eq (k0_chk204.eq_1 v1932))
theorem k0_idx204_inb : ∀ (v1932 : IVec S16 32) (k0_hw204 : k0_chk204 v1932), ∀ a x, ((![v1932] : Fin 1 → IVec S16 32) a x).toNat < S120.size a := fun v1932 k0_hw204 => k0_hw204

def k0_chk205 (v1941 : IVec S16 32) : Prop :=
  (∀ a x, ((![v1941] : Fin 1 → IVec S16 32) a x).toNat < S120.size a)
instance k0_chk205.dec : ∀ (v1941 : IVec S16 32), Decidable (k0_chk205 v1941) := fun v1941 => decidable_of_iff' _ (Iff.of_eq (k0_chk205.eq_1 v1941))
theorem k0_idx205_inb : ∀ (v1941 : IVec S16 32) (k0_hw205 : k0_chk205 v1941), ∀ a x, ((![v1941] : Fin 1 → IVec S16 32) a x).toNat < S120.size a := fun v1941 k0_hw205 => k0_hw205

def k0_chk206 (v1947 : IVec S16 32) : Prop :=
  (∀ a x, ((![v1947] : Fin 1 → IVec S16 32) a x).toNat < S120.size a)
instance k0_chk206.dec : ∀ (v1947 : IVec S16 32), Decidable (k0_chk206 v1947) := fun v1947 => decidable_of_iff' _ (Iff.of_eq (k0_chk206.eq_1 v1947))
theorem k0_idx206_inb : ∀ (v1947 : IVec S16 32) (k0_hw206 : k0_chk206 v1947), ∀ a x, ((![v1947] : Fin 1 → IVec S16 32) a x).toNat < S120.size a := fun v1947 k0_hw206 => k0_hw206

def k0_chk207 (v1953 : IVec S16 32) : Prop :=
  (∀ a x, ((![v1953] : Fin 1 → IVec S16 32) a x).toNat < S120.size a)
instance k0_chk207.dec : ∀ (v1953 : IVec S16 32), Decidable (k0_chk207 v1953) := fun v1953 => decidable_of_iff' _ (Iff.of_eq (k0_chk207.eq_1 v1953))
theorem k0_idx207_inb : ∀ (v1953 : IVec S16 32) (k0_hw207 : k0_chk207 v1953), ∀ a x, ((![v1953] : Fin 1 → IVec S16 32) a x).toNat < S120.size a := fun v1953 k0_hw207 => k0_hw207
def k0_off23 (i : grid0.Coords) (c800_i32 : BitVec 32) : Fin 2 → Nat :=
  let c3_i32_1452 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1887 : BitVec 32 := Scalar.addi v2 c800_i32
  let v1888 : BitVec 32 := Scalar.muli c3_i32_1452 v1887
  let c0_i32_1509 : BitVec 32 := 0#32
  ![v1888.toNat, 0]

def k0_chk208 (v1986 : IVec S16 32) : Prop :=
  (∀ a x, ((![v1986] : Fin 1 → IVec S16 32) a x).toNat < S120.size a)
instance k0_chk208.dec : ∀ (v1986 : IVec S16 32), Decidable (k0_chk208 v1986) := fun v1986 => decidable_of_iff' _ (Iff.of_eq (k0_chk208.eq_1 v1986))
theorem k0_idx208_inb : ∀ (v1986 : IVec S16 32) (k0_hw208 : k0_chk208 v1986), ∀ a x, ((![v1986] : Fin 1 → IVec S16 32) a x).toNat < S120.size a := fun v1986 k0_hw208 => k0_hw208

def k0_chk209 (v1992 : IVec S16 32) : Prop :=
  (∀ a x, ((![v1992] : Fin 1 → IVec S16 32) a x).toNat < S120.size a)
instance k0_chk209.dec : ∀ (v1992 : IVec S16 32), Decidable (k0_chk209 v1992) := fun v1992 => decidable_of_iff' _ (Iff.of_eq (k0_chk209.eq_1 v1992))
theorem k0_idx209_inb : ∀ (v1992 : IVec S16 32) (k0_hw209 : k0_chk209 v1992), ∀ a x, ((![v1992] : Fin 1 → IVec S16 32) a x).toNat < S120.size a := fun v1992 k0_hw209 => k0_hw209

def k0_chk210 (v1998 : IVec S16 32) : Prop :=
  (∀ a x, ((![v1998] : Fin 1 → IVec S16 32) a x).toNat < S120.size a)
instance k0_chk210.dec : ∀ (v1998 : IVec S16 32), Decidable (k0_chk210 v1998) := fun v1998 => decidable_of_iff' _ (Iff.of_eq (k0_chk210.eq_1 v1998))
theorem k0_idx210_inb : ∀ (v1998 : IVec S16 32) (k0_hw210 : k0_chk210 v1998), ∀ a x, ((![v1998] : Fin 1 → IVec S16 32) a x).toNat < S120.size a := fun v1998 k0_hw210 => k0_hw210

def k0_chk211 (v2007 : IVec S16 32) : Prop :=
  (∀ a x, ((![v2007] : Fin 1 → IVec S16 32) a x).toNat < S120.size a)
instance k0_chk211.dec : ∀ (v2007 : IVec S16 32), Decidable (k0_chk211 v2007) := fun v2007 => decidable_of_iff' _ (Iff.of_eq (k0_chk211.eq_1 v2007))
theorem k0_idx211_inb : ∀ (v2007 : IVec S16 32) (k0_hw211 : k0_chk211 v2007), ∀ a x, ((![v2007] : Fin 1 → IVec S16 32) a x).toNat < S120.size a := fun v2007 k0_hw211 => k0_hw211

def k0_chk212 (v2013 : IVec S16 32) : Prop :=
  (∀ a x, ((![v2013] : Fin 1 → IVec S16 32) a x).toNat < S120.size a)
instance k0_chk212.dec : ∀ (v2013 : IVec S16 32), Decidable (k0_chk212 v2013) := fun v2013 => decidable_of_iff' _ (Iff.of_eq (k0_chk212.eq_1 v2013))
theorem k0_idx212_inb : ∀ (v2013 : IVec S16 32) (k0_hw212 : k0_chk212 v2013), ∀ a x, ((![v2013] : Fin 1 → IVec S16 32) a x).toNat < S120.size a := fun v2013 k0_hw212 => k0_hw212

def k0_chk213 (v2019 : IVec S16 32) : Prop :=
  (∀ a x, ((![v2019] : Fin 1 → IVec S16 32) a x).toNat < S120.size a)
instance k0_chk213.dec : ∀ (v2019 : IVec S16 32), Decidable (k0_chk213 v2019) := fun v2019 => decidable_of_iff' _ (Iff.of_eq (k0_chk213.eq_1 v2019))
theorem k0_idx213_inb : ∀ (v2019 : IVec S16 32) (k0_hw213 : k0_chk213 v2019), ∀ a x, ((![v2019] : Fin 1 → IVec S16 32) a x).toNat < S120.size a := fun v2019 k0_hw213 => k0_hw213

def k0_chk214 (v2028 : IVec S16 32) : Prop :=
  (∀ a x, ((![v2028] : Fin 1 → IVec S16 32) a x).toNat < S120.size a)
instance k0_chk214.dec : ∀ (v2028 : IVec S16 32), Decidable (k0_chk214 v2028) := fun v2028 => decidable_of_iff' _ (Iff.of_eq (k0_chk214.eq_1 v2028))
theorem k0_idx214_inb : ∀ (v2028 : IVec S16 32) (k0_hw214 : k0_chk214 v2028), ∀ a x, ((![v2028] : Fin 1 → IVec S16 32) a x).toNat < S120.size a := fun v2028 k0_hw214 => k0_hw214

def k0_chk215 (v2034 : IVec S16 32) : Prop :=
  (∀ a x, ((![v2034] : Fin 1 → IVec S16 32) a x).toNat < S120.size a)
instance k0_chk215.dec : ∀ (v2034 : IVec S16 32), Decidable (k0_chk215 v2034) := fun v2034 => decidable_of_iff' _ (Iff.of_eq (k0_chk215.eq_1 v2034))
theorem k0_idx215_inb : ∀ (v2034 : IVec S16 32) (k0_hw215 : k0_chk215 v2034), ∀ a x, ((![v2034] : Fin 1 → IVec S16 32) a x).toNat < S120.size a := fun v2034 k0_hw215 => k0_hw215

def k0_chk216 (v2040 : IVec S16 32) : Prop :=
  (∀ a x, ((![v2040] : Fin 1 → IVec S16 32) a x).toNat < S120.size a)
instance k0_chk216.dec : ∀ (v2040 : IVec S16 32), Decidable (k0_chk216 v2040) := fun v2040 => decidable_of_iff' _ (Iff.of_eq (k0_chk216.eq_1 v2040))
theorem k0_idx216_inb : ∀ (v2040 : IVec S16 32) (k0_hw216 : k0_chk216 v2040), ∀ a x, ((![v2040] : Fin 1 → IVec S16 32) a x).toNat < S120.size a := fun v2040 k0_hw216 => k0_hw216
def k0_off24 (i : grid0.Coords) (c840_i32 : BitVec 32) : Fin 2 → Nat :=
  let c3_i32_1520 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v1974 : BitVec 32 := Scalar.addi v2 c840_i32
  let v1975 : BitVec 32 := Scalar.muli c3_i32_1520 v1974
  let c0_i32_1577 : BitVec 32 := 0#32
  ![v1975.toNat, 0]

def k0_chk217 (v2073 : IVec S16 32) : Prop :=
  (∀ a x, ((![v2073] : Fin 1 → IVec S16 32) a x).toNat < S120.size a)
instance k0_chk217.dec : ∀ (v2073 : IVec S16 32), Decidable (k0_chk217 v2073) := fun v2073 => decidable_of_iff' _ (Iff.of_eq (k0_chk217.eq_1 v2073))
theorem k0_idx217_inb : ∀ (v2073 : IVec S16 32) (k0_hw217 : k0_chk217 v2073), ∀ a x, ((![v2073] : Fin 1 → IVec S16 32) a x).toNat < S120.size a := fun v2073 k0_hw217 => k0_hw217

def k0_chk218 (v2079 : IVec S16 32) : Prop :=
  (∀ a x, ((![v2079] : Fin 1 → IVec S16 32) a x).toNat < S120.size a)
instance k0_chk218.dec : ∀ (v2079 : IVec S16 32), Decidable (k0_chk218 v2079) := fun v2079 => decidable_of_iff' _ (Iff.of_eq (k0_chk218.eq_1 v2079))
theorem k0_idx218_inb : ∀ (v2079 : IVec S16 32) (k0_hw218 : k0_chk218 v2079), ∀ a x, ((![v2079] : Fin 1 → IVec S16 32) a x).toNat < S120.size a := fun v2079 k0_hw218 => k0_hw218

def k0_chk219 (v2085 : IVec S16 32) : Prop :=
  (∀ a x, ((![v2085] : Fin 1 → IVec S16 32) a x).toNat < S120.size a)
instance k0_chk219.dec : ∀ (v2085 : IVec S16 32), Decidable (k0_chk219 v2085) := fun v2085 => decidable_of_iff' _ (Iff.of_eq (k0_chk219.eq_1 v2085))
theorem k0_idx219_inb : ∀ (v2085 : IVec S16 32) (k0_hw219 : k0_chk219 v2085), ∀ a x, ((![v2085] : Fin 1 → IVec S16 32) a x).toNat < S120.size a := fun v2085 k0_hw219 => k0_hw219

def k0_chk220 (v2094 : IVec S16 32) : Prop :=
  (∀ a x, ((![v2094] : Fin 1 → IVec S16 32) a x).toNat < S120.size a)
instance k0_chk220.dec : ∀ (v2094 : IVec S16 32), Decidable (k0_chk220 v2094) := fun v2094 => decidable_of_iff' _ (Iff.of_eq (k0_chk220.eq_1 v2094))
theorem k0_idx220_inb : ∀ (v2094 : IVec S16 32) (k0_hw220 : k0_chk220 v2094), ∀ a x, ((![v2094] : Fin 1 → IVec S16 32) a x).toNat < S120.size a := fun v2094 k0_hw220 => k0_hw220

def k0_chk221 (v2100 : IVec S16 32) : Prop :=
  (∀ a x, ((![v2100] : Fin 1 → IVec S16 32) a x).toNat < S120.size a)
instance k0_chk221.dec : ∀ (v2100 : IVec S16 32), Decidable (k0_chk221 v2100) := fun v2100 => decidable_of_iff' _ (Iff.of_eq (k0_chk221.eq_1 v2100))
theorem k0_idx221_inb : ∀ (v2100 : IVec S16 32) (k0_hw221 : k0_chk221 v2100), ∀ a x, ((![v2100] : Fin 1 → IVec S16 32) a x).toNat < S120.size a := fun v2100 k0_hw221 => k0_hw221

def k0_chk222 (v2106 : IVec S16 32) : Prop :=
  (∀ a x, ((![v2106] : Fin 1 → IVec S16 32) a x).toNat < S120.size a)
instance k0_chk222.dec : ∀ (v2106 : IVec S16 32), Decidable (k0_chk222 v2106) := fun v2106 => decidable_of_iff' _ (Iff.of_eq (k0_chk222.eq_1 v2106))
theorem k0_idx222_inb : ∀ (v2106 : IVec S16 32) (k0_hw222 : k0_chk222 v2106), ∀ a x, ((![v2106] : Fin 1 → IVec S16 32) a x).toNat < S120.size a := fun v2106 k0_hw222 => k0_hw222

def k0_chk223 (v2115 : IVec S16 32) : Prop :=
  (∀ a x, ((![v2115] : Fin 1 → IVec S16 32) a x).toNat < S120.size a)
instance k0_chk223.dec : ∀ (v2115 : IVec S16 32), Decidable (k0_chk223 v2115) := fun v2115 => decidable_of_iff' _ (Iff.of_eq (k0_chk223.eq_1 v2115))
theorem k0_idx223_inb : ∀ (v2115 : IVec S16 32) (k0_hw223 : k0_chk223 v2115), ∀ a x, ((![v2115] : Fin 1 → IVec S16 32) a x).toNat < S120.size a := fun v2115 k0_hw223 => k0_hw223

def k0_chk224 (v2121 : IVec S16 32) : Prop :=
  (∀ a x, ((![v2121] : Fin 1 → IVec S16 32) a x).toNat < S120.size a)
instance k0_chk224.dec : ∀ (v2121 : IVec S16 32), Decidable (k0_chk224 v2121) := fun v2121 => decidable_of_iff' _ (Iff.of_eq (k0_chk224.eq_1 v2121))
theorem k0_idx224_inb : ∀ (v2121 : IVec S16 32) (k0_hw224 : k0_chk224 v2121), ∀ a x, ((![v2121] : Fin 1 → IVec S16 32) a x).toNat < S120.size a := fun v2121 k0_hw224 => k0_hw224

def k0_chk225 (v2127 : IVec S16 32) : Prop :=
  (∀ a x, ((![v2127] : Fin 1 → IVec S16 32) a x).toNat < S120.size a)
instance k0_chk225.dec : ∀ (v2127 : IVec S16 32), Decidable (k0_chk225 v2127) := fun v2127 => decidable_of_iff' _ (Iff.of_eq (k0_chk225.eq_1 v2127))
theorem k0_idx225_inb : ∀ (v2127 : IVec S16 32) (k0_hw225 : k0_chk225 v2127), ∀ a x, ((![v2127] : Fin 1 → IVec S16 32) a x).toNat < S120.size a := fun v2127 k0_hw225 => k0_hw225
def k0_off25 (i : grid0.Coords) (c880_i32 : BitVec 32) : Fin 2 → Nat :=
  let c3_i32_1588 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2061 : BitVec 32 := Scalar.addi v2 c880_i32
  let v2062 : BitVec 32 := Scalar.muli c3_i32_1588 v2061
  let c0_i32_1645 : BitVec 32 := 0#32
  ![v2062.toNat, 0]

def k0_chk226 (v2160 : IVec S16 32) : Prop :=
  (∀ a x, ((![v2160] : Fin 1 → IVec S16 32) a x).toNat < S120.size a)
instance k0_chk226.dec : ∀ (v2160 : IVec S16 32), Decidable (k0_chk226 v2160) := fun v2160 => decidable_of_iff' _ (Iff.of_eq (k0_chk226.eq_1 v2160))
theorem k0_idx226_inb : ∀ (v2160 : IVec S16 32) (k0_hw226 : k0_chk226 v2160), ∀ a x, ((![v2160] : Fin 1 → IVec S16 32) a x).toNat < S120.size a := fun v2160 k0_hw226 => k0_hw226

def k0_chk227 (v2166 : IVec S16 32) : Prop :=
  (∀ a x, ((![v2166] : Fin 1 → IVec S16 32) a x).toNat < S120.size a)
instance k0_chk227.dec : ∀ (v2166 : IVec S16 32), Decidable (k0_chk227 v2166) := fun v2166 => decidable_of_iff' _ (Iff.of_eq (k0_chk227.eq_1 v2166))
theorem k0_idx227_inb : ∀ (v2166 : IVec S16 32) (k0_hw227 : k0_chk227 v2166), ∀ a x, ((![v2166] : Fin 1 → IVec S16 32) a x).toNat < S120.size a := fun v2166 k0_hw227 => k0_hw227

def k0_chk228 (v2172 : IVec S16 32) : Prop :=
  (∀ a x, ((![v2172] : Fin 1 → IVec S16 32) a x).toNat < S120.size a)
instance k0_chk228.dec : ∀ (v2172 : IVec S16 32), Decidable (k0_chk228 v2172) := fun v2172 => decidable_of_iff' _ (Iff.of_eq (k0_chk228.eq_1 v2172))
theorem k0_idx228_inb : ∀ (v2172 : IVec S16 32) (k0_hw228 : k0_chk228 v2172), ∀ a x, ((![v2172] : Fin 1 → IVec S16 32) a x).toNat < S120.size a := fun v2172 k0_hw228 => k0_hw228

def k0_chk229 (v2181 : IVec S16 32) : Prop :=
  (∀ a x, ((![v2181] : Fin 1 → IVec S16 32) a x).toNat < S120.size a)
instance k0_chk229.dec : ∀ (v2181 : IVec S16 32), Decidable (k0_chk229 v2181) := fun v2181 => decidable_of_iff' _ (Iff.of_eq (k0_chk229.eq_1 v2181))
theorem k0_idx229_inb : ∀ (v2181 : IVec S16 32) (k0_hw229 : k0_chk229 v2181), ∀ a x, ((![v2181] : Fin 1 → IVec S16 32) a x).toNat < S120.size a := fun v2181 k0_hw229 => k0_hw229

def k0_chk230 (v2187 : IVec S16 32) : Prop :=
  (∀ a x, ((![v2187] : Fin 1 → IVec S16 32) a x).toNat < S120.size a)
instance k0_chk230.dec : ∀ (v2187 : IVec S16 32), Decidable (k0_chk230 v2187) := fun v2187 => decidable_of_iff' _ (Iff.of_eq (k0_chk230.eq_1 v2187))
theorem k0_idx230_inb : ∀ (v2187 : IVec S16 32) (k0_hw230 : k0_chk230 v2187), ∀ a x, ((![v2187] : Fin 1 → IVec S16 32) a x).toNat < S120.size a := fun v2187 k0_hw230 => k0_hw230

def k0_chk231 (v2193 : IVec S16 32) : Prop :=
  (∀ a x, ((![v2193] : Fin 1 → IVec S16 32) a x).toNat < S120.size a)
instance k0_chk231.dec : ∀ (v2193 : IVec S16 32), Decidable (k0_chk231 v2193) := fun v2193 => decidable_of_iff' _ (Iff.of_eq (k0_chk231.eq_1 v2193))
theorem k0_idx231_inb : ∀ (v2193 : IVec S16 32) (k0_hw231 : k0_chk231 v2193), ∀ a x, ((![v2193] : Fin 1 → IVec S16 32) a x).toNat < S120.size a := fun v2193 k0_hw231 => k0_hw231

def k0_chk232 (v2202 : IVec S16 32) : Prop :=
  (∀ a x, ((![v2202] : Fin 1 → IVec S16 32) a x).toNat < S120.size a)
instance k0_chk232.dec : ∀ (v2202 : IVec S16 32), Decidable (k0_chk232 v2202) := fun v2202 => decidable_of_iff' _ (Iff.of_eq (k0_chk232.eq_1 v2202))
theorem k0_idx232_inb : ∀ (v2202 : IVec S16 32) (k0_hw232 : k0_chk232 v2202), ∀ a x, ((![v2202] : Fin 1 → IVec S16 32) a x).toNat < S120.size a := fun v2202 k0_hw232 => k0_hw232

def k0_chk233 (v2208 : IVec S16 32) : Prop :=
  (∀ a x, ((![v2208] : Fin 1 → IVec S16 32) a x).toNat < S120.size a)
instance k0_chk233.dec : ∀ (v2208 : IVec S16 32), Decidable (k0_chk233 v2208) := fun v2208 => decidable_of_iff' _ (Iff.of_eq (k0_chk233.eq_1 v2208))
theorem k0_idx233_inb : ∀ (v2208 : IVec S16 32) (k0_hw233 : k0_chk233 v2208), ∀ a x, ((![v2208] : Fin 1 → IVec S16 32) a x).toNat < S120.size a := fun v2208 k0_hw233 => k0_hw233

def k0_chk234 (v2214 : IVec S16 32) : Prop :=
  (∀ a x, ((![v2214] : Fin 1 → IVec S16 32) a x).toNat < S120.size a)
instance k0_chk234.dec : ∀ (v2214 : IVec S16 32), Decidable (k0_chk234 v2214) := fun v2214 => decidable_of_iff' _ (Iff.of_eq (k0_chk234.eq_1 v2214))
theorem k0_idx234_inb : ∀ (v2214 : IVec S16 32) (k0_hw234 : k0_chk234 v2214), ∀ a x, ((![v2214] : Fin 1 → IVec S16 32) a x).toNat < S120.size a := fun v2214 k0_hw234 => k0_hw234
def k0_off26 (i : grid0.Coords) (c920_i32 : BitVec 32) : Fin 2 → Nat :=
  let c3_i32_1656 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2148 : BitVec 32 := Scalar.addi v2 c920_i32
  let v2149 : BitVec 32 := Scalar.muli c3_i32_1656 v2148
  let c0_i32_1713 : BitVec 32 := 0#32
  ![v2149.toNat, 0]

def k0_chk235 (v2247 : IVec S16 32) : Prop :=
  (∀ a x, ((![v2247] : Fin 1 → IVec S16 32) a x).toNat < S120.size a)
instance k0_chk235.dec : ∀ (v2247 : IVec S16 32), Decidable (k0_chk235 v2247) := fun v2247 => decidable_of_iff' _ (Iff.of_eq (k0_chk235.eq_1 v2247))
theorem k0_idx235_inb : ∀ (v2247 : IVec S16 32) (k0_hw235 : k0_chk235 v2247), ∀ a x, ((![v2247] : Fin 1 → IVec S16 32) a x).toNat < S120.size a := fun v2247 k0_hw235 => k0_hw235

def k0_chk236 (v2253 : IVec S16 32) : Prop :=
  (∀ a x, ((![v2253] : Fin 1 → IVec S16 32) a x).toNat < S120.size a)
instance k0_chk236.dec : ∀ (v2253 : IVec S16 32), Decidable (k0_chk236 v2253) := fun v2253 => decidable_of_iff' _ (Iff.of_eq (k0_chk236.eq_1 v2253))
theorem k0_idx236_inb : ∀ (v2253 : IVec S16 32) (k0_hw236 : k0_chk236 v2253), ∀ a x, ((![v2253] : Fin 1 → IVec S16 32) a x).toNat < S120.size a := fun v2253 k0_hw236 => k0_hw236

def k0_chk237 (v2259 : IVec S16 32) : Prop :=
  (∀ a x, ((![v2259] : Fin 1 → IVec S16 32) a x).toNat < S120.size a)
instance k0_chk237.dec : ∀ (v2259 : IVec S16 32), Decidable (k0_chk237 v2259) := fun v2259 => decidable_of_iff' _ (Iff.of_eq (k0_chk237.eq_1 v2259))
theorem k0_idx237_inb : ∀ (v2259 : IVec S16 32) (k0_hw237 : k0_chk237 v2259), ∀ a x, ((![v2259] : Fin 1 → IVec S16 32) a x).toNat < S120.size a := fun v2259 k0_hw237 => k0_hw237

def k0_chk238 (v2268 : IVec S16 32) : Prop :=
  (∀ a x, ((![v2268] : Fin 1 → IVec S16 32) a x).toNat < S120.size a)
instance k0_chk238.dec : ∀ (v2268 : IVec S16 32), Decidable (k0_chk238 v2268) := fun v2268 => decidable_of_iff' _ (Iff.of_eq (k0_chk238.eq_1 v2268))
theorem k0_idx238_inb : ∀ (v2268 : IVec S16 32) (k0_hw238 : k0_chk238 v2268), ∀ a x, ((![v2268] : Fin 1 → IVec S16 32) a x).toNat < S120.size a := fun v2268 k0_hw238 => k0_hw238

def k0_chk239 (v2274 : IVec S16 32) : Prop :=
  (∀ a x, ((![v2274] : Fin 1 → IVec S16 32) a x).toNat < S120.size a)
instance k0_chk239.dec : ∀ (v2274 : IVec S16 32), Decidable (k0_chk239 v2274) := fun v2274 => decidable_of_iff' _ (Iff.of_eq (k0_chk239.eq_1 v2274))
theorem k0_idx239_inb : ∀ (v2274 : IVec S16 32) (k0_hw239 : k0_chk239 v2274), ∀ a x, ((![v2274] : Fin 1 → IVec S16 32) a x).toNat < S120.size a := fun v2274 k0_hw239 => k0_hw239

def k0_chk240 (v2280 : IVec S16 32) : Prop :=
  (∀ a x, ((![v2280] : Fin 1 → IVec S16 32) a x).toNat < S120.size a)
instance k0_chk240.dec : ∀ (v2280 : IVec S16 32), Decidable (k0_chk240 v2280) := fun v2280 => decidable_of_iff' _ (Iff.of_eq (k0_chk240.eq_1 v2280))
theorem k0_idx240_inb : ∀ (v2280 : IVec S16 32) (k0_hw240 : k0_chk240 v2280), ∀ a x, ((![v2280] : Fin 1 → IVec S16 32) a x).toNat < S120.size a := fun v2280 k0_hw240 => k0_hw240

def k0_chk241 (v2289 : IVec S16 32) : Prop :=
  (∀ a x, ((![v2289] : Fin 1 → IVec S16 32) a x).toNat < S120.size a)
instance k0_chk241.dec : ∀ (v2289 : IVec S16 32), Decidable (k0_chk241 v2289) := fun v2289 => decidable_of_iff' _ (Iff.of_eq (k0_chk241.eq_1 v2289))
theorem k0_idx241_inb : ∀ (v2289 : IVec S16 32) (k0_hw241 : k0_chk241 v2289), ∀ a x, ((![v2289] : Fin 1 → IVec S16 32) a x).toNat < S120.size a := fun v2289 k0_hw241 => k0_hw241

def k0_chk242 (v2295 : IVec S16 32) : Prop :=
  (∀ a x, ((![v2295] : Fin 1 → IVec S16 32) a x).toNat < S120.size a)
instance k0_chk242.dec : ∀ (v2295 : IVec S16 32), Decidable (k0_chk242 v2295) := fun v2295 => decidable_of_iff' _ (Iff.of_eq (k0_chk242.eq_1 v2295))
theorem k0_idx242_inb : ∀ (v2295 : IVec S16 32) (k0_hw242 : k0_chk242 v2295), ∀ a x, ((![v2295] : Fin 1 → IVec S16 32) a x).toNat < S120.size a := fun v2295 k0_hw242 => k0_hw242

def k0_chk243 (v2301 : IVec S16 32) : Prop :=
  (∀ a x, ((![v2301] : Fin 1 → IVec S16 32) a x).toNat < S120.size a)
instance k0_chk243.dec : ∀ (v2301 : IVec S16 32), Decidable (k0_chk243 v2301) := fun v2301 => decidable_of_iff' _ (Iff.of_eq (k0_chk243.eq_1 v2301))
theorem k0_idx243_inb : ∀ (v2301 : IVec S16 32) (k0_hw243 : k0_chk243 v2301), ∀ a x, ((![v2301] : Fin 1 → IVec S16 32) a x).toNat < S120.size a := fun v2301 k0_hw243 => k0_hw243
def k0_off27 (i : grid0.Coords) (c960_i32 : BitVec 32) : Fin 2 → Nat :=
  let c3_i32_1724 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2235 : BitVec 32 := Scalar.addi v2 c960_i32
  let v2236 : BitVec 32 := Scalar.muli c3_i32_1724 v2235
  let c0_i32_1781 : BitVec 32 := 0#32
  ![v2236.toNat, 0]

def k0_chk244 (v2334 : IVec S16 32) : Prop :=
  (∀ a x, ((![v2334] : Fin 1 → IVec S16 32) a x).toNat < S120.size a)
instance k0_chk244.dec : ∀ (v2334 : IVec S16 32), Decidable (k0_chk244 v2334) := fun v2334 => decidable_of_iff' _ (Iff.of_eq (k0_chk244.eq_1 v2334))
theorem k0_idx244_inb : ∀ (v2334 : IVec S16 32) (k0_hw244 : k0_chk244 v2334), ∀ a x, ((![v2334] : Fin 1 → IVec S16 32) a x).toNat < S120.size a := fun v2334 k0_hw244 => k0_hw244

def k0_chk245 (v2340 : IVec S16 32) : Prop :=
  (∀ a x, ((![v2340] : Fin 1 → IVec S16 32) a x).toNat < S120.size a)
instance k0_chk245.dec : ∀ (v2340 : IVec S16 32), Decidable (k0_chk245 v2340) := fun v2340 => decidable_of_iff' _ (Iff.of_eq (k0_chk245.eq_1 v2340))
theorem k0_idx245_inb : ∀ (v2340 : IVec S16 32) (k0_hw245 : k0_chk245 v2340), ∀ a x, ((![v2340] : Fin 1 → IVec S16 32) a x).toNat < S120.size a := fun v2340 k0_hw245 => k0_hw245

def k0_chk246 (v2346 : IVec S16 32) : Prop :=
  (∀ a x, ((![v2346] : Fin 1 → IVec S16 32) a x).toNat < S120.size a)
instance k0_chk246.dec : ∀ (v2346 : IVec S16 32), Decidable (k0_chk246 v2346) := fun v2346 => decidable_of_iff' _ (Iff.of_eq (k0_chk246.eq_1 v2346))
theorem k0_idx246_inb : ∀ (v2346 : IVec S16 32) (k0_hw246 : k0_chk246 v2346), ∀ a x, ((![v2346] : Fin 1 → IVec S16 32) a x).toNat < S120.size a := fun v2346 k0_hw246 => k0_hw246

def k0_chk247 (v2355 : IVec S16 32) : Prop :=
  (∀ a x, ((![v2355] : Fin 1 → IVec S16 32) a x).toNat < S120.size a)
instance k0_chk247.dec : ∀ (v2355 : IVec S16 32), Decidable (k0_chk247 v2355) := fun v2355 => decidable_of_iff' _ (Iff.of_eq (k0_chk247.eq_1 v2355))
theorem k0_idx247_inb : ∀ (v2355 : IVec S16 32) (k0_hw247 : k0_chk247 v2355), ∀ a x, ((![v2355] : Fin 1 → IVec S16 32) a x).toNat < S120.size a := fun v2355 k0_hw247 => k0_hw247

def k0_chk248 (v2361 : IVec S16 32) : Prop :=
  (∀ a x, ((![v2361] : Fin 1 → IVec S16 32) a x).toNat < S120.size a)
instance k0_chk248.dec : ∀ (v2361 : IVec S16 32), Decidable (k0_chk248 v2361) := fun v2361 => decidable_of_iff' _ (Iff.of_eq (k0_chk248.eq_1 v2361))
theorem k0_idx248_inb : ∀ (v2361 : IVec S16 32) (k0_hw248 : k0_chk248 v2361), ∀ a x, ((![v2361] : Fin 1 → IVec S16 32) a x).toNat < S120.size a := fun v2361 k0_hw248 => k0_hw248

def k0_chk249 (v2367 : IVec S16 32) : Prop :=
  (∀ a x, ((![v2367] : Fin 1 → IVec S16 32) a x).toNat < S120.size a)
instance k0_chk249.dec : ∀ (v2367 : IVec S16 32), Decidable (k0_chk249 v2367) := fun v2367 => decidable_of_iff' _ (Iff.of_eq (k0_chk249.eq_1 v2367))
theorem k0_idx249_inb : ∀ (v2367 : IVec S16 32) (k0_hw249 : k0_chk249 v2367), ∀ a x, ((![v2367] : Fin 1 → IVec S16 32) a x).toNat < S120.size a := fun v2367 k0_hw249 => k0_hw249

def k0_chk250 (v2376 : IVec S16 32) : Prop :=
  (∀ a x, ((![v2376] : Fin 1 → IVec S16 32) a x).toNat < S120.size a)
instance k0_chk250.dec : ∀ (v2376 : IVec S16 32), Decidable (k0_chk250 v2376) := fun v2376 => decidable_of_iff' _ (Iff.of_eq (k0_chk250.eq_1 v2376))
theorem k0_idx250_inb : ∀ (v2376 : IVec S16 32) (k0_hw250 : k0_chk250 v2376), ∀ a x, ((![v2376] : Fin 1 → IVec S16 32) a x).toNat < S120.size a := fun v2376 k0_hw250 => k0_hw250

def k0_chk251 (v2382 : IVec S16 32) : Prop :=
  (∀ a x, ((![v2382] : Fin 1 → IVec S16 32) a x).toNat < S120.size a)
instance k0_chk251.dec : ∀ (v2382 : IVec S16 32), Decidable (k0_chk251 v2382) := fun v2382 => decidable_of_iff' _ (Iff.of_eq (k0_chk251.eq_1 v2382))
theorem k0_idx251_inb : ∀ (v2382 : IVec S16 32) (k0_hw251 : k0_chk251 v2382), ∀ a x, ((![v2382] : Fin 1 → IVec S16 32) a x).toNat < S120.size a := fun v2382 k0_hw251 => k0_hw251

def k0_chk252 (v2388 : IVec S16 32) : Prop :=
  (∀ a x, ((![v2388] : Fin 1 → IVec S16 32) a x).toNat < S120.size a)
instance k0_chk252.dec : ∀ (v2388 : IVec S16 32), Decidable (k0_chk252 v2388) := fun v2388 => decidable_of_iff' _ (Iff.of_eq (k0_chk252.eq_1 v2388))
theorem k0_idx252_inb : ∀ (v2388 : IVec S16 32) (k0_hw252 : k0_chk252 v2388), ∀ a x, ((![v2388] : Fin 1 → IVec S16 32) a x).toNat < S120.size a := fun v2388 k0_hw252 => k0_hw252
def k0_off28 (i : grid0.Coords) (c1000_i32 : BitVec 32) : Fin 2 → Nat :=
  let c3_i32_1792 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2322 : BitVec 32 := Scalar.addi v2 c1000_i32
  let v2323 : BitVec 32 := Scalar.muli c3_i32_1792 v2322
  let c0_i32_1849 : BitVec 32 := 0#32
  ![v2323.toNat, 0]

def k0_chk253 (v2421 : IVec S16 32) : Prop :=
  (∀ a x, ((![v2421] : Fin 1 → IVec S16 32) a x).toNat < S120.size a)
instance k0_chk253.dec : ∀ (v2421 : IVec S16 32), Decidable (k0_chk253 v2421) := fun v2421 => decidable_of_iff' _ (Iff.of_eq (k0_chk253.eq_1 v2421))
theorem k0_idx253_inb : ∀ (v2421 : IVec S16 32) (k0_hw253 : k0_chk253 v2421), ∀ a x, ((![v2421] : Fin 1 → IVec S16 32) a x).toNat < S120.size a := fun v2421 k0_hw253 => k0_hw253

def k0_chk254 (v2427 : IVec S16 32) : Prop :=
  (∀ a x, ((![v2427] : Fin 1 → IVec S16 32) a x).toNat < S120.size a)
instance k0_chk254.dec : ∀ (v2427 : IVec S16 32), Decidable (k0_chk254 v2427) := fun v2427 => decidable_of_iff' _ (Iff.of_eq (k0_chk254.eq_1 v2427))
theorem k0_idx254_inb : ∀ (v2427 : IVec S16 32) (k0_hw254 : k0_chk254 v2427), ∀ a x, ((![v2427] : Fin 1 → IVec S16 32) a x).toNat < S120.size a := fun v2427 k0_hw254 => k0_hw254

def k0_chk255 (v2433 : IVec S16 32) : Prop :=
  (∀ a x, ((![v2433] : Fin 1 → IVec S16 32) a x).toNat < S120.size a)
instance k0_chk255.dec : ∀ (v2433 : IVec S16 32), Decidable (k0_chk255 v2433) := fun v2433 => decidable_of_iff' _ (Iff.of_eq (k0_chk255.eq_1 v2433))
theorem k0_idx255_inb : ∀ (v2433 : IVec S16 32) (k0_hw255 : k0_chk255 v2433), ∀ a x, ((![v2433] : Fin 1 → IVec S16 32) a x).toNat < S120.size a := fun v2433 k0_hw255 => k0_hw255

def k0_chk256 (v2442 : IVec S16 32) : Prop :=
  (∀ a x, ((![v2442] : Fin 1 → IVec S16 32) a x).toNat < S120.size a)
instance k0_chk256.dec : ∀ (v2442 : IVec S16 32), Decidable (k0_chk256 v2442) := fun v2442 => decidable_of_iff' _ (Iff.of_eq (k0_chk256.eq_1 v2442))
theorem k0_idx256_inb : ∀ (v2442 : IVec S16 32) (k0_hw256 : k0_chk256 v2442), ∀ a x, ((![v2442] : Fin 1 → IVec S16 32) a x).toNat < S120.size a := fun v2442 k0_hw256 => k0_hw256

def k0_chk257 (v2448 : IVec S16 32) : Prop :=
  (∀ a x, ((![v2448] : Fin 1 → IVec S16 32) a x).toNat < S120.size a)
instance k0_chk257.dec : ∀ (v2448 : IVec S16 32), Decidable (k0_chk257 v2448) := fun v2448 => decidable_of_iff' _ (Iff.of_eq (k0_chk257.eq_1 v2448))
theorem k0_idx257_inb : ∀ (v2448 : IVec S16 32) (k0_hw257 : k0_chk257 v2448), ∀ a x, ((![v2448] : Fin 1 → IVec S16 32) a x).toNat < S120.size a := fun v2448 k0_hw257 => k0_hw257

def k0_chk258 (v2454 : IVec S16 32) : Prop :=
  (∀ a x, ((![v2454] : Fin 1 → IVec S16 32) a x).toNat < S120.size a)
instance k0_chk258.dec : ∀ (v2454 : IVec S16 32), Decidable (k0_chk258 v2454) := fun v2454 => decidable_of_iff' _ (Iff.of_eq (k0_chk258.eq_1 v2454))
theorem k0_idx258_inb : ∀ (v2454 : IVec S16 32) (k0_hw258 : k0_chk258 v2454), ∀ a x, ((![v2454] : Fin 1 → IVec S16 32) a x).toNat < S120.size a := fun v2454 k0_hw258 => k0_hw258

def k0_chk259 (v2463 : IVec S16 32) : Prop :=
  (∀ a x, ((![v2463] : Fin 1 → IVec S16 32) a x).toNat < S120.size a)
instance k0_chk259.dec : ∀ (v2463 : IVec S16 32), Decidable (k0_chk259 v2463) := fun v2463 => decidable_of_iff' _ (Iff.of_eq (k0_chk259.eq_1 v2463))
theorem k0_idx259_inb : ∀ (v2463 : IVec S16 32) (k0_hw259 : k0_chk259 v2463), ∀ a x, ((![v2463] : Fin 1 → IVec S16 32) a x).toNat < S120.size a := fun v2463 k0_hw259 => k0_hw259

def k0_chk260 (v2469 : IVec S16 32) : Prop :=
  (∀ a x, ((![v2469] : Fin 1 → IVec S16 32) a x).toNat < S120.size a)
instance k0_chk260.dec : ∀ (v2469 : IVec S16 32), Decidable (k0_chk260 v2469) := fun v2469 => decidable_of_iff' _ (Iff.of_eq (k0_chk260.eq_1 v2469))
theorem k0_idx260_inb : ∀ (v2469 : IVec S16 32) (k0_hw260 : k0_chk260 v2469), ∀ a x, ((![v2469] : Fin 1 → IVec S16 32) a x).toNat < S120.size a := fun v2469 k0_hw260 => k0_hw260

def k0_chk261 (v2475 : IVec S16 32) : Prop :=
  (∀ a x, ((![v2475] : Fin 1 → IVec S16 32) a x).toNat < S120.size a)
instance k0_chk261.dec : ∀ (v2475 : IVec S16 32), Decidable (k0_chk261 v2475) := fun v2475 => decidable_of_iff' _ (Iff.of_eq (k0_chk261.eq_1 v2475))
theorem k0_idx261_inb : ∀ (v2475 : IVec S16 32) (k0_hw261 : k0_chk261 v2475), ∀ a x, ((![v2475] : Fin 1 → IVec S16 32) a x).toNat < S120.size a := fun v2475 k0_hw261 => k0_hw261
def k0_off29 (i : grid0.Coords) (c1040_i32 : BitVec 32) : Fin 2 → Nat :=
  let c3_i32_1860 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2409 : BitVec 32 := Scalar.addi v2 c1040_i32
  let v2410 : BitVec 32 := Scalar.muli c3_i32_1860 v2409
  let c0_i32_1917 : BitVec 32 := 0#32
  ![v2410.toNat, 0]

def k0_chk262 (v2508 : IVec S16 32) : Prop :=
  (∀ a x, ((![v2508] : Fin 1 → IVec S16 32) a x).toNat < S120.size a)
instance k0_chk262.dec : ∀ (v2508 : IVec S16 32), Decidable (k0_chk262 v2508) := fun v2508 => decidable_of_iff' _ (Iff.of_eq (k0_chk262.eq_1 v2508))
theorem k0_idx262_inb : ∀ (v2508 : IVec S16 32) (k0_hw262 : k0_chk262 v2508), ∀ a x, ((![v2508] : Fin 1 → IVec S16 32) a x).toNat < S120.size a := fun v2508 k0_hw262 => k0_hw262

def k0_chk263 (v2514 : IVec S16 32) : Prop :=
  (∀ a x, ((![v2514] : Fin 1 → IVec S16 32) a x).toNat < S120.size a)
instance k0_chk263.dec : ∀ (v2514 : IVec S16 32), Decidable (k0_chk263 v2514) := fun v2514 => decidable_of_iff' _ (Iff.of_eq (k0_chk263.eq_1 v2514))
theorem k0_idx263_inb : ∀ (v2514 : IVec S16 32) (k0_hw263 : k0_chk263 v2514), ∀ a x, ((![v2514] : Fin 1 → IVec S16 32) a x).toNat < S120.size a := fun v2514 k0_hw263 => k0_hw263

def k0_chk264 (v2520 : IVec S16 32) : Prop :=
  (∀ a x, ((![v2520] : Fin 1 → IVec S16 32) a x).toNat < S120.size a)
instance k0_chk264.dec : ∀ (v2520 : IVec S16 32), Decidable (k0_chk264 v2520) := fun v2520 => decidable_of_iff' _ (Iff.of_eq (k0_chk264.eq_1 v2520))
theorem k0_idx264_inb : ∀ (v2520 : IVec S16 32) (k0_hw264 : k0_chk264 v2520), ∀ a x, ((![v2520] : Fin 1 → IVec S16 32) a x).toNat < S120.size a := fun v2520 k0_hw264 => k0_hw264

def k0_chk265 (v2529 : IVec S16 32) : Prop :=
  (∀ a x, ((![v2529] : Fin 1 → IVec S16 32) a x).toNat < S120.size a)
instance k0_chk265.dec : ∀ (v2529 : IVec S16 32), Decidable (k0_chk265 v2529) := fun v2529 => decidable_of_iff' _ (Iff.of_eq (k0_chk265.eq_1 v2529))
theorem k0_idx265_inb : ∀ (v2529 : IVec S16 32) (k0_hw265 : k0_chk265 v2529), ∀ a x, ((![v2529] : Fin 1 → IVec S16 32) a x).toNat < S120.size a := fun v2529 k0_hw265 => k0_hw265

def k0_chk266 (v2535 : IVec S16 32) : Prop :=
  (∀ a x, ((![v2535] : Fin 1 → IVec S16 32) a x).toNat < S120.size a)
instance k0_chk266.dec : ∀ (v2535 : IVec S16 32), Decidable (k0_chk266 v2535) := fun v2535 => decidable_of_iff' _ (Iff.of_eq (k0_chk266.eq_1 v2535))
theorem k0_idx266_inb : ∀ (v2535 : IVec S16 32) (k0_hw266 : k0_chk266 v2535), ∀ a x, ((![v2535] : Fin 1 → IVec S16 32) a x).toNat < S120.size a := fun v2535 k0_hw266 => k0_hw266

def k0_chk267 (v2541 : IVec S16 32) : Prop :=
  (∀ a x, ((![v2541] : Fin 1 → IVec S16 32) a x).toNat < S120.size a)
instance k0_chk267.dec : ∀ (v2541 : IVec S16 32), Decidable (k0_chk267 v2541) := fun v2541 => decidable_of_iff' _ (Iff.of_eq (k0_chk267.eq_1 v2541))
theorem k0_idx267_inb : ∀ (v2541 : IVec S16 32) (k0_hw267 : k0_chk267 v2541), ∀ a x, ((![v2541] : Fin 1 → IVec S16 32) a x).toNat < S120.size a := fun v2541 k0_hw267 => k0_hw267

def k0_chk268 (v2550 : IVec S16 32) : Prop :=
  (∀ a x, ((![v2550] : Fin 1 → IVec S16 32) a x).toNat < S120.size a)
instance k0_chk268.dec : ∀ (v2550 : IVec S16 32), Decidable (k0_chk268 v2550) := fun v2550 => decidable_of_iff' _ (Iff.of_eq (k0_chk268.eq_1 v2550))
theorem k0_idx268_inb : ∀ (v2550 : IVec S16 32) (k0_hw268 : k0_chk268 v2550), ∀ a x, ((![v2550] : Fin 1 → IVec S16 32) a x).toNat < S120.size a := fun v2550 k0_hw268 => k0_hw268

def k0_chk269 (v2556 : IVec S16 32) : Prop :=
  (∀ a x, ((![v2556] : Fin 1 → IVec S16 32) a x).toNat < S120.size a)
instance k0_chk269.dec : ∀ (v2556 : IVec S16 32), Decidable (k0_chk269 v2556) := fun v2556 => decidable_of_iff' _ (Iff.of_eq (k0_chk269.eq_1 v2556))
theorem k0_idx269_inb : ∀ (v2556 : IVec S16 32) (k0_hw269 : k0_chk269 v2556), ∀ a x, ((![v2556] : Fin 1 → IVec S16 32) a x).toNat < S120.size a := fun v2556 k0_hw269 => k0_hw269

def k0_chk270 (v2562 : IVec S16 32) : Prop :=
  (∀ a x, ((![v2562] : Fin 1 → IVec S16 32) a x).toNat < S120.size a)
instance k0_chk270.dec : ∀ (v2562 : IVec S16 32), Decidable (k0_chk270 v2562) := fun v2562 => decidable_of_iff' _ (Iff.of_eq (k0_chk270.eq_1 v2562))
theorem k0_idx270_inb : ∀ (v2562 : IVec S16 32) (k0_hw270 : k0_chk270 v2562), ∀ a x, ((![v2562] : Fin 1 → IVec S16 32) a x).toNat < S120.size a := fun v2562 k0_hw270 => k0_hw270
def k0_off30 (i : grid0.Coords) (c1080_i32 : BitVec 32) : Fin 2 → Nat :=
  let c3_i32_1928 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2496 : BitVec 32 := Scalar.addi v2 c1080_i32
  let v2497 : BitVec 32 := Scalar.muli c3_i32_1928 v2496
  let c0_i32_1985 : BitVec 32 := 0#32
  ![v2497.toNat, 0]

def k0_chk271 (v2595 : IVec S16 32) : Prop :=
  (∀ a x, ((![v2595] : Fin 1 → IVec S16 32) a x).toNat < S120.size a)
instance k0_chk271.dec : ∀ (v2595 : IVec S16 32), Decidable (k0_chk271 v2595) := fun v2595 => decidable_of_iff' _ (Iff.of_eq (k0_chk271.eq_1 v2595))
theorem k0_idx271_inb : ∀ (v2595 : IVec S16 32) (k0_hw271 : k0_chk271 v2595), ∀ a x, ((![v2595] : Fin 1 → IVec S16 32) a x).toNat < S120.size a := fun v2595 k0_hw271 => k0_hw271

def k0_chk272 (v2601 : IVec S16 32) : Prop :=
  (∀ a x, ((![v2601] : Fin 1 → IVec S16 32) a x).toNat < S120.size a)
instance k0_chk272.dec : ∀ (v2601 : IVec S16 32), Decidable (k0_chk272 v2601) := fun v2601 => decidable_of_iff' _ (Iff.of_eq (k0_chk272.eq_1 v2601))
theorem k0_idx272_inb : ∀ (v2601 : IVec S16 32) (k0_hw272 : k0_chk272 v2601), ∀ a x, ((![v2601] : Fin 1 → IVec S16 32) a x).toNat < S120.size a := fun v2601 k0_hw272 => k0_hw272

def k0_chk273 (v2607 : IVec S16 32) : Prop :=
  (∀ a x, ((![v2607] : Fin 1 → IVec S16 32) a x).toNat < S120.size a)
instance k0_chk273.dec : ∀ (v2607 : IVec S16 32), Decidable (k0_chk273 v2607) := fun v2607 => decidable_of_iff' _ (Iff.of_eq (k0_chk273.eq_1 v2607))
theorem k0_idx273_inb : ∀ (v2607 : IVec S16 32) (k0_hw273 : k0_chk273 v2607), ∀ a x, ((![v2607] : Fin 1 → IVec S16 32) a x).toNat < S120.size a := fun v2607 k0_hw273 => k0_hw273

def k0_chk274 (v2616 : IVec S16 32) : Prop :=
  (∀ a x, ((![v2616] : Fin 1 → IVec S16 32) a x).toNat < S120.size a)
instance k0_chk274.dec : ∀ (v2616 : IVec S16 32), Decidable (k0_chk274 v2616) := fun v2616 => decidable_of_iff' _ (Iff.of_eq (k0_chk274.eq_1 v2616))
theorem k0_idx274_inb : ∀ (v2616 : IVec S16 32) (k0_hw274 : k0_chk274 v2616), ∀ a x, ((![v2616] : Fin 1 → IVec S16 32) a x).toNat < S120.size a := fun v2616 k0_hw274 => k0_hw274

def k0_chk275 (v2622 : IVec S16 32) : Prop :=
  (∀ a x, ((![v2622] : Fin 1 → IVec S16 32) a x).toNat < S120.size a)
instance k0_chk275.dec : ∀ (v2622 : IVec S16 32), Decidable (k0_chk275 v2622) := fun v2622 => decidable_of_iff' _ (Iff.of_eq (k0_chk275.eq_1 v2622))
theorem k0_idx275_inb : ∀ (v2622 : IVec S16 32) (k0_hw275 : k0_chk275 v2622), ∀ a x, ((![v2622] : Fin 1 → IVec S16 32) a x).toNat < S120.size a := fun v2622 k0_hw275 => k0_hw275

def k0_chk276 (v2628 : IVec S16 32) : Prop :=
  (∀ a x, ((![v2628] : Fin 1 → IVec S16 32) a x).toNat < S120.size a)
instance k0_chk276.dec : ∀ (v2628 : IVec S16 32), Decidable (k0_chk276 v2628) := fun v2628 => decidable_of_iff' _ (Iff.of_eq (k0_chk276.eq_1 v2628))
theorem k0_idx276_inb : ∀ (v2628 : IVec S16 32) (k0_hw276 : k0_chk276 v2628), ∀ a x, ((![v2628] : Fin 1 → IVec S16 32) a x).toNat < S120.size a := fun v2628 k0_hw276 => k0_hw276

def k0_chk277 (v2637 : IVec S16 32) : Prop :=
  (∀ a x, ((![v2637] : Fin 1 → IVec S16 32) a x).toNat < S120.size a)
instance k0_chk277.dec : ∀ (v2637 : IVec S16 32), Decidable (k0_chk277 v2637) := fun v2637 => decidable_of_iff' _ (Iff.of_eq (k0_chk277.eq_1 v2637))
theorem k0_idx277_inb : ∀ (v2637 : IVec S16 32) (k0_hw277 : k0_chk277 v2637), ∀ a x, ((![v2637] : Fin 1 → IVec S16 32) a x).toNat < S120.size a := fun v2637 k0_hw277 => k0_hw277

def k0_chk278 (v2643 : IVec S16 32) : Prop :=
  (∀ a x, ((![v2643] : Fin 1 → IVec S16 32) a x).toNat < S120.size a)
instance k0_chk278.dec : ∀ (v2643 : IVec S16 32), Decidable (k0_chk278 v2643) := fun v2643 => decidable_of_iff' _ (Iff.of_eq (k0_chk278.eq_1 v2643))
theorem k0_idx278_inb : ∀ (v2643 : IVec S16 32) (k0_hw278 : k0_chk278 v2643), ∀ a x, ((![v2643] : Fin 1 → IVec S16 32) a x).toNat < S120.size a := fun v2643 k0_hw278 => k0_hw278

def k0_chk279 (v2649 : IVec S16 32) : Prop :=
  (∀ a x, ((![v2649] : Fin 1 → IVec S16 32) a x).toNat < S120.size a)
instance k0_chk279.dec : ∀ (v2649 : IVec S16 32), Decidable (k0_chk279 v2649) := fun v2649 => decidable_of_iff' _ (Iff.of_eq (k0_chk279.eq_1 v2649))
theorem k0_idx279_inb : ∀ (v2649 : IVec S16 32) (k0_hw279 : k0_chk279 v2649), ∀ a x, ((![v2649] : Fin 1 → IVec S16 32) a x).toNat < S120.size a := fun v2649 k0_hw279 => k0_hw279
def k0_off31 (i : grid0.Coords) (c1120_i32 : BitVec 32) : Fin 2 → Nat :=
  let c3_i32_1996 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2583 : BitVec 32 := Scalar.addi v2 c1120_i32
  let v2584 : BitVec 32 := Scalar.muli c3_i32_1996 v2583
  let c0_i32_2053 : BitVec 32 := 0#32
  ![v2584.toNat, 0]

def k0_chk280 (v2682 : IVec S16 32) : Prop :=
  (∀ a x, ((![v2682] : Fin 1 → IVec S16 32) a x).toNat < S120.size a)
instance k0_chk280.dec : ∀ (v2682 : IVec S16 32), Decidable (k0_chk280 v2682) := fun v2682 => decidable_of_iff' _ (Iff.of_eq (k0_chk280.eq_1 v2682))
theorem k0_idx280_inb : ∀ (v2682 : IVec S16 32) (k0_hw280 : k0_chk280 v2682), ∀ a x, ((![v2682] : Fin 1 → IVec S16 32) a x).toNat < S120.size a := fun v2682 k0_hw280 => k0_hw280

def k0_chk281 (v2688 : IVec S16 32) : Prop :=
  (∀ a x, ((![v2688] : Fin 1 → IVec S16 32) a x).toNat < S120.size a)
instance k0_chk281.dec : ∀ (v2688 : IVec S16 32), Decidable (k0_chk281 v2688) := fun v2688 => decidable_of_iff' _ (Iff.of_eq (k0_chk281.eq_1 v2688))
theorem k0_idx281_inb : ∀ (v2688 : IVec S16 32) (k0_hw281 : k0_chk281 v2688), ∀ a x, ((![v2688] : Fin 1 → IVec S16 32) a x).toNat < S120.size a := fun v2688 k0_hw281 => k0_hw281

def k0_chk282 (v2694 : IVec S16 32) : Prop :=
  (∀ a x, ((![v2694] : Fin 1 → IVec S16 32) a x).toNat < S120.size a)
instance k0_chk282.dec : ∀ (v2694 : IVec S16 32), Decidable (k0_chk282 v2694) := fun v2694 => decidable_of_iff' _ (Iff.of_eq (k0_chk282.eq_1 v2694))
theorem k0_idx282_inb : ∀ (v2694 : IVec S16 32) (k0_hw282 : k0_chk282 v2694), ∀ a x, ((![v2694] : Fin 1 → IVec S16 32) a x).toNat < S120.size a := fun v2694 k0_hw282 => k0_hw282

def k0_chk283 (v2703 : IVec S16 32) : Prop :=
  (∀ a x, ((![v2703] : Fin 1 → IVec S16 32) a x).toNat < S120.size a)
instance k0_chk283.dec : ∀ (v2703 : IVec S16 32), Decidable (k0_chk283 v2703) := fun v2703 => decidable_of_iff' _ (Iff.of_eq (k0_chk283.eq_1 v2703))
theorem k0_idx283_inb : ∀ (v2703 : IVec S16 32) (k0_hw283 : k0_chk283 v2703), ∀ a x, ((![v2703] : Fin 1 → IVec S16 32) a x).toNat < S120.size a := fun v2703 k0_hw283 => k0_hw283

def k0_chk284 (v2709 : IVec S16 32) : Prop :=
  (∀ a x, ((![v2709] : Fin 1 → IVec S16 32) a x).toNat < S120.size a)
instance k0_chk284.dec : ∀ (v2709 : IVec S16 32), Decidable (k0_chk284 v2709) := fun v2709 => decidable_of_iff' _ (Iff.of_eq (k0_chk284.eq_1 v2709))
theorem k0_idx284_inb : ∀ (v2709 : IVec S16 32) (k0_hw284 : k0_chk284 v2709), ∀ a x, ((![v2709] : Fin 1 → IVec S16 32) a x).toNat < S120.size a := fun v2709 k0_hw284 => k0_hw284

def k0_chk285 (v2715 : IVec S16 32) : Prop :=
  (∀ a x, ((![v2715] : Fin 1 → IVec S16 32) a x).toNat < S120.size a)
instance k0_chk285.dec : ∀ (v2715 : IVec S16 32), Decidable (k0_chk285 v2715) := fun v2715 => decidable_of_iff' _ (Iff.of_eq (k0_chk285.eq_1 v2715))
theorem k0_idx285_inb : ∀ (v2715 : IVec S16 32) (k0_hw285 : k0_chk285 v2715), ∀ a x, ((![v2715] : Fin 1 → IVec S16 32) a x).toNat < S120.size a := fun v2715 k0_hw285 => k0_hw285

def k0_chk286 (v2724 : IVec S16 32) : Prop :=
  (∀ a x, ((![v2724] : Fin 1 → IVec S16 32) a x).toNat < S120.size a)
instance k0_chk286.dec : ∀ (v2724 : IVec S16 32), Decidable (k0_chk286 v2724) := fun v2724 => decidable_of_iff' _ (Iff.of_eq (k0_chk286.eq_1 v2724))
theorem k0_idx286_inb : ∀ (v2724 : IVec S16 32) (k0_hw286 : k0_chk286 v2724), ∀ a x, ((![v2724] : Fin 1 → IVec S16 32) a x).toNat < S120.size a := fun v2724 k0_hw286 => k0_hw286

def k0_chk287 (v2730 : IVec S16 32) : Prop :=
  (∀ a x, ((![v2730] : Fin 1 → IVec S16 32) a x).toNat < S120.size a)
instance k0_chk287.dec : ∀ (v2730 : IVec S16 32), Decidable (k0_chk287 v2730) := fun v2730 => decidable_of_iff' _ (Iff.of_eq (k0_chk287.eq_1 v2730))
theorem k0_idx287_inb : ∀ (v2730 : IVec S16 32) (k0_hw287 : k0_chk287 v2730), ∀ a x, ((![v2730] : Fin 1 → IVec S16 32) a x).toNat < S120.size a := fun v2730 k0_hw287 => k0_hw287

def k0_chk288 (v2736 : IVec S16 32) : Prop :=
  (∀ a x, ((![v2736] : Fin 1 → IVec S16 32) a x).toNat < S120.size a)
instance k0_chk288.dec : ∀ (v2736 : IVec S16 32), Decidable (k0_chk288 v2736) := fun v2736 => decidable_of_iff' _ (Iff.of_eq (k0_chk288.eq_1 v2736))
theorem k0_idx288_inb : ∀ (v2736 : IVec S16 32) (k0_hw288 : k0_chk288 v2736), ∀ a x, ((![v2736] : Fin 1 → IVec S16 32) a x).toNat < S120.size a := fun v2736 k0_hw288 => k0_hw288
def k0_off32 (i : grid0.Coords) (c1160_i32 : BitVec 32) : Fin 2 → Nat :=
  let c3_i32_2064 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2670 : BitVec 32 := Scalar.addi v2 c1160_i32
  let v2671 : BitVec 32 := Scalar.muli c3_i32_2064 v2670
  let c0_i32_2121 : BitVec 32 := 0#32
  ![v2671.toNat, 0]

def k0_chk289 (v2769 : IVec S16 32) : Prop :=
  (∀ a x, ((![v2769] : Fin 1 → IVec S16 32) a x).toNat < S120.size a)
instance k0_chk289.dec : ∀ (v2769 : IVec S16 32), Decidable (k0_chk289 v2769) := fun v2769 => decidable_of_iff' _ (Iff.of_eq (k0_chk289.eq_1 v2769))
theorem k0_idx289_inb : ∀ (v2769 : IVec S16 32) (k0_hw289 : k0_chk289 v2769), ∀ a x, ((![v2769] : Fin 1 → IVec S16 32) a x).toNat < S120.size a := fun v2769 k0_hw289 => k0_hw289

def k0_chk290 (v2775 : IVec S16 32) : Prop :=
  (∀ a x, ((![v2775] : Fin 1 → IVec S16 32) a x).toNat < S120.size a)
instance k0_chk290.dec : ∀ (v2775 : IVec S16 32), Decidable (k0_chk290 v2775) := fun v2775 => decidable_of_iff' _ (Iff.of_eq (k0_chk290.eq_1 v2775))
theorem k0_idx290_inb : ∀ (v2775 : IVec S16 32) (k0_hw290 : k0_chk290 v2775), ∀ a x, ((![v2775] : Fin 1 → IVec S16 32) a x).toNat < S120.size a := fun v2775 k0_hw290 => k0_hw290

def k0_chk291 (v2781 : IVec S16 32) : Prop :=
  (∀ a x, ((![v2781] : Fin 1 → IVec S16 32) a x).toNat < S120.size a)
instance k0_chk291.dec : ∀ (v2781 : IVec S16 32), Decidable (k0_chk291 v2781) := fun v2781 => decidable_of_iff' _ (Iff.of_eq (k0_chk291.eq_1 v2781))
theorem k0_idx291_inb : ∀ (v2781 : IVec S16 32) (k0_hw291 : k0_chk291 v2781), ∀ a x, ((![v2781] : Fin 1 → IVec S16 32) a x).toNat < S120.size a := fun v2781 k0_hw291 => k0_hw291

def k0_chk292 (v2790 : IVec S16 32) : Prop :=
  (∀ a x, ((![v2790] : Fin 1 → IVec S16 32) a x).toNat < S120.size a)
instance k0_chk292.dec : ∀ (v2790 : IVec S16 32), Decidable (k0_chk292 v2790) := fun v2790 => decidable_of_iff' _ (Iff.of_eq (k0_chk292.eq_1 v2790))
theorem k0_idx292_inb : ∀ (v2790 : IVec S16 32) (k0_hw292 : k0_chk292 v2790), ∀ a x, ((![v2790] : Fin 1 → IVec S16 32) a x).toNat < S120.size a := fun v2790 k0_hw292 => k0_hw292

def k0_chk293 (v2796 : IVec S16 32) : Prop :=
  (∀ a x, ((![v2796] : Fin 1 → IVec S16 32) a x).toNat < S120.size a)
instance k0_chk293.dec : ∀ (v2796 : IVec S16 32), Decidable (k0_chk293 v2796) := fun v2796 => decidable_of_iff' _ (Iff.of_eq (k0_chk293.eq_1 v2796))
theorem k0_idx293_inb : ∀ (v2796 : IVec S16 32) (k0_hw293 : k0_chk293 v2796), ∀ a x, ((![v2796] : Fin 1 → IVec S16 32) a x).toNat < S120.size a := fun v2796 k0_hw293 => k0_hw293

def k0_chk294 (v2802 : IVec S16 32) : Prop :=
  (∀ a x, ((![v2802] : Fin 1 → IVec S16 32) a x).toNat < S120.size a)
instance k0_chk294.dec : ∀ (v2802 : IVec S16 32), Decidable (k0_chk294 v2802) := fun v2802 => decidable_of_iff' _ (Iff.of_eq (k0_chk294.eq_1 v2802))
theorem k0_idx294_inb : ∀ (v2802 : IVec S16 32) (k0_hw294 : k0_chk294 v2802), ∀ a x, ((![v2802] : Fin 1 → IVec S16 32) a x).toNat < S120.size a := fun v2802 k0_hw294 => k0_hw294

def k0_chk295 (v2811 : IVec S16 32) : Prop :=
  (∀ a x, ((![v2811] : Fin 1 → IVec S16 32) a x).toNat < S120.size a)
instance k0_chk295.dec : ∀ (v2811 : IVec S16 32), Decidable (k0_chk295 v2811) := fun v2811 => decidable_of_iff' _ (Iff.of_eq (k0_chk295.eq_1 v2811))
theorem k0_idx295_inb : ∀ (v2811 : IVec S16 32) (k0_hw295 : k0_chk295 v2811), ∀ a x, ((![v2811] : Fin 1 → IVec S16 32) a x).toNat < S120.size a := fun v2811 k0_hw295 => k0_hw295

def k0_chk296 (v2817 : IVec S16 32) : Prop :=
  (∀ a x, ((![v2817] : Fin 1 → IVec S16 32) a x).toNat < S120.size a)
instance k0_chk296.dec : ∀ (v2817 : IVec S16 32), Decidable (k0_chk296 v2817) := fun v2817 => decidable_of_iff' _ (Iff.of_eq (k0_chk296.eq_1 v2817))
theorem k0_idx296_inb : ∀ (v2817 : IVec S16 32) (k0_hw296 : k0_chk296 v2817), ∀ a x, ((![v2817] : Fin 1 → IVec S16 32) a x).toNat < S120.size a := fun v2817 k0_hw296 => k0_hw296

def k0_chk297 (v2823 : IVec S16 32) : Prop :=
  (∀ a x, ((![v2823] : Fin 1 → IVec S16 32) a x).toNat < S120.size a)
instance k0_chk297.dec : ∀ (v2823 : IVec S16 32), Decidable (k0_chk297 v2823) := fun v2823 => decidable_of_iff' _ (Iff.of_eq (k0_chk297.eq_1 v2823))
theorem k0_idx297_inb : ∀ (v2823 : IVec S16 32) (k0_hw297 : k0_chk297 v2823), ∀ a x, ((![v2823] : Fin 1 → IVec S16 32) a x).toNat < S120.size a := fun v2823 k0_hw297 => k0_hw297
def k0_off33 (i : grid0.Coords) (c1200_i32 : BitVec 32) : Fin 2 → Nat :=
  let c3_i32_2132 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2757 : BitVec 32 := Scalar.addi v2 c1200_i32
  let v2758 : BitVec 32 := Scalar.muli c3_i32_2132 v2757
  let c0_i32_2189 : BitVec 32 := 0#32
  ![v2758.toNat, 0]

def k0_chk298 (v2856 : IVec S16 32) : Prop :=
  (∀ a x, ((![v2856] : Fin 1 → IVec S16 32) a x).toNat < S120.size a)
instance k0_chk298.dec : ∀ (v2856 : IVec S16 32), Decidable (k0_chk298 v2856) := fun v2856 => decidable_of_iff' _ (Iff.of_eq (k0_chk298.eq_1 v2856))
theorem k0_idx298_inb : ∀ (v2856 : IVec S16 32) (k0_hw298 : k0_chk298 v2856), ∀ a x, ((![v2856] : Fin 1 → IVec S16 32) a x).toNat < S120.size a := fun v2856 k0_hw298 => k0_hw298

def k0_chk299 (v2862 : IVec S16 32) : Prop :=
  (∀ a x, ((![v2862] : Fin 1 → IVec S16 32) a x).toNat < S120.size a)
instance k0_chk299.dec : ∀ (v2862 : IVec S16 32), Decidable (k0_chk299 v2862) := fun v2862 => decidable_of_iff' _ (Iff.of_eq (k0_chk299.eq_1 v2862))
theorem k0_idx299_inb : ∀ (v2862 : IVec S16 32) (k0_hw299 : k0_chk299 v2862), ∀ a x, ((![v2862] : Fin 1 → IVec S16 32) a x).toNat < S120.size a := fun v2862 k0_hw299 => k0_hw299

def k0_chk300 (v2868 : IVec S16 32) : Prop :=
  (∀ a x, ((![v2868] : Fin 1 → IVec S16 32) a x).toNat < S120.size a)
instance k0_chk300.dec : ∀ (v2868 : IVec S16 32), Decidable (k0_chk300 v2868) := fun v2868 => decidable_of_iff' _ (Iff.of_eq (k0_chk300.eq_1 v2868))
theorem k0_idx300_inb : ∀ (v2868 : IVec S16 32) (k0_hw300 : k0_chk300 v2868), ∀ a x, ((![v2868] : Fin 1 → IVec S16 32) a x).toNat < S120.size a := fun v2868 k0_hw300 => k0_hw300

def k0_chk301 (v2877 : IVec S16 32) : Prop :=
  (∀ a x, ((![v2877] : Fin 1 → IVec S16 32) a x).toNat < S120.size a)
instance k0_chk301.dec : ∀ (v2877 : IVec S16 32), Decidable (k0_chk301 v2877) := fun v2877 => decidable_of_iff' _ (Iff.of_eq (k0_chk301.eq_1 v2877))
theorem k0_idx301_inb : ∀ (v2877 : IVec S16 32) (k0_hw301 : k0_chk301 v2877), ∀ a x, ((![v2877] : Fin 1 → IVec S16 32) a x).toNat < S120.size a := fun v2877 k0_hw301 => k0_hw301

def k0_chk302 (v2883 : IVec S16 32) : Prop :=
  (∀ a x, ((![v2883] : Fin 1 → IVec S16 32) a x).toNat < S120.size a)
instance k0_chk302.dec : ∀ (v2883 : IVec S16 32), Decidable (k0_chk302 v2883) := fun v2883 => decidable_of_iff' _ (Iff.of_eq (k0_chk302.eq_1 v2883))
theorem k0_idx302_inb : ∀ (v2883 : IVec S16 32) (k0_hw302 : k0_chk302 v2883), ∀ a x, ((![v2883] : Fin 1 → IVec S16 32) a x).toNat < S120.size a := fun v2883 k0_hw302 => k0_hw302

def k0_chk303 (v2889 : IVec S16 32) : Prop :=
  (∀ a x, ((![v2889] : Fin 1 → IVec S16 32) a x).toNat < S120.size a)
instance k0_chk303.dec : ∀ (v2889 : IVec S16 32), Decidable (k0_chk303 v2889) := fun v2889 => decidable_of_iff' _ (Iff.of_eq (k0_chk303.eq_1 v2889))
theorem k0_idx303_inb : ∀ (v2889 : IVec S16 32) (k0_hw303 : k0_chk303 v2889), ∀ a x, ((![v2889] : Fin 1 → IVec S16 32) a x).toNat < S120.size a := fun v2889 k0_hw303 => k0_hw303

def k0_chk304 (v2898 : IVec S16 32) : Prop :=
  (∀ a x, ((![v2898] : Fin 1 → IVec S16 32) a x).toNat < S120.size a)
instance k0_chk304.dec : ∀ (v2898 : IVec S16 32), Decidable (k0_chk304 v2898) := fun v2898 => decidable_of_iff' _ (Iff.of_eq (k0_chk304.eq_1 v2898))
theorem k0_idx304_inb : ∀ (v2898 : IVec S16 32) (k0_hw304 : k0_chk304 v2898), ∀ a x, ((![v2898] : Fin 1 → IVec S16 32) a x).toNat < S120.size a := fun v2898 k0_hw304 => k0_hw304

def k0_chk305 (v2904 : IVec S16 32) : Prop :=
  (∀ a x, ((![v2904] : Fin 1 → IVec S16 32) a x).toNat < S120.size a)
instance k0_chk305.dec : ∀ (v2904 : IVec S16 32), Decidable (k0_chk305 v2904) := fun v2904 => decidable_of_iff' _ (Iff.of_eq (k0_chk305.eq_1 v2904))
theorem k0_idx305_inb : ∀ (v2904 : IVec S16 32) (k0_hw305 : k0_chk305 v2904), ∀ a x, ((![v2904] : Fin 1 → IVec S16 32) a x).toNat < S120.size a := fun v2904 k0_hw305 => k0_hw305

def k0_chk306 (v2910 : IVec S16 32) : Prop :=
  (∀ a x, ((![v2910] : Fin 1 → IVec S16 32) a x).toNat < S120.size a)
instance k0_chk306.dec : ∀ (v2910 : IVec S16 32), Decidable (k0_chk306 v2910) := fun v2910 => decidable_of_iff' _ (Iff.of_eq (k0_chk306.eq_1 v2910))
theorem k0_idx306_inb : ∀ (v2910 : IVec S16 32) (k0_hw306 : k0_chk306 v2910), ∀ a x, ((![v2910] : Fin 1 → IVec S16 32) a x).toNat < S120.size a := fun v2910 k0_hw306 => k0_hw306
def k0_off34 (i : grid0.Coords) (c1240_i32 : BitVec 32) : Fin 2 → Nat :=
  let c3_i32_2200 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2844 : BitVec 32 := Scalar.addi v2 c1240_i32
  let v2845 : BitVec 32 := Scalar.muli c3_i32_2200 v2844
  let c0_i32_2257 : BitVec 32 := 0#32
  ![v2845.toNat, 0]

def k0_chk307 (v2943 : IVec S16 32) : Prop :=
  (∀ a x, ((![v2943] : Fin 1 → IVec S16 32) a x).toNat < S120.size a)
instance k0_chk307.dec : ∀ (v2943 : IVec S16 32), Decidable (k0_chk307 v2943) := fun v2943 => decidable_of_iff' _ (Iff.of_eq (k0_chk307.eq_1 v2943))
theorem k0_idx307_inb : ∀ (v2943 : IVec S16 32) (k0_hw307 : k0_chk307 v2943), ∀ a x, ((![v2943] : Fin 1 → IVec S16 32) a x).toNat < S120.size a := fun v2943 k0_hw307 => k0_hw307

def k0_chk308 (v2949 : IVec S16 32) : Prop :=
  (∀ a x, ((![v2949] : Fin 1 → IVec S16 32) a x).toNat < S120.size a)
instance k0_chk308.dec : ∀ (v2949 : IVec S16 32), Decidable (k0_chk308 v2949) := fun v2949 => decidable_of_iff' _ (Iff.of_eq (k0_chk308.eq_1 v2949))
theorem k0_idx308_inb : ∀ (v2949 : IVec S16 32) (k0_hw308 : k0_chk308 v2949), ∀ a x, ((![v2949] : Fin 1 → IVec S16 32) a x).toNat < S120.size a := fun v2949 k0_hw308 => k0_hw308

def k0_chk309 (v2955 : IVec S16 32) : Prop :=
  (∀ a x, ((![v2955] : Fin 1 → IVec S16 32) a x).toNat < S120.size a)
instance k0_chk309.dec : ∀ (v2955 : IVec S16 32), Decidable (k0_chk309 v2955) := fun v2955 => decidable_of_iff' _ (Iff.of_eq (k0_chk309.eq_1 v2955))
theorem k0_idx309_inb : ∀ (v2955 : IVec S16 32) (k0_hw309 : k0_chk309 v2955), ∀ a x, ((![v2955] : Fin 1 → IVec S16 32) a x).toNat < S120.size a := fun v2955 k0_hw309 => k0_hw309

def k0_chk310 (v2964 : IVec S16 32) : Prop :=
  (∀ a x, ((![v2964] : Fin 1 → IVec S16 32) a x).toNat < S120.size a)
instance k0_chk310.dec : ∀ (v2964 : IVec S16 32), Decidable (k0_chk310 v2964) := fun v2964 => decidable_of_iff' _ (Iff.of_eq (k0_chk310.eq_1 v2964))
theorem k0_idx310_inb : ∀ (v2964 : IVec S16 32) (k0_hw310 : k0_chk310 v2964), ∀ a x, ((![v2964] : Fin 1 → IVec S16 32) a x).toNat < S120.size a := fun v2964 k0_hw310 => k0_hw310

def k0_chk311 (v2970 : IVec S16 32) : Prop :=
  (∀ a x, ((![v2970] : Fin 1 → IVec S16 32) a x).toNat < S120.size a)
instance k0_chk311.dec : ∀ (v2970 : IVec S16 32), Decidable (k0_chk311 v2970) := fun v2970 => decidable_of_iff' _ (Iff.of_eq (k0_chk311.eq_1 v2970))
theorem k0_idx311_inb : ∀ (v2970 : IVec S16 32) (k0_hw311 : k0_chk311 v2970), ∀ a x, ((![v2970] : Fin 1 → IVec S16 32) a x).toNat < S120.size a := fun v2970 k0_hw311 => k0_hw311

def k0_chk312 (v2976 : IVec S16 32) : Prop :=
  (∀ a x, ((![v2976] : Fin 1 → IVec S16 32) a x).toNat < S120.size a)
instance k0_chk312.dec : ∀ (v2976 : IVec S16 32), Decidable (k0_chk312 v2976) := fun v2976 => decidable_of_iff' _ (Iff.of_eq (k0_chk312.eq_1 v2976))
theorem k0_idx312_inb : ∀ (v2976 : IVec S16 32) (k0_hw312 : k0_chk312 v2976), ∀ a x, ((![v2976] : Fin 1 → IVec S16 32) a x).toNat < S120.size a := fun v2976 k0_hw312 => k0_hw312

def k0_chk313 (v2985 : IVec S16 32) : Prop :=
  (∀ a x, ((![v2985] : Fin 1 → IVec S16 32) a x).toNat < S120.size a)
instance k0_chk313.dec : ∀ (v2985 : IVec S16 32), Decidable (k0_chk313 v2985) := fun v2985 => decidable_of_iff' _ (Iff.of_eq (k0_chk313.eq_1 v2985))
theorem k0_idx313_inb : ∀ (v2985 : IVec S16 32) (k0_hw313 : k0_chk313 v2985), ∀ a x, ((![v2985] : Fin 1 → IVec S16 32) a x).toNat < S120.size a := fun v2985 k0_hw313 => k0_hw313

def k0_chk314 (v2991 : IVec S16 32) : Prop :=
  (∀ a x, ((![v2991] : Fin 1 → IVec S16 32) a x).toNat < S120.size a)
instance k0_chk314.dec : ∀ (v2991 : IVec S16 32), Decidable (k0_chk314 v2991) := fun v2991 => decidable_of_iff' _ (Iff.of_eq (k0_chk314.eq_1 v2991))
theorem k0_idx314_inb : ∀ (v2991 : IVec S16 32) (k0_hw314 : k0_chk314 v2991), ∀ a x, ((![v2991] : Fin 1 → IVec S16 32) a x).toNat < S120.size a := fun v2991 k0_hw314 => k0_hw314

def k0_chk315 (v2997 : IVec S16 32) : Prop :=
  (∀ a x, ((![v2997] : Fin 1 → IVec S16 32) a x).toNat < S120.size a)
instance k0_chk315.dec : ∀ (v2997 : IVec S16 32), Decidable (k0_chk315 v2997) := fun v2997 => decidable_of_iff' _ (Iff.of_eq (k0_chk315.eq_1 v2997))
theorem k0_idx315_inb : ∀ (v2997 : IVec S16 32) (k0_hw315 : k0_chk315 v2997), ∀ a x, ((![v2997] : Fin 1 → IVec S16 32) a x).toNat < S120.size a := fun v2997 k0_hw315 => k0_hw315
def k0_off35 (i : grid0.Coords) (c1280_i32 : BitVec 32) : Fin 2 → Nat :=
  let c3_i32_2268 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v2931 : BitVec 32 := Scalar.addi v2 c1280_i32
  let v2932 : BitVec 32 := Scalar.muli c3_i32_2268 v2931
  let c0_i32_2325 : BitVec 32 := 0#32
  ![v2932.toNat, 0]

def k0_chk316 (v3030 : IVec S16 32) : Prop :=
  (∀ a x, ((![v3030] : Fin 1 → IVec S16 32) a x).toNat < S120.size a)
instance k0_chk316.dec : ∀ (v3030 : IVec S16 32), Decidable (k0_chk316 v3030) := fun v3030 => decidable_of_iff' _ (Iff.of_eq (k0_chk316.eq_1 v3030))
theorem k0_idx316_inb : ∀ (v3030 : IVec S16 32) (k0_hw316 : k0_chk316 v3030), ∀ a x, ((![v3030] : Fin 1 → IVec S16 32) a x).toNat < S120.size a := fun v3030 k0_hw316 => k0_hw316

def k0_chk317 (v3036 : IVec S16 32) : Prop :=
  (∀ a x, ((![v3036] : Fin 1 → IVec S16 32) a x).toNat < S120.size a)
instance k0_chk317.dec : ∀ (v3036 : IVec S16 32), Decidable (k0_chk317 v3036) := fun v3036 => decidable_of_iff' _ (Iff.of_eq (k0_chk317.eq_1 v3036))
theorem k0_idx317_inb : ∀ (v3036 : IVec S16 32) (k0_hw317 : k0_chk317 v3036), ∀ a x, ((![v3036] : Fin 1 → IVec S16 32) a x).toNat < S120.size a := fun v3036 k0_hw317 => k0_hw317

def k0_chk318 (v3042 : IVec S16 32) : Prop :=
  (∀ a x, ((![v3042] : Fin 1 → IVec S16 32) a x).toNat < S120.size a)
instance k0_chk318.dec : ∀ (v3042 : IVec S16 32), Decidable (k0_chk318 v3042) := fun v3042 => decidable_of_iff' _ (Iff.of_eq (k0_chk318.eq_1 v3042))
theorem k0_idx318_inb : ∀ (v3042 : IVec S16 32) (k0_hw318 : k0_chk318 v3042), ∀ a x, ((![v3042] : Fin 1 → IVec S16 32) a x).toNat < S120.size a := fun v3042 k0_hw318 => k0_hw318

def k0_chk319 (v3051 : IVec S16 32) : Prop :=
  (∀ a x, ((![v3051] : Fin 1 → IVec S16 32) a x).toNat < S120.size a)
instance k0_chk319.dec : ∀ (v3051 : IVec S16 32), Decidable (k0_chk319 v3051) := fun v3051 => decidable_of_iff' _ (Iff.of_eq (k0_chk319.eq_1 v3051))
theorem k0_idx319_inb : ∀ (v3051 : IVec S16 32) (k0_hw319 : k0_chk319 v3051), ∀ a x, ((![v3051] : Fin 1 → IVec S16 32) a x).toNat < S120.size a := fun v3051 k0_hw319 => k0_hw319

def k0_chk320 (v3057 : IVec S16 32) : Prop :=
  (∀ a x, ((![v3057] : Fin 1 → IVec S16 32) a x).toNat < S120.size a)
instance k0_chk320.dec : ∀ (v3057 : IVec S16 32), Decidable (k0_chk320 v3057) := fun v3057 => decidable_of_iff' _ (Iff.of_eq (k0_chk320.eq_1 v3057))
theorem k0_idx320_inb : ∀ (v3057 : IVec S16 32) (k0_hw320 : k0_chk320 v3057), ∀ a x, ((![v3057] : Fin 1 → IVec S16 32) a x).toNat < S120.size a := fun v3057 k0_hw320 => k0_hw320

def k0_chk321 (v3063 : IVec S16 32) : Prop :=
  (∀ a x, ((![v3063] : Fin 1 → IVec S16 32) a x).toNat < S120.size a)
instance k0_chk321.dec : ∀ (v3063 : IVec S16 32), Decidable (k0_chk321 v3063) := fun v3063 => decidable_of_iff' _ (Iff.of_eq (k0_chk321.eq_1 v3063))
theorem k0_idx321_inb : ∀ (v3063 : IVec S16 32) (k0_hw321 : k0_chk321 v3063), ∀ a x, ((![v3063] : Fin 1 → IVec S16 32) a x).toNat < S120.size a := fun v3063 k0_hw321 => k0_hw321

def k0_chk322 (v3072 : IVec S16 32) : Prop :=
  (∀ a x, ((![v3072] : Fin 1 → IVec S16 32) a x).toNat < S120.size a)
instance k0_chk322.dec : ∀ (v3072 : IVec S16 32), Decidable (k0_chk322 v3072) := fun v3072 => decidable_of_iff' _ (Iff.of_eq (k0_chk322.eq_1 v3072))
theorem k0_idx322_inb : ∀ (v3072 : IVec S16 32) (k0_hw322 : k0_chk322 v3072), ∀ a x, ((![v3072] : Fin 1 → IVec S16 32) a x).toNat < S120.size a := fun v3072 k0_hw322 => k0_hw322

def k0_chk323 (v3078 : IVec S16 32) : Prop :=
  (∀ a x, ((![v3078] : Fin 1 → IVec S16 32) a x).toNat < S120.size a)
instance k0_chk323.dec : ∀ (v3078 : IVec S16 32), Decidable (k0_chk323 v3078) := fun v3078 => decidable_of_iff' _ (Iff.of_eq (k0_chk323.eq_1 v3078))
theorem k0_idx323_inb : ∀ (v3078 : IVec S16 32) (k0_hw323 : k0_chk323 v3078), ∀ a x, ((![v3078] : Fin 1 → IVec S16 32) a x).toNat < S120.size a := fun v3078 k0_hw323 => k0_hw323

def k0_chk324 (v3084 : IVec S16 32) : Prop :=
  (∀ a x, ((![v3084] : Fin 1 → IVec S16 32) a x).toNat < S120.size a)
instance k0_chk324.dec : ∀ (v3084 : IVec S16 32), Decidable (k0_chk324 v3084) := fun v3084 => decidable_of_iff' _ (Iff.of_eq (k0_chk324.eq_1 v3084))
theorem k0_idx324_inb : ∀ (v3084 : IVec S16 32) (k0_hw324 : k0_chk324 v3084), ∀ a x, ((![v3084] : Fin 1 → IVec S16 32) a x).toNat < S120.size a := fun v3084 k0_hw324 => k0_hw324
def k0_off36 (i : grid0.Coords) (c1320_i32 : BitVec 32) : Fin 2 → Nat :=
  let c3_i32_2336 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3018 : BitVec 32 := Scalar.addi v2 c1320_i32
  let v3019 : BitVec 32 := Scalar.muli c3_i32_2336 v3018
  let c0_i32_2393 : BitVec 32 := 0#32
  ![v3019.toNat, 0]

def k0_chk325 (v3117 : IVec S16 32) : Prop :=
  (∀ a x, ((![v3117] : Fin 1 → IVec S16 32) a x).toNat < S120.size a)
instance k0_chk325.dec : ∀ (v3117 : IVec S16 32), Decidable (k0_chk325 v3117) := fun v3117 => decidable_of_iff' _ (Iff.of_eq (k0_chk325.eq_1 v3117))
theorem k0_idx325_inb : ∀ (v3117 : IVec S16 32) (k0_hw325 : k0_chk325 v3117), ∀ a x, ((![v3117] : Fin 1 → IVec S16 32) a x).toNat < S120.size a := fun v3117 k0_hw325 => k0_hw325

def k0_chk326 (v3123 : IVec S16 32) : Prop :=
  (∀ a x, ((![v3123] : Fin 1 → IVec S16 32) a x).toNat < S120.size a)
instance k0_chk326.dec : ∀ (v3123 : IVec S16 32), Decidable (k0_chk326 v3123) := fun v3123 => decidable_of_iff' _ (Iff.of_eq (k0_chk326.eq_1 v3123))
theorem k0_idx326_inb : ∀ (v3123 : IVec S16 32) (k0_hw326 : k0_chk326 v3123), ∀ a x, ((![v3123] : Fin 1 → IVec S16 32) a x).toNat < S120.size a := fun v3123 k0_hw326 => k0_hw326

def k0_chk327 (v3129 : IVec S16 32) : Prop :=
  (∀ a x, ((![v3129] : Fin 1 → IVec S16 32) a x).toNat < S120.size a)
instance k0_chk327.dec : ∀ (v3129 : IVec S16 32), Decidable (k0_chk327 v3129) := fun v3129 => decidable_of_iff' _ (Iff.of_eq (k0_chk327.eq_1 v3129))
theorem k0_idx327_inb : ∀ (v3129 : IVec S16 32) (k0_hw327 : k0_chk327 v3129), ∀ a x, ((![v3129] : Fin 1 → IVec S16 32) a x).toNat < S120.size a := fun v3129 k0_hw327 => k0_hw327

def k0_chk328 (v3138 : IVec S16 32) : Prop :=
  (∀ a x, ((![v3138] : Fin 1 → IVec S16 32) a x).toNat < S120.size a)
instance k0_chk328.dec : ∀ (v3138 : IVec S16 32), Decidable (k0_chk328 v3138) := fun v3138 => decidable_of_iff' _ (Iff.of_eq (k0_chk328.eq_1 v3138))
theorem k0_idx328_inb : ∀ (v3138 : IVec S16 32) (k0_hw328 : k0_chk328 v3138), ∀ a x, ((![v3138] : Fin 1 → IVec S16 32) a x).toNat < S120.size a := fun v3138 k0_hw328 => k0_hw328

def k0_chk329 (v3144 : IVec S16 32) : Prop :=
  (∀ a x, ((![v3144] : Fin 1 → IVec S16 32) a x).toNat < S120.size a)
instance k0_chk329.dec : ∀ (v3144 : IVec S16 32), Decidable (k0_chk329 v3144) := fun v3144 => decidable_of_iff' _ (Iff.of_eq (k0_chk329.eq_1 v3144))
theorem k0_idx329_inb : ∀ (v3144 : IVec S16 32) (k0_hw329 : k0_chk329 v3144), ∀ a x, ((![v3144] : Fin 1 → IVec S16 32) a x).toNat < S120.size a := fun v3144 k0_hw329 => k0_hw329

def k0_chk330 (v3150 : IVec S16 32) : Prop :=
  (∀ a x, ((![v3150] : Fin 1 → IVec S16 32) a x).toNat < S120.size a)
instance k0_chk330.dec : ∀ (v3150 : IVec S16 32), Decidable (k0_chk330 v3150) := fun v3150 => decidable_of_iff' _ (Iff.of_eq (k0_chk330.eq_1 v3150))
theorem k0_idx330_inb : ∀ (v3150 : IVec S16 32) (k0_hw330 : k0_chk330 v3150), ∀ a x, ((![v3150] : Fin 1 → IVec S16 32) a x).toNat < S120.size a := fun v3150 k0_hw330 => k0_hw330

def k0_chk331 (v3159 : IVec S16 32) : Prop :=
  (∀ a x, ((![v3159] : Fin 1 → IVec S16 32) a x).toNat < S120.size a)
instance k0_chk331.dec : ∀ (v3159 : IVec S16 32), Decidable (k0_chk331 v3159) := fun v3159 => decidable_of_iff' _ (Iff.of_eq (k0_chk331.eq_1 v3159))
theorem k0_idx331_inb : ∀ (v3159 : IVec S16 32) (k0_hw331 : k0_chk331 v3159), ∀ a x, ((![v3159] : Fin 1 → IVec S16 32) a x).toNat < S120.size a := fun v3159 k0_hw331 => k0_hw331

def k0_chk332 (v3165 : IVec S16 32) : Prop :=
  (∀ a x, ((![v3165] : Fin 1 → IVec S16 32) a x).toNat < S120.size a)
instance k0_chk332.dec : ∀ (v3165 : IVec S16 32), Decidable (k0_chk332 v3165) := fun v3165 => decidable_of_iff' _ (Iff.of_eq (k0_chk332.eq_1 v3165))
theorem k0_idx332_inb : ∀ (v3165 : IVec S16 32) (k0_hw332 : k0_chk332 v3165), ∀ a x, ((![v3165] : Fin 1 → IVec S16 32) a x).toNat < S120.size a := fun v3165 k0_hw332 => k0_hw332

def k0_chk333 (v3171 : IVec S16 32) : Prop :=
  (∀ a x, ((![v3171] : Fin 1 → IVec S16 32) a x).toNat < S120.size a)
instance k0_chk333.dec : ∀ (v3171 : IVec S16 32), Decidable (k0_chk333 v3171) := fun v3171 => decidable_of_iff' _ (Iff.of_eq (k0_chk333.eq_1 v3171))
theorem k0_idx333_inb : ∀ (v3171 : IVec S16 32) (k0_hw333 : k0_chk333 v3171), ∀ a x, ((![v3171] : Fin 1 → IVec S16 32) a x).toNat < S120.size a := fun v3171 k0_hw333 => k0_hw333
def k0_off37 (i : grid0.Coords) (c1360_i32 : BitVec 32) : Fin 2 → Nat :=
  let c3_i32_2404 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3105 : BitVec 32 := Scalar.addi v2 c1360_i32
  let v3106 : BitVec 32 := Scalar.muli c3_i32_2404 v3105
  let c0_i32_2461 : BitVec 32 := 0#32
  ![v3106.toNat, 0]

def k0_chk334 (v3204 : IVec S16 32) : Prop :=
  (∀ a x, ((![v3204] : Fin 1 → IVec S16 32) a x).toNat < S120.size a)
instance k0_chk334.dec : ∀ (v3204 : IVec S16 32), Decidable (k0_chk334 v3204) := fun v3204 => decidable_of_iff' _ (Iff.of_eq (k0_chk334.eq_1 v3204))
theorem k0_idx334_inb : ∀ (v3204 : IVec S16 32) (k0_hw334 : k0_chk334 v3204), ∀ a x, ((![v3204] : Fin 1 → IVec S16 32) a x).toNat < S120.size a := fun v3204 k0_hw334 => k0_hw334

def k0_chk335 (v3210 : IVec S16 32) : Prop :=
  (∀ a x, ((![v3210] : Fin 1 → IVec S16 32) a x).toNat < S120.size a)
instance k0_chk335.dec : ∀ (v3210 : IVec S16 32), Decidable (k0_chk335 v3210) := fun v3210 => decidable_of_iff' _ (Iff.of_eq (k0_chk335.eq_1 v3210))
theorem k0_idx335_inb : ∀ (v3210 : IVec S16 32) (k0_hw335 : k0_chk335 v3210), ∀ a x, ((![v3210] : Fin 1 → IVec S16 32) a x).toNat < S120.size a := fun v3210 k0_hw335 => k0_hw335

def k0_chk336 (v3216 : IVec S16 32) : Prop :=
  (∀ a x, ((![v3216] : Fin 1 → IVec S16 32) a x).toNat < S120.size a)
instance k0_chk336.dec : ∀ (v3216 : IVec S16 32), Decidable (k0_chk336 v3216) := fun v3216 => decidable_of_iff' _ (Iff.of_eq (k0_chk336.eq_1 v3216))
theorem k0_idx336_inb : ∀ (v3216 : IVec S16 32) (k0_hw336 : k0_chk336 v3216), ∀ a x, ((![v3216] : Fin 1 → IVec S16 32) a x).toNat < S120.size a := fun v3216 k0_hw336 => k0_hw336

def k0_chk337 (v3225 : IVec S16 32) : Prop :=
  (∀ a x, ((![v3225] : Fin 1 → IVec S16 32) a x).toNat < S120.size a)
instance k0_chk337.dec : ∀ (v3225 : IVec S16 32), Decidable (k0_chk337 v3225) := fun v3225 => decidable_of_iff' _ (Iff.of_eq (k0_chk337.eq_1 v3225))
theorem k0_idx337_inb : ∀ (v3225 : IVec S16 32) (k0_hw337 : k0_chk337 v3225), ∀ a x, ((![v3225] : Fin 1 → IVec S16 32) a x).toNat < S120.size a := fun v3225 k0_hw337 => k0_hw337

def k0_chk338 (v3231 : IVec S16 32) : Prop :=
  (∀ a x, ((![v3231] : Fin 1 → IVec S16 32) a x).toNat < S120.size a)
instance k0_chk338.dec : ∀ (v3231 : IVec S16 32), Decidable (k0_chk338 v3231) := fun v3231 => decidable_of_iff' _ (Iff.of_eq (k0_chk338.eq_1 v3231))
theorem k0_idx338_inb : ∀ (v3231 : IVec S16 32) (k0_hw338 : k0_chk338 v3231), ∀ a x, ((![v3231] : Fin 1 → IVec S16 32) a x).toNat < S120.size a := fun v3231 k0_hw338 => k0_hw338

def k0_chk339 (v3237 : IVec S16 32) : Prop :=
  (∀ a x, ((![v3237] : Fin 1 → IVec S16 32) a x).toNat < S120.size a)
instance k0_chk339.dec : ∀ (v3237 : IVec S16 32), Decidable (k0_chk339 v3237) := fun v3237 => decidable_of_iff' _ (Iff.of_eq (k0_chk339.eq_1 v3237))
theorem k0_idx339_inb : ∀ (v3237 : IVec S16 32) (k0_hw339 : k0_chk339 v3237), ∀ a x, ((![v3237] : Fin 1 → IVec S16 32) a x).toNat < S120.size a := fun v3237 k0_hw339 => k0_hw339

def k0_chk340 (v3246 : IVec S16 32) : Prop :=
  (∀ a x, ((![v3246] : Fin 1 → IVec S16 32) a x).toNat < S120.size a)
instance k0_chk340.dec : ∀ (v3246 : IVec S16 32), Decidable (k0_chk340 v3246) := fun v3246 => decidable_of_iff' _ (Iff.of_eq (k0_chk340.eq_1 v3246))
theorem k0_idx340_inb : ∀ (v3246 : IVec S16 32) (k0_hw340 : k0_chk340 v3246), ∀ a x, ((![v3246] : Fin 1 → IVec S16 32) a x).toNat < S120.size a := fun v3246 k0_hw340 => k0_hw340

def k0_chk341 (v3252 : IVec S16 32) : Prop :=
  (∀ a x, ((![v3252] : Fin 1 → IVec S16 32) a x).toNat < S120.size a)
instance k0_chk341.dec : ∀ (v3252 : IVec S16 32), Decidable (k0_chk341 v3252) := fun v3252 => decidable_of_iff' _ (Iff.of_eq (k0_chk341.eq_1 v3252))
theorem k0_idx341_inb : ∀ (v3252 : IVec S16 32) (k0_hw341 : k0_chk341 v3252), ∀ a x, ((![v3252] : Fin 1 → IVec S16 32) a x).toNat < S120.size a := fun v3252 k0_hw341 => k0_hw341

def k0_chk342 (v3258 : IVec S16 32) : Prop :=
  (∀ a x, ((![v3258] : Fin 1 → IVec S16 32) a x).toNat < S120.size a)
instance k0_chk342.dec : ∀ (v3258 : IVec S16 32), Decidable (k0_chk342 v3258) := fun v3258 => decidable_of_iff' _ (Iff.of_eq (k0_chk342.eq_1 v3258))
theorem k0_idx342_inb : ∀ (v3258 : IVec S16 32) (k0_hw342 : k0_chk342 v3258), ∀ a x, ((![v3258] : Fin 1 → IVec S16 32) a x).toNat < S120.size a := fun v3258 k0_hw342 => k0_hw342
def k0_off38 (i : grid0.Coords) (c1400_i32 : BitVec 32) : Fin 2 → Nat :=
  let c3_i32_2472 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3192 : BitVec 32 := Scalar.addi v2 c1400_i32
  let v3193 : BitVec 32 := Scalar.muli c3_i32_2472 v3192
  let c0_i32_2529 : BitVec 32 := 0#32
  ![v3193.toNat, 0]

def k0_chk343 (v3291 : IVec S16 32) : Prop :=
  (∀ a x, ((![v3291] : Fin 1 → IVec S16 32) a x).toNat < S120.size a)
instance k0_chk343.dec : ∀ (v3291 : IVec S16 32), Decidable (k0_chk343 v3291) := fun v3291 => decidable_of_iff' _ (Iff.of_eq (k0_chk343.eq_1 v3291))
theorem k0_idx343_inb : ∀ (v3291 : IVec S16 32) (k0_hw343 : k0_chk343 v3291), ∀ a x, ((![v3291] : Fin 1 → IVec S16 32) a x).toNat < S120.size a := fun v3291 k0_hw343 => k0_hw343

def k0_chk344 (v3297 : IVec S16 32) : Prop :=
  (∀ a x, ((![v3297] : Fin 1 → IVec S16 32) a x).toNat < S120.size a)
instance k0_chk344.dec : ∀ (v3297 : IVec S16 32), Decidable (k0_chk344 v3297) := fun v3297 => decidable_of_iff' _ (Iff.of_eq (k0_chk344.eq_1 v3297))
theorem k0_idx344_inb : ∀ (v3297 : IVec S16 32) (k0_hw344 : k0_chk344 v3297), ∀ a x, ((![v3297] : Fin 1 → IVec S16 32) a x).toNat < S120.size a := fun v3297 k0_hw344 => k0_hw344

def k0_chk345 (v3303 : IVec S16 32) : Prop :=
  (∀ a x, ((![v3303] : Fin 1 → IVec S16 32) a x).toNat < S120.size a)
instance k0_chk345.dec : ∀ (v3303 : IVec S16 32), Decidable (k0_chk345 v3303) := fun v3303 => decidable_of_iff' _ (Iff.of_eq (k0_chk345.eq_1 v3303))
theorem k0_idx345_inb : ∀ (v3303 : IVec S16 32) (k0_hw345 : k0_chk345 v3303), ∀ a x, ((![v3303] : Fin 1 → IVec S16 32) a x).toNat < S120.size a := fun v3303 k0_hw345 => k0_hw345

def k0_chk346 (v3312 : IVec S16 32) : Prop :=
  (∀ a x, ((![v3312] : Fin 1 → IVec S16 32) a x).toNat < S120.size a)
instance k0_chk346.dec : ∀ (v3312 : IVec S16 32), Decidable (k0_chk346 v3312) := fun v3312 => decidable_of_iff' _ (Iff.of_eq (k0_chk346.eq_1 v3312))
theorem k0_idx346_inb : ∀ (v3312 : IVec S16 32) (k0_hw346 : k0_chk346 v3312), ∀ a x, ((![v3312] : Fin 1 → IVec S16 32) a x).toNat < S120.size a := fun v3312 k0_hw346 => k0_hw346

def k0_chk347 (v3318 : IVec S16 32) : Prop :=
  (∀ a x, ((![v3318] : Fin 1 → IVec S16 32) a x).toNat < S120.size a)
instance k0_chk347.dec : ∀ (v3318 : IVec S16 32), Decidable (k0_chk347 v3318) := fun v3318 => decidable_of_iff' _ (Iff.of_eq (k0_chk347.eq_1 v3318))
theorem k0_idx347_inb : ∀ (v3318 : IVec S16 32) (k0_hw347 : k0_chk347 v3318), ∀ a x, ((![v3318] : Fin 1 → IVec S16 32) a x).toNat < S120.size a := fun v3318 k0_hw347 => k0_hw347

def k0_chk348 (v3324 : IVec S16 32) : Prop :=
  (∀ a x, ((![v3324] : Fin 1 → IVec S16 32) a x).toNat < S120.size a)
instance k0_chk348.dec : ∀ (v3324 : IVec S16 32), Decidable (k0_chk348 v3324) := fun v3324 => decidable_of_iff' _ (Iff.of_eq (k0_chk348.eq_1 v3324))
theorem k0_idx348_inb : ∀ (v3324 : IVec S16 32) (k0_hw348 : k0_chk348 v3324), ∀ a x, ((![v3324] : Fin 1 → IVec S16 32) a x).toNat < S120.size a := fun v3324 k0_hw348 => k0_hw348

def k0_chk349 (v3333 : IVec S16 32) : Prop :=
  (∀ a x, ((![v3333] : Fin 1 → IVec S16 32) a x).toNat < S120.size a)
instance k0_chk349.dec : ∀ (v3333 : IVec S16 32), Decidable (k0_chk349 v3333) := fun v3333 => decidable_of_iff' _ (Iff.of_eq (k0_chk349.eq_1 v3333))
theorem k0_idx349_inb : ∀ (v3333 : IVec S16 32) (k0_hw349 : k0_chk349 v3333), ∀ a x, ((![v3333] : Fin 1 → IVec S16 32) a x).toNat < S120.size a := fun v3333 k0_hw349 => k0_hw349

def k0_chk350 (v3339 : IVec S16 32) : Prop :=
  (∀ a x, ((![v3339] : Fin 1 → IVec S16 32) a x).toNat < S120.size a)
instance k0_chk350.dec : ∀ (v3339 : IVec S16 32), Decidable (k0_chk350 v3339) := fun v3339 => decidable_of_iff' _ (Iff.of_eq (k0_chk350.eq_1 v3339))
theorem k0_idx350_inb : ∀ (v3339 : IVec S16 32) (k0_hw350 : k0_chk350 v3339), ∀ a x, ((![v3339] : Fin 1 → IVec S16 32) a x).toNat < S120.size a := fun v3339 k0_hw350 => k0_hw350

def k0_chk351 (v3345 : IVec S16 32) : Prop :=
  (∀ a x, ((![v3345] : Fin 1 → IVec S16 32) a x).toNat < S120.size a)
instance k0_chk351.dec : ∀ (v3345 : IVec S16 32), Decidable (k0_chk351 v3345) := fun v3345 => decidable_of_iff' _ (Iff.of_eq (k0_chk351.eq_1 v3345))
theorem k0_idx351_inb : ∀ (v3345 : IVec S16 32) (k0_hw351 : k0_chk351 v3345), ∀ a x, ((![v3345] : Fin 1 → IVec S16 32) a x).toNat < S120.size a := fun v3345 k0_hw351 => k0_hw351
def k0_off39 (i : grid0.Coords) (c1440_i32 : BitVec 32) : Fin 2 → Nat :=
  let c3_i32_2540 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3279 : BitVec 32 := Scalar.addi v2 c1440_i32
  let v3280 : BitVec 32 := Scalar.muli c3_i32_2540 v3279
  let c0_i32_2597 : BitVec 32 := 0#32
  ![v3280.toNat, 0]

def k0_chk352 (v3378 : IVec S16 32) : Prop :=
  (∀ a x, ((![v3378] : Fin 1 → IVec S16 32) a x).toNat < S120.size a)
instance k0_chk352.dec : ∀ (v3378 : IVec S16 32), Decidable (k0_chk352 v3378) := fun v3378 => decidable_of_iff' _ (Iff.of_eq (k0_chk352.eq_1 v3378))
theorem k0_idx352_inb : ∀ (v3378 : IVec S16 32) (k0_hw352 : k0_chk352 v3378), ∀ a x, ((![v3378] : Fin 1 → IVec S16 32) a x).toNat < S120.size a := fun v3378 k0_hw352 => k0_hw352

def k0_chk353 (v3384 : IVec S16 32) : Prop :=
  (∀ a x, ((![v3384] : Fin 1 → IVec S16 32) a x).toNat < S120.size a)
instance k0_chk353.dec : ∀ (v3384 : IVec S16 32), Decidable (k0_chk353 v3384) := fun v3384 => decidable_of_iff' _ (Iff.of_eq (k0_chk353.eq_1 v3384))
theorem k0_idx353_inb : ∀ (v3384 : IVec S16 32) (k0_hw353 : k0_chk353 v3384), ∀ a x, ((![v3384] : Fin 1 → IVec S16 32) a x).toNat < S120.size a := fun v3384 k0_hw353 => k0_hw353

def k0_chk354 (v3390 : IVec S16 32) : Prop :=
  (∀ a x, ((![v3390] : Fin 1 → IVec S16 32) a x).toNat < S120.size a)
instance k0_chk354.dec : ∀ (v3390 : IVec S16 32), Decidable (k0_chk354 v3390) := fun v3390 => decidable_of_iff' _ (Iff.of_eq (k0_chk354.eq_1 v3390))
theorem k0_idx354_inb : ∀ (v3390 : IVec S16 32) (k0_hw354 : k0_chk354 v3390), ∀ a x, ((![v3390] : Fin 1 → IVec S16 32) a x).toNat < S120.size a := fun v3390 k0_hw354 => k0_hw354

def k0_chk355 (v3399 : IVec S16 32) : Prop :=
  (∀ a x, ((![v3399] : Fin 1 → IVec S16 32) a x).toNat < S120.size a)
instance k0_chk355.dec : ∀ (v3399 : IVec S16 32), Decidable (k0_chk355 v3399) := fun v3399 => decidable_of_iff' _ (Iff.of_eq (k0_chk355.eq_1 v3399))
theorem k0_idx355_inb : ∀ (v3399 : IVec S16 32) (k0_hw355 : k0_chk355 v3399), ∀ a x, ((![v3399] : Fin 1 → IVec S16 32) a x).toNat < S120.size a := fun v3399 k0_hw355 => k0_hw355

def k0_chk356 (v3405 : IVec S16 32) : Prop :=
  (∀ a x, ((![v3405] : Fin 1 → IVec S16 32) a x).toNat < S120.size a)
instance k0_chk356.dec : ∀ (v3405 : IVec S16 32), Decidable (k0_chk356 v3405) := fun v3405 => decidable_of_iff' _ (Iff.of_eq (k0_chk356.eq_1 v3405))
theorem k0_idx356_inb : ∀ (v3405 : IVec S16 32) (k0_hw356 : k0_chk356 v3405), ∀ a x, ((![v3405] : Fin 1 → IVec S16 32) a x).toNat < S120.size a := fun v3405 k0_hw356 => k0_hw356

def k0_chk357 (v3411 : IVec S16 32) : Prop :=
  (∀ a x, ((![v3411] : Fin 1 → IVec S16 32) a x).toNat < S120.size a)
instance k0_chk357.dec : ∀ (v3411 : IVec S16 32), Decidable (k0_chk357 v3411) := fun v3411 => decidable_of_iff' _ (Iff.of_eq (k0_chk357.eq_1 v3411))
theorem k0_idx357_inb : ∀ (v3411 : IVec S16 32) (k0_hw357 : k0_chk357 v3411), ∀ a x, ((![v3411] : Fin 1 → IVec S16 32) a x).toNat < S120.size a := fun v3411 k0_hw357 => k0_hw357

def k0_chk358 (v3420 : IVec S16 32) : Prop :=
  (∀ a x, ((![v3420] : Fin 1 → IVec S16 32) a x).toNat < S120.size a)
instance k0_chk358.dec : ∀ (v3420 : IVec S16 32), Decidable (k0_chk358 v3420) := fun v3420 => decidable_of_iff' _ (Iff.of_eq (k0_chk358.eq_1 v3420))
theorem k0_idx358_inb : ∀ (v3420 : IVec S16 32) (k0_hw358 : k0_chk358 v3420), ∀ a x, ((![v3420] : Fin 1 → IVec S16 32) a x).toNat < S120.size a := fun v3420 k0_hw358 => k0_hw358

def k0_chk359 (v3426 : IVec S16 32) : Prop :=
  (∀ a x, ((![v3426] : Fin 1 → IVec S16 32) a x).toNat < S120.size a)
instance k0_chk359.dec : ∀ (v3426 : IVec S16 32), Decidable (k0_chk359 v3426) := fun v3426 => decidable_of_iff' _ (Iff.of_eq (k0_chk359.eq_1 v3426))
theorem k0_idx359_inb : ∀ (v3426 : IVec S16 32) (k0_hw359 : k0_chk359 v3426), ∀ a x, ((![v3426] : Fin 1 → IVec S16 32) a x).toNat < S120.size a := fun v3426 k0_hw359 => k0_hw359

def k0_chk360 (v3432 : IVec S16 32) : Prop :=
  (∀ a x, ((![v3432] : Fin 1 → IVec S16 32) a x).toNat < S120.size a)
instance k0_chk360.dec : ∀ (v3432 : IVec S16 32), Decidable (k0_chk360 v3432) := fun v3432 => decidable_of_iff' _ (Iff.of_eq (k0_chk360.eq_1 v3432))
theorem k0_idx360_inb : ∀ (v3432 : IVec S16 32) (k0_hw360 : k0_chk360 v3432), ∀ a x, ((![v3432] : Fin 1 → IVec S16 32) a x).toNat < S120.size a := fun v3432 k0_hw360 => k0_hw360
def k0_off40 (i : grid0.Coords) (c1480_i32 : BitVec 32) : Fin 2 → Nat :=
  let c3_i32_2608 : BitVec 32 := 3#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1600_i32 : BitVec 32 := 1600#32
  let v2 : BitVec 32 := Scalar.muli v1 c1600_i32
  let v3366 : BitVec 32 := Scalar.addi v2 c1480_i32
  let v3367 : BitVec 32 := Scalar.muli c3_i32_2608 v3366
  let c0_i32_2665 : BitVec 32 := 0#32
  ![v3367.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1024x50_S51200 : S1024x50.ShapeCasts S51200
  pads_S1000x300_S1000x384_000_0840 : S1000x300.Pads (![0, 0] : Fin 2 → Nat) ![0, 84] ![0, 0] S1000x384
  h_S_ : 0 < S_.numel
  shapeCasts_S1000x384_S3000x128 : S1000x384.ShapeCasts S3000x128
  iota_S16_d0_w32_scVector : S16.Iotas .scVector 32 [0]
  inb_S1600_S16_0 : ∀ a, (![0] : Fin 1 → Nat) a + S16.size a ≤ S1600.size a
  h_S16 : 0 < S16.numel
  inb_S2x120_S1x120_0_0 : ∀ a, (![0, 0] : Fin 2 → Nat) a + S1x120.size a ≤ S2x120.size a
  squeezes_S1x120_S120 : S1x120.Squeezes S120
  h_S120 : 0 < S120.numel
  inb_S1600_S16_16 : ∀ a, (![16] : Fin 1 → Nat) a + S16.size a ≤ S1600.size a
  inb_S1600_S16_24 : ∀ a, (![24] : Fin 1 → Nat) a + S16.size a ≤ S1600.size a
  inb_S2x120x128_S1x120x128_0_0_0 : ∀ a, (![0, 0, 0] : Fin 3 → Nat) a + S1x120x128.size a ≤ S2x120x128.size a
  squeezes_S1x120x128_S120x128 : S1x120x128.Squeezes S120x128
  inb_S3000x128_S3000x128_0_0 : ∀ a, (![0, 0] : Fin 2 → Nat) a + S3000x128.size a ≤ S3000x128.size a
  gathers_S3000x128_S120x128 : S3000x128.Gathers 0 S120x128
  inb_S1600_S16_40 : ∀ a, (![40] : Fin 1 → Nat) a + S16.size a ≤ S1600.size a
  inb_S2x120_S1x120_1_0 : ∀ a, (![1, 0] : Fin 2 → Nat) a + S1x120.size a ≤ S2x120.size a
  inb_S1600_S16_56 : ∀ a, (![56] : Fin 1 → Nat) a + S16.size a ≤ S1600.size a
  inb_S1600_S16_64 : ∀ a, (![64] : Fin 1 → Nat) a + S16.size a ≤ S1600.size a
  inb_S2x120x128_S1x120x128_1_0_0 : ∀ a, (![1, 0, 0] : Fin 3 → Nat) a + S1x120x128.size a ≤ S2x120x128.size a
  inb_S1600_S16_80 : ∀ a, (![80] : Fin 1 → Nat) a + S16.size a ≤ S1600.size a
  inb_S1600_S16_96 : ∀ a, (![96] : Fin 1 → Nat) a + S16.size a ≤ S1600.size a
  inb_S1600_S16_104 : ∀ a, (![104] : Fin 1 → Nat) a + S16.size a ≤ S1600.size a
  inb_S1600_S16_120 : ∀ a, (![120] : Fin 1 → Nat) a + S16.size a ≤ S1600.size a
  inb_S1600_S16_136 : ∀ a, (![136] : Fin 1 → Nat) a + S16.size a ≤ S1600.size a
  inb_S1600_S16_144 : ∀ a, (![144] : Fin 1 → Nat) a + S16.size a ≤ S1600.size a
  inb_S1600_S16_160 : ∀ a, (![160] : Fin 1 → Nat) a + S16.size a ≤ S1600.size a
  inb_S1600_S16_176 : ∀ a, (![176] : Fin 1 → Nat) a + S16.size a ≤ S1600.size a
  inb_S1600_S16_184 : ∀ a, (![184] : Fin 1 → Nat) a + S16.size a ≤ S1600.size a
  inb_S1600_S16_200 : ∀ a, (![200] : Fin 1 → Nat) a + S16.size a ≤ S1600.size a
  inb_S1600_S16_216 : ∀ a, (![216] : Fin 1 → Nat) a + S16.size a ≤ S1600.size a
  inb_S1600_S16_224 : ∀ a, (![224] : Fin 1 → Nat) a + S16.size a ≤ S1600.size a
  inb_S1600_S16_240 : ∀ a, (![240] : Fin 1 → Nat) a + S16.size a ≤ S1600.size a
  inb_S1600_S16_256 : ∀ a, (![256] : Fin 1 → Nat) a + S16.size a ≤ S1600.size a
  inb_S1600_S16_264 : ∀ a, (![264] : Fin 1 → Nat) a + S16.size a ≤ S1600.size a
  inb_S1600_S16_280 : ∀ a, (![280] : Fin 1 → Nat) a + S16.size a ≤ S1600.size a
  inb_S1600_S16_296 : ∀ a, (![296] : Fin 1 → Nat) a + S16.size a ≤ S1600.size a
  inb_S1600_S16_304 : ∀ a, (![304] : Fin 1 → Nat) a + S16.size a ≤ S1600.size a
  inb_S1600_S16_320 : ∀ a, (![320] : Fin 1 → Nat) a + S16.size a ≤ S1600.size a
  inb_S1600_S16_336 : ∀ a, (![336] : Fin 1 → Nat) a + S16.size a ≤ S1600.size a
  inb_S1600_S16_344 : ∀ a, (![344] : Fin 1 → Nat) a + S16.size a ≤ S1600.size a
  inb_S1600_S16_360 : ∀ a, (![360] : Fin 1 → Nat) a + S16.size a ≤ S1600.size a
  inb_S1600_S16_376 : ∀ a, (![376] : Fin 1 → Nat) a + S16.size a ≤ S1600.size a
  inb_S1600_S16_384 : ∀ a, (![384] : Fin 1 → Nat) a + S16.size a ≤ S1600.size a
  inb_S1600_S16_400 : ∀ a, (![400] : Fin 1 → Nat) a + S16.size a ≤ S1600.size a
  inb_S1600_S16_416 : ∀ a, (![416] : Fin 1 → Nat) a + S16.size a ≤ S1600.size a
  inb_S1600_S16_424 : ∀ a, (![424] : Fin 1 → Nat) a + S16.size a ≤ S1600.size a
  inb_S1600_S16_440 : ∀ a, (![440] : Fin 1 → Nat) a + S16.size a ≤ S1600.size a
  inb_S1600_S16_456 : ∀ a, (![456] : Fin 1 → Nat) a + S16.size a ≤ S1600.size a
  inb_S1600_S16_464 : ∀ a, (![464] : Fin 1 → Nat) a + S16.size a ≤ S1600.size a
  inb_S1600_S16_480 : ∀ a, (![480] : Fin 1 → Nat) a + S16.size a ≤ S1600.size a
  inb_S1600_S16_496 : ∀ a, (![496] : Fin 1 → Nat) a + S16.size a ≤ S1600.size a
  inb_S1600_S16_504 : ∀ a, (![504] : Fin 1 → Nat) a + S16.size a ≤ S1600.size a
  inb_S1600_S16_520 : ∀ a, (![520] : Fin 1 → Nat) a + S16.size a ≤ S1600.size a
  inb_S1600_S16_536 : ∀ a, (![536] : Fin 1 → Nat) a + S16.size a ≤ S1600.size a
  inb_S1600_S16_544 : ∀ a, (![544] : Fin 1 → Nat) a + S16.size a ≤ S1600.size a
  inb_S1600_S16_560 : ∀ a, (![560] : Fin 1 → Nat) a + S16.size a ≤ S1600.size a
  inb_S1600_S16_576 : ∀ a, (![576] : Fin 1 → Nat) a + S16.size a ≤ S1600.size a
  inb_S1600_S16_584 : ∀ a, (![584] : Fin 1 → Nat) a + S16.size a ≤ S1600.size a
  inb_S1600_S16_600 : ∀ a, (![600] : Fin 1 → Nat) a + S16.size a ≤ S1600.size a
  inb_S1600_S16_616 : ∀ a, (![616] : Fin 1 → Nat) a + S16.size a ≤ S1600.size a
  inb_S1600_S16_624 : ∀ a, (![624] : Fin 1 → Nat) a + S16.size a ≤ S1600.size a
  inb_S1600_S16_640 : ∀ a, (![640] : Fin 1 → Nat) a + S16.size a ≤ S1600.size a
  inb_S1600_S16_656 : ∀ a, (![656] : Fin 1 → Nat) a + S16.size a ≤ S1600.size a
  inb_S1600_S16_664 : ∀ a, (![664] : Fin 1 → Nat) a + S16.size a ≤ S1600.size a
  inb_S1600_S16_680 : ∀ a, (![680] : Fin 1 → Nat) a + S16.size a ≤ S1600.size a
  inb_S1600_S16_696 : ∀ a, (![696] : Fin 1 → Nat) a + S16.size a ≤ S1600.size a
  inb_S1600_S16_704 : ∀ a, (![704] : Fin 1 → Nat) a + S16.size a ≤ S1600.size a
  inb_S1600_S16_720 : ∀ a, (![720] : Fin 1 → Nat) a + S16.size a ≤ S1600.size a
  inb_S1600_S16_736 : ∀ a, (![736] : Fin 1 → Nat) a + S16.size a ≤ S1600.size a
  inb_S1600_S16_744 : ∀ a, (![744] : Fin 1 → Nat) a + S16.size a ≤ S1600.size a
  inb_S1600_S16_760 : ∀ a, (![760] : Fin 1 → Nat) a + S16.size a ≤ S1600.size a
  inb_S1600_S16_776 : ∀ a, (![776] : Fin 1 → Nat) a + S16.size a ≤ S1600.size a
  inb_S1600_S16_784 : ∀ a, (![784] : Fin 1 → Nat) a + S16.size a ≤ S1600.size a
  inb_S1600_S16_800 : ∀ a, (![800] : Fin 1 → Nat) a + S16.size a ≤ S1600.size a
  inb_S1600_S16_816 : ∀ a, (![816] : Fin 1 → Nat) a + S16.size a ≤ S1600.size a
  inb_S1600_S16_824 : ∀ a, (![824] : Fin 1 → Nat) a + S16.size a ≤ S1600.size a
  inb_S1600_S16_840 : ∀ a, (![840] : Fin 1 → Nat) a + S16.size a ≤ S1600.size a
  inb_S1600_S16_856 : ∀ a, (![856] : Fin 1 → Nat) a + S16.size a ≤ S1600.size a
  inb_S1600_S16_864 : ∀ a, (![864] : Fin 1 → Nat) a + S16.size a ≤ S1600.size a
  inb_S1600_S16_880 : ∀ a, (![880] : Fin 1 → Nat) a + S16.size a ≤ S1600.size a
  inb_S1600_S16_896 : ∀ a, (![896] : Fin 1 → Nat) a + S16.size a ≤ S1600.size a
  inb_S1600_S16_904 : ∀ a, (![904] : Fin 1 → Nat) a + S16.size a ≤ S1600.size a
  inb_S1600_S16_920 : ∀ a, (![920] : Fin 1 → Nat) a + S16.size a ≤ S1600.size a
  inb_S1600_S16_936 : ∀ a, (![936] : Fin 1 → Nat) a + S16.size a ≤ S1600.size a
  inb_S1600_S16_944 : ∀ a, (![944] : Fin 1 → Nat) a + S16.size a ≤ S1600.size a
  inb_S1600_S16_960 : ∀ a, (![960] : Fin 1 → Nat) a + S16.size a ≤ S1600.size a
  inb_S1600_S16_976 : ∀ a, (![976] : Fin 1 → Nat) a + S16.size a ≤ S1600.size a
  inb_S1600_S16_984 : ∀ a, (![984] : Fin 1 → Nat) a + S16.size a ≤ S1600.size a
  inb_S1600_S16_1000 : ∀ a, (![1000] : Fin 1 → Nat) a + S16.size a ≤ S1600.size a
  inb_S1600_S16_1016 : ∀ a, (![1016] : Fin 1 → Nat) a + S16.size a ≤ S1600.size a
  inb_S1600_S16_1024 : ∀ a, (![1024] : Fin 1 → Nat) a + S16.size a ≤ S1600.size a
  inb_S1600_S16_1040 : ∀ a, (![1040] : Fin 1 → Nat) a + S16.size a ≤ S1600.size a
  inb_S1600_S16_1056 : ∀ a, (![1056] : Fin 1 → Nat) a + S16.size a ≤ S1600.size a
  inb_S1600_S16_1064 : ∀ a, (![1064] : Fin 1 → Nat) a + S16.size a ≤ S1600.size a
  inb_S1600_S16_1080 : ∀ a, (![1080] : Fin 1 → Nat) a + S16.size a ≤ S1600.size a
  inb_S1600_S16_1096 : ∀ a, (![1096] : Fin 1 → Nat) a + S16.size a ≤ S1600.size a
  inb_S1600_S16_1104 : ∀ a, (![1104] : Fin 1 → Nat) a + S16.size a ≤ S1600.size a
  inb_S1600_S16_1120 : ∀ a, (![1120] : Fin 1 → Nat) a + S16.size a ≤ S1600.size a
  inb_S1600_S16_1136 : ∀ a, (![1136] : Fin 1 → Nat) a + S16.size a ≤ S1600.size a
  inb_S1600_S16_1144 : ∀ a, (![1144] : Fin 1 → Nat) a + S16.size a ≤ S1600.size a
  inb_S1600_S16_1160 : ∀ a, (![1160] : Fin 1 → Nat) a + S16.size a ≤ S1600.size a
  inb_S1600_S16_1176 : ∀ a, (![1176] : Fin 1 → Nat) a + S16.size a ≤ S1600.size a
  inb_S1600_S16_1184 : ∀ a, (![1184] : Fin 1 → Nat) a + S16.size a ≤ S1600.size a
  inb_S1600_S16_1200 : ∀ a, (![1200] : Fin 1 → Nat) a + S16.size a ≤ S1600.size a
  inb_S1600_S16_1216 : ∀ a, (![1216] : Fin 1 → Nat) a + S16.size a ≤ S1600.size a
  inb_S1600_S16_1224 : ∀ a, (![1224] : Fin 1 → Nat) a + S16.size a ≤ S1600.size a
  inb_S1600_S16_1240 : ∀ a, (![1240] : Fin 1 → Nat) a + S16.size a ≤ S1600.size a
  inb_S1600_S16_1256 : ∀ a, (![1256] : Fin 1 → Nat) a + S16.size a ≤ S1600.size a
  inb_S1600_S16_1264 : ∀ a, (![1264] : Fin 1 → Nat) a + S16.size a ≤ S1600.size a
  inb_S1600_S16_1280 : ∀ a, (![1280] : Fin 1 → Nat) a + S16.size a ≤ S1600.size a
  inb_S1600_S16_1296 : ∀ a, (![1296] : Fin 1 → Nat) a + S16.size a ≤ S1600.size a
  inb_S1600_S16_1304 : ∀ a, (![1304] : Fin 1 → Nat) a + S16.size a ≤ S1600.size a
  inb_S1600_S16_1320 : ∀ a, (![1320] : Fin 1 → Nat) a + S16.size a ≤ S1600.size a
  inb_S1600_S16_1336 : ∀ a, (![1336] : Fin 1 → Nat) a + S16.size a ≤ S1600.size a
  inb_S1600_S16_1344 : ∀ a, (![1344] : Fin 1 → Nat) a + S16.size a ≤ S1600.size a
  inb_S1600_S16_1360 : ∀ a, (![1360] : Fin 1 → Nat) a + S16.size a ≤ S1600.size a
  inb_S1600_S16_1376 : ∀ a, (![1376] : Fin 1 → Nat) a + S16.size a ≤ S1600.size a
  inb_S1600_S16_1384 : ∀ a, (![1384] : Fin 1 → Nat) a + S16.size a ≤ S1600.size a
  inb_S1600_S16_1400 : ∀ a, (![1400] : Fin 1 → Nat) a + S16.size a ≤ S1600.size a
  inb_S1600_S16_1416 : ∀ a, (![1416] : Fin 1 → Nat) a + S16.size a ≤ S1600.size a
  inb_S1600_S16_1424 : ∀ a, (![1424] : Fin 1 → Nat) a + S16.size a ≤ S1600.size a
  inb_S1600_S16_1440 : ∀ a, (![1440] : Fin 1 → Nat) a + S16.size a ≤ S1600.size a
  inb_S1600_S16_1456 : ∀ a, (![1456] : Fin 1 → Nat) a + S16.size a ≤ S1600.size a
  inb_S1600_S16_1464 : ∀ a, (![1464] : Fin 1 → Nat) a + S16.size a ≤ S1600.size a
  inb_S1600_S16_1480 : ∀ a, (![1480] : Fin 1 → Nat) a + S16.size a ≤ S1600.size a
  inb_S1600_S16_1496 : ∀ a, (![1496] : Fin 1 → Nat) a + S16.size a ≤ S1600.size a
  inb_S1600_S16_1504 : ∀ a, (![1504] : Fin 1 → Nat) a + S16.size a ≤ S1600.size a
  inb_S1600_S16_1520 : ∀ a, (![1520] : Fin 1 → Nat) a + S16.size a ≤ S1600.size a
  inb_S1600_S16_1536 : ∀ a, (![1536] : Fin 1 → Nat) a + S16.size a ≤ S1600.size a
  inb_S1600_S16_1544 : ∀ a, (![1544] : Fin 1 → Nat) a + S16.size a ≤ S1600.size a
  inb_S1600_S16_1560 : ∀ a, (![1560] : Fin 1 → Nat) a + S16.size a ≤ S1600.size a
  inb_S1600_S16_1576 : ∀ a, (![1576] : Fin 1 → Nat) a + S16.size a ≤ S1600.size a
  inb_S1600_S16_1584 : ∀ a, (![1584] : Fin 1 → Nat) a + S16.size a ≤ S1600.size a
  shapeCasts_S153600x128_S1024x50x384 : S153600x128.ShapeCasts S1024x50x384
  slices_S1024x50x384_S1024x50x300_0_0_0 : S1024x50x384.Slices ![0, 0, 0] S1024x50x300
  hcc0_scratch3 : 0 + S_.numel ≤ 5
  hcc0_scratch4 : 1 + S_.numel ≤ 5
  hcc0_scratch5 : 2 + S_.numel ≤ 5
  hcc0_scratch6 : 3 + S_.numel ≤ 5
  hcc0_scoped0 : 4 + S_.numel ≤ 5
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1600.size a ≤ S51200.size a
  k0_off2_inb : ∀ i : grid0.Coords, ∀ a, (k0_off2 i) a + S120x128.size a ≤ S153600x128.size a
  k0_off3_inb : ∀ i : grid0.Coords, ∀ (r : Fin 2), ∀ a, (k0_off3 i (BitVec.ofNat 32 (40 * r.val))) a + S120x128.size a ≤ S153600x128.size a
  k0_off4_inb : ∀ i : grid0.Coords, ∀ (r : Fin 2), ∀ a, (k0_off4 i (BitVec.ofNat 32 (40 + 40 * r.val))) a + S120x128.size a ≤ S153600x128.size a
  k0_off5_inb : ∀ i : grid0.Coords, ∀ (r : Fin 2), ∀ a, (k0_off5 i (BitVec.ofNat 32 (80 + 40 * r.val))) a + S120x128.size a ≤ S153600x128.size a
  k0_off6_inb : ∀ i : grid0.Coords, ∀ (r : Fin 2), ∀ a, (k0_off6 i (BitVec.ofNat 32 (120 + 40 * r.val))) a + S120x128.size a ≤ S153600x128.size a
  k0_off7_inb : ∀ i : grid0.Coords, ∀ (r : Fin 2), ∀ a, (k0_off7 i (BitVec.ofNat 32 (160 + 40 * r.val))) a + S120x128.size a ≤ S153600x128.size a
  k0_off8_inb : ∀ i : grid0.Coords, ∀ (r : Fin 2), ∀ a, (k0_off8 i (BitVec.ofNat 32 (200 + 40 * r.val))) a + S120x128.size a ≤ S153600x128.size a
  k0_off9_inb : ∀ i : grid0.Coords, ∀ (r : Fin 2), ∀ a, (k0_off9 i (BitVec.ofNat 32 (240 + 40 * r.val))) a + S120x128.size a ≤ S153600x128.size a
  k0_off10_inb : ∀ i : grid0.Coords, ∀ (r : Fin 2), ∀ a, (k0_off10 i (BitVec.ofNat 32 (280 + 40 * r.val))) a + S120x128.size a ≤ S153600x128.size a
  k0_off11_inb : ∀ i : grid0.Coords, ∀ (r : Fin 2), ∀ a, (k0_off11 i (BitVec.ofNat 32 (320 + 40 * r.val))) a + S120x128.size a ≤ S153600x128.size a
  k0_off12_inb : ∀ i : grid0.Coords, ∀ (r : Fin 2), ∀ a, (k0_off12 i (BitVec.ofNat 32 (360 + 40 * r.val))) a + S120x128.size a ≤ S153600x128.size a
  k0_off13_inb : ∀ i : grid0.Coords, ∀ (r : Fin 2), ∀ a, (k0_off13 i (BitVec.ofNat 32 (400 + 40 * r.val))) a + S120x128.size a ≤ S153600x128.size a
  k0_off14_inb : ∀ i : grid0.Coords, ∀ (r : Fin 2), ∀ a, (k0_off14 i (BitVec.ofNat 32 (440 + 40 * r.val))) a + S120x128.size a ≤ S153600x128.size a
  k0_off15_inb : ∀ i : grid0.Coords, ∀ (r : Fin 2), ∀ a, (k0_off15 i (BitVec.ofNat 32 (480 + 40 * r.val))) a + S120x128.size a ≤ S153600x128.size a
  k0_off16_inb : ∀ i : grid0.Coords, ∀ (r : Fin 2), ∀ a, (k0_off16 i (BitVec.ofNat 32 (520 + 40 * r.val))) a + S120x128.size a ≤ S153600x128.size a
  k0_off17_inb : ∀ i : grid0.Coords, ∀ (r : Fin 2), ∀ a, (k0_off17 i (BitVec.ofNat 32 (560 + 40 * r.val))) a + S120x128.size a ≤ S153600x128.size a
  k0_off18_inb : ∀ i : grid0.Coords, ∀ (r : Fin 2), ∀ a, (k0_off18 i (BitVec.ofNat 32 (600 + 40 * r.val))) a + S120x128.size a ≤ S153600x128.size a
  k0_off19_inb : ∀ i : grid0.Coords, ∀ (r : Fin 2), ∀ a, (k0_off19 i (BitVec.ofNat 32 (640 + 40 * r.val))) a + S120x128.size a ≤ S153600x128.size a
  k0_off20_inb : ∀ i : grid0.Coords, ∀ (r : Fin 2), ∀ a, (k0_off20 i (BitVec.ofNat 32 (680 + 40 * r.val))) a + S120x128.size a ≤ S153600x128.size a
  k0_off21_inb : ∀ i : grid0.Coords, ∀ (r : Fin 2), ∀ a, (k0_off21 i (BitVec.ofNat 32 (720 + 40 * r.val))) a + S120x128.size a ≤ S153600x128.size a
  k0_off22_inb : ∀ i : grid0.Coords, ∀ (r : Fin 2), ∀ a, (k0_off22 i (BitVec.ofNat 32 (760 + 40 * r.val))) a + S120x128.size a ≤ S153600x128.size a
  k0_off23_inb : ∀ i : grid0.Coords, ∀ (r : Fin 2), ∀ a, (k0_off23 i (BitVec.ofNat 32 (800 + 40 * r.val))) a + S120x128.size a ≤ S153600x128.size a
  k0_off24_inb : ∀ i : grid0.Coords, ∀ (r : Fin 2), ∀ a, (k0_off24 i (BitVec.ofNat 32 (840 + 40 * r.val))) a + S120x128.size a ≤ S153600x128.size a
  k0_off25_inb : ∀ i : grid0.Coords, ∀ (r : Fin 2), ∀ a, (k0_off25 i (BitVec.ofNat 32 (880 + 40 * r.val))) a + S120x128.size a ≤ S153600x128.size a
  k0_off26_inb : ∀ i : grid0.Coords, ∀ (r : Fin 2), ∀ a, (k0_off26 i (BitVec.ofNat 32 (920 + 40 * r.val))) a + S120x128.size a ≤ S153600x128.size a
  k0_off27_inb : ∀ i : grid0.Coords, ∀ (r : Fin 2), ∀ a, (k0_off27 i (BitVec.ofNat 32 (960 + 40 * r.val))) a + S120x128.size a ≤ S153600x128.size a
  k0_off28_inb : ∀ i : grid0.Coords, ∀ (r : Fin 2), ∀ a, (k0_off28 i (BitVec.ofNat 32 (1000 + 40 * r.val))) a + S120x128.size a ≤ S153600x128.size a
  k0_off29_inb : ∀ i : grid0.Coords, ∀ (r : Fin 2), ∀ a, (k0_off29 i (BitVec.ofNat 32 (1040 + 40 * r.val))) a + S120x128.size a ≤ S153600x128.size a
  k0_off30_inb : ∀ i : grid0.Coords, ∀ (r : Fin 2), ∀ a, (k0_off30 i (BitVec.ofNat 32 (1080 + 40 * r.val))) a + S120x128.size a ≤ S153600x128.size a
  k0_off31_inb : ∀ i : grid0.Coords, ∀ (r : Fin 2), ∀ a, (k0_off31 i (BitVec.ofNat 32 (1120 + 40 * r.val))) a + S120x128.size a ≤ S153600x128.size a
  k0_off32_inb : ∀ i : grid0.Coords, ∀ (r : Fin 2), ∀ a, (k0_off32 i (BitVec.ofNat 32 (1160 + 40 * r.val))) a + S120x128.size a ≤ S153600x128.size a
  k0_off33_inb : ∀ i : grid0.Coords, ∀ (r : Fin 2), ∀ a, (k0_off33 i (BitVec.ofNat 32 (1200 + 40 * r.val))) a + S120x128.size a ≤ S153600x128.size a
  k0_off34_inb : ∀ i : grid0.Coords, ∀ (r : Fin 2), ∀ a, (k0_off34 i (BitVec.ofNat 32 (1240 + 40 * r.val))) a + S120x128.size a ≤ S153600x128.size a
  k0_off35_inb : ∀ i : grid0.Coords, ∀ (r : Fin 2), ∀ a, (k0_off35 i (BitVec.ofNat 32 (1280 + 40 * r.val))) a + S120x128.size a ≤ S153600x128.size a
  k0_off36_inb : ∀ i : grid0.Coords, ∀ (r : Fin 2), ∀ a, (k0_off36 i (BitVec.ofNat 32 (1320 + 40 * r.val))) a + S120x128.size a ≤ S153600x128.size a
  k0_off37_inb : ∀ i : grid0.Coords, ∀ (r : Fin 2), ∀ a, (k0_off37 i (BitVec.ofNat 32 (1360 + 40 * r.val))) a + S120x128.size a ≤ S153600x128.size a
  k0_off38_inb : ∀ i : grid0.Coords, ∀ (r : Fin 2), ∀ a, (k0_off38 i (BitVec.ofNat 32 (1400 + 40 * r.val))) a + S120x128.size a ≤ S153600x128.size a
  k0_off39_inb : ∀ i : grid0.Coords, ∀ (r : Fin 2), ∀ a, (k0_off39 i (BitVec.ofNat 32 (1440 + 40 * r.val))) a + S120x128.size a ≤ S153600x128.size a
  k0_off40_inb : ∀ i : grid0.Coords, ∀ (r : Fin 3), ∀ a, (k0_off40 i (BitVec.ofNat 32 (1480 + 40 * r.val))) a + S120x128.size a ≤ S153600x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scoped0 : DmaSems sig S_ := SemArray.consecutive 4 S_ hcc0_scoped0

class Facts : Prop extends Facts₀ where

variable [Facts]
-- ==== ReferenceIdeal.lean ====
abbrev S1000x300 : Shape := ⟨2, ![1000, 300]⟩
abbrev S1024x50 : Shape := ⟨2, ![1024, 50]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x300 : Shape := ⟨3, ![1024, 50, 300]⟩

abbrev nBuf : Space → Nat
  | .hbm => 25
  | .vmem => 0
  | .smem => 0
  | _ => 0

abbrev bufTy : (tb : Table) → Fin (tcTables nBuf tb) → BufTy
  | .hbm, ⟨0, _⟩ => ⟨S1000x300, .f32⟩
  | .hbm, ⟨1, _⟩ => ⟨S1024x50, .i32⟩
  | .hbm, ⟨2, _⟩ => ⟨S_, .i32⟩
  | .hbm, ⟨3, _⟩ => ⟨S1024x50, .i32⟩
  | .hbm, ⟨4, _⟩ => ⟨S1024x50, .i1⟩
  | .hbm, ⟨5, _⟩ => ⟨S_, .i32⟩
  | .hbm, ⟨6, _⟩ => ⟨S1024x50, .i32⟩
  | .hbm, ⟨7, _⟩ => ⟨S1024x50, .i32⟩
  | .hbm, ⟨8, _⟩ => ⟨S1024x50, .i32⟩
  | .hbm, ⟨9, _⟩ => ⟨S1024x50x1, .i32⟩
  | .hbm, ⟨10, _⟩ => ⟨S1, .i32⟩
  | .hbm, ⟨11, _⟩ => ⟨S_, .i32⟩
  | .hbm, ⟨12, _⟩ => ⟨S1024x50x1, .i32⟩
  | .hbm, ⟨13, _⟩ => ⟨S1024x50x1, .i1⟩
  | .hbm, ⟨14, _⟩ => ⟨S1x1x1, .i32⟩
  | .hbm, ⟨15, _⟩ => ⟨S1024x50x1, .i32⟩
  | .hbm, ⟨16, _⟩ => ⟨S1024x50x1, .i1⟩
  | .hbm, ⟨17, _⟩ => ⟨S1024x50x1, .i1⟩
  | .hbm, ⟨18, _⟩ => ⟨S_, .i1⟩
  | .hbm, ⟨19, _⟩ => ⟨S1024x50, .i1⟩
  | .hbm, ⟨20, _⟩ => ⟨S1024x50x300, .f32⟩
  | .hbm, ⟨21, _⟩ => ⟨S1024x50x300, .i1⟩
  | .hbm, ⟨22, _⟩ => ⟨S_, .f32⟩
  | .hbm, ⟨23, _⟩ => ⟨S1024x50x300, .f32⟩
  | .hbm, ⟨24, _⟩ => ⟨S1024x50x300, .f32⟩
  | _, _ => ⟨S1000x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S1024x50 : S_.BroadcastsInDim S1024x50 (![] : Fin 0 → Fin S1024x50.rank)
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1_S1x1x1_2 : S1.BroadcastsInDim S1x1x1 (![2] : Fin 1 → Fin S1x1x1.rank)
  bcast_S1x1x1_S1024x50x1_0_1_2 : S1x1x1.BroadcastsInDim S1024x50x1 (![0, 1, 2] : Fin 3 → Fin S1024x50x1.rank)
  reducesTo_S1024x50x1_S1024x50_d2 : S1024x50x1.ReducesTo [2] S1024x50
  h_S_ : 0 < S_.numel
  bcast_S1024x50_S1024x50x300_0_1 : S1024x50.BroadcastsInDim S1024x50x300 (![0, 1] : Fin 2 → Fin S1024x50x300.rank)
  bcast_S_S1024x50x300 : S_.BroadcastsInDim S1024x50x300 (![] : Fin 0 → Fin S1024x50x300.rank)
  gather_S1000x300_S1024x50x1_S1024x50x300_2_0_n_n_0_2_1300_wf : GatherDims.WF S1000x300 S1024x50x1 S1024x50x300 [2] [0] [] [0] [] 2 ![1, 300]

variable [Facts₀]

def gather_S1000x300_S1024x50x1_S1024x50x300_2_0_n_n_0_2_1300 : GatherDims S1000x300 S1024x50x1 S1024x50x300 where
  offsetDims := [2]
  collapsedSliceDims := [0]
  operandBatchingDims := []
  startIndicesBatchingDims := []
  startIndexMap := [0]
  indexVectorDim := 2
  sliceSizes := ![1, 300]
  wf := gather_S1000x300_S1024x50x1_S1024x50x300_2_0_n_n_0_2_1300_wf

class Facts : Prop extends Facts₀ where

variable [Facts]
-- ==== Proof.PreFacts.lean ====
/-
  What the precondition says of the row numbers. The printed predicate is the conjunction of two "all" reductions; the
  second states, of every row number read as a signed word, that it lies between 0 and 999. A signed word in that range
  has the same value read unsigned, so every row number is below 1000.
-/
import proofs.«208231_g67989332295774_cont_9to1_m_298_26_alg».proof.Pre_input_domain
import Idealize.ShloMosaic.Lib.ReduceAll
import Idealize.ShloMosaic.Lib.ValueIdx

namespace Cert.Proof.PreFacts

open Idealize.ShloMosaic

/-- A scalar has one index. -/
instance subsingletonScalarIdx : Subsingleton Cert.Pre_input_domain.S_.Idx := ⟨fun a b => funext fun d => d.elim0⟩

/-- A 32-bit word that is between 0 and 999 as a signed number is below 1000 as an unsigned one. -/
theorem toNat_lt_of_signed_range (w : BitVec 32) (hge : (0#32 : BitVec 32).toInt ≤ w.toInt)
    (hle : w.toInt ≤ (999#32 : BitVec 32).toInt) : w.toNat < 1000 := by
  have h0 : (0#32 : BitVec 32).toInt = 0 := by decide
  have h999 : (999#32 : BitVec 32).toInt = 999 := by decide
  rw [h0] at hge
  rw [h999] at hle
  rw [BitVec.toInt_eq_toNat_cond] at hge hle
  have hlt := w.isLt
  split at hge <;> omega

/-- Under the precondition every row number, read unsigned, is below 1000. -/
theorem ids_lt {F : FTy → Type} [FloatOps F] [Cert.Pre_input_domain.Facts]
    (tab : FVec F Cert.Pre_input_domain.S1000x300 .f32) (ids : IVec Cert.Pre_input_domain.S1024x50 32)
    (h : Cert.Pre_input_domain.fn (F := F) tab ids = fun _ => 1#1) : ∀ j, (ids j).toNat < 1000 := by
  intro j
  have h0 := congrFun h ValueIdx.ix0
  dsimp only [Cert.Pre_input_domain.fn] at h0
  -- the conjunction of the two reductions: keep the second
  obtain ⟨_, h2⟩ := IntOp.andi_eq_one.1 h0
  -- a reduction by "and" over every axis that is 1 had a 1 at every index
  have h3 := Host.reduce_andi_all _ _ _ _ _ h2 j
  -- at index j: the two signed comparisons of the row number against the constants 0 and 999
  obtain ⟨hge, hle⟩ := IntOp.andi_eq_one.1 h3
  exact toNat_lt_of_signed_range (ids j) (IntOp.cmpi_sge.1 hge) (IntOp.cmpi_sle.1 hle)

end Cert.Proof.PreFacts
-- ==== Proof.RefTerm.lean ====
/-
  The reference's result as one term of its two arguments, named in pieces: the row numbers with negatives wrapped by
  the table's length, the same as start indices of the lookup, the mask "the start index lies in the table", and the
  lookup with rows outside the mask replaced by a NaN. Each piece is the composition of the reference's operations in
  their order, at any float instance.
-/
import proofs.«208231_g67989332295774_cont_9to1_m_298_26_alg».proof.ReferenceIdeal

noncomputable section

namespace Cert.Proof.Ref

open Idealize.ShloMosaic Cert.ReferenceIdeal Cert.ReferenceIdeal.Facts₀

variable {F : FTy → Type} [FloatOps F] [Cert.ReferenceIdeal.Facts]

/-- The row numbers with a negative one replaced by itself plus the table's length (1000). -/
def wrapped (ids : IVec S1024x50 32) : IVec S1024x50 32 :=
  select (cmpi .slt ids (broadcastInDim S1024x50 ![] bcast_S_S1024x50 (constantI S_ 32 0#32)))
    (addi ids (broadcastInDim S1024x50 ![] bcast_S_S1024x50 (constantI S_ 32 1000#32))) ids

/-- The wrapped row numbers as the lookup's start indices: one more axis, of length one. -/
def starts (ids : IVec S1024x50 32) : IVec S1024x50x1 32 :=
  broadcastInDim S1024x50x1 ![0, 1] bcast_S1024x50_S1024x50x1_0_1 (wrapped ids)

/-- The mask: at (b, l), whether the start index lies between 0 and 999, read signed. -/
def inRange (ids : IVec S1024x50 32) : IVec S1024x50 1 :=
  Host.reduce IntOp.andi
    (andi
      (cmpi .sge (starts ids) (broadcastInDim S1024x50x1 ![] bcast_S_S1024x50x1 (constantI S_ 32 0#32)))
      (cmpi .sle (starts ids)
        (broadcastInDim S1024x50x1 ![0, 1, 2] bcast_S1x1x1_S1024x50x1_0_1_2
          (broadcastInDim S1x1x1 ![2] bcast_S1_S1x1x1_2 (constantI S1 32 999#32)))))
    (constantI S_ 1 1#1) reducesTo_S1024x50x1_S1024x50_d2 h_S_

/-- The reference's result: the lookup where the mask holds, a NaN elsewhere. -/
def refTerm (tab : FVec F S1000x300 .f32) (ids : IVec S1024x50 32) : FVec F S1024x50x300 .f32 :=
  select (broadcastInDim S1024x50x300 ![0, 1] bcast_S1024x50_S1024x50x300_0_1 (inRange ids))
    (Host.gather gather_S1000x300_S1024x50x1_S1024x50x300_2_0_n_n_0_2_1300 tab (starts ids))
    (broadcastInDim S1024x50x300 ![] bcast_S_S1024x50x300 (constant S_ .f32 0x7FC00000#32))

end Cert.Proof.Ref

end
-- ==== Proof.Spec.lean ====
/-
  The specification both programs are compared with: an embedding lookup. For a table of 1000 rows of 300 numbers and
  a 1024 × 50 array of row numbers, the result at (b, l, k) is entry k of the table's row ids(b, l). Row numbers are
  words read unsigned and clamped to the last row, so that the function is total; under the certificate's
  precondition every row number is below 1000 and the clamp does nothing.
-/
import Idealize.ShloMosaic.Lib.ValueIdx

namespace Cert.Proof.Spec

open Idealize.ShloMosaic Idealize.ShloMosaic.ValueIdx

/-- The row a word names: its unsigned value, clamped to the table's last row. -/
def rowOf (w : BitVec 32) : Fin 1000 := ⟨min w.toNat 999, by omega⟩

theorem rowOf_val_of_lt {w : BitVec 32} (h : w.toNat < 1000) : (rowOf w).val = w.toNat := by
  show min w.toNat 999 = w.toNat
  omega

/-- The lookup: entry `(b, l, k)` of the result is entry `k` of the table's row `ids (b, l)`. -/
def G {α : Type} (tab : (⟨2, ![1000, 300]⟩ : Shape).Idx → α) (ids : (⟨2, ![1024, 50]⟩ : Shape).Idx → BitVec 32) :
    (⟨3, ![1024, 50, 300]⟩ : Shape).Idx → α :=
  fun y => tab (ix2 (rowOf (ids (ix2 (y 0) (y 1)))) (y 2))

theorem G_apply {α : Type} (tab : (⟨2, ![1000, 300]⟩ : Shape).Idx → α) (ids : (⟨2, ![1024, 50]⟩ : Shape).Idx → BitVec 32)
    (b : Fin 1024) (l : Fin 50) (k : Fin 300) :
    G tab ids (ix3 b l k) = tab (ix2 (rowOf (ids (ix2 b l))) k) := rfl

end Cert.Proof.Spec
-- ==== Proof.RefValue.lean ====
/-
  The reference's result is the specification's lookup. Under the bound "every row number is below 1000" the wrap of
  negative row numbers changes nothing (none is negative), the range mask is 1 everywhere (each start index is between
  0 and 999), so the select takes the looked-up value everywhere; and the lookup at (b, l, k) reads the table at the row
  the start index names, read signed and clamped to the last row, which for a word below 1000 is the row the
  specification reads, and at column k.
-/
import proofs.«208231_g67989332295774_cont_9to1_m_298_26_alg».proof.Proof.RefTerm
import proofs.«208231_g67989332295774_cont_9to1_m_298_26_alg».proof.Proof.Spec
import Idealize.ShloMosaic.Lib.ValueIdx
import Idealize.ShloMosaic.Lib.IdealHost
import Idealize.ShloMosaic.Lib.Pipeline.Value
import Idealize.ShloMosaic.Lib.Affine
import Idealize.ShloMosaic.Lib.StableHlo.Predicate
import Idealize.ShloMosaic.PureOps.Reduce

noncomputable section

namespace Cert.Proof.Ref

open Idealize.ShloMosaic Idealize.ShloMosaic.ValueIdx Cert.ReferenceIdeal Cert.ReferenceIdeal.Facts₀

variable {F : FTy → Type} [FloatOps F] [Cert.ReferenceIdeal.Facts]

/-- A left fold by "and" over one-bit words from 1 that meets only 1s is 1. -/
theorem foldl_andi_of_all {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, h => by
    rw [List.foldl_cons]
    exact foldl_andi_of_all f l _ (IntOp.andi_eq_one.2 ⟨hi, h a List.mem_cons_self⟩)
      (fun n hn => h n (List.mem_cons_of_mem _ hn))

/-- A reduction by "and" from 1 of an array of 1s is 1 at every index. -/
theorem reduce_andi_of_all {s t u : Shape} {axes : List (Fin s.rank)} (x : s.Idx → BitVec 1) (init : u.Idx → BitVec 1)
    (h : s.ReducesTo axes t) (hu : 0 < u.numel) (hi : ∀ k, init k = 1#1) (hx : ∀ i, x i = 1#1) (j : t.Idx) :
    Host.reduce IntOp.andi x init h hu j = 1#1 := by
  rw [Host.reduce_eq_foldl]
  exact foldl_andi_of_all x _ _ (hi _) (fun n _ => hx n)

/-- A row number below 1000 is not negative, so the wrap leaves it. -/
theorem wrapped_apply (ids : IVec S1024x50 32) (j : S1024x50.Idx) (h : (ids j).toNat < 1000) : wrapped ids j = ids j := by
  unfold wrapped
  rw [select_apply]
  have hc : cmpi .slt ids (broadcastInDim S1024x50 ![] bcast_S_S1024x50 (constantI S_ 32 0#32)) j = 0#1 := by
    apply eq_zero_of_ne_one
    show ¬ IntOp.cmpi .slt (ids j) 0#32 = 1#1
    rw [IntOp.cmpi_slt, StableHlo.Predicate.toInt_eq_toNat_of_lt (a := ids j) (by omega)]
    have h0 : (0#32 : BitVec 32).toInt = 0 := by decide
    rw [h0]
    omega
  rw [hc, select_zero]

/-- A start index is the wrapped row number at the first two coordinates. -/
theorem starts_apply (ids : IVec S1024x50 32) (i : S1024x50x1.Idx) : starts ids i = wrapped ids (ix2 (i 0) (i 1)) := by
  unfold starts
  exact broadcastInDim_apply _ _ _ i (ix2 (i 0) (i 1)) (fun a => match a with | ⟨0, _⟩ => rfl | ⟨1, _⟩ => rfl)

/-- Under the bound on the row numbers the mask is 1 everywhere. -/
theorem inRange_apply (ids : IVec S1024x50 32) (hlt : ∀ j, (ids j).toNat < 1000) (j : S1024x50.Idx) : inRange ids j = 1#1 := by
  unfold inRange
  refine reduce_andi_of_all _ _ _ _ (fun _ => rfl) (fun i => ?_) j
  have hs : starts ids i = ids (ix2 (i 0) (i 1)) := by rw [starts_apply, wrapped_apply _ _ (hlt _)]
  have hi : (ids (ix2 (i 0) (i 1))).toInt = (ids (ix2 (i 0) (i 1))).toNat :=
    StableHlo.Predicate.toInt_eq_toNat_of_lt (by have := hlt (ix2 (i 0) (i 1)); omega)
  have h0 : (0#32 : BitVec 32).toInt = 0 := by decide
  have h999 : (999#32 : BitVec 32).toInt = 999 := by decide
  refine IntOp.andi_eq_one.2 ⟨?_, ?_⟩
  · show IntOp.cmpi .sge (starts ids i) 0#32 = 1#1
    rw [IntOp.cmpi_sge, hs, hi, h0]
    omega
  · show IntOp.cmpi .sle (starts ids i) 999#32 = 1#1
    rw [IntOp.cmpi_sle, hs, hi, h999]
    have := hlt (ix2 (i 0) (i 1))
    omega

/-! ## The lookup read at an index -/

/-- A result index's coordinates are below the literal extents. -/
theorem lt0 (y : S1024x50x300.Idx) : (y 0).val < 1024 := (y 0).isLt
theorem lt1 (y : S1024x50x300.Idx) : (y 1).val < 50 := (y 1).isLt
theorem lt2 (y : S1024x50x300.Idx) : (y 2).val < 300 := (y 2).isLt

/-- The first two coordinates of a result index: an index of the row numbers. -/
abbrev bl (y : S1024x50x300.Idx) : S1024x50.Idx := ix2 (⟨(y 0).val, lt0 y⟩ : Fin 1024) (⟨(y 1).val, lt1 y⟩ : Fin 50)
/-- The same with a 0 on the unit axis: an index of the start indices. -/
abbrev bl0 (y : S1024x50x300.Idx) : S1024x50x1.Idx :=
  ix3 (⟨(y 0).val, lt0 y⟩ : Fin 1024) (⟨(y 1).val, lt1 y⟩ : Fin 50) (⟨0, Nat.one_pos⟩ : Fin 1)

/-- A start index read signed and clamped to the table's rows. -/
def clampRow (w : BitVec 32) : Fin 1000 := ⟨min w.toInt.toNat 999, by omega⟩

/-- A word below 1000 clamps to the row the specification reads. -/
theorem clampRow_of_lt {w : BitVec 32} (h : w.toNat < 1000) : clampRow w = Cert.Proof.Spec.rowOf w := by
  apply Fin.ext
  show min w.toInt.toNat 999 = min w.toNat 999
  rw [StableHlo.Predicate.toInt_eq_toNat_of_lt (a := w) (by omega), Int.toNat_natCast]

/-- The lookup read at an index: on the table's row axis the start index, read signed and clamped to the last row
    (the axis is collapsed: no batch and no offset coordinate); on its column axis the result's last coordinate (no
    start index: the whole row is the slice). -/
theorem gather_apply {α : Type} (tab : S1000x300.Idx → α) (si : IVec S1024x50x1 32) (y : S1024x50x300.Idx) :
    Host.gather gather_S1000x300_S1024x50x1_S1024x50x300_2_0_n_n_0_2_1300 tab si y = tab (ix2 (clampRow (si (bl0 y))) (⟨(y 2).val, lt2 y⟩ : Fin 300)) := by
  unfold Host.gather
  congr 1
  funext a
  refine Fin.ext ?_
  match a with
  | ⟨0, _⟩ =>
    show gather_S1000x300_S1024x50x1_S1024x50x300_2_0_n_n_0_2_1300.start y si 0 + gather_S1000x300_S1024x50x1_S1024x50x300_2_0_n_n_0_2_1300.batchCoord y 0 + gather_S1000x300_S1024x50x1_S1024x50x300_2_0_n_n_0_2_1300.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1000x300_S1024x50x1_S1024x50x300_2_0_n_n_0_2_1300.startIndexMap from List.mem_singleton.mpr rfl)]
    have hsi : gather_S1000x300_S1024x50x1_S1024x50x300_2_0_n_n_0_2_1300.siIdx y ⟨List.idxOf (0 : Fin 2) gather_S1000x300_S1024x50x1_S1024x50x300_2_0_n_n_0_2_1300.startIndexMap,
          List.idxOf_lt_length_iff.2 (List.mem_singleton.mpr rfl)⟩ = bl0 y := by
      funext b; refine Fin.ext ?_
      match b with
      | ⟨0, _⟩ => rfl
      | ⟨1, _⟩ => rfl
      | ⟨2, _⟩ => rfl
    rw [hsi]
    rfl
  | ⟨1, _⟩ =>
    show gather_S1000x300_S1024x50x1_S1024x50x300_2_0_n_n_0_2_1300.start y si 1 + gather_S1000x300_S1024x50x1_S1024x50x300_2_0_n_n_0_2_1300.batchCoord y 1 + gather_S1000x300_S1024x50x1_S1024x50x300_2_0_n_n_0_2_1300.offCoord y 1 = (y 2).val
    have h10 : ¬ (1 : Fin 2) = 0 := by decide
    rw [GatherDims.batchCoord_eq_zero _ _ _ List.not_mem_nil]
    have hs : gather_S1000x300_S1024x50x1_S1024x50x300_2_0_n_n_0_2_1300.start y si 1 = 0 := by
      unfold GatherDims.start
      rw [dif_neg (show (1 : Fin 2) ∉ gather_S1000x300_S1024x50x1_S1024x50x300_2_0_n_n_0_2_1300.startIndexMap from fun h => h10 (List.mem_singleton.mp h))]
    rw [hs]
    unfold GatherDims.offCoord
    rw [dif_pos (show (1 : Fin 2) ∈ gather_S1000x300_S1024x50x1_S1024x50x300_2_0_n_n_0_2_1300.sKept from
      (GatherDims.mem_sKept _ _).2 ⟨fun h => h10 (List.mem_singleton.mp h), List.not_mem_nil⟩)]
    simp only [Nat.zero_add]
    rfl

/-- The start index at a result index is the wrapped row number at its first two coordinates. -/
theorem starts_at (ids : IVec S1024x50 32) (y : S1024x50x300.Idx) : starts ids (bl0 y) = wrapped ids (bl y) := by
  unfold starts
  exact broadcastInDim_apply _ _ _ (bl0 y) (bl y) (fun a => match a with | ⟨0, _⟩ => rfl | ⟨1, _⟩ => rfl)

/-- Under the bound on the row numbers the reference's result is the lookup of the specification. -/
theorem refTerm_eq_G (tab : FVec F S1000x300 .f32) (ids : IVec S1024x50 32) (hlt : ∀ j, (ids j).toNat < 1000) :
    refTerm tab ids = Cert.Proof.Spec.G tab ids := by
  funext y
  have hm : broadcastInDim S1024x50x300 ![0, 1] bcast_S1024x50_S1024x50x300_0_1 (inRange ids) y = 1#1 :=
    (broadcastInDim_apply _ _ _ y (bl y) (fun a => match a with | ⟨0, _⟩ => rfl | ⟨1, _⟩ => rfl)).trans
      (inRange_apply ids hlt _)
  have hs : starts ids (bl0 y) = ids (bl y) := (starts_at ids y).trans (wrapped_apply _ _ (hlt _))
  unfold refTerm
  rw [select_apply, hm, select_one, gather_apply, hs, clampRow_of_lt (hlt _)]
  rfl

end Cert.Proof.Ref

end
-- ==== Proof.RefRun.lean ====
/-
  The reference program's run. Its @main is one call of a lookup function, which calls a select function: twenty-three
  host operations in a straight line once the two functions are unfolded at their calls. Every weakly fair execution
  terminates with the result buffer at the operations' composed term of the two arguments and the arguments unchanged;
  under the certificate's precondition that term is the specification's lookup.
-/
import proofs.«208231_g67989332295774_cont_9to1_m_298_26_alg».proof.Defs
import proofs.«208231_g67989332295774_cont_9to1_m_298_26_alg».proof.Proof.Gen.ReferenceIdeal
import proofs.«208231_g67989332295774_cont_9to1_m_298_26_alg».proof.Proof.Gen.Pre_input_domain
import proofs.«208231_g67989332295774_cont_9to1_m_298_26_alg».proof.Proof.RefTerm
import proofs.«208231_g67989332295774_cont_9to1_m_298_26_alg».proof.Proof.RefValue
import proofs.«208231_g67989332295774_cont_9to1_m_298_26_alg».proof.Proof.PreFacts
import Idealize.ShloMosaic.Lib.StableHlo.Run

noncomputable section

namespace Cert.Proof.Ref

open Cert.ReferenceIdeal Cert.ReferenceIdeal.Facts₀ Idealize.ShloMosaic Idealize.ShloMosaic.TcCoe Idealize.SL.Sem
  Idealize.ShloMosaic.StableHlo

variable {F : FTy → Type} [FloatOps F]

/-- The reference's operations in order, the two outlined functions unfolded at their calls. -/
abbrev ops : List (HloOp τ sig (Elt F)) :=
  [ TRef.nullary main_call0.c (constantI S_ 32 0#32),
    TRef.unary main_call0.c main_call0.v0 (broadcastInDim S1024x50 ![] bcast_S_S1024x50),
    TRef.binary (.of main_arg1) main_call0.v0 main_call0.v1 (cmpi .slt),
    TRef.nullary main_call0.c_0 (constantI S_ 32 1000#32),
    TRef.unary main_call0.c_0 main_call0.v2 (broadcastInDim S1024x50 ![] bcast_S_S1024x50),
    TRef.binary (.of main_arg1) main_call0.v2 main_call0.v3 addi,
    TRef.ternary main_call0.v1 main_call0.v3 (.of main_arg1) main_call0.call0.v0 select,
    TRef.unary main_call0.call0.v0 main_call0.v5 (broadcastInDim S1024x50x1 ![0, 1] bcast_S1024x50_S1024x50x1_0_1),
    TRef.nullary main_call0.c_1 (constantI S1 32 999#32),
    TRef.nullary main_call0.c_2 (constantI S_ 32 0#32),
    TRef.unary main_call0.c_2 main_call0.v6 (broadcastInDim S1024x50x1 ![] bcast_S_S1024x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x50x1 ![0, 1, 2] bcast_S1x1x1_S1024x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x50x1_S1024x50_d2 h_S_),
    TRef.binary (.of main_arg0) main_call0.v5 main_call0.v13 (fun x i => Host.gather gather_S1000x300_S1024x50x1_S1024x50x300_2_0_n_n_0_2_1300 x i),
    TRef.unary main_call0.v12 main_call0.v14 (broadcastInDim S1024x50x300 ![0, 1] bcast_S1024x50_S1024x50x300_0_1),
    TRef.nullary main_call0.cst (constant S_ .f32 0x7FC00000#32),
    TRef.unary main_call0.cst main_call0.v15 (broadcastInDim S1024x50x300 ![] bcast_S_S1024x50x300),
    TRef.ternary main_call0.v14 main_call0.v13 main_call0.v15 main_call0.v16 select ]

/-- @main is that straight line: the two functions' bodies unfolded at their calls and the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
/-- The fold of the operations' results at the result buffer is the composed term: each operation's result read at its
    own buffer is its function's value, at any other buffer what was there; the reduction and the lookup stay folded. -/
theorem out_eq (V : Valuation τ sig (Elt F)) :
    after ops V (main_v0 : DevRef τ sig) = refTerm (V (main_arg0 : DevRef τ sig)) (V (main_arg1 : DevRef τ sig)) := by
  after_results
  rfl

theorem arg0_eq (V : Valuation τ sig (Elt F)) :
    after ops V (main_arg0 : DevRef τ sig) = V (main_arg0 : DevRef τ sig) := by
  after_results

theorem arg1_eq (V : Valuation τ sig (Elt F)) :
    after ops V (main_arg1 : DevRef τ sig) = V (main_arg1 : DevRef τ sig) := by
  after_results

/-- On every device, for any float values, from any memory with zero counters: every weakly fair execution of @main
    terminates with the result at the operations' composed term of the arguments and the arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

/-- At the ideal instance and under the precondition (every row number between 0 and 999) the result is the
    specification's lookup of the two arguments. -/
theorem run (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      r.2.mem ((c.tc : Thread nD τ).loc main_v0)
          = Cert.Proof.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (refTerm_eq_G _ _ (Cert.Proof.PreFacts.ids_lt _ _ (hpre c))), (h c).2⟩)
    (run_term m ρ)

/-- The reference runs and leaves its arguments unchanged: the run with the result dropped. -/
theorem frame : Cert.frame_ReferenceIdeal :=
  fun m ρ hpre => (θ_run defs _ _).mono (fun _ h c => (h c).2) (run m ρ hpre)

end Cert.Proof.Ref

end
-- ==== Proof.RefAgree.lean ====
/-
  The reference's half of the comparison. The precondition speaks of the two argument arrays only, so a memory of the
  reference that agrees with a memory of the kernel on them satisfies it when the kernel's does; the reference then
  ends with the specification's lookup of the kernel's arguments in its result and its own arguments unchanged.
-/
import proofs.«208231_g67989332295774_cont_9to1_m_298_26_alg».proof.Proof.RefRun

noncomputable section

namespace Cert.Proof.Ref

open Idealize.ShloMosaic Idealize.SL.Sem

/-- Memories that agree on the two arguments satisfy the precondition together. -/
theorem pre_of_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.Pre_ReferenceIdeal m' := by
  intro c
  have h := hpre c
  rw [← (hagree c).1, ← (hagree c).2] at h
  exact h

/-- From a memory agreeing with the kernel's on the arguments, under the kernel's precondition: the reference runs,
    ends with the specification's lookup of the kernel's arguments, and leaves its own arguments unchanged. -/
theorem run_agree
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (ρ' : Dev Cert.ReferenceIdeal.nD → PrngReg)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v0)
            = Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) :=
  (θ_run Cert.ReferenceIdeal.defs _ _).mono
    (fun _ h c => ⟨by rw [(h c).1, (hagree c).1, (hagree c).2], (h c).2⟩)
    (run m' ρ' (pre_of_agree m m' hpre hagree))

end Cert.Proof.Ref

end
-- ==== Proof.Layout.lean ====
/-
  Names shared by the task's proof and the launch: the lookup kernel as the launch theorem sees it, the three arrays
  it works on (the padded table as 3000 rows of 128, the 51200 flat ids, the 153600 staged rows), and how they are
  dealt: worker w = 2·s + c (SparseCore c, subcore s) owns ids [1600·w, 1600·w + 1600) and staged rows
  [4800·w, 4800·w + 4800), and reads the whole table through a read share of its own.
-/
import proofs.«208231_g67989332295774_cont_9to1_m_298_26_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«208231_g67989332295774_cont_9to1_m_298_26_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters
abbrev EH : Emb UH (MT nD τ sig (HIx 1) (Elt F) ℕ UU ℕ) := embL

/-! ## The arrays and the scratch -/

/-- The padded table as 3000 rows of 128, the flat ids, the staged output: as locations of device `d`. -/
abbrev tLoc (d : Dev nD) : Loc nD τ sig := (SparseCore.T d).loc main_v2
abbrev iLoc (d : Dev nD) : Loc nD τ sig := (SparseCore.T d).loc main_v0
abbrev oLoc (d : Dev nD) : Loc nD τ sig := (SparseCore.T d).loc main_v3

abbrev tV : Memref sig .scVector .hbm S3000x128 .f32 := Memref.whole main_v2_scv
abbrev iV : Memref sig .scVector .hbm S51200 .i32 := Memref.whole main_v0_scv
abbrev oV : Memref sig .scVector .hbm S153600x128 .f32 := Memref.whole main_v3_scv
/-- A subcore's scratch: its 1600 ids, the two lists of 120 row numbers, the two buffers of 120 rows. -/
abbrev s5 : Memref sig .scVector .vmem S1600 .i32 := Memref.whole cc0_scratch0
abbrev s6 : Memref sig .scVector .vmem S2x120 .i32 := Memref.whole cc0_scratch1
abbrev s7 : Memref sig .scVector .vmem S2x120x128 .f32 := Memref.whole cc0_scratch2

abbrev cV (L : grid0.Coords) : Fin τ.nSC := (L 0).castLE hcore0
abbrev jV (L : grid0.Coords) : Fin τ.nSub := (L 1).castLE hsub0

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The worker number of a grid point: 2·s + c. -/
def wid (L : grid0.Coords) : ℕ := 2 * (L 1).val + (L 0).val
theorem wid_lt (L : grid0.Coords) : wid L < 32 := by
  have h0 : (L 0).val < 2 := (L 0).isLt
  have h1 : (L 1).val < 16 := (L 1).isLt
  unfold wid; omega

/-- The task's 1600 ids, as the program slices them. -/
abbrev iSl (L : grid0.Coords) : Memref sig .scVector .hbm S1600 .i32 :=
  (iV).slice (Rect.unit (s := S51200) (k0_off1 L) S1600.size (k0_off1_inb L)) (fun _ => rfl)
abbrev iSet (L : grid0.Coords) : Finset S51200.Idx := (iSl L).view.set

theorem oR_inb (L : grid0.Coords) : ∀ a, (![9600 * (L 1).val + 4800 * (L 0).val, 0] : Fin 2 → Nat) a + (![4800, 128] : Fin 2 → Nat) a ≤ S153600x128.size a := by
  have h0 : (L 0).val < 2 := (L 0).isLt
  have h1 : (L 1).val < 16 := (L 1).isLt
  intro a; fin_cases a <;> simp <;> omega
/-- The task's 4800 rows of the staged output. -/
abbrev oR (L : grid0.Coords) : Rect S153600x128 := Rect.unit (s := S153600x128) ![9600 * (L 1).val + 4800 * (L 0).val, 0] ![4800, 128] (oR_inb L)
abbrev oSet (L : grid0.Coords) : Finset S153600x128.Idx := (oV).view.setOn (oR L).set

/-- The task's read share of the table: the full share dealt to the two SparseCores, each one's to its sixteen subcores. -/
abbrev tq (L : grid0.Coords) : PosShare TreeShare :=
  Transfers.shareTok (Transfers.shareTok fullShare 2 ⟨(L 0).val, (L 0).isLt⟩) 16 ⟨(L 1).val, (L 1).isLt⟩

/-- The subcore's five DMA semaphores: the two gathers', the two write-backs', the ids fetch's. -/
abbrev c3cell (d : Dev nD) (c : Fin τ.nSC) (i : Fin τ.nSub) : GSem nD τ sig := (V d c i, .dma cc0_scratch3.sem)
abbrev c4cell (d : Dev nD) (c : Fin τ.nSC) (i : Fin τ.nSub) : GSem nD τ sig := (V d c i, .dma cc0_scratch4.sem)
abbrev c5cell (d : Dev nD) (c : Fin τ.nSC) (i : Fin τ.nSub) : GSem nD τ sig := (V d c i, .dma cc0_scratch5.sem)
abbrev c6cell (d : Dev nD) (c : Fin τ.nSC) (i : Fin τ.nSub) : GSem nD τ sig := (V d c i, .dma cc0_scratch6.sem)
abbrev c7cell (d : Dev nD) (c : Fin τ.nSC) (i : Fin τ.nSub) : GSem nD τ sig := (V d c i, .dma cc0_scoped0.sem)

end Cert.Proof.KI

end
-- ==== Proof.HostValue.lean ====
/-
  The host side of the kernel program around its SparseCore call, as index mathematics.

  Before the call the program flattens the 1024 × 50 array of row numbers to 51200 words, pads each table row of 300
  numbers on the right with a converted zero to 384, and cuts every padded row into three rows of 128: table row r
  becomes rows 3r, 3r+1, 3r+2 of a 3000 × 128 array. After the call it reads the 153600 × 128 result as
  1024 × 50 × 384 and keeps the first 300 numbers of each row of 384.

  Each of these is a re-indexing: a reshape keeps the row-major position, the pad is the table inside the first 300
  columns and the padding value outside, the slice is the identity on the indices it keeps. Read at one index:
    flat word n            = ids (n / 50, n % 50)
    padded row 3r + t, j   = tab (r, 128 t + j)  when 128 t + j < 300, the padding value otherwise
    result (b, l, k)       = staged (3 (50 b + l) + k / 128, k % 128)
  So if the call leaves at rows 3n .. 3n+2 of the staged array the three padded rows of the table row that flat word n
  names, then the result at (b, l, k) is tab (ids (b, l), 128 (k / 128) + k % 128) = tab (ids (b, l), k): the lookup.
  Since k < 300 the padding value never shows.
-/
import proofs.«208231_g67989332295774_cont_9to1_m_298_26_alg».proof.KernelIdeal
import proofs.«208231_g67989332295774_cont_9to1_m_298_26_alg».proof.Proof.Spec
import Idealize.ShloMosaic.Lib.Pipeline.Value
import Idealize.ShloMosaic.Lib.KernelVsHost
import Idealize.ShloMosaic.Lib.ValueIdx

noncomputable section

namespace Cert.Proof.HostValue

open Idealize.ShloMosaic Idealize.ShloMosaic.ValueIdx Cert.KernelIdeal
open Cert.KernelIdeal.Facts₀ Cert.KernelIdeal.Facts

variable {F : FTy → Type} [FloatOps F] [Cert.KernelIdeal.Facts]

/-! ## The three host stretches as pure terms -/

/-- The row numbers flattened: the reshape of the 1024 × 50 array to 51200 words. -/
def idsFlat (ids : IVec S1024x50 32) : IVec S51200 32 :=
  shapeCast S51200 ids shapeCasts_S1024x50_S51200

/-- The padding value: the zero word converted to a float. -/
def padVal : F .f32 := FloatOps.sitofp .f32 (0#32 : BitVec 32)

/-- The table as the call reads it: each row padded on the right with the converted zero to 384 numbers, the padded
    array reshaped to rows of 128. -/
def t3 (tab : Vec F S1000x300 .f32) : Vec F S3000x128 .f32 :=
  shapeCast S3000x128
    (pad S1000x384 ![0, 0] ![0, 84] ![0, 0] tab (sitofp (F := F) .f32 (constantI S_ 32 0#32))
      pads_S1000x300_S1000x384_000_0840 h_S_)
    shapeCasts_S1000x384_S3000x128

/-- The program's result from what the call wrote: the reshape to 1024 × 50 × 384, then the first 300 of each 384. -/
def outOf (staged : Vec F S153600x128 .f32) : Vec F S1024x50x300 .f32 :=
  extractStridedSlice S1024x50x300 ![0, 0, 0]
    (shapeCast S1024x50x384 staged shapeCasts_S153600x128_S1024x50x384)
    slices_S1024x50x384_S1024x50x300_0_0_0

/-! ## Each read at an index -/

/-- Flat word n is the row number at (n / 50, n % 50). -/
theorem idsFlat_apply (ids : IVec S1024x50 32) (n : Fin 51200) :
    idsFlat ids (ix1 n)
      = ids (ix2 (⟨n.val / 50, by omega⟩ : Fin 1024) (⟨n.val % 50, by omega⟩ : Fin 50)) := by
  unfold idsFlat
  refine shapeCast_apply ids _ (ix1 n) _ ?_
  rw [Shape.rowMajor_val_two, Shape.rowMajor_val_one]
  show n.val / 50 * 50 + n.val % 50 = n.val
  omega

/-- Every flat word is one of the row numbers, so a bound on all of those bounds it. -/
theorem idsFlat_lt (ids : IVec S1024x50 32) (h : ∀ j, (ids j).toNat < 1000) : ∀ n, (idsFlat ids n).toNat < 1000 :=
  fun n => h _

/-- Row 3 r + t of the padded and cut table, at lane j, is entry 128 t + j of table row r while that is a column
    of the table, and the padding value past it. -/
theorem t3_apply (tab : Vec F S1000x300 .f32) (r : Fin 1000) (t : Fin 3) (j : Fin 128) :
    t3 tab (ix2 (⟨3 * r.val + t.val, by omega⟩ : Fin 3000) j)
      = if h : 128 * t.val + j.val < 300 then tab (ix2 r (⟨128 * t.val + j.val, h⟩ : Fin 300))
        else (padVal : F .f32) := by
  unfold t3
  -- the reshape: row 3r + t, lane j of the cut array is row r, column 128 t + j of the padded one
  refine (shapeCast_apply _ _ _ (ix2 r (⟨128 * t.val + j.val, by omega⟩ : Fin 384)) ?_).trans ?_
  · rw [Shape.rowMajor_val_two, Shape.rowMajor_val_two]
    show r.val * 384 + (128 * t.val + j.val) = (3 * r.val + t.val) * 128 + j.val
    omega
  by_cases h : 128 * t.val + j.val < 300
  · rw [dif_pos h]
    refine pad_apply_of_inside _ _ _ _ _ _ _ _ _ fun a => ?_
    match a with
    | ⟨0, _⟩ => show r.val = 0 + r.val * (0 + 1); omega
    | ⟨1, _⟩ => show 128 * t.val + j.val = 0 + (128 * t.val + j.val) * (0 + 1); omega
  · rw [dif_neg h]
    refine (pad_apply_of_not_inside _ _ _ _ _ _ _ _ (⟨1, by decide⟩ : Fin 2) ?_).trans rfl
    show ¬(0 ≤ 128 * t.val + j.val ∧ (128 * t.val + j.val - 0) % (0 + 1) = 0
      ∧ (128 * t.val + j.val - 0) / (0 + 1) < 300)
    omega

/-- The result at (b, l, k) is what the call wrote at row 3 (50 b + l) + k / 128, lane k % 128. -/
theorem outOf_apply (staged : Vec F S153600x128 .f32) (b : Fin 1024) (l : Fin 50) (k : Fin 300) :
    outOf staged (ix3 b l k)
      = staged (ix2 (⟨3 * (50 * b.val + l.val) + k.val / 128, by omega⟩ : Fin 153600)
          (⟨k.val % 128, by omega⟩ : Fin 128)) := by
  unfold outOf
  -- the slice keeps the index
  refine (extractStridedSlice_apply _ _ _ (ix3 b l k) (ix3 b l (⟨k.val, by omega⟩ : Fin 384)) fun a => ?_).trans ?_
  · match a with
    | ⟨0, _⟩ => show b.val = 0 + b.val; omega
    | ⟨1, _⟩ => show l.val = 0 + l.val; omega
    | ⟨2, _⟩ => show k.val = 0 + k.val; omega
  -- the reshape keeps the row-major position
  refine shapeCast_apply staged _ _ _ ?_
  rw [Shape.rowMajor_val_two, Shape.rowMajor_val_three]
  show (3 * (50 * b.val + l.val) + k.val / 128) * 128 + k.val % 128 = (b.val * 50 + l.val) * 384 + k.val
  omega

/-! ## The program's result is the lookup -/

/-- If the call leaves, at rows 3 n .. 3 n + 2 of the staged array, the three padded rows of the table row that flat
    word n names, the program's result is the lookup. -/
theorem final_eq_G (tab : Vec F S1000x300 .f32) (ids : IVec S1024x50 32) (staged : Vec F S153600x128 .f32)
    (hids : ∀ j, (ids j).toNat < 1000)
    (hst : ∀ (n : Fin 51200) (t : Fin 3) (j : Fin 128),
      staged (ix2 (⟨3 * n.val + t.val, by omega⟩ : Fin 153600) j)
        = t3 tab (ix2 (⟨3 * (idsFlat ids (ix1 n)).toNat + t.val, by
            have := idsFlat_lt ids hids (ix1 n); omega⟩ : Fin 3000) j)) :
    outOf staged = Cert.Proof.Spec.G tab ids := by
  funext y
  obtain ⟨b, l, k, rfl⟩ : ∃ (b : Fin 1024) (l : Fin 50) (k : Fin 300), y = ix3 b l k := ⟨y 0, y 1, y 2, eq_ix3 y⟩
  rw [outOf_apply, Cert.Proof.Spec.G_apply]
  -- the flat position of (b, l), the third of the row and the lane that k falls in
  have hn : 50 * b.val + l.val < 51200 := by omega
  have hst' := hst ⟨50 * b.val + l.val, hn⟩ ⟨k.val / 128, by omega⟩ ⟨k.val % 128, by omega⟩
  -- the flat word there is the row number at (b, l)
  have hw : idsFlat ids (ix1 (⟨50 * b.val + l.val, hn⟩ : Fin 51200)) = ids (ix2 b l) := by
    rw [idsFlat_apply]
    have e2 : ∀ (a a' : Fin 1024) (c c' : Fin 50), a = a' → c = c' → ids (ix2 a c) = ids (ix2 a' c') := by
      intro a a' c c' h1 h2; rw [h1, h2]
    refine e2 _ _ _ _ (Fin.ext ?_) (Fin.ext ?_)
    · show (50 * b.val + l.val) / 50 = b.val
      omega
    · show (50 * b.val + l.val) % 50 = l.val
      omega
  have hlt : (idsFlat ids (ix1 (⟨50 * b.val + l.val, hn⟩ : Fin 51200))).toNat < 1000 := idsFlat_lt ids hids _
  -- so the staged row is a padded row of the table row ids (b, l) names; entry k of it is inside the table
  refine hst'.trans ((t3_apply tab ⟨_, hlt⟩ ⟨k.val / 128, by omega⟩ ⟨k.val % 128, by omega⟩).trans ?_)
  have hk : 128 * (k.val / 128) + k.val % 128 < 300 := by omega
  rw [dif_pos hk]
  have e : ∀ (a a' : Fin 1000) (c c' : Fin 300), a = a' → c = c' → tab (ix2 a c) = tab (ix2 a' c') := by
    intro a a' c c' h1 h2; rw [h1, h2]
  refine e _ _ _ _ (Fin.ext ?_) (Fin.ext ?_)
  · show (idsFlat ids (ix1 (⟨50 * b.val + l.val, hn⟩ : Fin 51200))).toNat = (Cert.Proof.Spec.rowOf (ids (ix2 b l))).val
    rw [hw, Cert.Proof.Spec.rowOf_val_of_lt (hids _)]
  · show 128 * (k.val / 128) + k.val % 128 = k.val
    omega

end Cert.Proof.HostValue

end
-- ==== Proof.Pay.lean ====
/-
  What the one SparseCore call carries. Each worker is handed its 1600 ids, a read share of the padded table and its
  4800 staged rows; it hands them back with the staged rows holding, for each of its ids n and each third t of the
  padded row, the 128 numbers of table row 3·ids(n) + t. A SparseCore's share is its sixteen workers' together.
-/
import proofs.«208231_g67989332295774_cont_9to1_m_298_26_alg».proof.Proof.Layout
import proofs.«208231_g67989332295774_cont_9to1_m_298_26_alg».proof.Proof.HostValue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ)

/-- The flat ids and the padded table as 3000 rows of 128: what @main's operations before the call leave. -/
def idsF (d : Dev nD) : Buf (Elt F) (iLoc d) := Cert.Proof.HostValue.idsFlat (m ((SparseCore.T d).loc main_arg1))
def tabF (d : Dev nD) : Buf (Elt F) (tLoc d) := Cert.Proof.HostValue.t3 (F := F) (m ((SparseCore.T d).loc main_arg0))

/-- Row 3·w + t of the 3000, clamped so that the term is total (under the precondition w < 1000 and nothing is clamped). -/
def row3 (w : BitVec 32) (t : Fin 3) : Fin 3000 := ⟨min (3 * w.toNat + t.val) 2999, by omega⟩

theorem row3_val {w : BitVec 32} (h : w.toNat < 1000) (t : Fin 3) : (row3 w t).val = 3 * w.toNat + t.val := by
  show min (3 * w.toNat + t.val) 2999 = _
  omega

/-- What worker `L` leaves in the staged output: for each of its 1600 ids, the three 128-wide pieces of that table row. -/
def TileVal (d : Dev nD) (L : grid0.Coords) (f : Buf (Elt F) (oLoc d)) : Prop :=
  ∀ (n : Fin 1600) (t : Fin 3) (j : Fin 128),
    f (ix2 (⟨3 * (1600 * wid L + n.val) + t.val, by have := wid_lt L; omega⟩ : Fin 153600) j)
      = tabF m d (ix2 (row3 (idsF m d (ix1 (⟨1600 * wid L + n.val, by have := wid_lt L; omega⟩ : Fin 51200))) t) j)

/-- The grid point of the launch's SparseCore `c`, subcore `i`. -/
def LL (c : Fin ((K (F := F)).nCore 0)) (i : Fin ((K (F := F)).nSub 0)) : grid0.Coords := coordsV ⟨c.val, c.isLt⟩ ⟨i.val, i.isLt⟩

def goP (d : Dev nD) (L : grid0.Coords) : sProp 𝕄 :=
  iprop((iLoc d ↦[iSet L]{fullShare} idsF m d) ∗ (tLoc d ↦{tq L} tabF m d) ∗ ∃ f, oLoc d ↦[oSet L]{fullShare} f)
def tdP (d : Dev nD) (L : grid0.Coords) : sProp 𝕄 :=
  iprop((iLoc d ↦[iSet L]{fullShare} idsF m d) ∗ (tLoc d ↦{tq L} tabF m d) ∗ ∃ f, ⌜TileVal m d L f⌝ ∗ oLoc d ↦[oSet L]{fullShare} f)

instance goP_storable (d : Dev nD) (L : grid0.Coords) : BI.Storable (upEmb : UEmb _ 𝕄) (goP m d L) := by unfold goP; infer_instance
instance tdP_storable (d : Dev nD) (L : grid0.Coords) : BI.Storable (upEmb : UEmb _ 𝕄) (tdP m d L) := by unfold tdP; infer_instance

def P : (K (F := F)).Pay (nD := nD) (Val := Elt F) (Name := ℕ) (U := UU) where
  st := fun q d c => match q with | 0 => bigSep Finset.univ fun i => goP m d (LL c i)
  dn := fun q d c => match q with | 0 => bigSep Finset.univ fun i => tdP m d (LL c i)
  go := fun q d c i => match q with | 0 => goP m d (LL c i)
  td := fun q d c i => match q with | 0 => tdP m d (LL c i)
  x := fun _ _ => iprop(emp)

instance P_storable : (P (F := F) m).IsStorable where
  st q d c := match q with | 0 => (inferInstance : BI.Storable (upEmb : UEmb _ 𝕄) (bigSep Finset.univ fun i => goP m d (LL c i)))
  dn q d c := match q with | 0 => (inferInstance : BI.Storable (upEmb : UEmb _ 𝕄) (bigSep Finset.univ fun i => tdP m d (LL c i)))
  go q d c i := match q with | 0 => (inferInstance : BI.Storable (upEmb : UEmb _ 𝕄) (goP m d (LL c i)))
  td q d c i := match q with | 0 => (inferInstance : BI.Storable (upEmb : UEmb _ 𝕄) (tdP m d (LL c i)))

/-- A SparseCore's share is its workers' shares: nothing to split. -/
theorem vecSplit : (K (F := F)).VecSplit' (P m) 0 := by
  intro d c
  show (bigSep Finset.univ fun i => goP m d (LL c i)) ⊢ |={Set.univ}=> iprop((bigSep Finset.univ fun i => goP m d (LL c i))
    ∗ ((bigSep Finset.univ fun i => tdP m d (LL c i)) -∗ bigSep Finset.univ fun i => tdP m d (LL c i)))
  iintro H; imodintro
  isplitl [H]; · iexact H
  iintro H; iexact H

end Cert.Proof.KI

end
-- ==== Proof.Split.lean ====
/-
  How the launch deals the three HBM arrays among the 32 workers, and how it gathers them again.

  Worker w = 2·s + c (SparseCore c of 2, subcore s of 16) takes the ids [1600·w, 1600·w + 1600) and the staged rows
  [4800·w, 4800·w + 4800). As w runs over 0 .. 31 these intervals are pairwise disjoint and cover [0, 51200) and
  [0, 153600): so whole ownership of the ids array, and of the staged array, is the separating conjunction of the
  workers' pieces. Joined back, the workers' pieces of the staged array, each at its own contents, are one array that
  agrees with each worker's contents on that worker's rows. The table is read by all: its full share is dealt in two
  levels, a read token per SparseCore and of that a read token per subcore, the undealt remainders kept aside.
-/
import proofs.«208231_g67989332295774_cont_9to1_m_298_26_alg».proof.Proof.Layout
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The workers' pieces as intervals of the leading coordinate -/

theorem wid_coordsV (c : Fin (grid0.bound 0)) (s : Fin (grid0.bound 1)) : wid (coordsV c s) = 2 * s.val + c.val := rfl

/-- A worker's ids are the flat positions [1600·w, 1600·w + 1600). -/
theorem mem_iSet (L : grid0.Coords) (x : S51200.Idx) :
    x ∈ iSet L ↔ 1600 * wid L ≤ (x 0).val ∧ (x 0).val < 1600 * wid L + 1600 := by
  have e : iSet L = (Rect.unit (s := S51200) (k0_off1 L) S1600.size (k0_off1_inb L)).set := by
    show ((View.whole (main_v0_scv : Ref sig .scVector)).slice _).set = _
    rw [View.set_slice]; exact Finset.map_refl
  rw [e, Rect.mem_set_unit, k0_off1_eq]
  unfold wid
  constructor
  · intro h
    have h0 := h 0
    have e0 : (![3200 * (L 1).val + 1600 * (L 0).val] : Fin 1 → Nat) 0 = 3200 * (L 1).val + 1600 * (L 0).val := rfl
    have e1 : S1600.size 0 = 1600 := rfl
    rw [e0, e1] at h0
    omega
  · intro h a
    match a with
    | ⟨0, _⟩ =>
      show 3200 * (L 1).val + 1600 * (L 0).val ≤ (x 0).val ∧ (x 0).val < 3200 * (L 1).val + 1600 * (L 0).val + 1600
      omega

/-- A worker's staged rows are the rows [4800·w, 4800·w + 4800), every lane of them. -/
theorem mem_oSet (L : grid0.Coords) (x : S153600x128.Idx) :
    x ∈ oSet L ↔ 4800 * wid L ≤ (x 0).val ∧ (x 0).val < 4800 * wid L + 4800 := by
  have e : oSet L = (oR L).set := Finset.map_refl
  rw [e, Rect.mem_set_unit]
  unfold wid
  constructor
  · intro h
    have h0 := h 0
    have e0 : (![9600 * (L 1).val + 4800 * (L 0).val, 0] : Fin 2 → Nat) 0 = 9600 * (L 1).val + 4800 * (L 0).val := rfl
    have e1 : (![4800, 128] : Fin 2 → Nat) 0 = 4800 := rfl
    rw [e0, e1] at h0
    omega
  · intro h a
    have hx1 : (x 1).val < 128 := (x 1).isLt
    match a with
    | ⟨0, _⟩ =>
      show 9600 * (L 1).val + 4800 * (L 0).val ≤ (x 0).val ∧ (x 0).val < 9600 * (L 1).val + 4800 * (L 0).val + 4800
      omega
    | ⟨1, _⟩ =>
      show 0 ≤ (x 1).val ∧ (x 1).val < 0 + 128
      omega

/-- The workers as pairs (SparseCore, subcore). -/
abbrev workers : Finset (Fin (grid0.bound 0) × Fin (grid0.bound 1)) := Finset.univ ×ˢ Finset.univ

/-- Different pairs are different worker numbers. -/
theorem wid_ne {p p' : Fin (grid0.bound 0) × Fin (grid0.bound 1)} (h : p ≠ p') :
    wid (coordsV p.1 p.2) ≠ wid (coordsV p'.1 p'.2) := by
  intro e
  rw [wid_coordsV, wid_coordsV] at e
  have h1 : p.1.val < 2 := p.1.isLt
  have h2 : p'.1.val < 2 := p'.1.isLt
  exact h (Prod.ext (Fin.ext (by omega)) (Fin.ext (by omega)))

theorem iSets_disjoint : ∀ p ∈ workers, ∀ p' ∈ workers, p ≠ p' → Disjoint (iSet (coordsV p.1 p.2)) (iSet (coordsV p'.1 p'.2)) := by
  intro p _ p' _ h
  have hw := wid_ne h
  refine Finset.disjoint_left.mpr fun x hx hx' => ?_
  rw [mem_iSet] at hx hx'
  omega

theorem oSets_disjoint : ∀ p ∈ workers, ∀ p' ∈ workers, p ≠ p' → Disjoint (oSet (coordsV p.1 p.2)) (oSet (coordsV p'.1 p'.2)) := by
  intro p _ p' _ h
  have hw := wid_ne h
  refine Finset.disjoint_left.mpr fun x hx hx' => ?_
  rw [mem_oSet] at hx hx'
  omega

/-- Every worker number below 32 is a pair's. -/
theorem exists_worker (w : ℕ) (hw : w < 32) : ∃ p ∈ workers, wid (coordsV p.1 p.2) = w :=
  ⟨(⟨w % 2, by show w % 2 < 2; omega⟩, ⟨w / 2, by show w / 2 < 16; omega⟩), Finset.mem_product.mpr ⟨Finset.mem_univ _, Finset.mem_univ _⟩, by
    rw [wid_coordsV]; show 2 * (w / 2) + w % 2 = w; omega⟩

theorem iSets_cover : workers.biUnion (fun p => iSet (coordsV p.1 p.2)) = Finset.univ := by
  refine Finset.eq_univ_iff_forall.mpr fun x => ?_
  have hx : (x 0).val < 51200 := (x 0).isLt
  obtain ⟨p, hp, e⟩ := exists_worker ((x 0).val / 1600) (by omega)
  refine Finset.mem_biUnion.mpr ⟨p, hp, ?_⟩
  rw [mem_iSet, e]
  omega

theorem oSets_cover : workers.biUnion (fun p => oSet (coordsV p.1 p.2)) = Finset.univ := by
  refine Finset.eq_univ_iff_forall.mpr fun x => ?_
  have hx : (x 0).val < 153600 := (x 0).isLt
  obtain ⟨p, hp, e⟩ := exists_worker ((x 0).val / 4800) (by omega)
  refine Finset.mem_biUnion.mpr ⟨p, hp, ?_⟩
  rw [mem_oSet, e]
  omega

/-! ## The ids and the staged rows, dealt -/

/-- Whole ownership of the ids is the workers' pieces. -/
theorem iPts_split (d : Dev nD) (f : Buf (Elt F) (iLoc d)) :
    (iLoc d ↦{fullShare} f : sProp 𝕄) = bigSep Finset.univ fun c : Fin (grid0.bound 0) =>
      bigSep Finset.univ fun s : Fin (grid0.bound 1) => iLoc d ↦[iSet (coordsV c s)]{fullShare} f := by
  rw [← SparseCore.bigSep_product Finset.univ Finset.univ
      (fun p : Fin (grid0.bound 0) × Fin (grid0.bound 1) => (iLoc d ↦[iSet (coordsV p.1 p.2)]{fullShare} f : sProp 𝕄)),
    ← pointsTo_biUnion workers (ℓ := iLoc d) (fun p => iSet (coordsV p.1 p.2)) iSets_disjoint, iSets_cover]

/-- Whole ownership of the staged array is the workers' pieces. -/
theorem oPts_split (d : Dev nD) (f : Buf (Elt F) (oLoc d)) :
    (oLoc d ↦{fullShare} f : sProp 𝕄) = bigSep Finset.univ fun c : Fin (grid0.bound 0) =>
      bigSep Finset.univ fun s : Fin (grid0.bound 1) => oLoc d ↦[oSet (coordsV c s)]{fullShare} f := by
  rw [← SparseCore.bigSep_product Finset.univ Finset.univ
      (fun p : Fin (grid0.bound 0) × Fin (grid0.bound 1) => (oLoc d ↦[oSet (coordsV p.1 p.2)]{fullShare} f : sProp 𝕄)),
    ← pointsTo_biUnion workers (ℓ := oLoc d) (fun p => oSet (coordsV p.1 p.2)) oSets_disjoint, oSets_cover]

/-! ## The table's read shares -/

/-- What the two-level deal of the table's share leaves undealt: the remainder after the two SparseCores' tokens, and
    of each SparseCore's token the remainder after its sixteen subcores' tokens. -/
def tRest (d : Dev nD) (f : Buf (Elt F) (tLoc d)) : sProp 𝕄 :=
  iprop((tLoc d ↦{Transfers.shareDrop fullShare 2} f) ∗
    bigSep Finset.univ fun c : Fin (grid0.bound 0) => tLoc d ↦{Transfers.shareDrop (Transfers.shareTok fullShare 2 c) 16} f)

/-- Whole ownership of the table is the workers' read shares and the undealt remainders. -/
theorem tPts_split (d : Dev nD) (f : Buf (Elt F) (tLoc d)) :
    (tLoc d ↦{fullShare} f : sProp 𝕄) ⊣⊢ iprop(tRest d f ∗ bigSep Finset.univ fun c : Fin (grid0.bound 0) =>
      bigSep Finset.univ fun s : Fin (grid0.bound 1) => tLoc d ↦{tq (coordsV c s)} f) := by
  -- the first level: a token per SparseCore
  have e1 : (tLoc d ↦{fullShare} f : sProp 𝕄)
      = iprop((tLoc d ↦{Transfers.shareDrop fullShare 2} f) ∗
          bigSep Finset.univ fun c : Fin (grid0.bound 0) => tLoc d ↦{Transfers.shareTok fullShare 2 c} f) :=
    BI.equiv_iff.mp ⟨(Transfers.pointsTo_toks fullShare 2).1, (Transfers.pointsTo_toks fullShare 2).2⟩
  -- the second: of each, a token per subcore
  have e2 : ∀ c : Fin (grid0.bound 0), (tLoc d ↦{Transfers.shareTok fullShare 2 c} f : sProp 𝕄)
      = iprop((tLoc d ↦{Transfers.shareDrop (Transfers.shareTok fullShare 2 c) 16} f) ∗
          bigSep Finset.univ fun s : Fin (grid0.bound 1) => tLoc d ↦{tq (coordsV c s)} f) :=
    fun c => BI.equiv_iff.mp ⟨(Transfers.pointsTo_toks (Transfers.shareTok fullShare 2 c) 16).1,
      (Transfers.pointsTo_toks (Transfers.shareTok fullShare 2 c) 16).2⟩
  unfold tRest
  rw [e1, bigSep_congr (s := Finset.univ) fun c _ => e2 c, bigSep_sep']
  exact ⟨sep_assoc', sep_assoc⟩

/-! ## The staged rows, gathered -/

variable [FloatOps F]

/-- Each worker leaves its rows at some contents, with a fact about them; together they are one array that agrees with
    each worker's contents on that worker's rows. -/
theorem oPts_join (d : Dev nD) (Φ : grid0.Coords → Buf (Elt F) (oLoc d) → Prop) :
    (bigSep Finset.univ fun c : Fin (grid0.bound 0) => bigSep Finset.univ fun s : Fin (grid0.bound 1) =>
        iprop(∃ f, ⌜Φ (coordsV c s) f⌝ ∗ oLoc d ↦[oSet (coordsV c s)]{fullShare} f))
      ⊢ (iprop(∃ g, ⌜∀ c s, ∃ f, Φ (coordsV c s) f ∧ ∀ x ∈ oSet (coordsV c s), g x = f x⌝ ∗ oLoc d ↦{fullShare} g) : sProp 𝕄) := by
  rw [← SparseCore.bigSep_product Finset.univ Finset.univ
      (fun p : Fin (grid0.bound 0) × Fin (grid0.bound 1) =>
        (iprop(∃ f, ⌜Φ (coordsV p.1 p.2) f⌝ ∗ oLoc d ↦[oSet (coordsV p.1 p.2)]{fullShare} f) : sProp 𝕄))]
  -- one contents per worker
  refine (bigSep_exists_pi workers (fun p (f : Buf (Elt F) (oLoc d)) =>
    (iprop(⌜Φ (coordsV p.1 p.2) f⌝ ∗ oLoc d ↦[oSet (coordsV p.1 p.2)]{fullShare} f) : sProp 𝕄))).trans ?_
  iintro ⟨%fs, H⟩
  -- the facts aside, the pieces joined along the disjoint row blocks
  ihave H1 := (bigSep_pure_sep workers (fun p => Φ (coordsV p.1 p.2) (fs p))
    (fun p => (oLoc d ↦[oSet (coordsV p.1 p.2)]{fullShare} fs p : sProp 𝕄))) $$ H
  icases H1 with ⟨%hΦ, H2⟩
  ihave H' := (pointsTo_biUnion_join (ℓ := oLoc d) (q := fullShare) (Val := Elt F) workers
    (fun p => oSet (coordsV p.1 p.2)) fs (fs (⟨0, by decide⟩, ⟨0, by decide⟩)) oSets_disjoint) $$ H2
  icases H' with ⟨%g, %hg, Hg⟩
  rw [oSets_cover]
  iexists g
  isplitr
  · ipureintro
    intro c s
    have hm : (c, s) ∈ workers := Finset.mem_product.mpr ⟨Finset.mem_univ _, Finset.mem_univ _⟩
    exact ⟨fs (c, s), hΦ (c, s) hm, fun x hx => hg (c, s) hm x hx⟩
  · iexact Hg

end Cert.Proof.KI

end
-- ==== Proof.Main.lean ====
/-
  The lookup kernel's program, assembled. The TensorCore flattens the row numbers, pads each table row to 384 and cuts it
  into three rows of 128, starts the two SparseCores and waits for them, then reads what they staged as 1024 × 50 × 384
  and keeps the first 300 of each 384. For the call, the ids and the staged rows are dealt to the 32 workers by disjoint
  intervals that cover them, the table by read shares; each worker hands back its rows holding, for each of its ids and
  each third of the padded row, the 128 numbers of that table row. Joined back, the staged array agrees on each worker's
  rows with contents satisfying that worker's fact; since the row blocks tile the array this determines every staged row,
  and the program's re-indexing of it is the lookup. So, given the one task's body: every weakly fair execution of all
  the device's threads terminates with the result the specification's lookup of the arguments, the arguments unchanged.
-/
import proofs.«208231_g67989332295774_cont_9to1_m_298_26_alg».proof.Proof.Pay
import proofs.«208231_g67989332295774_cont_9to1_m_298_26_alg».proof.Proof.Split
import proofs.«208231_g67989332295774_cont_9to1_m_298_26_alg».proof.Proof.HostValue

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The launch element: the handshakes' rounds; nothing of the kernel's own -/

def u₀ : UU := (initOf (K (F := F)).hsCells (K (F := F)).hsToks, 1)

theorem bigSep_emp' {I : Type} (s : Finset I) : (bigSep s fun _ => iprop(emp)) = (iprop(emp) : sProp 𝕄) := bigSep_emp_const s

variable [FloatOps F]

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The TensorCore's ten arrays -/

abbrev a0' : DevRef τ sig := Proc.devRef .tc (main_arg0 : Ref sig .tc)
abbrev a1' : DevRef τ sig := Proc.devRef .tc (main_arg1 : Ref sig .tc)
abbrev i' : DevRef τ sig := Proc.devRef .tc (main_v0 : Ref sig .tc)
abbrev c' : DevRef τ sig := Proc.devRef .tc (main_c : Ref sig .tc)
abbrev cv' : DevRef τ sig := Proc.devRef .tc (main_call0_v0 : Ref sig .tc)
abbrev p' : DevRef τ sig := Proc.devRef .tc (main_v1 : Ref sig .tc)
abbrev t' : DevRef τ sig := Proc.devRef .tc (main_v2 : Ref sig .tc)
abbrev o' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)

/-- The TensorCore's arrays, all unscoped. -/
abbrev S10 : Finset (DevRef τ sig) := {a0', a1', i', c', cv', p', t', o', r4', r5'}

abbrev a0Loc (d : Dev nD) : Loc nD τ sig := (SparseCore.T d).loc main_arg0
abbrev a1Loc (d : Dev nD) : Loc nD τ sig := (SparseCore.T d).loc main_arg1
abbrev r5Loc (d : Dev nD) : Loc nD τ sig := (SparseCore.T d).loc main_v5

omit [FloatOps F] in
theorem held_S10 (d : Dev nD) (W : Valuation τ sig (Elt F)) :
    (held (T d) S10 W : sProp 𝕄) = iprop((a0Loc d ↦{fullShare} W a0') ∗ (a1Loc d ↦{fullShare} W a1') ∗ (iLoc d ↦{fullShare} W i')
      ∗ ((SparseCore.T d).loc main_c ↦{fullShare} W c') ∗ ((SparseCore.T d).loc main_call0_v0 ↦{fullShare} W cv')
      ∗ ((SparseCore.T d).loc main_v1 ↦{fullShare} W p') ∗ (tLoc d ↦{fullShare} W t') ∗ (oLoc d ↦{fullShare} W o')
      ∗ ((SparseCore.T d).loc main_v4 ↦{fullShare} W r4') ∗ (r5Loc d ↦{fullShare} W r5')) := by
  unfold held S10
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (iLoc d ↦{fullShare} W main_v0)
      ∗ ((SparseCore.T d).loc main_c ↦{fullShare} W main_c) ∗ ((SparseCore.T d).loc main_call0_v0 ↦{fullShare} W main_call0_v0)
      ∗ ((SparseCore.T d).loc main_v1 ↦{fullShare} W main_v1) ∗ (tLoc d ↦{fullShare} W main_v2) ∗ (oLoc d ↦{fullShare} W main_v3)
      ∗ ((SparseCore.T d).loc main_v4 ↦{fullShare} W main_v4) ∗ (r5Loc d ↦{fullShare} W main_v5)) := by
  unfold unscopedBufs
  rw [show (Finset.univ.filter fun b : Ref sig .tc => ¬ b.isScoped)
      = {main_arg0, main_arg1, main_v0, main_c, main_call0_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)

omit [FloatOps F] in
theorem unscoped_held (d : Dev nD) : (unscopedBufs d (fun b => m ((SparseCore.T d).loc b)) : sProp 𝕄) = held (T d) S10 (V0 m d) := by
  rw [unscopedBufs_eq, held_S10]; rfl

/-! ## What the final memory says -/

/-- The workers' row blocks tile the staged array, so what each leaves on its block determines the whole: if every worker
    left, for each of its ids, the three pieces of the table row that id names, the program's result is the lookup. -/
theorem out_eq_G (d : Dev nD) (hids : ∀ j, (m (a1Loc d) j).toNat < 1000) (g : Buf (Elt F) (oLoc d))
    (hg : ∀ c s, ∃ f, TileVal m d (coordsV c s) f ∧ ∀ x ∈ oSet (coordsV c s), g x = f x) :
    Cert.Proof.HostValue.outOf g = Cert.Proof.Spec.G (m (a0Loc d)) (m (a1Loc d)) := by
  refine Cert.Proof.HostValue.final_eq_G (m (a0Loc d)) (m (a1Loc d)) g hids (fun n t j => ?_)
  have hn : n.val < 51200 := n.isLt
  have ht : t.val < 3 := t.isLt
  -- the worker whose rows hold row 3 n + t: number n / 1600
  obtain ⟨p, -, hw⟩ := exists_worker (n.val / 1600) (by omega)
  obtain ⟨f, hT, hgf⟩ := hg p.1 p.2
  have hx : (ix2 (⟨3 * n.val + t.val, by omega⟩ : Fin 153600) j) ∈ oSet (coordsV p.1 p.2) := by
    rw [mem_oSet, hw]
    show 4800 * (n.val / 1600) ≤ 3 * n.val + t.val ∧ 3 * n.val + t.val < 4800 * (n.val / 1600) + 4800
    omega
  rw [hgf _ hx]
  -- its fact at its id number n % 1600, which is flat id n
  have e1 : 1600 * wid (coordsV p.1 p.2) + n.val % 1600 = n.val := by rw [hw]; omega
  have hTn := hT ⟨n.val % 1600, Nat.mod_lt _ (by decide)⟩ t j
  have ea : ∀ h, (⟨3 * (1600 * wid (coordsV p.1 p.2) + n.val % 1600) + t.val, h⟩ : Fin 153600) = ⟨3 * n.val + t.val, by omega⟩ :=
    fun h => Fin.ext (by show 3 * (1600 * wid (coordsV p.1 p.2) + n.val % 1600) + t.val = 3 * n.val + t.val; rw [e1])
  have eb : ∀ h, (⟨1600 * wid (coordsV p.1 p.2) + n.val % 1600, h⟩ : Fin 51200) = n := fun h => Fin.ext e1
  rw [ea, eb] at hTn
  rw [hTn]
  -- the clamp in the row number does nothing under the bound
  have hlt : (idsF m d (ix1 n)).toNat < 1000 := hids _
  have e3 : ∀ (a a' : Fin 3000), a = a' → tabF m d (ix2 a j) = tabF m d (ix2 a' j) := by intro a a' h; rw [h]
  exact e3 _ _ (Fin.ext (row3_val hlt t))

/-- What the claim reads off device `d`'s final memory. -/
def fq (d : Dev nD) (s' : Phys nD τ sig (Elt F)) : Prop :=
  s'.mem.mem (a0Loc d) = m (a0Loc d) ∧ s'.mem.mem (a1Loc d) = m (a1Loc d)
    ∧ s'.mem.mem (r5Loc d) = Cert.Proof.Spec.G (m (a0Loc d)) (m (a1Loc d))

/-- What @main leaves the claim: the two arguments at their launch contents, and the result at the program's re-indexing
    of a staged array that agrees, on each worker's rows, with contents satisfying that worker's fact. -/
def FIN (d : Dev nD) : sProp 𝕄 :=
  iprop((a0Loc d ↦{fullShare} m (a0Loc d)) ∗ (a1Loc d ↦{fullShare} m (a1Loc d))
    ∗ ∃ g : Buf (Elt F) (oLoc d), ⌜∀ c s, ∃ f, TileVal m d (coordsV c s) f ∧ ∀ x ∈ oSet (coordsV c s), g x = f x⌝
      ∗ (r5Loc d ↦{fullShare} Cert.Proof.HostValue.outOf g))

set_option maxRecDepth 16384 in
theorem hfin (hids : ∀ d j, (m (a1Loc d) j).toNat < 1000) (d : Dev nD) (s' : Phys nD τ sig (Elt F)) :
    iprop(FIN m d ∗ SI s') ⊢ (⌜fq m d s'⌝ : sProp 𝕄) := by
  unfold FIN
  iintro ⟨⟨H0, H1, %g, %hg, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := r5Loc d) (I := Finset.univ) (q := fullShare) (f := Cert.Proof.HostValue.outOf g)) $$ [HSI H5]
  · isplitl [HSI] <;> iassumption
  icases H with %h5
  ipureintro
  refine ⟨funext fun i => h0 i (Finset.mem_univ i), funext fun i => h1 i (Finset.mem_univ i), ?_⟩
  rw [← out_eq_G m d (hids d) g hg]
  exact funext fun i => h5 i (Finset.mem_univ i)

/-! ## @main as two straight lines around the call -/

/-- The host operations before the call: the ids flattened, the zero, its conversion, the pad, the cut into rows of 128. -/
abbrev opsPre : List (HloOp τ sig (Elt F)) :=
  [StableHlo.reshape main_arg1 main_v0 rfl Cert.KernelIdeal.Facts₀.shapeCasts_S1024x50_S51200,
   StableHlo.nullary main_c (constantI S_ 32 0#32),
   StableHlo.TRef.unary (.of main_c : StableHlo.TRef sig ⟨S_, .i32⟩) (main_call0).v0 (sitofp .f32),
   StableHlo.TRef.binary (.of main_arg0 : StableHlo.TRef sig ⟨S1000x300, .f32⟩) (main_call0).v0 (main_call0).v1
     (fun x v => pad S1000x384 ![0, 0] ![0, 84] ![0, 0] x v Cert.KernelIdeal.Facts₀.pads_S1000x300_S1000x384_000_0840 Cert.KernelIdeal.Facts₀.h_S_),
   StableHlo.reshape main_v1 main_v2 rfl Cert.KernelIdeal.Facts₀.shapeCasts_S1000x384_S3000x128]

/-- The host operations after it: the staged rows read as 1024 × 50 × 384, the first 300 of each 384 kept. -/
abbrev opsPost : List (HloOp τ sig (Elt F)) :=
  [StableHlo.reshape main_v3 main_v4 rfl Cert.KernelIdeal.Facts₀.shapeCasts_S153600x128_S1024x50x384,
   StableHlo.unary main_v4 main_v5 ((extractStridedSlice S1024x50x300 ![0, 0, 0] · Cert.KernelIdeal.Facts₀.slices_S1024x50x384_S1024x50x300_0_0_0) : (⟨S1024x50x384, .f32⟩ : BufTy).Contents (Elt F) → (⟨S1024x50x300, .f32⟩ : BufTy).Contents (Elt F))]

/-- @main is the first line, the call, the second line. -/
theorem main_eq (d : Dev nD) : main (F := F) d
    = (StableHlo.seq opsPre >>= fun _ => (K (F := F)).run d 0 >>= fun _ => StableHlo.seq opsPost >>= fun _ => pure ⟨⟩) := by
  simp only [main, fn_pad.body, StableHlo.seq, bind_assoc, pure_bind]

/-- The arrays the second line touches. -/
abbrev S3 : Finset (DevRef τ sig) := {o', r4', r5'}

theorem opsPre_sub : ∀ op ∈ (opsPre : List (HloOp τ sig (Elt F))), op.bufs ⊆ S10 := by
  intro op h
  cases h with
  | head => exact show ({a1', i'} : Finset (DevRef τ sig)) ⊆ S10 by decide
  | tail _ h =>
  cases h with
  | head => exact show ({c'} : Finset (DevRef τ sig)) ⊆ S10 by decide
  | tail _ h =>
  cases h with
  | head => exact show ({c', cv'} : Finset (DevRef τ sig)) ⊆ S10 by decide
  | tail _ h =>
  cases h with
  | head => exact show ({a0', cv', p'} : Finset (DevRef τ sig)) ⊆ S10 by decide
  | tail _ h =>
  cases h with
  | head => exact show ({p', t'} : Finset (DevRef τ sig)) ⊆ S10 by decide
  | tail _ h => exact nomatch h
theorem opsPost_sub : ∀ op ∈ (opsPost : List (HloOp τ sig (Elt F))), op.bufs ⊆ S3 := by
  intro op h
  cases h with
  | head => exact show ({o', r4'} : Finset (DevRef τ sig)) ⊆ S3 by decide
  | tail _ h =>
  cases h with
  | head => exact show ({r4', r5'} : Finset (DevRef τ sig)) ⊆ S3 by decide
  | tail _ h => exact nomatch h
theorem opsPre_fresh : ∀ op ∈ (opsPre : List (HloOp τ sig (Elt F))), op.fresh = ∅ := by
  intro op h
  (repeat (cases h with | head => rfl | tail _ h => ?_)); exact nomatch h
theorem opsPost_fresh : ∀ op ∈ (opsPost : List (HloOp τ sig (Elt F))), op.fresh = ∅ := by
  intro op h
  (repeat (cases h with | head => rfl | tail _ h => ?_)); exact nomatch h

open Idealize.ShloMosaic.StableHlo in
/-- What the first line leaves: the flat ids, the padded and cut table; the arguments, the staged array and the two
    result arrays untouched. -/
theorem pre_i (W : Valuation τ sig (Elt F)) : StableHlo.after opsPre W i' = Cert.Proof.HostValue.idsFlat (W a1') := by
  after_results; rfl
open Idealize.ShloMosaic.StableHlo in
theorem pre_t (W : Valuation τ sig (Elt F)) : StableHlo.after opsPre W t' = Cert.Proof.HostValue.t3 (W a0') := by
  after_results; rfl
open Idealize.ShloMosaic.StableHlo in
theorem pre_a0 (W : Valuation τ sig (Elt F)) : StableHlo.after opsPre W a0' = W a0' := by after_results
open Idealize.ShloMosaic.StableHlo in
theorem pre_a1 (W : Valuation τ sig (Elt F)) : StableHlo.after opsPre W a1' = W a1' := by after_results
open Idealize.ShloMosaic.StableHlo in
/-- What the second line leaves at the result: the program's re-indexing of the staged array. -/
theorem post_r5 (W : Valuation τ sig (Elt F)) : StableHlo.after opsPost W r5' = Cert.Proof.HostValue.outOf (W o') := by
  after_results; rfl

/-! ## The call's operands dealt, its results gathered -/

/-- What the call takes, by grid point. -/
theorem st0_eq (d : Dev nD) : (bigSep Finset.univ fun c : Fin ((K (F := F)).nCore 0) => (P m).st 0 d c)
    = bigSep Finset.univ fun c : Fin (grid0.bound 0) => bigSep Finset.univ fun s : Fin (grid0.bound 1) => goP m d (coordsV c s) := rfl
/-- What it hands back, by grid point. -/
theorem dn0_eq (d : Dev nD) : (bigSep Finset.univ fun c : Fin ((K (F := F)).nCore 0) => (P m).dn 0 d c)
    = bigSep Finset.univ fun c : Fin (grid0.bound 0) => bigSep Finset.univ fun s : Fin (grid0.bound 1) => tdP m d (coordsV c s) := rfl

/-- One worker's operands from its pieces. -/
theorem goP_intro (d : Dev nD) (L : grid0.Coords) (fo : Buf (Elt F) (oLoc d)) :
    iprop((iLoc d ↦[iSet L]{fullShare} idsF m d) ∗ (tLoc d ↦{tq L} tabF m d) ∗ (oLoc d ↦[oSet L]{fullShare} fo))
      ⊢ (goP m d L : sProp 𝕄) := by
  unfold goP
  iintro ⟨Hi, Ht, Ho⟩
  isplitl [Hi]; · iexact Hi
  isplitl [Ht]; · iexact Ht
  iexists fo; iexact Ho

/-- The ids whole, the table's read shares and the staged array whole (at any contents) are every worker's operands. -/
theorem go_intro (d : Dev nD) (fo : Buf (Elt F) (oLoc d)) :
    iprop((iLoc d ↦{fullShare} idsF m d)
        ∗ (bigSep Finset.univ fun c : Fin (grid0.bound 0) => bigSep Finset.univ fun s : Fin (grid0.bound 1) => tLoc d ↦{tq (coordsV c s)} tabF m d)
        ∗ (oLoc d ↦{fullShare} fo))
      ⊢ (bigSep Finset.univ fun c : Fin (grid0.bound 0) => bigSep Finset.univ fun s : Fin (grid0.bound 1) => goP m d (coordsV c s) : sProp 𝕄) := by
  rw [iPts_split, oPts_split, ← bigSep_sep', ← bigSep_sep']
  refine bigSep_mono fun c _ => ?_
  rw [← bigSep_sep', ← bigSep_sep']
  exact bigSep_mono fun s _ => goP_intro m d (coordsV c s) fo

/-- Every worker's results are the ids whole, the table's read shares, and the staged array whole at contents that agree
    on each worker's rows with contents satisfying that worker's fact. -/
theorem td_elim (d : Dev nD) :
    (bigSep Finset.univ fun c : Fin (grid0.bound 0) => bigSep Finset.univ fun s : Fin (grid0.bound 1) => tdP m d (coordsV c s) : sProp 𝕄)
      ⊢ iprop((iLoc d ↦{fullShare} idsF m d)
        ∗ (bigSep Finset.univ fun c : Fin (grid0.bound 0) => bigSep Finset.univ fun s : Fin (grid0.bound 1) => tLoc d ↦{tq (coordsV c s)} tabF m d)
        ∗ ∃ g, ⌜∀ c s, ∃ f, TileVal m d (coordsV c s) f ∧ ∀ x ∈ oSet (coordsV c s), g x = f x⌝ ∗ oLoc d ↦{fullShare} g) := by
  unfold tdP
  simp only [bigSep_sep']
  iintro ⟨Hi, Ht, Ho⟩
  isplitl [Hi]; · rw [iPts_split]; iexact Hi
  isplitl [Ht]; · iexact Ht
  iapply (oPts_join d (TileVal m d)); iexact Ho

/-- The same two, on the launch's own spelling of the call's payloads. -/
theorem st_intro (d : Dev nD) (fo : Buf (Elt F) (oLoc d)) :
    iprop((iLoc d ↦{fullShare} idsF m d)
        ∗ (bigSep Finset.univ fun c : Fin (grid0.bound 0) => bigSep Finset.univ fun s : Fin (grid0.bound 1) => tLoc d ↦{tq (coordsV c s)} tabF m d)
        ∗ (oLoc d ↦{fullShare} fo))
      ⊢ (bigSep Finset.univ fun c : Fin ((K (F := F)).nCore 0) => (P m).st 0 d c : sProp 𝕄) :=
  (go_intro m d fo).trans (Entails.of_eq (st0_eq m d).symm)
theorem dn_elim (d : Dev nD) :
    (bigSep Finset.univ fun c : Fin ((K (F := F)).nCore 0) => (P m).dn 0 d c : sProp 𝕄)
      ⊢ iprop((iLoc d ↦{fullShare} idsF m d)
        ∗ (bigSep Finset.univ fun c : Fin (grid0.bound 0) => bigSep Finset.univ fun s : Fin (grid0.bound 1) => tLoc d ↦{tq (coordsV c s)} tabF m d)
        ∗ ∃ g, ⌜∀ c s, ∃ f, TileVal m d (coordsV c s) f ∧ ∀ x ∈ oSet (coordsV c s), g x = f x⌝ ∗ oLoc d ↦{fullShare} g) :=
  (Entails.of_eq (dn0_eq m d)).trans (td_elim m d)

/-! ## @main on the TensorCore -/

omit [FloatOps F] in
theorem held_S3 (d : Dev nD) (W : Valuation τ sig (Elt F)) :
    (held (T d) S3 W : sProp 𝕄) = iprop((oLoc d ↦{fullShare} W o') ∗ ((SparseCore.T d).loc main_v4 ↦{fullShare} W r4') ∗ (r5Loc d ↦{fullShare} W r5')) := by
  unfold held S3
  rw [SparseCore.bigSep_insert' (by decide), SparseCore.bigSep_insert' (by decide), bigSep_singleton]

-- the rule for a straight line is stated at the thread `d.tc`; here the thread is spelled `T d`
set_option backward.isDefEq.respectTransparency.types false in
/-- @main on device `d`'s TensorCore: the first line over the ten arrays; the call, from the ids and the staged array dealt
    by rows and the table dealt by read shares; the results gathered; the second line over the staged array and the two
    result arrays; the arguments kept throughout. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held, main_eq]
  iintro ⟨#Hctx, Hst, ⟨Hb, Hheld, -, -⟩, -⟩
  -- the first line
  iapply (StableHlo.wp_seq 𝒱 none Set.univ d S10 _ opsPre opsPre_sub opsPre_fresh (V0 m d)) $$ [Hb Hheld]
  · isplitl [Hb]; · iexact Hb
    iexact Hheld
  iintro ⟨Hb, Hheld⟩
  ihave Hh := (Entails.of_eq (held_S10 (F := F) d _)) $$ Hheld
  icases Hh with ⟨H0, H1, Hi, -, -, -, Ht, Ho, H4, H5⟩
  rw [pre_i, pre_t, pre_a0, pre_a1]
  -- the table dealt
  ihave Ht' := (tPts_split (F := F) d _).1 $$ Ht
  icases Ht' with ⟨Hrest, Htq⟩
  -- the call
  rw [wp_bind]
  iapply ((K (F := F)).wp_run (D (F := F)) 𝒱 (EH := EH) (P := P m) κ d 0) $$ [Hst Hi Htq Ho Hb H0 H1 H4 H5 Hrest]
  isplitr; · iexact Hctx
  isplitl [Hst]; · iexact Hst
  isplitl [Hi Htq Ho]
  · iapply (st_intro m d _)
    isplitl [Hi]; · iexact Hi
    isplitl [Htq]; · iexact Htq
    iexact Ho
  iintro ⟨Hst, Hdn⟩
  ihave Hdn' := (dn_elim m d) $$ Hdn
  icases Hdn' with ⟨Hi, Htq, %g, %hg, Ho⟩
  -- the second line
  iapply (StableHlo.wp_seq 𝒱 none Set.univ d S3 _ opsPost opsPost_sub opsPost_fresh
    (Function.update (StableHlo.after opsPre (V0 m d)) o' g)) $$ [Hb Ho H4 H5]
  · isplitl [Hb]; · iexact Hb
    rw [held_S3, Function.update_self, Function.update_of_ne (show r4' ≠ o' by decide), Function.update_of_ne (show r5' ≠ o' by decide)]
    isplitl [Ho]; · iexact Ho
    isplitl [H4]; · iexact H4
    iexact H5
  iintro ⟨Hb, Hheld⟩
  ihave Hh := (Entails.of_eq (held_S3 (F := F) d _)) $$ Hheld
  icases Hh with ⟨-, -, H5⟩
  rw [post_r5, Function.update_self, wp_pure]
  imodintro
  isplitl [Hst]; · iexact Hst
  unfold FIN
  isplitl [H0]; · iexact H0
  isplitl [H1]; · iexact H1
  iexists g
  isplitr; · ipureintro; exact hg
  iexact H5

/-! ## The program's run -/

/-- At the compiled mesh, for any float values, from any memory with zero counters whose row numbers are below 1000, given
    the one task's body: every weakly fair execution of the device's threads terminates with the result the
    specification's lookup of the arguments and the arguments unchanged. -/
theorem run_main [∀ e, Nonempty (Elt F e)] (hids : ∀ d j, (m (a1Loc d) j).toNat < 1000)
    (htile : (K (F := F)).TileObl (D (F := F)) 𝒱 (P m) v₀ 0) :
    θ_run (Cert.KernelIdeal.defs (F := F)) (Cert.KernelIdeal.threads (F := F)) ⟨m, fun _ => 0, ρ⟩ (fun r => ∀ c : Dev nD,
      r.2.mem ((c.tc : Thread nD τ).loc main_v5)
          = Cert.Proof.Spec.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m hids) _
    (fun _ h c => ⟨(h c).2.2, (h c).1, (h c).2.1⟩)

end Cert.Proof.KI

end
-- ==== Proof.TileRes.lean ====
/-
  What one worker holds while it runs its task, and what it holds afterwards: its 1600 ids and its read share of the
  padded table (unchanged), its 4800 staged rows (afterwards: the table rows its ids name), its scratch split as the
  program uses it — the fetched ids, the two lists of 120 row numbers, the two buffers of 120 rows — and its five
  semaphores at zero.
-/
import proofs.«208231_g67989332295774_cont_9to1_m_298_26_alg».proof.Proof.Pay

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The two lists of 120 row numbers and the two buffers of 120 rows, as the program slices the scratch; the whole
    padded table as the program slices it for a gather. -/
abbrev JB0 : Memref sig .scVector .vmem S120 .i32 := ((s6).slice (Rect.unit (s := S2x120) ![0, 0] S1x120.size inb_S2x120_S1x120_0_0) (fun _ => rfl)).squeeze S120 squeezes_S1x120_S120
abbrev JB1 : Memref sig .scVector .vmem S120 .i32 := ((s6).slice (Rect.unit (s := S2x120) ![1, 0] S1x120.size inb_S2x120_S1x120_1_0) (fun _ => rfl)).squeeze S120 squeezes_S1x120_S120
abbrev RW0 : Memref sig .scVector .vmem S120x128 .f32 := ((s7).slice (Rect.unit (s := S2x120x128) ![0, 0, 0] S1x120x128.size inb_S2x120x128_S1x120x128_0_0_0) (fun _ => rfl)).squeeze S120x128 squeezes_S1x120x128_S120x128
abbrev RW1 : Memref sig .scVector .vmem S120x128 .f32 := ((s7).slice (Rect.unit (s := S2x120x128) ![1, 0, 0] S1x120x128.size inb_S2x120x128_S1x120x128_1_0_0) (fun _ => rfl)).squeeze S120x128 squeezes_S1x120x128_S120x128
abbrev TSL : Memref sig .scVector .hbm S3000x128 .f32 := (tV).slice (Rect.unit (s := S3000x128) ![0, 0] S3000x128.size inb_S3000x128_S3000x128_0_0) (fun _ => rfl)

/-- A held buffer's contents named: the same buffer at a variable, with the equation. -/
theorem pts_name {ℓ : Loc nD τ sig} {I : Finset (Idx ℓ)} {qq : PosShare TreeShare} (t : Buf (Elt F) ℓ) :
    (ℓ ↦[I]{qq} t : sProp 𝕄) ⊢ iprop(∃ g, ⌜g = t⌝ ∗ ℓ ↦[I]{qq} g) := by
  iintro H; iexists t; isplitr
  · ipureintro; rfl
  · iexact H

variable [FloatOps F] (m : (ℓ : Loc nD τ sig) → Buf (Elt F) ℓ) (d : Dev nD) (L : grid0.Coords)

/-- The worker's five semaphores at zero. -/
def tileSems (d : Dev nD) (L : grid0.Coords) : sProp 𝕄 :=
  iprop(semVal (c3cell d (cV L) (jV L)) 0 ∗ semVal (c4cell d (cV L) (jV L)) 0 ∗ semVal (c5cell d (cV L) (jV L)) 0
    ∗ semVal (c6cell d (cV L) (jV L)) 0 ∗ semVal (c7cell d (cV L) (jV L)) 0)

/-- Before the task. -/
def tilePre (fo : Buf (Elt F) (oLoc d)) (f5 : Buf (Elt F) ((V d (cV L) (jV L)).loc cc0_scratch0))
    (g0 g1 : Buf (Elt F) ((V d (cV L) (jV L)).loc cc0_scratch1)) (r0 r1 : Buf (Elt F) ((V d (cV L) (jV L)).loc cc0_scratch2)) : sProp 𝕄 :=
  iprop(((iSl L).view.loc (V d (cV L) (jV L)) ↦[(iSl L).view.set]{fullShare} idsF m d)
    ∗ ((TSL).view.loc (V d (cV L) (jV L)) ↦[(TSL).view.set]{tq L} tabF m d)
    ∗ ((oV).view.loc (V d (cV L) (jV L)) ↦[(oV).view.setOn (oR L).set]{fullShare} fo)
    ∗ ((s5).view.loc (V d (cV L) (jV L)) ↦{fullShare} f5)
    ∗ ((JB0).view.loc (V d (cV L) (jV L)) ↦[(JB0).view.set]{fullShare} g0)
    ∗ ((JB1).view.loc (V d (cV L) (jV L)) ↦[(JB1).view.set]{fullShare} g1)
    ∗ ((RW0).view.loc (V d (cV L) (jV L)) ↦[(RW0).view.set]{fullShare} r0)
    ∗ ((RW1).view.loc (V d (cV L) (jV L)) ↦[(RW1).view.set]{fullShare} r1)
    ∗ tileSems d L)

/-- After the task. -/
def tilePost : sProp 𝕄 :=
  iprop(((iSl L).view.loc (V d (cV L) (jV L)) ↦[(iSl L).view.set]{fullShare} idsF m d)
    ∗ ((TSL).view.loc (V d (cV L) (jV L)) ↦[(TSL).view.set]{tq L} tabF m d)
    ∗ (∃ fo, ⌜TileVal m d L fo⌝ ∗ (oV).view.loc (V d (cV L) (jV L)) ↦[(oV).view.setOn (oR L).set]{fullShare} fo)
    ∗ (∃ f5, (s5).view.loc (V d (cV L) (jV L)) ↦{fullShare} f5)
    ∗ (∃ g0, (JB0).view.loc (V d (cV L) (jV L)) ↦[(JB0).view.set]{fullShare} g0)
    ∗ (∃ g1, (JB1).view.loc (V d (cV L) (jV L)) ↦[(JB1).view.set]{fullShare} g1)
    ∗ (∃ r0, (RW0).view.loc (V d (cV L) (jV L)) ↦[(RW0).view.set]{fullShare} r0)
    ∗ (∃ r1, (RW1).view.loc (V d (cV L) (jV L)) ↦[(RW1).view.set]{fullShare} r1)
    ∗ tileSems d L)

/-- The statement of the task's run (proved in Tile.lean): from `tilePre`, the levels' word and what the worker owes,
    the kernel function at grid point `L` runs to `tilePost`, its waits recorded at the kernels' index. -/
def TileBody (hidsF : ∀ d n, (idsF m d n).toNat < 1000) : Prop :=
  ∀ (d : Dev nD) (L : grid0.Coords) (O : CellTallies nD τ sig (HIx 1)) (W : Waits sig (HIx 1)), (∀ g, O g none = 0) →
    ∀ fo f5 g0 g1 r0 r1,
    iprop(levAts (K (F := F)).L (K (F := F)).lev ∗ tilePre m d L fo f5 g0 g1 r0 r1 ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _)
            s5 (Memref.isWhole_whole _) s6 (Memref.isWhole_whole _) s7 (Memref.isWhole_whole _) cc0_scratch3 cc0_scratch4 cc0_scratch5 cc0_scratch6 cc0_scoped0)
          fun _ => iprop(tilePost m d L ∗ ∃ W', ⌜∀ p ∈ W', p ∈ W ∨ p.2 = none⌝ ∗ owes (V d (cV L) (jV L)) O W')

end Cert.Proof.KI

end
-- ==== Proof.ListFacts.lean ====
/-
  The list of row numbers a gather reads, after the nine indexed stores that fill it.

  An indexed store writes lane k of its value vector at the position lane k of its index vector names, lanes in
  ascending order. When the positions are distinct, the result at a position some lane names is that lane's value and
  elsewhere what was there. Each of the nine stores of a list has positions 3 i + K over the sixteen lanes i, for
  K = 3 off + t with off = 0, 16, 24 and t = 0, 1, 2, and values 3 id(40 c + off + i) + t: after all nine every entry
  3 j + t of the 120 (j < 40, t < 3) holds 3 id(40 c + j) + t (lanes 24 .. 31 are written twice, with the same value).
  A row number below 1000 makes such an entry less than 3000.
-/
import proofs.«208231_g67989332295774_cont_9to1_m_298_26_alg».proof.Proof.Layout
import proofs.«208231_g67989332295774_cont_9to1_m_298_26_alg».proof.Proof.Gen.KernelIdeal.Skeleton
import Idealize.ShloMosaic.Lib.ValueIdx
import Idealize.ShloMosaic.Lib.Pipeline.FrameBody

noncomputable section

namespace Cert.Proof.KI

open Cert.KernelIdeal Cert.KernelIdeal.Gen
open Idealize.ShloMosaic Idealize.ShloMosaic.ValueIdx

variable {F : FTy → Type} [FloatOps F]

/-! ## An unmasked indexed store with distinct positions -/

section StoreIdx

variable {s : Shape} {e : EltTy} {d : Fin 1 → Nat}

/-- What one lane of an unmasked, non-adding indexed store does to the contents. -/
def laneStore (idxs : Fin s.rank → IVec ⟨1, d⟩ 32) (h : ∀ a x, (idxs a x).toNat < s.size a) (v : Vec F ⟨1, d⟩ e)
    (g : Vec F s e) (k : Fin (d 0)) : Vec F s e :=
  fun j => if (∀ a, (j a).val = ((idxAt idxs h (Shape.ofLane k)) a).val) then v (Shape.ofLane k) else g j

theorem storeIdx_ones (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (laneStore idxs h v) f := by
  unfold storeIdx
  refine congrArg (fun st => (List.finRange (d 0)).foldl st f) ?_
  funext g k
  have h1 : ((1#1 : BitVec 1) = 1) := rfl
  simp only [if_pos h1, Bool.false_eq_true, if_false]
  rfl

/-- A position no lane of the list names keeps its contents. -/
theorem foldl_laneStore_miss (idxs : Fin s.rank → IVec ⟨1, d⟩ 32) (h : ∀ a x, (idxs a x).toNat < s.size a) (v : Vec F ⟨1, d⟩ e)
    (y : s.Idx) : ∀ (l : List (Fin (d 0))) (g : Vec F s e), (∀ k ∈ l, idxAt idxs h (Shape.ofLane k) ≠ y) →
      l.foldl (laneStore idxs h v) g y = g y
  | [], _, _ => rfl
  | k :: l, g, hm => by
    rw [List.foldl_cons, foldl_laneStore_miss idxs h v y l _ fun k' hk' => hm k' (List.mem_cons_of_mem _ hk')]
    unfold laneStore
    rw [if_neg]
    intro hy
    exact hm k List.mem_cons_self (funext fun a => Fin.ext (hy a).symm)

/-- A position exactly one lane of the list names takes that lane's value. -/
theorem foldl_laneStore_hit (idxs : Fin s.rank → IVec ⟨1, d⟩ 32) (h : ∀ a x, (idxs a x).toNat < s.size a) (v : Vec F ⟨1, d⟩ e)
    (y : s.Idx) (k₀ : Fin (d 0)) (hk₀ : idxAt idxs h (Shape.ofLane k₀) = y) :
    ∀ (l : List (Fin (d 0))) (g : Vec F s e), k₀ ∈ l → (∀ k ∈ l, idxAt idxs h (Shape.ofLane k) = y → k = k₀) →
      l.foldl (laneStore idxs h v) g y = v (Shape.ofLane k₀)
  | [], _, hm, _ => absurd hm List.not_mem_nil
  | k :: l, g, hm, hu => by
    rw [List.foldl_cons]
    by_cases hl : k₀ ∈ l
    · exact foldl_laneStore_hit idxs h v y k₀ hk₀ l _ hl fun k' hk' => hu k' (List.mem_cons_of_mem _ hk')
    · have hk : k = k₀ := by
        rcases List.mem_cons.mp hm with e | e
        · exact e.symm
        · exact absurd e hl
      subst hk
      rw [foldl_laneStore_miss idxs h v y l _ fun k' hk' e' => hl (hu k' (List.mem_cons_of_mem _ hk') e' ▸ hk')]
      unfold laneStore
      rw [if_pos fun a => by rw [hk₀]]

/-- The store at a position one lane, and only that lane, names. -/
theorem storeIdx_hit (f : Vec F s e) (idxs : Fin s.rank → IVec ⟨1, d⟩ 32) (v : Vec F ⟨1, d⟩ e)
    (h : ∀ a x, (idxs a x).toNat < s.size a) (y : s.Idx) (k₀ : Fin (d 0)) (hk₀ : idxAt idxs h (Shape.ofLane k₀) = y)
    (hu : ∀ k, idxAt idxs h (Shape.ofLane k) = y → k = k₀) :
    storeIdx f idxs v (fun _ => 1#1) false h y = v (Shape.ofLane k₀) := by
  rw [storeIdx_ones]
  exact foldl_laneStore_hit idxs h v y k₀ hk₀ _ f (List.mem_finRange k₀) fun k _ => hu k

/-- The store at a position no lane names. -/
theorem storeIdx_miss (f : Vec F s e) (idxs : Fin s.rank → IVec ⟨1, d⟩ 32) (v : Vec F ⟨1, d⟩ e)
    (h : ∀ a x, (idxs a x).toNat < s.size a) (y : s.Idx) (hm : ∀ k, idxAt idxs h (Shape.ofLane k) ≠ y) :
    storeIdx f idxs v (fun _ => 1#1) false h y = f y := by
  rw [storeIdx_ones]
  exact foldl_laneStore_miss idxs h v y _ f fun k _ => hm k

end StoreIdx

/-! ## The stores of one list -/

section Stores

theorem ofLane_eq_ix1 (k : Fin 16) : (Shape.ofLane (d := ![16]) k : S16.Idx) = ix1 k := by
  funext a
  match a with
  | ⟨0, _⟩ => rfl

/-- A store of the list: sixteen lanes at the positions 3 i + K. -/
theorem jStore_apply (f : Vec F S120 .i32) (idx val : IVec S16 32) (K : ℕ)
    (hidx : ∀ i : Fin 16, (idx (ix1 i)).toNat = 3 * i.val + K)
    (h : ∀ a x, ((![idx] : Fin 1 → IVec S16 32) a x).toNat < S120.size a) (n : Fin 120) :
    storeIdx (F := F) (s := S120) (e := .i32) f ![idx] val (fun _ => 1#1) false h (ix1 n)
      = if hn : K ≤ n.val ∧ (n.val - K) % 3 = 0 ∧ (n.val - K) / 3 < 16 then val (ix1 ⟨(n.val - K) / 3, hn.2.2⟩)
        else f (ix1 n) := by
  have key : ∀ k : Fin 16, idxAt (s := S120) ![idx] h (Shape.ofLane (d := ![16]) k) = ix1 n ↔ 3 * k.val + K = n.val := by
    intro k
    constructor
    · intro e
      have e0 := congrArg (fun z : S120.Idx => (z 0).val) e
      have e1 : (idx (Shape.ofLane (d := ![16]) k)).toNat = n.val := e0
      rw [ofLane_eq_ix1, hidx] at e1
      exact e1
    · intro e
      funext a
      match a with
      | ⟨0, _⟩ =>
        refine Fin.ext ?_
        show (idx (Shape.ofLane (d := ![16]) k)).toNat = n.val
        rw [ofLane_eq_ix1, hidx]
        exact e
  by_cases hn : K ≤ n.val ∧ (n.val - K) % 3 = 0 ∧ (n.val - K) / 3 < 16
  · rw [dif_pos hn]
    have hk := storeIdx_hit (F := F) (s := S120) (e := .i32) (d := ![16]) f ![idx] val h (ix1 n) ⟨(n.val - K) / 3, hn.2.2⟩
      ((key _).mpr (by show 3 * ((n.val - K) / 3) + K = n.val; omega))
      (fun k e => Fin.ext (by have := (key k).mp e; show k.val = (n.val - K) / 3; omega))
    rw [hk]
    exact congrArg val (ofLane_eq_ix1 ⟨(n.val - K) / 3, hn.2.2⟩)
  · rw [dif_neg hn]
    refine storeIdx_miss (F := F) (s := S120) (e := .i32) (d := ![16]) f ![idx] val h (ix1 n) fun k e => hn ?_
    have := (key k).mp e
    have hk : k.val < 16 := k.isLt
    omega

/-- Lane i of the program's 3·iota is the word 3 i. -/
theorem k0_pay1_apply : ∀ i : Fin 16, k0_pay1 (ix1 i) = BitVec.ofNat 32 (3 * i.val) := by decide

/-- The index vector of the store with offset K, as the program computes it. -/
abbrev jIdx (K : ℕ) : IVec S16 32 := addi k0_pay1 (broadcast S16 (BitVec.ofNat 32 K))

/-- The value vector 3 x + t, as the program computes it. -/
abbrev jVal (x : IVec S16 32) (t : ℕ) : IVec S16 32 :=
  addi (muli x (broadcast S16 3#32)) (broadcast S16 (BitVec.ofNat 32 t))

theorem jIdx_toNat (K : ℕ) (hK : K ≤ 74) (i : Fin 16) : (jIdx K (ix1 i)).toNat = 3 * i.val + K := by
  show (k0_pay1 (ix1 i) + BitVec.ofNat 32 K).toNat = _
  rw [k0_pay1_apply, BitVec.toNat_add, BitVec.toNat_ofNat, BitVec.toNat_ofNat]
  have hi : i.val < 16 := i.isLt
  omega

theorem jIdx_inb (K : ℕ) (hK : K ≤ 74) : ∀ (a : Fin 1) (x : S16.Idx), ((![jIdx K] : Fin 1 → IVec S16 32) a x).toNat < S120.size a := by
  intro a x
  match a with
  | ⟨0, _⟩ =>
    obtain ⟨i, rfl⟩ : ∃ i : Fin 16, x = ix1 i := ⟨x 0, eq_ix1 x⟩
    show (jIdx K (ix1 i)).toNat < 120
    rw [jIdx_toNat K hK]
    have hi : i.val < 16 := i.isLt
    omega

end Stores

/-! ## Nine stores fill the list -/

section Chain

/-- Store K reaches entry n: n = 3 i + K for a lane i < 16. -/
def jHit (K n : ℕ) : Prop := K ≤ n ∧ (n - K) % 3 = 0 ∧ (n - K) / 3 < 16
instance (K n : ℕ) : Decidable (jHit K n) := inferInstanceAs (Decidable (_ ∧ _))

/-- The nine offsets reach every entry. -/
theorem jHit_cover : ∀ n : Fin 120, ∃ K ∈ [74, 73, 72, 50, 49, 48, 2, 1, 0], jHit K n.val := by decide

variable (ids5 : S1600.Idx → BitVec 32) (c : ℕ) (hc : 40 * c + 40 ≤ 1600)

/-- The word entry n of chunk c's list is to hold: 3 id(40 c + n / 3) + n % 3. -/
def jTgt (n : Fin 120) : BitVec 32 :=
  ids5 (ix1 (⟨40 * c + n.val / 3, by have := n.isLt; omega⟩ : Fin 1600)) * 3#32 + BitVec.ofNat 32 (n.val % 3)

/-- The value vector of the store with lane offset off and remainder t holds the words its positions are to hold. -/
theorem jVal_tgt (x : IVec S16 32) (o off t : ℕ) (hoff : off ≤ 24) (ht : t < 3) (ho : o = 40 * c + off)
    (hx : ∀ (i : Fin 16) (h : o + i.val < 1600), x (ix1 i) = ids5 (ix1 (⟨o + i.val, h⟩ : Fin 1600))) (i : Fin 16) :
    jVal x t (ix1 i) = jTgt ids5 c hc (⟨3 * i.val + (3 * off + t), by have := i.isLt; omega⟩ : Fin 120) := by
  have hi : i.val < 16 := i.isLt
  show x (ix1 i) * 3#32 + BitVec.ofNat 32 t = _
  rw [hx i (by omega)]
  unfold jTgt
  have e1 : (⟨o + i.val, by omega⟩ : Fin 1600) = ⟨40 * c + (3 * i.val + (3 * off + t)) / 3, by omega⟩ := Fin.ext (by
    show o + i.val = 40 * c + (3 * i.val + (3 * off + t)) / 3
    omega)
  have e2 : (3 * i.val + (3 * off + t)) % 3 = t := by omega
  show _ = ids5 (ix1 (⟨40 * c + (3 * i.val + (3 * off + t)) / 3, by omega⟩ : Fin 1600)) * 3#32
    + BitVec.ofNat 32 ((3 * i.val + (3 * off + t)) % 3)
  rw [e1, e2]

/-- One more store: the entries it reaches, and those that held their words before, hold their words after. -/
theorem jGood_step (f : Vec F S120 .i32) (Ks : List ℕ)
    (hf : ∀ n : Fin 120, (∃ K ∈ Ks, jHit K n.val) → f (ix1 n) = jTgt ids5 c hc n)
    (x : IVec S16 32) (K t : ℕ) (hK : K ≤ 74)
    (hval : ∀ i : Fin 16, jVal x t (ix1 i) = jTgt ids5 c hc (⟨3 * i.val + K, by have := i.isLt; omega⟩ : Fin 120))
    (h : ∀ (a : Fin 1) (y : S16.Idx), ((![jIdx K] : Fin 1 → IVec S16 32) a y).toNat < S120.size a)
    (n : Fin 120) (hn : ∃ K' ∈ K :: Ks, jHit K' n.val) :
    storeIdx (F := F) (s := S120) (e := .i32) f ![jIdx K] (jVal x t) (fun _ => 1#1) false h (ix1 n) = jTgt ids5 c hc n := by
  rw [jStore_apply f (jIdx K) (jVal x t) K (jIdx_toNat K hK) h n]
  by_cases hh : K ≤ n.val ∧ (n.val - K) % 3 = 0 ∧ (n.val - K) / 3 < 16
  · rw [dif_pos hh, hval]
    exact congrArg (jTgt ids5 c hc) (Fin.ext (by show 3 * ((n.val - K) / 3) + K = n.val; omega))
  · rw [dif_neg hh]
    obtain ⟨K', hm, hK'⟩ := hn
    rcases List.mem_cons.mp hm with rfl | hm
    · exact absurd hK' hh
    · exact hf n ⟨K', hm, hK'⟩

variable {κ : Kind} {sp : Space} (v : View sig κ sp S120 .i32)

/-- A store of the list as a piece written through the whole list. -/
abbrev jPiece (f : Vec F S120 .i32) (K : ℕ) (hK : K ≤ 74) (x : IVec S16 32) (t : ℕ) : View.Piece (Elt F) S120 .i32 :=
  ⟨Rect.whole S120, storeIdx (F := F) (s := S120) (e := .i32) f ![jIdx K] (jVal x t) (fun _ => 1#1) false (jIdx_inb K hK)⟩

/-- What is read back after the pieces L. -/
abbrev jBack (L : List (View.Piece (Elt F) S120 .i32)) : Vec F S120 .i32 := v.readCov L (LoadRect.whole S120)

/-- The nine stores of one list, the last first: three per load of sixteen row numbers (x1 at lane offset 0, x2 at
    16, x3 at 24), each store over what the previous ones left; the first over f0. -/
abbrev jL1 (f0 : Vec F S120 .i32) (x1 : IVec S16 32) : List (View.Piece (Elt F) S120 .i32) :=
  [jPiece f0 0 (by decide) x1 0]
abbrev jL2 (f0 : Vec F S120 .i32) (x1 : IVec S16 32) : List (View.Piece (Elt F) S120 .i32) :=
  jPiece (jBack v (jL1 f0 x1)) 1 (by decide) x1 1 :: jL1 f0 x1
abbrev jL3 (f0 : Vec F S120 .i32) (x1 : IVec S16 32) : List (View.Piece (Elt F) S120 .i32) :=
  jPiece (jBack v (jL2 v f0 x1)) 2 (by decide) x1 2 :: jL2 v f0 x1
abbrev jL4 (f0 : Vec F S120 .i32) (x1 x2 : IVec S16 32) : List (View.Piece (Elt F) S120 .i32) :=
  jPiece (jBack v (jL3 v f0 x1)) 48 (by decide) x2 0 :: jL3 v f0 x1
abbrev jL5 (f0 : Vec F S120 .i32) (x1 x2 : IVec S16 32) : List (View.Piece (Elt F) S120 .i32) :=
  jPiece (jBack v (jL4 v f0 x1 x2)) 49 (by decide) x2 1 :: jL4 v f0 x1 x2
abbrev jL6 (f0 : Vec F S120 .i32) (x1 x2 : IVec S16 32) : List (View.Piece (Elt F) S120 .i32) :=
  jPiece (jBack v (jL5 v f0 x1 x2)) 50 (by decide) x2 2 :: jL5 v f0 x1 x2
abbrev jL7 (f0 : Vec F S120 .i32) (x1 x2 x3 : IVec S16 32) : List (View.Piece (Elt F) S120 .i32) :=
  jPiece (jBack v (jL6 v f0 x1 x2)) 72 (by decide) x3 0 :: jL6 v f0 x1 x2
abbrev jL8 (f0 : Vec F S120 .i32) (x1 x2 x3 : IVec S16 32) : List (View.Piece (Elt F) S120 .i32) :=
  jPiece (jBack v (jL7 v f0 x1 x2 x3)) 73 (by decide) x3 1 :: jL7 v f0 x1 x2 x3
abbrev jL9 (f0 : Vec F S120 .i32) (x1 x2 x3 : IVec S16 32) : List (View.Piece (Elt F) S120 .i32) :=
  jPiece (jBack v (jL8 v f0 x1 x2 x3)) 74 (by decide) x3 2 :: jL8 v f0 x1 x2 x3

/-- Reading back after a store through the whole list is that store's result. -/
theorem jBack_cons (f : Vec F S120 .i32) (K : ℕ) (hK : K ≤ 74) (x : IVec S16 32) (t : ℕ)
    (L : List (View.Piece (Elt F) S120 .i32)) :
    jBack v (jPiece f K hK x t :: L)
      = storeIdx (F := F) (s := S120) (e := .i32) f ![jIdx K] (jVal x t) (fun _ => 1#1) false (jIdx_inb K hK) :=
  View.readCov_cons_toLoadRect v (Rect.whole S120) _ L

/-- After the nine stores every entry holds its word. -/
theorem jL9_read (f0 : Vec F S120 .i32) (x1 x2 x3 : IVec S16 32) (o1 o2 o3 : ℕ)
    (ho1 : o1 = 40 * c) (ho2 : o2 = 40 * c + 16) (ho3 : o3 = 40 * c + 24)
    (hx1 : ∀ (i : Fin 16) (h : o1 + i.val < 1600), x1 (ix1 i) = ids5 (ix1 (⟨o1 + i.val, h⟩ : Fin 1600)))
    (hx2 : ∀ (i : Fin 16) (h : o2 + i.val < 1600), x2 (ix1 i) = ids5 (ix1 (⟨o2 + i.val, h⟩ : Fin 1600)))
    (hx3 : ∀ (i : Fin 16) (h : o3 + i.val < 1600), x3 (ix1 i) = ids5 (ix1 (⟨o3 + i.val, h⟩ : Fin 1600)))
    (n : Fin 120) : jBack v (jL9 v f0 x1 x2 x3) (ix1 n) = jTgt ids5 c hc n := by
  have v1 := fun t ht => jVal_tgt ids5 c hc x1 o1 0 t (by omega) ht (by omega) hx1
  have v2 := fun t ht => jVal_tgt ids5 c hc x2 o2 16 t (by omega) ht ho2 hx2
  have v3 := fun t ht => jVal_tgt ids5 c hc x3 o3 24 t (by omega) ht ho3 hx3
  have g1 : ∀ n : Fin 120, (∃ K ∈ [0], jHit K n.val) → jBack v (jL1 f0 x1) (ix1 n) = jTgt ids5 c hc n := fun n hn => by
    rw [jBack_cons]
    exact jGood_step ids5 c hc f0 [] (fun n ⟨K, hm, _⟩ => absurd hm List.not_mem_nil) x1 0 0 (by decide) (v1 0 (by decide)) _ n hn
  have g2 : ∀ n : Fin 120, (∃ K ∈ [1, 0], jHit K n.val) → jBack v (jL2 v f0 x1) (ix1 n) = jTgt ids5 c hc n := fun n hn => by
    rw [jBack_cons]; exact jGood_step ids5 c hc _ _ g1 x1 1 1 (by decide) (v1 1 (by decide)) _ n hn
  have g3 : ∀ n : Fin 120, (∃ K ∈ [2, 1, 0], jHit K n.val) → jBack v (jL3 v f0 x1) (ix1 n) = jTgt ids5 c hc n := fun n hn => by
    rw [jBack_cons]; exact jGood_step ids5 c hc _ _ g2 x1 2 2 (by decide) (v1 2 (by decide)) _ n hn
  have g4 : ∀ n : Fin 120, (∃ K ∈ [48, 2, 1, 0], jHit K n.val) → jBack v (jL4 v f0 x1 x2) (ix1 n) = jTgt ids5 c hc n := fun n hn => by
    rw [jBack_cons]; exact jGood_step ids5 c hc _ _ g3 x2 48 0 (by decide) (v2 0 (by decide)) _ n hn
  have g5 : ∀ n : Fin 120, (∃ K ∈ [49, 48, 2, 1, 0], jHit K n.val) → jBack v (jL5 v f0 x1 x2) (ix1 n) = jTgt ids5 c hc n := fun n hn => by
    rw [jBack_cons]; exact jGood_step ids5 c hc _ _ g4 x2 49 1 (by decide) (v2 1 (by decide)) _ n hn
  have g6 : ∀ n : Fin 120, (∃ K ∈ [50, 49, 48, 2, 1, 0], jHit K n.val) → jBack v (jL6 v f0 x1 x2) (ix1 n) = jTgt ids5 c hc n := fun n hn => by
    rw [jBack_cons]; exact jGood_step ids5 c hc _ _ g5 x2 50 2 (by decide) (v2 2 (by decide)) _ n hn
  have g7 : ∀ n : Fin 120, (∃ K ∈ [72, 50, 49, 48, 2, 1, 0], jHit K n.val) → jBack v (jL7 v f0 x1 x2 x3) (ix1 n) = jTgt ids5 c hc n := fun n hn => by
    rw [jBack_cons]; exact jGood_step ids5 c hc _ _ g6 x3 72 0 (by decide) (v3 0 (by decide)) _ n hn
  have g8 : ∀ n : Fin 120, (∃ K ∈ [73, 72, 50, 49, 48, 2, 1, 0], jHit K n.val) → jBack v (jL8 v f0 x1 x2 x3) (ix1 n) = jTgt ids5 c hc n := fun n hn => by
    rw [jBack_cons]; exact jGood_step ids5 c hc _ _ g7 x3 73 1 (by decide) (v3 1 (by decide)) _ n hn
  rw [jBack_cons]
  exact jGood_step ids5 c hc _ _ g8 x3 74 2 (by decide) (v3 2 (by decide)) _ n (jHit_cover n)

end Chain

/-! ## What a gather finds in its list -/

section Facts

/-- The word an entry holds, as a number, when the row number is below 1000. -/
theorem jTgt_toNat (ids5 : S1600.Idx → BitVec 32) (c : ℕ) (hc : 40 * c + 40 ≤ 1600) (n : Fin 120)
    (hlt : (ids5 (ix1 (⟨40 * c + n.val / 3, by have := n.isLt; omega⟩ : Fin 1600))).toNat < 1000) :
    (jTgt ids5 c hc n).toNat
      = 3 * (ids5 (ix1 (⟨40 * c + n.val / 3, by have := n.isLt; omega⟩ : Fin 1600))).toNat + n.val % 3 := by
  unfold jTgt
  rw [BitVec.toNat_add, BitVec.toNat_mul, BitVec.toNat_ofNat, BitVec.toNat_ofNat]
  norm_num
  omega

variable {κ : Kind} {sp : Space} (v : View sig κ sp S120 .i32)

/-- Reading the whole list back is reading it. -/
theorem jBack_eq_read (L : List (View.Piece (Elt F) S120 .i32)) (x : S120.Idx) :
    jBack v L x = View.read (Elt F) v (v.writes (Elt F) v.junk L) x := by
  show View.read (Elt F) v (v.writes (Elt F) v.junk L) ((LoadRect.whole S120).idx x) = _
  refine congrArg _ (funext fun a => Fin.ext ?_)
  show 0 + 1 * (x a).val = (x a).val
  omega

/-- Reading after a store through the whole list is that store's result, whatever the list held before. -/
theorem jRead_cons (B : v.ty.Contents (Elt F)) (f : Vec F S120 .i32) (K : ℕ) (hK : K ≤ 74) (x : IVec S16 32) (t : ℕ)
    (L : List (View.Piece (Elt F) S120 .i32)) (y : S120.Idx) :
    View.read (Elt F) v (v.writes (Elt F) B (jPiece f K hK x t :: L)) y
      = storeIdx (F := F) (s := S120) (e := .i32) f ![jIdx K] (jVal x t) (fun _ => 1#1) false (jIdx_inb K hK) y := by
  have h := View.read_writes_cons_emb v B (Rect.whole S120)
    (storeIdx (F := F) (s := S120) (e := .i32) f ![jIdx K] (jVal x t) (fun _ => 1#1) false (jIdx_inb K hK)) L y
  rwa [Rect.emb_whole_apply] at h

/-- After the nine stores of chunk c's list, over whatever the list held before, with row numbers below 1000: every entry is below 3000, and entry
    3 j + t is 3 id(40 c + j) + t. -/
theorem jList_facts (ids5 : S1600.Idx → BitVec 32) (hids : ∀ m, (ids5 m).toNat < 1000) (c : ℕ) (hc : 40 * c + 40 ≤ 1600)
    (f0 : Vec F S120 .i32) (x1 x2 x3 : IVec S16 32) (o1 o2 o3 : ℕ)
    (ho1 : o1 = 40 * c) (ho2 : o2 = 40 * c + 16) (ho3 : o3 = 40 * c + 24)
    (hx1 : ∀ (i : Fin 16) (h : o1 + i.val < 1600), x1 (ix1 i) = ids5 (ix1 (⟨o1 + i.val, h⟩ : Fin 1600)))
    (hx2 : ∀ (i : Fin 16) (h : o2 + i.val < 1600), x2 (ix1 i) = ids5 (ix1 (⟨o2 + i.val, h⟩ : Fin 1600)))
    (hx3 : ∀ (i : Fin 16) (h : o3 + i.val < 1600), x3 (ix1 i) = ids5 (ix1 (⟨o3 + i.val, h⟩ : Fin 1600)))
    (B g : v.ty.Contents (Elt F)) (hg : g = v.writes (Elt F) B (jL9 v f0 x1 x2 x3)) :
    (∀ x : S120.Idx, BitVec.toNat (View.read (Elt F) v g x) < 3000) ∧
    (∀ (j : Fin 40) (t : Fin 3),
      BitVec.toNat (View.read (Elt F) v g (ix1 (⟨3 * j.val + t.val, by omega⟩ : Fin 120)))
        = 3 * (ids5 (ix1 (⟨40 * c + j.val, by omega⟩ : Fin 1600))).toNat + t.val) := by
  have key : ∀ n : Fin 120, View.read (Elt F) v g (ix1 n) = jTgt ids5 c hc n := fun n => by
    rw [hg, jRead_cons, ← jBack_cons v _ 74 (by decide) x3 2 (jL8 v f0 x1 x2 x3)]
    exact jL9_read ids5 c hc v f0 x1 x2 x3 o1 o2 o3 ho1 ho2 ho3 hx1 hx2 hx3 n
  constructor
  · intro x
    obtain ⟨n, rfl⟩ : ∃ n : Fin 120, x = ix1 n := ⟨x 0, eq_ix1 x⟩
    rw [key, jTgt_toNat ids5 c hc n (hids _)]
    have := hids (ix1 (⟨40 * c + n.val / 3, by have := n.isLt; omega⟩ : Fin 1600))
    omega
  · intro j t
    rw [key, jTgt_toNat ids5 c hc _ (hids _)]
    have e1 : (⟨40 * c + (3 * j.val + t.val) / 3, by omega⟩ : Fin 1600) = ⟨40 * c + j.val, by omega⟩ :=
      Fin.ext (by show 40 * c + (3 * j.val + t.val) / 3 = 40 * c + j.val; omega)
    have e2 : (3 * j.val + t.val) % 3 = t.val := by omega
    show 3 * (ids5 (ix1 (⟨40 * c + (3 * j.val + t.val) / 3, by omega⟩ : Fin 1600))).toNat + (3 * j.val + t.val) % 3 = _
    rw [e1, e2]

end Facts

/-! ## At the program's own terms -/

section AtProgram

/-- Sixteen row numbers loaded from the subcore's 1600 at offset o. -/
abbrev jLoad (F5 : s5.view.ty.Contents (Elt F)) (o : ℕ) (inb : ∀ a, (![o] : Fin 1 → ℕ) a + S16.size a ≤ S1600.size a) : IVec S16 32 :=
  View.readAt (Elt F) s5.view (Rect.unit (s := S1600) ![o] S16.size inb).toLoadRect F5

theorem jLoad_apply (F5 : s5.view.ty.Contents (Elt F)) (o : ℕ) (inb : ∀ a, (![o] : Fin 1 → ℕ) a + S16.size a ≤ S1600.size a)
    (i : Fin 16) (h : o + i.val < 1600) :
    jLoad F5 o inb (ix1 i) = View.read (Elt F) s5.view F5 (ix1 (⟨o + i.val, h⟩ : Fin 1600)) := by
  show View.read (Elt F) s5.view F5 ((Rect.unit (s := S1600) ![o] S16.size inb).toLoadRect.idx (ix1 i)) = _
  refine congrArg _ (funext fun a => Fin.ext ?_)
  match a with
  | ⟨0, _⟩ =>
    show o + 1 * i.val = o + i.val
    omega

/-- The subcore's 1600 row numbers after the fetch of its slice of the flat array: entry m is the flat array's entry
    under the slice's index m. -/
theorem s5_read {d : Dev nD} (L : grid0.Coords) (idsF : Buf (Elt F) (iLoc d)) (f5 : s5.view.ty.Contents (Elt F)) (m : S1600.Idx) :
    View.read (Elt F) s5.view (View.write (Elt F) s5.view f5 (ReadAs.same.apply (View.read (Elt F) (iSl L).view idsF)) Finset.univ) m
      = idsF ((iSl L).view.emb m) := by
  rw [View.read_write_univ]
  rfl

variable {κ : Kind} {sp : Space}

/-- At a gather of chunk c: the list it reads (the view v, contents g: the nine stores over the loads at 40 c,
    40 c + 16, 40 c + 24 of the subcore's row numbers F5, which are the flat array's under the subcore's slice) has every
    entry below 3000, and entry 3 j + t is 3 id + t for the flat array's id under the slice's index 40 c + j. -/
theorem jb_facts {d : Dev nD} (L : grid0.Coords) (c : ℕ) (hc : c < 40) (idsF : Buf (Elt F) (iLoc d))
    (hidsF : ∀ n, BitVec.toNat (idsF n) < 1000)
    {F5 : s5.view.ty.Contents (Elt F)} (h5 : ∀ m : S1600.Idx, View.read (Elt F) s5.view F5 m = idsF ((iSl L).view.emb m))
    (v : View sig κ sp S120 .i32) {f0 : Vec F S120 .i32} {o1 o2 o3 : ℕ}
    {inb1 : ∀ a, (![o1] : Fin 1 → ℕ) a + S16.size a ≤ S1600.size a}
    {inb2 : ∀ a, (![o2] : Fin 1 → ℕ) a + S16.size a ≤ S1600.size a}
    {inb3 : ∀ a, (![o3] : Fin 1 → ℕ) a + S16.size a ≤ S1600.size a}
    {B g : v.ty.Contents (Elt F)}
    (hg : g = v.writes (Elt F) B (jL9 v f0 (jLoad F5 o1 inb1) (jLoad F5 o2 inb2) (jLoad F5 o3 inb3)))
    (ho1 : o1 = 40 * c := by rfl) (ho2 : o2 = 40 * c + 16 := by rfl) (ho3 : o3 = 40 * c + 24 := by rfl) :
    (∀ x : S120.Idx, BitVec.toNat (View.read (Elt F) v g x) < 3000) ∧
    (∀ (j : Fin 40) (t : Fin 3),
      BitVec.toNat (View.read (Elt F) v g (ix1 (⟨3 * j.val + t.val, by omega⟩ : Fin 120)))
        = 3 * BitVec.toNat (idsF ((iSl L).view.emb (ix1 (⟨40 * c + j.val, by omega⟩ : Fin 1600)))) + t.val) := by
  have h := jList_facts v (View.read (Elt F) s5.view F5) (fun m => by rw [h5]; exact hidsF _) c (by omega) f0
    (jLoad F5 o1 inb1) (jLoad F5 o2 inb2) (jLoad F5 o3 inb3) o1 o2 o3 ho1 ho2 ho3
    (fun i h => jLoad_apply F5 o1 inb1 i h) (fun i h => jLoad_apply F5 o2 inb2 i h) (fun i h => jLoad_apply F5 o3 inb3 i h) B g hg
  refine ⟨h.1, fun j t => ?_⟩
  rw [h.2 j t, h5]

end AtProgram

end Cert.Proof.KI

end
-- ==== Proof.ValueFacts.lean ====
/-
  Two facts about values, free of the run. A row buffer filled by a gather of the padded table through a list of 120
  row numbers holds at row k the table's row of number list(k); when the list is a chunk's (entry 3·j + t is
  3·ids(40·c + j) + t), row 3·j + t is the t-th third of the table row the chunk's j-th id names. And the staged
  output, written 120 rows per chunk at rows [4800·w + 120·c, +120), holds after c chunks the three thirds of the
  table rows of the task's first 40·c ids; after all 40 chunks that is what the task owes.
-/
import proofs.«208231_g67989332295774_cont_9to1_m_298_26_alg».proof.Proof.TileRes
import Idealize.ShloMosaic.Lib.WritesUnit
import Idealize.ShloMosaic.Lib.ValueIdx

noncomputable section

namespace Cert.Proof.KI

open Cert.KernelIdeal Cert.KernelIdeal.Gen

open Idealize.ShloMosaic Idealize.ShloMosaic.ValueIdx
open Idealize.ShloMosaic.SparseCore (S V T)

variable {F : FTy → Type}

/-- Entry k of a list of 120 words, read in row-major order, is the word at index k. -/
theorem rowMajor_symm_S120 (k : Fin 120) (h : 120 = S120.numel) : S120.rowMajor.symm (k.cast h) = ix1 k := by
  rw [Equiv.symm_apply_eq]
  apply Fin.ext
  rw [Shape.rowMajor_val_one]
  rfl

theorem gathered_read {κ κ' κ'' : Kind} {sp sp' sp'' : Space}
    (v : View sig κ sp S120x128 .f32) (vt : View sig κ' sp' S3000x128 .f32) (vj : View sig κ'' sp'' S120 .i32)
    (B : v.ty.Contents (Elt F)) (tab : vt.ty.Contents (Elt F)) (gL : vj.ty.Contents (Elt F))
    (hn : S120.numel = S120x128.size gathers_S3000x128_S120x128.axis')
    (hin : ∀ x, (vj.read (Elt F) gL x).toNat < S3000x128.size gathers_S3000x128_S120x128.axis)
    (rest : List (View.Piece (Elt F) S120x128 .f32)) (k : Fin 120) (j : Fin 128) :
    v.read (Elt F) (v.writes (Elt F) B (⟨Rect.whole S120x128, SparseCore.gatherPayload gathers_S3000x128_S120x128 (vt.read (Elt F) tab) (SparseCore.rows (vj.read (Elt F) gL) hn hin)⟩ :: rest)) (ix2 k j)
      = vt.read (Elt F) tab (ix2 (⟨(vj.read (Elt F) gL (ix1 k)).toNat, hin _⟩ : Fin 3000) j) := by
  have h := View.read_writes_cons_emb v B (Rect.whole S120x128) (SparseCore.gatherPayload gathers_S3000x128_S120x128 (vt.read (Elt F) tab) (SparseCore.rows (vj.read (Elt F) gL) hn hin)) rest (ix2 k j)
  rw [Rect.emb_whole_apply] at h
  rw [h]
  unfold SparseCore.gatherPayload
  congr 1
  funext b
  apply Fin.ext
  match b with
  | ⟨0, _⟩ =>
    show (gathers_S3000x128_S120x128.idx _ (ix2 k j) gathers_S3000x128_S120x128.axis).val = _
    rw [Shape.Gathers.idx_axis]
    unfold SparseCore.rows
    show (vj.read (Elt F) gL (S120.rowMajor.symm (k.cast _))).toNat = _
    exact congrArg (fun x => (vj.read (Elt F) gL x).toNat) (rowMajor_symm_S120 k _)
  | ⟨1, _⟩ =>
    exact Shape.Gathers.idx_of_ne gathers_S3000x128_S120x128 _ (ix2 k j) ⟨1, by decide⟩ (by decide)

/-! ## The views that read a buffer as itself -/

/-- Through the whole-table slice the table reads as itself. -/
theorem read_TSL {d : Dev nD} (tab : Buf (Elt F) (tLoc d)) (x : S3000x128.Idx) : View.read (Elt F) (TSL).view tab x = tab x := by
  rw [View.read_apply]
  have he : (TSL).view.emb x = x := by
    funext a; apply Fin.ext
    show (![0, 0] : Fin 2 → ℕ) a + 1 * (x a).val = (x a).val
    match a with
    | ⟨0, _⟩ => show 0 + 1 * _ = _; omega
    | ⟨1, _⟩ => show 0 + 1 * _ = _; omega
  rw [he]; rfl

/-- The staged output read through its whole view is itself. -/
theorem read_oV {d : Dev nD} (f : Buf (Elt F) (oLoc d)) (x : S153600x128.Idx) : View.read (Elt F) (oV).view f x = f x := rfl

/-- Local id n of the task's ids slice sits at flat index 1600·w + n. -/
theorem iSl_emb (L : grid0.Coords) (n : Fin 1600) :
    (iSl L).view.emb (ix1 n) = ix1 (⟨1600 * wid L + n.val, by have := wid_lt L; omega⟩ : Fin 51200) := by
  funext a; apply Fin.ext
  show (k0_off1 L) a + 1 * ((ix1 n : S1600.Idx) a).val = _
  rw [k0_off1_eq]
  match a with
  | ⟨0, _⟩ => show 3200 * (L 1).val + 1600 * (L 0).val + 1 * n.val = 1600 * wid L + n.val; unfold wid; omega

/-! ## The gathered rows -/

/-- A row buffer left by a gather of the table through a list of 120 row numbers holds, at row k, the table's row of
    that number — whatever the buffer held before and whatever was written under the gather. -/
theorem gathered_rows {κ κ'' : Kind} {sp sp'' : Space} {d : Dev nD}
    (v : View sig κ sp S120x128 .f32) {vj : View sig κ'' sp'' S120 .i32}
    {B : v.ty.Contents (Elt F)} {tab : Buf (Elt F) (tLoc d)} {gL : vj.ty.Contents (Elt F)}
    {hn : S120.numel = S120x128.size gathers_S3000x128_S120x128.axis'}
    {hin : ∀ x, (vj.read (Elt F) gL x).toNat < S3000x128.size gathers_S3000x128_S120x128.axis}
    {rest : List (View.Piece (Elt F) S120x128 .f32)} {rR : v.ty.Contents (Elt F)}
    (hrR : rR = v.writes (Elt F) B (⟨Rect.whole S120x128, SparseCore.gatherPayload gathers_S3000x128_S120x128
      (View.read (Elt F) (TSL).view tab) (SparseCore.rows (vj.read (Elt F) gL) hn hin)⟩ :: rest))
    (k : Fin 120) (j : Fin 128) :
    v.read (Elt F) rR (ix2 k j) = tab (ix2 (⟨(vj.read (Elt F) gL (ix1 k)).toNat, hin _⟩ : Fin 3000) j) := by
  subst hrR
  rw [gathered_read, read_TSL]

/-- The same for a chunk's rows: when entry 3·j + t of the list is 3·ids(40·c + j) + t (ids below 1000), row 3·j + t of
    the buffer is the t-th third of the table row of the chunk's j-th id. -/
theorem chunk_rows {κ κ'' : Kind} {sp sp'' : Space} {d : Dev nD} (ids : Buf (Elt F) (iLoc d)) (tab : Buf (Elt F) (tLoc d))
    (L : grid0.Coords) {c : ℕ} (hc : c < 40)
    {v : View sig κ sp S120x128 .f32} {vj : View sig κ'' sp'' S120 .i32}
    {gL : vj.ty.Contents (Elt F)} {hin : ∀ x, (vj.read (Elt F) gL x).toNat < 3000} {rR : v.ty.Contents (Elt F)}
    (hR : ∀ (k : Fin 120) (j : Fin 128), v.read (Elt F) rR (ix2 k j) = tab (ix2 (⟨(vj.read (Elt F) gL (ix1 k)).toNat, hin _⟩ : Fin 3000) j))
    (hlist : ∀ (j : Fin 40) (t : Fin 3), (vj.read (Elt F) gL (ix1 (⟨3 * j.val + t.val, by omega⟩ : Fin 120))).toNat
      = 3 * (ids ((iSl L).view.emb (ix1 (⟨40 * c + j.val, by omega⟩ : Fin 1600)))).toNat + t.val)
    (hids : ∀ n, (ids n).toNat < 1000)
    (j : Fin 40) (t : Fin 3) (col : Fin 128) :
    v.read (Elt F) rR (ix2 (⟨3 * j.val + t.val, by omega⟩ : Fin 120) col)
      = tab (ix2 (row3 (ids (ix1 (⟨1600 * wid L + 40 * c + j.val, by have := wid_lt L; omega⟩ : Fin 51200))) t) col) := by
  rw [hR]
  congr 2
  apply Fin.ext
  rw [row3_val (hids _) t]
  show (vj.read (Elt F) gL (ix1 (⟨3 * j.val + t.val, _⟩ : Fin 120))).toNat = _
  rw [hlist j t, iSl_emb]
  have e : (⟨1600 * wid L + (⟨40 * c + j.val, by omega⟩ : Fin 1600).val, by have := wid_lt L; omega⟩ : Fin 51200)
      = ⟨1600 * wid L + 40 * c + j.val, by have := wid_lt L; omega⟩ := Fin.ext (by show 1600 * wid L + (40 * c + j.val) = 1600 * wid L + 40 * c + j.val; omega)
  rw [e]

/-! ## The staged output, chunk by chunk -/

/-- After c chunks the task's first 40·c ids have their three staged rows: row 3·(1600·w + n) + t of the staged output
    is the t-th third of the table row of id 1600·w + n. -/
def OutInv {d : Dev nD} (ids : Buf (Elt F) (iLoc d)) (tab : Buf (Elt F) (tLoc d)) (L : grid0.Coords) (c : ℕ) (f : Buf (Elt F) (oLoc d)) : Prop :=
  ∀ (n : Fin 1600), n.val < 40 * c → ∀ (t : Fin 3) (j : Fin 128),
    f (ix2 (⟨3 * (1600 * wid L + n.val) + t.val, by have := wid_lt L; omega⟩ : Fin 153600) j)
      = tab (ix2 (row3 (ids (ix1 (⟨1600 * wid L + n.val, by have := wid_lt L; omega⟩ : Fin 51200))) t) j)

theorem outInv_zero {d : Dev nD} (ids : Buf (Elt F) (iLoc d)) (tab : Buf (Elt F) (tLoc d)) (L : grid0.Coords) (f : Buf (Elt F) (oLoc d)) :
    OutInv ids tab L 0 f := fun n hn => absurd hn (by omega)

theorem tileVal_of_outInv [FloatOps F] (m : (ℓ : Loc nD τ sig) → Buf (Elt F) ℓ) (d : Dev nD) (L : grid0.Coords) (f : Buf (Elt F) (oLoc d))
    (h : OutInv (idsF m d) (tabF m d) L 40 f) : TileVal m d L f := fun n t j => h n (by have := n.isLt; omega) t j

/-- An offset vector stated in closed form by an instance, its row entry brought to the wanted spelling. -/
theorem closedOff_rows {off : Fin 2 → ℕ} [co : ClosedOff off] {a b : ℕ} (hf : co.form = ![a, 0]) (hab : a = b) : off = ![b, 0] := by
  subst hab; exact co.eq.trans hf

/-- One chunk's write-back: the 120 rows of the row buffer copied to rows [4800·w + 120·c, +120) of the staged output
    extend the invariant from c chunks to c + 1; every other row keeps what it held. -/
theorem outInv_step {κ : Kind} {sp : Space} {d : Dev nD} (ids : Buf (Elt F) (iLoc d)) (tab : Buf (Elt F) (tLoc d)) (L : grid0.Coords)
    {c : ℕ} (hc : c < 40) {v : View sig κ sp S120x128 .f32}
    {off : Fin 2 → ℕ} {inb : ∀ a, off a + S120x128.size a ≤ S153600x128.size a}
    {hs : ∀ a, (Rect.unit (s := S153600x128) off S120x128.size inb).stride a = 1}
    {fprev fO : Buf (Elt F) (oLoc d)} {rR : v.ty.Contents (Elt F)}
    (hfO : fO = View.write (Elt F) ((oV).slice (Rect.unit (s := S153600x128) off S120x128.size inb) hs).view fprev
      ((ReadAs.same : ReadAs (Elt F) S120x128 .f32 S120x128 .f32).apply (View.read (Elt F) v rR)) Finset.univ)
    (hoff : off = ![4800 * wid L + 120 * c, 0])
    (hprev : OutInv ids tab L c fprev)
    (hrows : ∀ (j : Fin 40) (t : Fin 3) (col : Fin 128), v.read (Elt F) rR (ix2 (⟨3 * j.val + t.val, by omega⟩ : Fin 120) col)
      = tab (ix2 (row3 (ids (ix1 (⟨1600 * wid L + 40 * c + j.val, by have := wid_lt L; omega⟩ : Fin 51200))) t) col)) :
    OutInv ids tab L (c + 1) fO := by
  intro n hn t col
  subst hfO
  show View.read (Elt F) (oV).view ((oV).view.writes (Elt F) fprev
    [(⟨Rect.unit (s := S153600x128) off S120x128.size inb, (ReadAs.same : ReadAs (Elt F) S120x128 .f32 S120x128 .f32).apply (View.read (Elt F) v rR)⟩ : View.Piece (Elt F) S153600x128 .f32)]) _ = _
  by_cases hlt : n.val < 40 * c
  · rw [View.read_writes_cons_rows_of_not_mem (oV).view fprev inb _ [] _ hoff (W := 120) rfl
      (Or.inl (by show 3 * (1600 * wid L + n.val) + t.val < _; have := t.isLt; omega))]
    exact hprev n hlt t col
  · have hj : n.val - 40 * c < 40 := by omega
    rw [View.read_writes_cons_rows_of_mem (oV).view fprev inb _ [] _
      (ix2 (⟨3 * (n.val - 40 * c) + t.val, by have := t.isLt; omega⟩ : Fin 120) col) hoff
      (by show 3 * (1600 * wid L + n.val) + t.val = _ + (3 * (n.val - 40 * c) + t.val); omega) rfl]
    rw [ReadAs.apply_same]
    rw [hrows ⟨n.val - 40 * c, hj⟩ t col]
    congr 6
    show 1600 * wid L + 40 * c + (n.val - 40 * c) = _
    omega

end Cert.Proof.KI

end
-- ==== Proof.OutSplit.lean ====
/-
  The worker's 4800 staged rows held as two blocks: the 4680 rows of chunks 0 to 38 and the 120 rows of chunk 39. The
  two blocks are disjoint and together are the worker's rows, so owning the rows is owning the two blocks, and two
  blocks held at different contents join into one array that agrees with each on its block. The last chunk's
  write-back alone fixes the last block's rows; with the first 39 chunks' invariant on the first block that is what the
  worker owes.
-/
import proofs.«208231_g67989332295774_cont_9to1_m_298_26_alg».proof.Proof.ValueFacts

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The two blocks -/

theorem oRA_inb (L : grid0.Coords) : ∀ a, (![9600 * (L 1).val + 4800 * (L 0).val, 0] : Fin 2 → Nat) a + (![4680, 128] : Fin 2 → Nat) a ≤ S153600x128.size a := by
  have h0 : (L 0).val < 2 := (L 0).isLt
  have h1 : (L 1).val < 16 := (L 1).isLt
  intro a; fin_cases a <;> simp <;> omega
theorem oRB_inb (L : grid0.Coords) : ∀ a, (![9600 * (L 1).val + 4800 * (L 0).val + 4680, 0] : Fin 2 → Nat) a + (![120, 128] : Fin 2 → Nat) a ≤ S153600x128.size a := by
  have h0 : (L 0).val < 2 := (L 0).isLt
  have h1 : (L 1).val < 16 := (L 1).isLt
  intro a; fin_cases a <;> simp <;> omega

/-- The rows of chunks 0 to 38, and the rows of chunk 39. -/
abbrev oRA (L : grid0.Coords) : Rect S153600x128 := Rect.unit (s := S153600x128) ![9600 * (L 1).val + 4800 * (L 0).val, 0] ![4680, 128] (oRA_inb L)
abbrev oRB (L : grid0.Coords) : Rect S153600x128 := Rect.unit (s := S153600x128) ![9600 * (L 1).val + 4800 * (L 0).val + 4680, 0] ![120, 128] (oRB_inb L)
abbrev oSetA (L : grid0.Coords) : Finset S153600x128.Idx := (oV).view.setOn (oRA L).set
abbrev oSetB (L : grid0.Coords) : Finset S153600x128.Idx := (oV).view.setOn (oRB L).set

/-- The elements of the staged array on rows [o, o + W), every lane of them. -/
theorem mem_rowsSet {o W : ℕ} (inb : ∀ a, (![o, 0] : Fin 2 → Nat) a + (![W, 128] : Fin 2 → Nat) a ≤ S153600x128.size a) (x : S153600x128.Idx) :
    x ∈ (oV).view.setOn (Rect.unit (s := S153600x128) ![o, 0] ![W, 128] inb).set ↔ o ≤ (x 0).val ∧ (x 0).val < o + W := by
  have e : (oV).view.setOn (Rect.unit (s := S153600x128) ![o, 0] ![W, 128] inb).set = (Rect.unit (s := S153600x128) ![o, 0] ![W, 128] inb).set := Finset.map_refl
  rw [e, Rect.mem_set_unit]
  constructor
  · intro h
    have h0 := h 0
    have e0 : (![o, 0] : Fin 2 → Nat) 0 = o := rfl
    have e1 : (![W, 128] : Fin 2 → Nat) 0 = W := rfl
    rw [e0, e1] at h0
    exact h0
  · intro h a
    have hx1 : (x 1).val < 128 := (x 1).isLt
    match a with
    | ⟨0, _⟩ => exact h
    | ⟨1, _⟩ =>
      show 0 ≤ (x 1).val ∧ (x 1).val < 0 + 128
      omega

theorem mem_oSetA (L : grid0.Coords) (x : S153600x128.Idx) : x ∈ oSetA L ↔ 4800 * wid L ≤ (x 0).val ∧ (x 0).val < 4800 * wid L + 4680 := by
  rw [mem_rowsSet]; unfold wid; omega
theorem mem_oSetB (L : grid0.Coords) (x : S153600x128.Idx) : x ∈ oSetB L ↔ 4800 * wid L + 4680 ≤ (x 0).val ∧ (x 0).val < 4800 * wid L + 4800 := by
  rw [mem_rowsSet]; unfold wid; omega
theorem mem_oSetW (L : grid0.Coords) (x : S153600x128.Idx) : x ∈ (oV).view.setOn (oR L).set ↔ 4800 * wid L ≤ (x 0).val ∧ (x 0).val < 4800 * wid L + 4800 := by
  rw [mem_rowsSet]; unfold wid; omega

theorem oSetAB_disjoint (L : grid0.Coords) : Disjoint (oSetA L) (oSetB L) :=
  Finset.disjoint_left.mpr fun x hA hB => by
    rw [mem_oSetA] at hA; rw [mem_oSetB] at hB; omega

theorem oSet_eq_AB (L : grid0.Coords) : (oV).view.setOn (oR L).set = oSetA L ∪ oSetB L := by
  ext x
  rw [Finset.mem_union, mem_oSetW, mem_oSetA, mem_oSetB]
  omega

/-! ## Owning the rows is owning the two blocks -/

/-- At one contents. -/
theorem oPts_AB (d : Dev nD) (L : grid0.Coords) (f : Buf (Elt F) (oLoc d)) :
    ((oV).view.loc (V d (cV L) (jV L)) ↦[(oV).view.setOn (oR L).set]{fullShare} f : sProp 𝕄)
      ⊣⊢ iprop(((oV).view.loc (V d (cV L) (jV L)) ↦[oSetA L]{fullShare} f) ∗ ((oV).view.loc (V d (cV L) (jV L)) ↦[oSetB L]{fullShare} f)) := by
  rw [oSet_eq_AB]
  exact pointsTo_union (oSetAB_disjoint L)

/-- The two blocks held at different contents are the worker's rows at contents that agree with each on its block. -/
theorem oPts_AB_join (d : Dev nD) (L : grid0.Coords) (fa fb : Buf (Elt F) (oLoc d)) :
    iprop(((oV).view.loc (V d (cV L) (jV L)) ↦[oSetA L]{fullShare} fa) ∗ ((oV).view.loc (V d (cV L) (jV L)) ↦[oSetB L]{fullShare} fb))
      ⊢ (iprop(∃ g, ⌜(∀ x ∈ oSetA L, g x = fa x) ∧ (∀ x ∈ oSetB L, g x = fb x)⌝
          ∗ (oV).view.loc (V d (cV L) (jV L)) ↦[(oV).view.setOn (oR L).set]{fullShare} g) : sProp 𝕄) := by
  iintro H
  ihave H' := (pointsTo_join (oSetAB_disjoint L)) $$ H
  iexists (oSetB L).piecewise fb fa
  isplitr
  · ipureintro
    refine ⟨fun x hx => ?_, fun x hx => ?_⟩
    · exact Finset.piecewise_eq_of_notMem _ _ _ (Finset.disjoint_left.mp (oSetAB_disjoint L) hx)
    · exact Finset.piecewise_eq_of_mem _ _ _ hx
  · rw [oSet_eq_AB]; iexact H'

/-! ## The last chunk alone, and the end -/

/-- The write-back of chunk 39 alone: whatever the array held, rows [4800·w + 4680, +120) now hold the three thirds of
    the table rows of the task's last 40 ids. -/
theorem outAt_last {κ : Kind} {sp : Space} {d : Dev nD} (ids : Buf (Elt F) (iLoc d)) (tab : Buf (Elt F) (tLoc d)) (L : grid0.Coords)
    {v : View sig κ sp S120x128 .f32}
    {off : Fin 2 → ℕ} {inb : ∀ a, off a + S120x128.size a ≤ S153600x128.size a}
    {hs : ∀ a, (Rect.unit (s := S153600x128) off S120x128.size inb).stride a = 1}
    {fbase fB : Buf (Elt F) (oLoc d)} {rR : v.ty.Contents (Elt F)}
    (hfB : fB = View.write (Elt F) ((oV).slice (Rect.unit (s := S153600x128) off S120x128.size inb) hs).view fbase
      ((ReadAs.same : ReadAs (Elt F) S120x128 .f32 S120x128 .f32).apply (View.read (Elt F) v rR)) Finset.univ)
    (hoff : off = ![4800 * wid L + 120 * 39, 0])
    (hrows : ∀ (j : Fin 40) (t : Fin 3) (col : Fin 128), v.read (Elt F) rR (ix2 (⟨3 * j.val + t.val, by omega⟩ : Fin 120) col)
      = tab (ix2 (row3 (ids (ix1 (⟨1600 * wid L + 40 * 39 + j.val, by have := wid_lt L; omega⟩ : Fin 51200))) t) col)) :
    ∀ (n : Fin 1600), 1560 ≤ n.val → ∀ (t : Fin 3) (j : Fin 128),
      fB (ix2 (⟨3 * (1600 * wid L + n.val) + t.val, by have := wid_lt L; omega⟩ : Fin 153600) j)
        = tab (ix2 (row3 (ids (ix1 (⟨1600 * wid L + n.val, by have := wid_lt L; omega⟩ : Fin 51200))) t) j) := by
  intro n hn t col
  subst hfB
  have hj : n.val - 1560 < 40 := by have := n.isLt; omega
  show View.read (Elt F) (oV).view ((oV).view.writes (Elt F) fbase
    [(⟨Rect.unit (s := S153600x128) off S120x128.size inb, (ReadAs.same : ReadAs (Elt F) S120x128 .f32 S120x128 .f32).apply (View.read (Elt F) v rR)⟩ : View.Piece (Elt F) S153600x128 .f32)]) _ = _
  rw [View.read_writes_cons_rows_of_mem (oV).view fbase inb _ [] _
    (ix2 (⟨3 * (n.val - 1560) + t.val, by have := t.isLt; omega⟩ : Fin 120) col) hoff
    (by show 3 * (1600 * wid L + n.val) + t.val = _ + (3 * (n.val - 1560) + t.val); omega) rfl]
  rw [ReadAs.apply_same]
  rw [hrows ⟨n.val - 1560, hj⟩ t col]
  congr 6
  show 1600 * wid L + 40 * 39 + (n.val - 1560) = _
  omega

/-- The first 39 chunks' rows on the first block and the last chunk's on the second are what the worker owes. -/
theorem tileVal_of_AB [FloatOps F] (m : (ℓ : Loc nD τ sig) → Buf (Elt F) ℓ) (d : Dev nD) (L : grid0.Coords) (fa fb g : Buf (Elt F) (oLoc d))
    (hA : OutInv (idsF m d) (tabF m d) L 39 fa)
    (hB : ∀ (n : Fin 1600), 1560 ≤ n.val → ∀ (t : Fin 3) (j : Fin 128),
      fb (ix2 (⟨3 * (1600 * wid L + n.val) + t.val, by have := wid_lt L; omega⟩ : Fin 153600) j)
        = tabF m d (ix2 (row3 (idsF m d (ix1 (⟨1600 * wid L + n.val, by have := wid_lt L; omega⟩ : Fin 51200))) t) j))
    (hg : (∀ x ∈ oSetA L, g x = fa x) ∧ (∀ x ∈ oSetB L, g x = fb x)) : TileVal m d L g := by
  intro n t j
  have ht := t.isLt
  by_cases hn : n.val < 1560
  · rw [hg.1 _ ((mem_oSetA L _).mpr (by show _ ≤ 3 * (1600 * wid L + n.val) + t.val ∧ 3 * (1600 * wid L + n.val) + t.val < _; omega))]
    exact hA n (by omega) t j
  · rw [hg.2 _ ((mem_oSetB L _).mpr (by show _ ≤ 3 * (1600 * wid L + n.val) + t.val ∧ 3 * (1600 * wid L + n.val) + t.val < _; have := n.isLt; omega))]
    exact hB n (by omega) t j

end Cert.Proof.KI

end
-- ==== Proof.Tile.lean ====
/-
  The task of one vector subcore of the lookup kernel, run once at a symbolic grid point. The worker fetches its 1600
  ids; then, chunk by chunk (forty chunks of forty ids, two list rows and two row buffers used in turn), it writes the
  list of 120 row numbers 3·id + t of the chunk's ids, gathers those rows of the padded table, and copies them to its
  part of the staged output, the next chunk's list being written while the previous gather and copy are in flight.
  Every list entry is 3·id + t with id < 1000, so every gather reads rows that exist; after the last copy has landed
  the worker's 4800 staged rows hold, for each of its ids, the three 128-wide pieces of that id's padded table row.
-/
import proofs.«208231_g67989332295774_cont_9to1_m_298_26_alg».proof.Proof.TileRes
import proofs.«208231_g67989332295774_cont_9to1_m_298_26_alg».proof.Proof.ListFacts
import proofs.«208231_g67989332295774_cont_9to1_m_298_26_alg».proof.Proof.ValueFacts
import proofs.«208231_g67989332295774_cont_9to1_m_298_26_alg».proof.Proof.OutSplit
import proofs.«208231_g67989332295774_cont_9to1_m_298_26_alg».proof.Proof.Gen.KernelIdeal.Skeleton

noncomputable section

namespace Cert.Proof.KI

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- An assertion set aside for a moment: the same assertion, under a name the run does not read as a buffer's. -/
def aside (X : sProp 𝕄) : sProp 𝕄 := X
omit [FloatOps F] in
theorem aside_intro (X : sProp 𝕄) : X ⊢ aside (F := F) X := BI.Entails.refl _
omit [FloatOps F] in
theorem aside_elim (X : sProp 𝕄) : aside (F := F) X ⊢ X := BI.Entails.refl _

set_option maxHeartbeats 40000000 in
set_option maxRecDepth 65536 in
/-- The task runs: from its ids, its read share of the table, its staged rows and its scratch, to the same with the
    staged rows holding the table rows its ids name. -/
theorem tile_body (m : (ℓ : Loc nD τ sig) → Buf (Elt F) ℓ) (hidsF : ∀ d n, (idsF m d n).toNat < 1000) : TileBody m hidsF := by
  intro d L O W hO fo f5 g0 g1 r0 r1
  unfold tilePre tileSems
  iintro ⟨#Hlv, ⟨Hi, Ht, Ho, H5, HJ0, HJ1, HR0, HR1, Hc3, Hc4, Hc5, Hc6, Hc7⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hO0 : OutInv (idsF m d) (tabF m d) L 0 fo := outInv_zero (idsF m d) (tabF m d) L fo
  -- the staged rows as two rectangles: chunks 0–38's, and chunk 39's, kept aside until its write-back is issued
  ihave Ho2 := (show (((oV).view.loc (V d (cV L) (jV L)) ↦[(oV).view.setOn (oR L).set]{fullShare} fo : sProp 𝕄)
      ⊢ iprop(((oV).view.loc (V d (cV L) (jV L)) ↦[(oV).view.setOn (oRA L).set]{fullShare} fo)
          ∗ ((oV).view.loc (V d (cV L) (jV L)) ↦[(oV).view.setOn (oRB L).set]{fullShare} fo))) from (oPts_AB (F := F) d L fo).1) $$ Ho
  icases Ho2 with ⟨HoA, HoB⟩
  ihave HoBa := (aside_intro (F := F) _) $$ HoB
  -- chunk 0: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL0, %hgL0, HJ0⟩
  have hJ0 := jb_facts L 0 (by decide) (idsF m d) (hidsF d) (s5_read L (idsF m d) f5) JB0.view hgL0
  have hin0 : ∀ (x : S120.Idx), BitVec.toNat (View.read (Elt F) (JB0).view gL0 x) < 3000 := hJ0.1
  clear hgL0
  -- chunk 1: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL1, %hgL1, HJ1⟩
  have hJ1 := jb_facts L 1 (by decide) (idsF m d) (hidsF d) (s5_read L (idsF m d) f5) JB1.view hgL1
  have hin1 : ∀ (x : S120.Idx), BitVec.toNat (View.read (Elt F) (JB1).view gL1 x) < 3000 := hJ1.1
  clear hgL1
  ihave HR0' := (pts_name (F := F) _) $$ HR0
  icases HR0' with ⟨%rR0, %hrR0, HR0⟩
  have hR0 := gathered_rows (F := F) RW0.view hrR0
  have hRows0 := chunk_rows (idsF m d) (tabF m d) L (c := 0) (by omega) hR0 hJ0.2 (hidsF d)
  clear hrR0 hR0 hJ0
  -- chunk 2: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL2, %hgL2, HJ0⟩
  have hJ2 := jb_facts L 2 (by decide) (idsF m d) (hidsF d) (s5_read L (idsF m d) f5) JB0.view hgL2
  have hin2 : ∀ (x : S120.Idx), BitVec.toNat (View.read (Elt F) (JB0).view gL2 x) < 3000 := hJ2.1
  clear hgL2
  ihave HR1' := (pts_name (F := F) _) $$ HR1
  icases HR1' with ⟨%rR1, %hrR1, HR1⟩
  have hR1 := gathered_rows (F := F) RW1.view hrR1
  have hRows1 := chunk_rows (idsF m d) (tabF m d) L (c := 1) (by omega) hR1 hJ1.2 (hidsF d)
  clear hrR1 hR1 hJ1
  ihave Ho' := (pts_name (F := F) _) $$ HoA
  icases Ho' with ⟨%fO0, %hfO0, HoA⟩
  have hO1 : OutInv (idsF m d) (tabF m d) L 1 fO0 :=
    outInv_step (idsF m d) (tabF m d) L (c := 0) (by omega) hfO0 (closedOff_rows rfl (by unfold wid; omega)) hO0 hRows0
  clear hfO0 hO0 hRows0
  -- chunk 3: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL3, %hgL3, HJ1⟩
  have hJ3 := jb_facts L 3 (by decide) (idsF m d) (hidsF d) (s5_read L (idsF m d) f5) JB1.view hgL3
  have hin3 : ∀ (x : S120.Idx), BitVec.toNat (View.read (Elt F) (JB1).view gL3 x) < 3000 := hJ3.1
  clear hgL3
  ihave HR0' := (pts_name (F := F) _) $$ HR0
  icases HR0' with ⟨%rR2, %hrR2, HR0⟩
  have hR2 := gathered_rows (F := F) RW0.view hrR2
  have hRows2 := chunk_rows (idsF m d) (tabF m d) L (c := 2) (by omega) hR2 hJ2.2 (hidsF d)
  clear hrR2 hR2 hJ2
  ihave Ho' := (pts_name (F := F) _) $$ HoA
  icases Ho' with ⟨%fO1, %hfO1, HoA⟩
  have hO2 : OutInv (idsF m d) (tabF m d) L 2 fO1 :=
    outInv_step (idsF m d) (tabF m d) L (c := 1) (by omega) hfO1 (closedOff_rows rfl (by unfold wid; omega)) hO1 hRows1
  clear hfO1 hO1 hRows1
  -- chunk 4: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL4, %hgL4, HJ0⟩
  have hJ4 := jb_facts L 4 (by decide) (idsF m d) (hidsF d) (s5_read L (idsF m d) f5) JB0.view hgL4
  have hin4 : ∀ (x : S120.Idx), BitVec.toNat (View.read (Elt F) (JB0).view gL4 x) < 3000 := hJ4.1
  clear hgL4
  ihave HR1' := (pts_name (F := F) _) $$ HR1
  icases HR1' with ⟨%rR3, %hrR3, HR1⟩
  have hR3 := gathered_rows (F := F) RW1.view hrR3
  have hRows3 := chunk_rows (idsF m d) (tabF m d) L (c := 3) (by omega) hR3 hJ3.2 (hidsF d)
  clear hrR3 hR3 hJ3
  ihave Ho' := (pts_name (F := F) _) $$ HoA
  icases Ho' with ⟨%fO2, %hfO2, HoA⟩
  have hO3 : OutInv (idsF m d) (tabF m d) L 3 fO2 :=
    outInv_step (idsF m d) (tabF m d) L (c := 2) (by omega) hfO2 (closedOff_rows rfl (by unfold wid; omega)) hO2 hRows2
  clear hfO2 hO2 hRows2
  -- chunk 5: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL5, %hgL5, HJ1⟩
  have hJ5 := jb_facts L 5 (by decide) (idsF m d) (hidsF d) (s5_read L (idsF m d) f5) JB1.view hgL5
  have hin5 : ∀ (x : S120.Idx), BitVec.toNat (View.read (Elt F) (JB1).view gL5 x) < 3000 := hJ5.1
  clear hgL5
  ihave HR0' := (pts_name (F := F) _) $$ HR0
  icases HR0' with ⟨%rR4, %hrR4, HR0⟩
  have hR4 := gathered_rows (F := F) RW0.view hrR4
  have hRows4 := chunk_rows (idsF m d) (tabF m d) L (c := 4) (by omega) hR4 hJ4.2 (hidsF d)
  clear hrR4 hR4 hJ4
  ihave Ho' := (pts_name (F := F) _) $$ HoA
  icases Ho' with ⟨%fO3, %hfO3, HoA⟩
  have hO4 : OutInv (idsF m d) (tabF m d) L 4 fO3 :=
    outInv_step (idsF m d) (tabF m d) L (c := 3) (by omega) hfO3 (closedOff_rows rfl (by unfold wid; omega)) hO3 hRows3
  clear hfO3 hO3 hRows3
  -- chunk 6: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL6, %hgL6, HJ0⟩
  have hJ6 := jb_facts L 6 (by decide) (idsF m d) (hidsF d) (s5_read L (idsF m d) f5) JB0.view hgL6
  have hin6 : ∀ (x : S120.Idx), BitVec.toNat (View.read (Elt F) (JB0).view gL6 x) < 3000 := hJ6.1
  clear hgL6
  ihave HR1' := (pts_name (F := F) _) $$ HR1
  icases HR1' with ⟨%rR5, %hrR5, HR1⟩
  have hR5 := gathered_rows (F := F) RW1.view hrR5
  have hRows5 := chunk_rows (idsF m d) (tabF m d) L (c := 5) (by omega) hR5 hJ5.2 (hidsF d)
  clear hrR5 hR5 hJ5
  ihave Ho' := (pts_name (F := F) _) $$ HoA
  icases Ho' with ⟨%fO4, %hfO4, HoA⟩
  have hO5 : OutInv (idsF m d) (tabF m d) L 5 fO4 :=
    outInv_step (idsF m d) (tabF m d) L (c := 4) (by omega) hfO4 (closedOff_rows rfl (by unfold wid; omega)) hO4 hRows4
  clear hfO4 hO4 hRows4
  -- chunk 7: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL7, %hgL7, HJ1⟩
  have hJ7 := jb_facts L 7 (by decide) (idsF m d) (hidsF d) (s5_read L (idsF m d) f5) JB1.view hgL7
  have hin7 : ∀ (x : S120.Idx), BitVec.toNat (View.read (Elt F) (JB1).view gL7 x) < 3000 := hJ7.1
  clear hgL7
  ihave HR0' := (pts_name (F := F) _) $$ HR0
  icases HR0' with ⟨%rR6, %hrR6, HR0⟩
  have hR6 := gathered_rows (F := F) RW0.view hrR6
  have hRows6 := chunk_rows (idsF m d) (tabF m d) L (c := 6) (by omega) hR6 hJ6.2 (hidsF d)
  clear hrR6 hR6 hJ6
  ihave Ho' := (pts_name (F := F) _) $$ HoA
  icases Ho' with ⟨%fO5, %hfO5, HoA⟩
  have hO6 : OutInv (idsF m d) (tabF m d) L 6 fO5 :=
    outInv_step (idsF m d) (tabF m d) L (c := 5) (by omega) hfO5 (closedOff_rows rfl (by unfold wid; omega)) hO5 hRows5
  clear hfO5 hO5 hRows5
  -- chunk 8: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL8, %hgL8, HJ0⟩
  have hJ8 := jb_facts L 8 (by decide) (idsF m d) (hidsF d) (s5_read L (idsF m d) f5) JB0.view hgL8
  have hin8 : ∀ (x : S120.Idx), BitVec.toNat (View.read (Elt F) (JB0).view gL8 x) < 3000 := hJ8.1
  clear hgL8
  ihave HR1' := (pts_name (F := F) _) $$ HR1
  icases HR1' with ⟨%rR7, %hrR7, HR1⟩
  have hR7 := gathered_rows (F := F) RW1.view hrR7
  have hRows7 := chunk_rows (idsF m d) (tabF m d) L (c := 7) (by omega) hR7 hJ7.2 (hidsF d)
  clear hrR7 hR7 hJ7
  ihave Ho' := (pts_name (F := F) _) $$ HoA
  icases Ho' with ⟨%fO6, %hfO6, HoA⟩
  have hO7 : OutInv (idsF m d) (tabF m d) L 7 fO6 :=
    outInv_step (idsF m d) (tabF m d) L (c := 6) (by omega) hfO6 (closedOff_rows rfl (by unfold wid; omega)) hO6 hRows6
  clear hfO6 hO6 hRows6
  -- chunk 9: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL9, %hgL9, HJ1⟩
  have hJ9 := jb_facts L 9 (by decide) (idsF m d) (hidsF d) (s5_read L (idsF m d) f5) JB1.view hgL9
  have hin9 : ∀ (x : S120.Idx), BitVec.toNat (View.read (Elt F) (JB1).view gL9 x) < 3000 := hJ9.1
  clear hgL9
  ihave HR0' := (pts_name (F := F) _) $$ HR0
  icases HR0' with ⟨%rR8, %hrR8, HR0⟩
  have hR8 := gathered_rows (F := F) RW0.view hrR8
  have hRows8 := chunk_rows (idsF m d) (tabF m d) L (c := 8) (by omega) hR8 hJ8.2 (hidsF d)
  clear hrR8 hR8 hJ8
  ihave Ho' := (pts_name (F := F) _) $$ HoA
  icases Ho' with ⟨%fO7, %hfO7, HoA⟩
  have hO8 : OutInv (idsF m d) (tabF m d) L 8 fO7 :=
    outInv_step (idsF m d) (tabF m d) L (c := 7) (by omega) hfO7 (closedOff_rows rfl (by unfold wid; omega)) hO7 hRows7
  clear hfO7 hO7 hRows7
  -- chunk 10: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL10, %hgL10, HJ0⟩
  have hJ10 := jb_facts L 10 (by decide) (idsF m d) (hidsF d) (s5_read L (idsF m d) f5) JB0.view hgL10
  have hin10 : ∀ (x : S120.Idx), BitVec.toNat (View.read (Elt F) (JB0).view gL10 x) < 3000 := hJ10.1
  clear hgL10
  ihave HR1' := (pts_name (F := F) _) $$ HR1
  icases HR1' with ⟨%rR9, %hrR9, HR1⟩
  have hR9 := gathered_rows (F := F) RW1.view hrR9
  have hRows9 := chunk_rows (idsF m d) (tabF m d) L (c := 9) (by omega) hR9 hJ9.2 (hidsF d)
  clear hrR9 hR9 hJ9
  ihave Ho' := (pts_name (F := F) _) $$ HoA
  icases Ho' with ⟨%fO8, %hfO8, HoA⟩
  have hO9 : OutInv (idsF m d) (tabF m d) L 9 fO8 :=
    outInv_step (idsF m d) (tabF m d) L (c := 8) (by omega) hfO8 (closedOff_rows rfl (by unfold wid; omega)) hO8 hRows8
  clear hfO8 hO8 hRows8
  -- chunk 11: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL11, %hgL11, HJ1⟩
  have hJ11 := jb_facts L 11 (by decide) (idsF m d) (hidsF d) (s5_read L (idsF m d) f5) JB1.view hgL11
  have hin11 : ∀ (x : S120.Idx), BitVec.toNat (View.read (Elt F) (JB1).view gL11 x) < 3000 := hJ11.1
  clear hgL11
  ihave HR0' := (pts_name (F := F) _) $$ HR0
  icases HR0' with ⟨%rR10, %hrR10, HR0⟩
  have hR10 := gathered_rows (F := F) RW0.view hrR10
  have hRows10 := chunk_rows (idsF m d) (tabF m d) L (c := 10) (by omega) hR10 hJ10.2 (hidsF d)
  clear hrR10 hR10 hJ10
  ihave Ho' := (pts_name (F := F) _) $$ HoA
  icases Ho' with ⟨%fO9, %hfO9, HoA⟩
  have hO10 : OutInv (idsF m d) (tabF m d) L 10 fO9 :=
    outInv_step (idsF m d) (tabF m d) L (c := 9) (by omega) hfO9 (closedOff_rows rfl (by unfold wid; omega)) hO9 hRows9
  clear hfO9 hO9 hRows9
  -- chunk 12: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL12, %hgL12, HJ0⟩
  have hJ12 := jb_facts L 12 (by decide) (idsF m d) (hidsF d) (s5_read L (idsF m d) f5) JB0.view hgL12
  have hin12 : ∀ (x : S120.Idx), BitVec.toNat (View.read (Elt F) (JB0).view gL12 x) < 3000 := hJ12.1
  clear hgL12
  ihave HR1' := (pts_name (F := F) _) $$ HR1
  icases HR1' with ⟨%rR11, %hrR11, HR1⟩
  have hR11 := gathered_rows (F := F) RW1.view hrR11
  have hRows11 := chunk_rows (idsF m d) (tabF m d) L (c := 11) (by omega) hR11 hJ11.2 (hidsF d)
  clear hrR11 hR11 hJ11
  ihave Ho' := (pts_name (F := F) _) $$ HoA
  icases Ho' with ⟨%fO10, %hfO10, HoA⟩
  have hO11 : OutInv (idsF m d) (tabF m d) L 11 fO10 :=
    outInv_step (idsF m d) (tabF m d) L (c := 10) (by omega) hfO10 (closedOff_rows rfl (by unfold wid; omega)) hO10 hRows10
  clear hfO10 hO10 hRows10
  -- chunk 13: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL13, %hgL13, HJ1⟩
  have hJ13 := jb_facts L 13 (by decide) (idsF m d) (hidsF d) (s5_read L (idsF m d) f5) JB1.view hgL13
  have hin13 : ∀ (x : S120.Idx), BitVec.toNat (View.read (Elt F) (JB1).view gL13 x) < 3000 := hJ13.1
  clear hgL13
  ihave HR0' := (pts_name (F := F) _) $$ HR0
  icases HR0' with ⟨%rR12, %hrR12, HR0⟩
  have hR12 := gathered_rows (F := F) RW0.view hrR12
  have hRows12 := chunk_rows (idsF m d) (tabF m d) L (c := 12) (by omega) hR12 hJ12.2 (hidsF d)
  clear hrR12 hR12 hJ12
  ihave Ho' := (pts_name (F := F) _) $$ HoA
  icases Ho' with ⟨%fO11, %hfO11, HoA⟩
  have hO12 : OutInv (idsF m d) (tabF m d) L 12 fO11 :=
    outInv_step (idsF m d) (tabF m d) L (c := 11) (by omega) hfO11 (closedOff_rows rfl (by unfold wid; omega)) hO11 hRows11
  clear hfO11 hO11 hRows11
  -- chunk 14: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL14, %hgL14, HJ0⟩
  have hJ14 := jb_facts L 14 (by decide) (idsF m d) (hidsF d) (s5_read L (idsF m d) f5) JB0.view hgL14
  have hin14 : ∀ (x : S120.Idx), BitVec.toNat (View.read (Elt F) (JB0).view gL14 x) < 3000 := hJ14.1
  clear hgL14
  ihave HR1' := (pts_name (F := F) _) $$ HR1
  icases HR1' with ⟨%rR13, %hrR13, HR1⟩
  have hR13 := gathered_rows (F := F) RW1.view hrR13
  have hRows13 := chunk_rows (idsF m d) (tabF m d) L (c := 13) (by omega) hR13 hJ13.2 (hidsF d)
  clear hrR13 hR13 hJ13
  ihave Ho' := (pts_name (F := F) _) $$ HoA
  icases Ho' with ⟨%fO12, %hfO12, HoA⟩
  have hO13 : OutInv (idsF m d) (tabF m d) L 13 fO12 :=
    outInv_step (idsF m d) (tabF m d) L (c := 12) (by omega) hfO12 (closedOff_rows rfl (by unfold wid; omega)) hO12 hRows12
  clear hfO12 hO12 hRows12
  -- chunk 15: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL15, %hgL15, HJ1⟩
  have hJ15 := jb_facts L 15 (by decide) (idsF m d) (hidsF d) (s5_read L (idsF m d) f5) JB1.view hgL15
  have hin15 : ∀ (x : S120.Idx), BitVec.toNat (View.read (Elt F) (JB1).view gL15 x) < 3000 := hJ15.1
  clear hgL15
  ihave HR0' := (pts_name (F := F) _) $$ HR0
  icases HR0' with ⟨%rR14, %hrR14, HR0⟩
  have hR14 := gathered_rows (F := F) RW0.view hrR14
  have hRows14 := chunk_rows (idsF m d) (tabF m d) L (c := 14) (by omega) hR14 hJ14.2 (hidsF d)
  clear hrR14 hR14 hJ14
  ihave Ho' := (pts_name (F := F) _) $$ HoA
  icases Ho' with ⟨%fO13, %hfO13, HoA⟩
  have hO14 : OutInv (idsF m d) (tabF m d) L 14 fO13 :=
    outInv_step (idsF m d) (tabF m d) L (c := 13) (by omega) hfO13 (closedOff_rows rfl (by unfold wid; omega)) hO13 hRows13
  clear hfO13 hO13 hRows13
  -- chunk 16: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL16, %hgL16, HJ0⟩
  have hJ16 := jb_facts L 16 (by decide) (idsF m d) (hidsF d) (s5_read L (idsF m d) f5) JB0.view hgL16
  have hin16 : ∀ (x : S120.Idx), BitVec.toNat (View.read (Elt F) (JB0).view gL16 x) < 3000 := hJ16.1
  clear hgL16
  ihave HR1' := (pts_name (F := F) _) $$ HR1
  icases HR1' with ⟨%rR15, %hrR15, HR1⟩
  have hR15 := gathered_rows (F := F) RW1.view hrR15
  have hRows15 := chunk_rows (idsF m d) (tabF m d) L (c := 15) (by omega) hR15 hJ15.2 (hidsF d)
  clear hrR15 hR15 hJ15
  ihave Ho' := (pts_name (F := F) _) $$ HoA
  icases Ho' with ⟨%fO14, %hfO14, HoA⟩
  have hO15 : OutInv (idsF m d) (tabF m d) L 15 fO14 :=
    outInv_step (idsF m d) (tabF m d) L (c := 14) (by omega) hfO14 (closedOff_rows rfl (by unfold wid; omega)) hO14 hRows14
  clear hfO14 hO14 hRows14
  -- chunk 17: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL17, %hgL17, HJ1⟩
  have hJ17 := jb_facts L 17 (by decide) (idsF m d) (hidsF d) (s5_read L (idsF m d) f5) JB1.view hgL17
  have hin17 : ∀ (x : S120.Idx), BitVec.toNat (View.read (Elt F) (JB1).view gL17 x) < 3000 := hJ17.1
  clear hgL17
  ihave HR0' := (pts_name (F := F) _) $$ HR0
  icases HR0' with ⟨%rR16, %hrR16, HR0⟩
  have hR16 := gathered_rows (F := F) RW0.view hrR16
  have hRows16 := chunk_rows (idsF m d) (tabF m d) L (c := 16) (by omega) hR16 hJ16.2 (hidsF d)
  clear hrR16 hR16 hJ16
  ihave Ho' := (pts_name (F := F) _) $$ HoA
  icases Ho' with ⟨%fO15, %hfO15, HoA⟩
  have hO16 : OutInv (idsF m d) (tabF m d) L 16 fO15 :=
    outInv_step (idsF m d) (tabF m d) L (c := 15) (by omega) hfO15 (closedOff_rows rfl (by unfold wid; omega)) hO15 hRows15
  clear hfO15 hO15 hRows15
  -- chunk 18: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL18, %hgL18, HJ0⟩
  have hJ18 := jb_facts L 18 (by decide) (idsF m d) (hidsF d) (s5_read L (idsF m d) f5) JB0.view hgL18
  have hin18 : ∀ (x : S120.Idx), BitVec.toNat (View.read (Elt F) (JB0).view gL18 x) < 3000 := hJ18.1
  clear hgL18
  ihave HR1' := (pts_name (F := F) _) $$ HR1
  icases HR1' with ⟨%rR17, %hrR17, HR1⟩
  have hR17 := gathered_rows (F := F) RW1.view hrR17
  have hRows17 := chunk_rows (idsF m d) (tabF m d) L (c := 17) (by omega) hR17 hJ17.2 (hidsF d)
  clear hrR17 hR17 hJ17
  ihave Ho' := (pts_name (F := F) _) $$ HoA
  icases Ho' with ⟨%fO16, %hfO16, HoA⟩
  have hO17 : OutInv (idsF m d) (tabF m d) L 17 fO16 :=
    outInv_step (idsF m d) (tabF m d) L (c := 16) (by omega) hfO16 (closedOff_rows rfl (by unfold wid; omega)) hO16 hRows16
  clear hfO16 hO16 hRows16
  -- chunk 19: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL19, %hgL19, HJ1⟩
  have hJ19 := jb_facts L 19 (by decide) (idsF m d) (hidsF d) (s5_read L (idsF m d) f5) JB1.view hgL19
  have hin19 : ∀ (x : S120.Idx), BitVec.toNat (View.read (Elt F) (JB1).view gL19 x) < 3000 := hJ19.1
  clear hgL19
  ihave HR0' := (pts_name (F := F) _) $$ HR0
  icases HR0' with ⟨%rR18, %hrR18, HR0⟩
  have hR18 := gathered_rows (F := F) RW0.view hrR18
  have hRows18 := chunk_rows (idsF m d) (tabF m d) L (c := 18) (by omega) hR18 hJ18.2 (hidsF d)
  clear hrR18 hR18 hJ18
  ihave Ho' := (pts_name (F := F) _) $$ HoA
  icases Ho' with ⟨%fO17, %hfO17, HoA⟩
  have hO18 : OutInv (idsF m d) (tabF m d) L 18 fO17 :=
    outInv_step (idsF m d) (tabF m d) L (c := 17) (by omega) hfO17 (closedOff_rows rfl (by unfold wid; omega)) hO17 hRows17
  clear hfO17 hO17 hRows17
  -- chunk 20: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL20, %hgL20, HJ0⟩
  have hJ20 := jb_facts L 20 (by decide) (idsF m d) (hidsF d) (s5_read L (idsF m d) f5) JB0.view hgL20
  have hin20 : ∀ (x : S120.Idx), BitVec.toNat (View.read (Elt F) (JB0).view gL20 x) < 3000 := hJ20.1
  clear hgL20
  ihave HR1' := (pts_name (F := F) _) $$ HR1
  icases HR1' with ⟨%rR19, %hrR19, HR1⟩
  have hR19 := gathered_rows (F := F) RW1.view hrR19
  have hRows19 := chunk_rows (idsF m d) (tabF m d) L (c := 19) (by omega) hR19 hJ19.2 (hidsF d)
  clear hrR19 hR19 hJ19
  ihave Ho' := (pts_name (F := F) _) $$ HoA
  icases Ho' with ⟨%fO18, %hfO18, HoA⟩
  have hO19 : OutInv (idsF m d) (tabF m d) L 19 fO18 :=
    outInv_step (idsF m d) (tabF m d) L (c := 18) (by omega) hfO18 (closedOff_rows rfl (by unfold wid; omega)) hO18 hRows18
  clear hfO18 hO18 hRows18
  -- chunk 21: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL21, %hgL21, HJ1⟩
  have hJ21 := jb_facts L 21 (by decide) (idsF m d) (hidsF d) (s5_read L (idsF m d) f5) JB1.view hgL21
  have hin21 : ∀ (x : S120.Idx), BitVec.toNat (View.read (Elt F) (JB1).view gL21 x) < 3000 := hJ21.1
  clear hgL21
  ihave HR0' := (pts_name (F := F) _) $$ HR0
  icases HR0' with ⟨%rR20, %hrR20, HR0⟩
  have hR20 := gathered_rows (F := F) RW0.view hrR20
  have hRows20 := chunk_rows (idsF m d) (tabF m d) L (c := 20) (by omega) hR20 hJ20.2 (hidsF d)
  clear hrR20 hR20 hJ20
  ihave Ho' := (pts_name (F := F) _) $$ HoA
  icases Ho' with ⟨%fO19, %hfO19, HoA⟩
  have hO20 : OutInv (idsF m d) (tabF m d) L 20 fO19 :=
    outInv_step (idsF m d) (tabF m d) L (c := 19) (by omega) hfO19 (closedOff_rows rfl (by unfold wid; omega)) hO19 hRows19
  clear hfO19 hO19 hRows19
  -- chunk 22: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL22, %hgL22, HJ0⟩
  have hJ22 := jb_facts L 22 (by decide) (idsF m d) (hidsF d) (s5_read L (idsF m d) f5) JB0.view hgL22
  have hin22 : ∀ (x : S120.Idx), BitVec.toNat (View.read (Elt F) (JB0).view gL22 x) < 3000 := hJ22.1
  clear hgL22
  ihave HR1' := (pts_name (F := F) _) $$ HR1
  icases HR1' with ⟨%rR21, %hrR21, HR1⟩
  have hR21 := gathered_rows (F := F) RW1.view hrR21
  have hRows21 := chunk_rows (idsF m d) (tabF m d) L (c := 21) (by omega) hR21 hJ21.2 (hidsF d)
  clear hrR21 hR21 hJ21
  ihave Ho' := (pts_name (F := F) _) $$ HoA
  icases Ho' with ⟨%fO20, %hfO20, HoA⟩
  have hO21 : OutInv (idsF m d) (tabF m d) L 21 fO20 :=
    outInv_step (idsF m d) (tabF m d) L (c := 20) (by omega) hfO20 (closedOff_rows rfl (by unfold wid; omega)) hO20 hRows20
  clear hfO20 hO20 hRows20
  -- chunk 23: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL23, %hgL23, HJ1⟩
  have hJ23 := jb_facts L 23 (by decide) (idsF m d) (hidsF d) (s5_read L (idsF m d) f5) JB1.view hgL23
  have hin23 : ∀ (x : S120.Idx), BitVec.toNat (View.read (Elt F) (JB1).view gL23 x) < 3000 := hJ23.1
  clear hgL23
  ihave HR0' := (pts_name (F := F) _) $$ HR0
  icases HR0' with ⟨%rR22, %hrR22, HR0⟩
  have hR22 := gathered_rows (F := F) RW0.view hrR22
  have hRows22 := chunk_rows (idsF m d) (tabF m d) L (c := 22) (by omega) hR22 hJ22.2 (hidsF d)
  clear hrR22 hR22 hJ22
  ihave Ho' := (pts_name (F := F) _) $$ HoA
  icases Ho' with ⟨%fO21, %hfO21, HoA⟩
  have hO22 : OutInv (idsF m d) (tabF m d) L 22 fO21 :=
    outInv_step (idsF m d) (tabF m d) L (c := 21) (by omega) hfO21 (closedOff_rows rfl (by unfold wid; omega)) hO21 hRows21
  clear hfO21 hO21 hRows21
  -- chunk 24: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL24, %hgL24, HJ0⟩
  have hJ24 := jb_facts L 24 (by decide) (idsF m d) (hidsF d) (s5_read L (idsF m d) f5) JB0.view hgL24
  have hin24 : ∀ (x : S120.Idx), BitVec.toNat (View.read (Elt F) (JB0).view gL24 x) < 3000 := hJ24.1
  clear hgL24
  ihave HR1' := (pts_name (F := F) _) $$ HR1
  icases HR1' with ⟨%rR23, %hrR23, HR1⟩
  have hR23 := gathered_rows (F := F) RW1.view hrR23
  have hRows23 := chunk_rows (idsF m d) (tabF m d) L (c := 23) (by omega) hR23 hJ23.2 (hidsF d)
  clear hrR23 hR23 hJ23
  ihave Ho' := (pts_name (F := F) _) $$ HoA
  icases Ho' with ⟨%fO22, %hfO22, HoA⟩
  have hO23 : OutInv (idsF m d) (tabF m d) L 23 fO22 :=
    outInv_step (idsF m d) (tabF m d) L (c := 22) (by omega) hfO22 (closedOff_rows rfl (by unfold wid; omega)) hO22 hRows22
  clear hfO22 hO22 hRows22
  -- chunk 25: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL25, %hgL25, HJ1⟩
  have hJ25 := jb_facts L 25 (by decide) (idsF m d) (hidsF d) (s5_read L (idsF m d) f5) JB1.view hgL25
  have hin25 : ∀ (x : S120.Idx), BitVec.toNat (View.read (Elt F) (JB1).view gL25 x) < 3000 := hJ25.1
  clear hgL25
  ihave HR0' := (pts_name (F := F) _) $$ HR0
  icases HR0' with ⟨%rR24, %hrR24, HR0⟩
  have hR24 := gathered_rows (F := F) RW0.view hrR24
  have hRows24 := chunk_rows (idsF m d) (tabF m d) L (c := 24) (by omega) hR24 hJ24.2 (hidsF d)
  clear hrR24 hR24 hJ24
  ihave Ho' := (pts_name (F := F) _) $$ HoA
  icases Ho' with ⟨%fO23, %hfO23, HoA⟩
  have hO24 : OutInv (idsF m d) (tabF m d) L 24 fO23 :=
    outInv_step (idsF m d) (tabF m d) L (c := 23) (by omega) hfO23 (closedOff_rows rfl (by unfold wid; omega)) hO23 hRows23
  clear hfO23 hO23 hRows23
  -- chunk 26: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL26, %hgL26, HJ0⟩
  have hJ26 := jb_facts L 26 (by decide) (idsF m d) (hidsF d) (s5_read L (idsF m d) f5) JB0.view hgL26
  have hin26 : ∀ (x : S120.Idx), BitVec.toNat (View.read (Elt F) (JB0).view gL26 x) < 3000 := hJ26.1
  clear hgL26
  ihave HR1' := (pts_name (F := F) _) $$ HR1
  icases HR1' with ⟨%rR25, %hrR25, HR1⟩
  have hR25 := gathered_rows (F := F) RW1.view hrR25
  have hRows25 := chunk_rows (idsF m d) (tabF m d) L (c := 25) (by omega) hR25 hJ25.2 (hidsF d)
  clear hrR25 hR25 hJ25
  ihave Ho' := (pts_name (F := F) _) $$ HoA
  icases Ho' with ⟨%fO24, %hfO24, HoA⟩
  have hO25 : OutInv (idsF m d) (tabF m d) L 25 fO24 :=
    outInv_step (idsF m d) (tabF m d) L (c := 24) (by omega) hfO24 (closedOff_rows rfl (by unfold wid; omega)) hO24 hRows24
  clear hfO24 hO24 hRows24
  -- chunk 27: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL27, %hgL27, HJ1⟩
  have hJ27 := jb_facts L 27 (by decide) (idsF m d) (hidsF d) (s5_read L (idsF m d) f5) JB1.view hgL27
  have hin27 : ∀ (x : S120.Idx), BitVec.toNat (View.read (Elt F) (JB1).view gL27 x) < 3000 := hJ27.1
  clear hgL27
  ihave HR0' := (pts_name (F := F) _) $$ HR0
  icases HR0' with ⟨%rR26, %hrR26, HR0⟩
  have hR26 := gathered_rows (F := F) RW0.view hrR26
  have hRows26 := chunk_rows (idsF m d) (tabF m d) L (c := 26) (by omega) hR26 hJ26.2 (hidsF d)
  clear hrR26 hR26 hJ26
  ihave Ho' := (pts_name (F := F) _) $$ HoA
  icases Ho' with ⟨%fO25, %hfO25, HoA⟩
  have hO26 : OutInv (idsF m d) (tabF m d) L 26 fO25 :=
    outInv_step (idsF m d) (tabF m d) L (c := 25) (by omega) hfO25 (closedOff_rows rfl (by unfold wid; omega)) hO25 hRows25
  clear hfO25 hO25 hRows25
  -- chunk 28: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL28, %hgL28, HJ0⟩
  have hJ28 := jb_facts L 28 (by decide) (idsF m d) (hidsF d) (s5_read L (idsF m d) f5) JB0.view hgL28
  have hin28 : ∀ (x : S120.Idx), BitVec.toNat (View.read (Elt F) (JB0).view gL28 x) < 3000 := hJ28.1
  clear hgL28
  ihave HR1' := (pts_name (F := F) _) $$ HR1
  icases HR1' with ⟨%rR27, %hrR27, HR1⟩
  have hR27 := gathered_rows (F := F) RW1.view hrR27
  have hRows27 := chunk_rows (idsF m d) (tabF m d) L (c := 27) (by omega) hR27 hJ27.2 (hidsF d)
  clear hrR27 hR27 hJ27
  ihave Ho' := (pts_name (F := F) _) $$ HoA
  icases Ho' with ⟨%fO26, %hfO26, HoA⟩
  have hO27 : OutInv (idsF m d) (tabF m d) L 27 fO26 :=
    outInv_step (idsF m d) (tabF m d) L (c := 26) (by omega) hfO26 (closedOff_rows rfl (by unfold wid; omega)) hO26 hRows26
  clear hfO26 hO26 hRows26
  -- chunk 29: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL29, %hgL29, HJ1⟩
  have hJ29 := jb_facts L 29 (by decide) (idsF m d) (hidsF d) (s5_read L (idsF m d) f5) JB1.view hgL29
  have hin29 : ∀ (x : S120.Idx), BitVec.toNat (View.read (Elt F) (JB1).view gL29 x) < 3000 := hJ29.1
  clear hgL29
  ihave HR0' := (pts_name (F := F) _) $$ HR0
  icases HR0' with ⟨%rR28, %hrR28, HR0⟩
  have hR28 := gathered_rows (F := F) RW0.view hrR28
  have hRows28 := chunk_rows (idsF m d) (tabF m d) L (c := 28) (by omega) hR28 hJ28.2 (hidsF d)
  clear hrR28 hR28 hJ28
  ihave Ho' := (pts_name (F := F) _) $$ HoA
  icases Ho' with ⟨%fO27, %hfO27, HoA⟩
  have hO28 : OutInv (idsF m d) (tabF m d) L 28 fO27 :=
    outInv_step (idsF m d) (tabF m d) L (c := 27) (by omega) hfO27 (closedOff_rows rfl (by unfold wid; omega)) hO27 hRows27
  clear hfO27 hO27 hRows27
  -- chunk 30: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL30, %hgL30, HJ0⟩
  have hJ30 := jb_facts L 30 (by decide) (idsF m d) (hidsF d) (s5_read L (idsF m d) f5) JB0.view hgL30
  have hin30 : ∀ (x : S120.Idx), BitVec.toNat (View.read (Elt F) (JB0).view gL30 x) < 3000 := hJ30.1
  clear hgL30
  ihave HR1' := (pts_name (F := F) _) $$ HR1
  icases HR1' with ⟨%rR29, %hrR29, HR1⟩
  have hR29 := gathered_rows (F := F) RW1.view hrR29
  have hRows29 := chunk_rows (idsF m d) (tabF m d) L (c := 29) (by omega) hR29 hJ29.2 (hidsF d)
  clear hrR29 hR29 hJ29
  ihave Ho' := (pts_name (F := F) _) $$ HoA
  icases Ho' with ⟨%fO28, %hfO28, HoA⟩
  have hO29 : OutInv (idsF m d) (tabF m d) L 29 fO28 :=
    outInv_step (idsF m d) (tabF m d) L (c := 28) (by omega) hfO28 (closedOff_rows rfl (by unfold wid; omega)) hO28 hRows28
  clear hfO28 hO28 hRows28
  -- chunk 31: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL31, %hgL31, HJ1⟩
  have hJ31 := jb_facts L 31 (by decide) (idsF m d) (hidsF d) (s5_read L (idsF m d) f5) JB1.view hgL31
  have hin31 : ∀ (x : S120.Idx), BitVec.toNat (View.read (Elt F) (JB1).view gL31 x) < 3000 := hJ31.1
  clear hgL31
  ihave HR0' := (pts_name (F := F) _) $$ HR0
  icases HR0' with ⟨%rR30, %hrR30, HR0⟩
  have hR30 := gathered_rows (F := F) RW0.view hrR30
  have hRows30 := chunk_rows (idsF m d) (tabF m d) L (c := 30) (by omega) hR30 hJ30.2 (hidsF d)
  clear hrR30 hR30 hJ30
  ihave Ho' := (pts_name (F := F) _) $$ HoA
  icases Ho' with ⟨%fO29, %hfO29, HoA⟩
  have hO30 : OutInv (idsF m d) (tabF m d) L 30 fO29 :=
    outInv_step (idsF m d) (tabF m d) L (c := 29) (by omega) hfO29 (closedOff_rows rfl (by unfold wid; omega)) hO29 hRows29
  clear hfO29 hO29 hRows29
  -- chunk 32: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL32, %hgL32, HJ0⟩
  have hJ32 := jb_facts L 32 (by decide) (idsF m d) (hidsF d) (s5_read L (idsF m d) f5) JB0.view hgL32
  have hin32 : ∀ (x : S120.Idx), BitVec.toNat (View.read (Elt F) (JB0).view gL32 x) < 3000 := hJ32.1
  clear hgL32
  ihave HR1' := (pts_name (F := F) _) $$ HR1
  icases HR1' with ⟨%rR31, %hrR31, HR1⟩
  have hR31 := gathered_rows (F := F) RW1.view hrR31
  have hRows31 := chunk_rows (idsF m d) (tabF m d) L (c := 31) (by omega) hR31 hJ31.2 (hidsF d)
  clear hrR31 hR31 hJ31
  ihave Ho' := (pts_name (F := F) _) $$ HoA
  icases Ho' with ⟨%fO30, %hfO30, HoA⟩
  have hO31 : OutInv (idsF m d) (tabF m d) L 31 fO30 :=
    outInv_step (idsF m d) (tabF m d) L (c := 30) (by omega) hfO30 (closedOff_rows rfl (by unfold wid; omega)) hO30 hRows30
  clear hfO30 hO30 hRows30
  -- chunk 33: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL33, %hgL33, HJ1⟩
  have hJ33 := jb_facts L 33 (by decide) (idsF m d) (hidsF d) (s5_read L (idsF m d) f5) JB1.view hgL33
  have hin33 : ∀ (x : S120.Idx), BitVec.toNat (View.read (Elt F) (JB1).view gL33 x) < 3000 := hJ33.1
  clear hgL33
  ihave HR0' := (pts_name (F := F) _) $$ HR0
  icases HR0' with ⟨%rR32, %hrR32, HR0⟩
  have hR32 := gathered_rows (F := F) RW0.view hrR32
  have hRows32 := chunk_rows (idsF m d) (tabF m d) L (c := 32) (by omega) hR32 hJ32.2 (hidsF d)
  clear hrR32 hR32 hJ32
  ihave Ho' := (pts_name (F := F) _) $$ HoA
  icases Ho' with ⟨%fO31, %hfO31, HoA⟩
  have hO32 : OutInv (idsF m d) (tabF m d) L 32 fO31 :=
    outInv_step (idsF m d) (tabF m d) L (c := 31) (by omega) hfO31 (closedOff_rows rfl (by unfold wid; omega)) hO31 hRows31
  clear hfO31 hO31 hRows31
  -- chunk 34: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL34, %hgL34, HJ0⟩
  have hJ34 := jb_facts L 34 (by decide) (idsF m d) (hidsF d) (s5_read L (idsF m d) f5) JB0.view hgL34
  have hin34 : ∀ (x : S120.Idx), BitVec.toNat (View.read (Elt F) (JB0).view gL34 x) < 3000 := hJ34.1
  clear hgL34
  ihave HR1' := (pts_name (F := F) _) $$ HR1
  icases HR1' with ⟨%rR33, %hrR33, HR1⟩
  have hR33 := gathered_rows (F := F) RW1.view hrR33
  have hRows33 := chunk_rows (idsF m d) (tabF m d) L (c := 33) (by omega) hR33 hJ33.2 (hidsF d)
  clear hrR33 hR33 hJ33
  ihave Ho' := (pts_name (F := F) _) $$ HoA
  icases Ho' with ⟨%fO32, %hfO32, HoA⟩
  have hO33 : OutInv (idsF m d) (tabF m d) L 33 fO32 :=
    outInv_step (idsF m d) (tabF m d) L (c := 32) (by omega) hfO32 (closedOff_rows rfl (by unfold wid; omega)) hO32 hRows32
  clear hfO32 hO32 hRows32
  -- chunk 35: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL35, %hgL35, HJ1⟩
  have hJ35 := jb_facts L 35 (by decide) (idsF m d) (hidsF d) (s5_read L (idsF m d) f5) JB1.view hgL35
  have hin35 : ∀ (x : S120.Idx), BitVec.toNat (View.read (Elt F) (JB1).view gL35 x) < 3000 := hJ35.1
  clear hgL35
  ihave HR0' := (pts_name (F := F) _) $$ HR0
  icases HR0' with ⟨%rR34, %hrR34, HR0⟩
  have hR34 := gathered_rows (F := F) RW0.view hrR34
  have hRows34 := chunk_rows (idsF m d) (tabF m d) L (c := 34) (by omega) hR34 hJ34.2 (hidsF d)
  clear hrR34 hR34 hJ34
  ihave Ho' := (pts_name (F := F) _) $$ HoA
  icases Ho' with ⟨%fO33, %hfO33, HoA⟩
  have hO34 : OutInv (idsF m d) (tabF m d) L 34 fO33 :=
    outInv_step (idsF m d) (tabF m d) L (c := 33) (by omega) hfO33 (closedOff_rows rfl (by unfold wid; omega)) hO33 hRows33
  clear hfO33 hO33 hRows33
  -- chunk 36: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL36, %hgL36, HJ0⟩
  have hJ36 := jb_facts L 36 (by decide) (idsF m d) (hidsF d) (s5_read L (idsF m d) f5) JB0.view hgL36
  have hin36 : ∀ (x : S120.Idx), BitVec.toNat (View.read (Elt F) (JB0).view gL36 x) < 3000 := hJ36.1
  clear hgL36
  ihave HR1' := (pts_name (F := F) _) $$ HR1
  icases HR1' with ⟨%rR35, %hrR35, HR1⟩
  have hR35 := gathered_rows (F := F) RW1.view hrR35
  have hRows35 := chunk_rows (idsF m d) (tabF m d) L (c := 35) (by omega) hR35 hJ35.2 (hidsF d)
  clear hrR35 hR35 hJ35
  ihave Ho' := (pts_name (F := F) _) $$ HoA
  icases Ho' with ⟨%fO34, %hfO34, HoA⟩
  have hO35 : OutInv (idsF m d) (tabF m d) L 35 fO34 :=
    outInv_step (idsF m d) (tabF m d) L (c := 34) (by omega) hfO34 (closedOff_rows rfl (by unfold wid; omega)) hO34 hRows34
  clear hfO34 hO34 hRows34
  -- chunk 37: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL37, %hgL37, HJ1⟩
  have hJ37 := jb_facts L 37 (by decide) (idsF m d) (hidsF d) (s5_read L (idsF m d) f5) JB1.view hgL37
  have hin37 : ∀ (x : S120.Idx), BitVec.toNat (View.read (Elt F) (JB1).view gL37 x) < 3000 := hJ37.1
  clear hgL37
  ihave HR0' := (pts_name (F := F) _) $$ HR0
  icases HR0' with ⟨%rR36, %hrR36, HR0⟩
  have hR36 := gathered_rows (F := F) RW0.view hrR36
  have hRows36 := chunk_rows (idsF m d) (tabF m d) L (c := 36) (by omega) hR36 hJ36.2 (hidsF d)
  clear hrR36 hR36 hJ36
  ihave Ho' := (pts_name (F := F) _) $$ HoA
  icases Ho' with ⟨%fO35, %hfO35, HoA⟩
  have hO36 : OutInv (idsF m d) (tabF m d) L 36 fO35 :=
    outInv_step (idsF m d) (tabF m d) L (c := 35) (by omega) hfO35 (closedOff_rows rfl (by unfold wid; omega)) hO35 hRows35
  clear hfO35 hO35 hRows35
  -- chunk 38: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL38, %hgL38, HJ0⟩
  have hJ38 := jb_facts L 38 (by decide) (idsF m d) (hidsF d) (s5_read L (idsF m d) f5) JB0.view hgL38
  have hin38 : ∀ (x : S120.Idx), BitVec.toNat (View.read (Elt F) (JB0).view gL38 x) < 3000 := hJ38.1
  clear hgL38
  ihave HR1' := (pts_name (F := F) _) $$ HR1
  icases HR1' with ⟨%rR37, %hrR37, HR1⟩
  have hR37 := gathered_rows (F := F) RW1.view hrR37
  have hRows37 := chunk_rows (idsF m d) (tabF m d) L (c := 37) (by omega) hR37 hJ37.2 (hidsF d)
  clear hrR37 hR37 hJ37
  ihave Ho' := (pts_name (F := F) _) $$ HoA
  icases Ho' with ⟨%fO36, %hfO36, HoA⟩
  have hO37 : OutInv (idsF m d) (tabF m d) L 37 fO36 :=
    outInv_step (idsF m d) (tabF m d) L (c := 36) (by omega) hfO36 (closedOff_rows rfl (by unfold wid; omega)) hO36 hRows36
  clear hfO36 hO36 hRows36
  -- chunk 39: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL39, %hgL39, HJ1⟩
  have hJ39 := jb_facts L 39 (by decide) (idsF m d) (hidsF d) (s5_read L (idsF m d) f5) JB1.view hgL39
  have hin39 : ∀ (x : S120.Idx), BitVec.toNat (View.read (Elt F) (JB1).view gL39 x) < 3000 := hJ39.1
  clear hgL39
  ihave HR0' := (pts_name (F := F) _) $$ HR0
  icases HR0' with ⟨%rR38, %hrR38, HR0⟩
  have hR38 := gathered_rows (F := F) RW0.view hrR38
  have hRows38 := chunk_rows (idsF m d) (tabF m d) L (c := 38) (by omega) hR38 hJ38.2 (hidsF d)
  clear hrR38 hR38 hJ38
  ihave Ho' := (pts_name (F := F) _) $$ HoA
  icases Ho' with ⟨%fO37, %hfO37, HoA⟩
  have hO38 : OutInv (idsF m d) (tabF m d) L 38 fO37 :=
    outInv_step (idsF m d) (tabF m d) L (c := 37) (by omega) hfO37 (closedOff_rows rfl (by unfold wid; omega)) hO37 hRows37
  clear hfO37 hO37 hRows37
  -- the last gather, chunk 38's write-back, the last gather's wait; chunk 39's rows named
  sl_exec_parts
  ihave HoB := (aside_elim (F := F) _) $$ HoBa
  ihave HR1' := (pts_name (F := F) _) $$ HR1
  icases HR1' with ⟨%rR39, %hrR39, HR1⟩
  have hR39 := gathered_rows (F := F) RW1.view hrR39
  have hRows39 := chunk_rows (idsF m d) (tabF m d) L (c := 39) (by omega) hR39 hJ39.2 (hidsF d)
  clear hrR39 hR39 hJ39
  -- chunk 39's write-back and the last two waits
  sl_exec_parts
  ihave HoA' := (pts_name (F := F) _) $$ HoA
  icases HoA' with ⟨%fO38, %hfO38, HoA⟩
  have hO39 : OutInv (idsF m d) (tabF m d) L 39 fO38 :=
    outInv_step (idsF m d) (tabF m d) L (c := 38) (by omega) hfO38 (closedOff_rows rfl (by unfold wid; omega)) hO38 hRows38
  ihave HoB' := (pts_name (F := F) _) $$ HoB
  icases HoB' with ⟨%fB, %hfB, HoB⟩
  have hB := outAt_last (idsF m d) (tabF m d) L hfB (closedOff_rows rfl (by unfold wid; omega)) hRows39
  ihave Hj := (oPts_AB_join (F := F) d L fO38 fB) $$ [HoA HoB]
  · isplitl [HoA]; · iexact HoA
    iexact HoB
  icases Hj with ⟨%gF, %hgF, Ho⟩
  have hTV : TileVal m d L gF := tileVal_of_AB m d L fO38 fB gF hO39 hB hgF
  sl_step
  unfold tilePost tileSems
  isplitl [Hi Ht Ho H5 HJ0 HJ1 HR0 HR1 Hc3 Hc4 Hc5 Hc6 Hc7]
  · isplitl [Hi]; · iexact Hi
    isplitl [Ht]; · iexact Ht
    isplitl [Ho]
    · iexists gF; isplitr
      · ipureintro; exact hTV
      · iexact Ho
    isplitl [H5]; · iexists _; iexact H5
    isplitl [HJ0]; · iexists _; iexact HJ0
    isplitl [HJ1]; · iexists _; iexact HJ1
    isplitl [HR0]; · iexists _; iexact HR0
    isplitl [HR1]; · iexists _; iexact HR1
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  repeat (rcases Finset.mem_insert.mp hp with hp' | hp; · exact .inr (hp' ▸ rfl))
  exact .inl hp

end Cert.Proof.KI

end
-- ==== Proof.TileWrap.lean ====
/-
  From one task's run to the launch's obligation for the call. The launch hands a worker its operands as the
  TensorCore's arrays (its ids, a read share of the padded table, its staged rows) beside the subcore's scoped buffers
  and semaphores as two unstructured families; the task's run is stated over the subcore's own views of the same
  arrays and over its scratch as the program uses it. The HBM arrays seen from a subcore are the TensorCore's; the
  table slice a gather reads is the whole table. Of the scoped buffers three are the task's scratch, of the scoped
  semaphores five are its own: they are taken out, the rest set aside across the run and put back. The two scratch
  buffers of two rows are whole ownership of the buffer split along the first coordinate — the rows' element sets are
  disjoint and cover it — and the halves, left at whatever contents, join back to the buffer whole at some contents.
-/
import proofs.«208231_g67989332295774_cont_9to1_m_298_26_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (d : Dev nD) (L : grid0.Coords)

/-! ## The subcore's own semaphores and buffers -/

theorem ownSems0_V :
    (ownSems0 (V d (cV L) (jV L)) : sProp 𝕄)
      = iprop(semVal (c3cell d (cV L) (jV L)) 0 ∗ semVal (c4cell d (cV L) (jV L)) 0 ∗ semVal (c5cell d (cV L) (jV L)) 0
          ∗ semVal (c6cell d (cV L) (jV L)) 0 ∗ semVal (c7cell d (cV L) (jV L)) 0
          ∗ bigSep ((((((ownCells (V d (cV L) (jV L))).erase (c3cell d (cV L) (jV L))).erase (c4cell d (cV L) (jV L))).erase (c5cell d (cV L) (jV L))).erase
              (c6cell d (cV L) (jV L))).erase (c7cell d (cV L) (jV L))) fun g => semVal g 0) := by
  unfold SparseCore.Cfg.ownSems0
  rw [SparseCore.bigSep_erase' ((mem_ownCells (g := c3cell d (cV L) (jV L))).mpr ⟨rfl, by
      show (SemLoc.dma cc0_scratch3.sem : SemLoc sig).isScoped .scVector = true; decide⟩),
    SparseCore.bigSep_erase' (Finset.mem_erase.mpr ⟨by simp [c3cell, c4cell]; decide, (mem_ownCells (g := c4cell d (cV L) (jV L))).mpr ⟨rfl, by
      show (SemLoc.dma cc0_scratch4.sem : SemLoc sig).isScoped .scVector = true; decide⟩⟩),
    SparseCore.bigSep_erase' (Finset.mem_erase.mpr ⟨by simp [c4cell, c5cell]; decide, Finset.mem_erase.mpr ⟨by simp [c3cell, c5cell]; decide,
      (mem_ownCells (g := c5cell d (cV L) (jV L))).mpr ⟨rfl, by show (SemLoc.dma cc0_scratch5.sem : SemLoc sig).isScoped .scVector = true; decide⟩⟩⟩),
    SparseCore.bigSep_erase' (Finset.mem_erase.mpr ⟨by simp [c5cell, c6cell]; decide, Finset.mem_erase.mpr ⟨by simp [c4cell, c6cell]; decide,
      Finset.mem_erase.mpr ⟨by simp [c3cell, c6cell]; decide,
      (mem_ownCells (g := c6cell d (cV L) (jV L))).mpr ⟨rfl, by show (SemLoc.dma cc0_scratch6.sem : SemLoc sig).isScoped .scVector = true; decide⟩⟩⟩⟩),
    SparseCore.bigSep_erase' (Finset.mem_erase.mpr ⟨by simp [c6cell, c7cell]; decide, Finset.mem_erase.mpr ⟨by simp [c5cell, c7cell]; decide,
      Finset.mem_erase.mpr ⟨by simp [c4cell, c7cell]; decide, Finset.mem_erase.mpr ⟨by simp [c3cell, c7cell]; decide,
      (mem_ownCells (g := c7cell d (cV L) (jV L))).mpr ⟨rfl, by show (SemLoc.dma cc0_scoped0.sem : SemLoc sig).isScoped .scVector = true; decide⟩⟩⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ## The scratch as the program slices it -/

/-- The first list's elements are the first row of the 2 × 120 scratch, the second's the second. -/
theorem JB0_set : (JB0).view.set = (Rect.unit (s := S2x120) ![0, 0] S1x120.size inb_S2x120_S1x120_0_0).set := by
  show (((View.whole (cc0_scratch1 : Ref sig .scVector)).slice _).reshape S120 _).set = _
  rw [View.set_reshape, View.set_slice_whole]
theorem JB1_set : (JB1).view.set = (Rect.unit (s := S2x120) ![1, 0] S1x120.size inb_S2x120_S1x120_1_0).set := by
  show (((View.whole (cc0_scratch1 : Ref sig .scVector)).slice _).reshape S120 _).set = _
  rw [View.set_reshape, View.set_slice_whole]
theorem RW0_set : (RW0).view.set = (Rect.unit (s := S2x120x128) ![0, 0, 0] S1x120x128.size inb_S2x120x128_S1x120x128_0_0_0).set := by
  show (((View.whole (cc0_scratch2 : Ref sig .scVector)).slice _).reshape S120x128 _).set = _
  rw [View.set_reshape, View.set_slice_whole]
theorem RW1_set : (RW1).view.set = (Rect.unit (s := S2x120x128) ![1, 0, 0] S1x120x128.size inb_S2x120x128_S1x120x128_1_0_0).set := by
  show (((View.whole (cc0_scratch2 : Ref sig .scVector)).slice _).reshape S120x128 _).set = _
  rw [View.set_reshape, View.set_slice_whole]

theorem JB_disjoint : Disjoint (JB0).view.set (JB1).view.set := by
  rw [JB0_set, JB1_set]
  exact Rect.unit_disjoint (0 : Fin 2) (Or.inl (by decide))
theorem RW_disjoint : Disjoint (RW0).view.set (RW1).view.set := by
  rw [RW0_set, RW1_set]
  exact Rect.unit_disjoint (0 : Fin 3) (Or.inl (by decide))

theorem JB_cover : (JB0).view.set ∪ (JB1).view.set = Finset.univ := by
  refine Finset.eq_univ_iff_forall.mpr fun x => ?_
  rw [Finset.mem_union, JB0_set, JB1_set, Rect.mem_set_unit, Rect.mem_set_unit]
  have h0 : (x 0).val < 2 := (x 0).isLt
  have h1 : (x 1).val < 120 := (x 1).isLt
  by_cases h : (x 0).val = 0
  · left; intro a
    match a with
    | ⟨0, _⟩ => show 0 ≤ (x 0).val ∧ (x 0).val < 0 + 1; omega
    | ⟨1, _⟩ => show 0 ≤ (x 1).val ∧ (x 1).val < 0 + 120; omega
  · right; intro a
    match a with
    | ⟨0, _⟩ => show 1 ≤ (x 0).val ∧ (x 0).val < 1 + 1; omega
    | ⟨1, _⟩ => show 0 ≤ (x 1).val ∧ (x 1).val < 0 + 120; omega
theorem RW_cover : (RW0).view.set ∪ (RW1).view.set = Finset.univ := by
  refine Finset.eq_univ_iff_forall.mpr fun x => ?_
  rw [Finset.mem_union, RW0_set, RW1_set, Rect.mem_set_unit, Rect.mem_set_unit]
  have h0 : (x 0).val < 2 := (x 0).isLt
  have h1 : (x 1).val < 120 := (x 1).isLt
  have h2 : (x 2).val < 128 := (x 2).isLt
  by_cases h : (x 0).val = 0
  · left; intro a
    match a with
    | ⟨0, _⟩ => show 0 ≤ (x 0).val ∧ (x 0).val < 0 + 1; omega
    | ⟨1, _⟩ => show 0 ≤ (x 1).val ∧ (x 1).val < 0 + 120; omega
    | ⟨2, _⟩ => show 0 ≤ (x 2).val ∧ (x 2).val < 0 + 128; omega
  · right; intro a
    match a with
    | ⟨0, _⟩ => show 1 ≤ (x 0).val ∧ (x 0).val < 1 + 1; omega
    | ⟨1, _⟩ => show 0 ≤ (x 1).val ∧ (x 1).val < 0 + 120; omega
    | ⟨2, _⟩ => show 0 ≤ (x 2).val ∧ (x 2).val < 0 + 128; omega

/-- The table as the program slices it for a gather is the whole table. -/
theorem TSL_set : (TSL).view.set = Finset.univ := by
  show ((View.whole (main_v2_scv : Ref sig .scVector)).slice _).set = _
  rw [View.set_slice_whole]
  refine Finset.eq_univ_iff_forall.mpr fun x => ?_
  rw [Rect.mem_set_unit]
  have h0 : (x 0).val < 3000 := (x 0).isLt
  have h1 : (x 1).val < 128 := (x 1).isLt
  intro a
  match a with
  | ⟨0, _⟩ => show 0 ≤ (x 0).val ∧ (x 0).val < 0 + 3000; omega
  | ⟨1, _⟩ => show 0 ≤ (x 1).val ∧ (x 1).val < 0 + 128; omega

/-! ## The two-row scratch buffers whole, and by halves -/

theorem s6_split (f : Buf (Elt F) ((V d (cV L) (jV L)).loc cc0_scratch1)) :
    ((V d (cV L) (jV L)).loc cc0_scratch1 ↦{fullShare} f : sProp 𝕄)
      ⊣⊢ iprop(((JB0).view.loc (V d (cV L) (jV L)) ↦[(JB0).view.set]{fullShare} f) ∗ ((JB1).view.loc (V d (cV L) (jV L)) ↦[(JB1).view.set]{fullShare} f)) := by
  have h : ((V d (cV L) (jV L)).loc cc0_scratch1 ↦[(JB0).view.set ∪ (JB1).view.set]{fullShare} f : sProp 𝕄)
      ⊣⊢ iprop(((JB0).view.loc (V d (cV L) (jV L)) ↦[(JB0).view.set]{fullShare} f) ∗ ((JB1).view.loc (V d (cV L) (jV L)) ↦[(JB1).view.set]{fullShare} f)) :=
    pointsTo_union JB_disjoint
  rw [JB_cover] at h
  exact h
theorem s7_split (f : Buf (Elt F) ((V d (cV L) (jV L)).loc cc0_scratch2)) :
    ((V d (cV L) (jV L)).loc cc0_scratch2 ↦{fullShare} f : sProp 𝕄)
      ⊣⊢ iprop(((RW0).view.loc (V d (cV L) (jV L)) ↦[(RW0).view.set]{fullShare} f) ∗ ((RW1).view.loc (V d (cV L) (jV L)) ↦[(RW1).view.set]{fullShare} f)) := by
  have h : ((V d (cV L) (jV L)).loc cc0_scratch2 ↦[(RW0).view.set ∪ (RW1).view.set]{fullShare} f : sProp 𝕄)
      ⊣⊢ iprop(((RW0).view.loc (V d (cV L) (jV L)) ↦[(RW0).view.set]{fullShare} f) ∗ ((RW1).view.loc (V d (cV L) (jV L)) ↦[(RW1).view.set]{fullShare} f)) :=
    pointsTo_union RW_disjoint
  rw [RW_cover] at h
  exact h

/-- The halves at any contents are the buffer whole at some contents. -/
theorem s6_join (g0 g1 : Buf (Elt F) ((V d (cV L) (jV L)).loc cc0_scratch1)) :
    iprop(((JB0).view.loc (V d (cV L) (jV L)) ↦[(JB0).view.set]{fullShare} g0) ∗ ((JB1).view.loc (V d (cV L) (jV L)) ↦[(JB1).view.set]{fullShare} g1))
      ⊢ (iprop(∃ f, (V d (cV L) (jV L)).loc cc0_scratch1 ↦{fullShare} f) : sProp 𝕄) := by
  have h : iprop(((JB0).view.loc (V d (cV L) (jV L)) ↦[(JB0).view.set]{fullShare} g0) ∗ ((JB1).view.loc (V d (cV L) (jV L)) ↦[(JB1).view.set]{fullShare} g1))
      ⊢ ((V d (cV L) (jV L)).loc cc0_scratch1 ↦[(JB0).view.set ∪ (JB1).view.set]{fullShare} ((JB1).view.set.piecewise g1 g0) : sProp 𝕄) :=
    pointsTo_join JB_disjoint
  rw [JB_cover] at h
  iintro H
  ihave H' := h $$ H
  iexists _; iexact H'
theorem s7_join (r0 r1 : Buf (Elt F) ((V d (cV L) (jV L)).loc cc0_scratch2)) :
    iprop(((RW0).view.loc (V d (cV L) (jV L)) ↦[(RW0).view.set]{fullShare} r0) ∗ ((RW1).view.loc (V d (cV L) (jV L)) ↦[(RW1).view.set]{fullShare} r1))
      ⊢ (iprop(∃ f, (V d (cV L) (jV L)).loc cc0_scratch2 ↦{fullShare} f) : sProp 𝕄) := by
  have h : iprop(((RW0).view.loc (V d (cV L) (jV L)) ↦[(RW0).view.set]{fullShare} r0) ∗ ((RW1).view.loc (V d (cV L) (jV L)) ↦[(RW1).view.set]{fullShare} r1))
      ⊢ ((V d (cV L) (jV L)).loc cc0_scratch2 ↦[(RW0).view.set ∪ (RW1).view.set]{fullShare} ((RW1).view.set.piecewise r1 r0) : sProp 𝕄) :=
    pointsTo_join RW_disjoint
  rw [RW_cover] at h
  iintro H
  ihave H' := h $$ H
  iexists _; iexact H'

/-- The table slice a gather reads is the table: the subcore's view of it at a share is the TensorCore's array at that share. -/
theorem pts_TSL (q : PosShare TreeShare) (f : Buf (Elt F) (tLoc d)) :
    ((TSL).view.loc (V d (cV L) (jV L)) ↦[(TSL).view.set]{q} f : sProp 𝕄) = tLoc d ↦{q} f := by
  rw [TSL_set]

variable [FloatOps F] (m : (ℓ : Loc nD τ sig) → Buf (Elt F) ℓ)

/-! ## The task between the launch's form of its resources and its own -/

/-- Before: the launch's operands, the three scratch buffers whole and the five semaphores are what the task starts from. -/
theorem pre_regroup (fo : Buf (Elt F) (oLoc d)) (f5 : Buf (Elt F) ((V d (cV L) (jV L)).loc cc0_scratch0))
    (f6 : Buf (Elt F) ((V d (cV L) (jV L)).loc cc0_scratch1)) (f7 : Buf (Elt F) ((V d (cV L) (jV L)).loc cc0_scratch2)) :
    iprop(((iLoc d ↦[iSet L]{fullShare} idsF m d) ∗ (tLoc d ↦{tq L} tabF m d) ∗ (oLoc d ↦[oSet L]{fullShare} fo))
        ∗ ((V d (cV L) (jV L)).loc cc0_scratch0 ↦{fullShare} f5) ∗ ((V d (cV L) (jV L)).loc cc0_scratch1 ↦{fullShare} f6) ∗ ((V d (cV L) (jV L)).loc cc0_scratch2 ↦{fullShare} f7)
        ∗ tileSems d L)
      ⊢ (tilePre m d L fo f5 f6 f6 f7 f7 : sProp 𝕄) := by
  unfold tilePre
  iintro ⟨⟨Hi, Ht, Ho⟩, H5, H6, H7, Hs⟩
  ihave H6' := (s6_split d L f6).1 $$ H6
  icases H6' with ⟨H60, H61⟩
  ihave H7' := (s7_split d L f7).1 $$ H7
  icases H7' with ⟨H70, H71⟩
  isplitl [Hi]; · iexact Hi
  isplitl [Ht]
  · ihave Ht' := (Entails.of_eq (pts_TSL (F := F) d L (tq L) (tabF m d)).symm) $$ Ht
    iexact Ht'
  isplitl [Ho]; · iexact Ho
  isplitl [H5]; · iexact H5
  isplitl [H60]; · iexact H60
  isplitl [H61]; · iexact H61
  isplitl [H70]; · iexact H70
  isplitl [H71]; · iexact H71
  iexact Hs

/-- After: what the task ends with is the launch's results, the three scratch buffers whole at some contents, and the
    five semaphores. -/
theorem post_regroup :
    (tilePost m d L : sProp 𝕄)
      ⊢ iprop(tdP m d L ∗ ((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f))
        ∗ semVal (c3cell d (cV L) (jV L)) 0 ∗ semVal (c4cell d (cV L) (jV L)) 0 ∗ semVal (c5cell d (cV L) (jV L)) 0
          ∗ semVal (c6cell d (cV L) (jV L)) 0 ∗ semVal (c7cell d (cV L) (jV L)) 0) := by
  unfold tilePost tdP tileSems
  iintro ⟨Hi, Ht, ⟨%fo, %hT, Ho⟩, ⟨%f5, H5⟩, ⟨%g0, H60⟩, ⟨%g1, H61⟩, ⟨%r0, H70⟩, ⟨%r1, H71⟩, Hs⟩
  isplitl [Hi Ht Ho]
  · isplitl [Hi]; · iexact Hi
    isplitl [Ht]
    · ihave Ht' := (Entails.of_eq (pts_TSL (F := F) d L (tq L) (tabF m d))) $$ Ht
      iexact Ht'
    iexists fo
    isplitr; · ipureintro; exact hT
    iexact Ho
  isplitr [Hs]
  · isplitl [H5]; · iexists f5; iexact H5
    isplitl [H60 H61]
    · iapply (s6_join d L g0 g1); isplitl [H60] <;> iassumption
    · iapply (s7_join d L r0 r1); isplitl [H70] <;> iassumption
  iexact Hs

/-- The task's end with what was set aside put back: the launch's results, the subcore's buffers and semaphores in the
    form the launch reads them, what it owes. -/
theorem final_regroup (O : CellTallies nD τ sig (HIx 1)) (W : Waits sig (HIx 1)) (Rb Rs : sProp 𝕄) :
    iprop((tilePost m d L ∗ ∃ W', ⌜∀ p ∈ W', p ∈ W ∨ p.2 = none⌝ ∗ owes (V d (cV L) (jV L)) O W') ∗ (Rb ∗ Rs))
      ⊢ iprop(tdP m d L
        ∗ ((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ Rb)
        ∗ (semVal (c3cell d (cV L) (jV L)) 0 ∗ semVal (c4cell d (cV L) (jV L)) 0 ∗ semVal (c5cell d (cV L) (jV L)) 0
          ∗ semVal (c6cell d (cV L) (jV L)) 0 ∗ semVal (c7cell d (cV L) (jV L)) 0 ∗ Rs)
        ∗ ∃ W', ⌜∀ p ∈ W', p ∈ W ∨ p.2 = none⌝ ∗ owes (V d (cV L) (jV L)) O W') := by
  iintro ⟨⟨Hpost, HW⟩, Hb, Hs⟩
  ihave Hp := (post_regroup d L m) $$ Hpost
  icases Hp with ⟨Htd, ⟨H5, H6, H7⟩, Hs3, Hs4, Hs5, Hs6, Hs7⟩
  isplitl [Htd]; · iexact Htd
  isplitl [H5 H6 H7 Hb]
  · isplitl [H5]; · iexact H5
    isplitl [H6]; · iexact H6
    isplitl [H7]; · iexact H7
    iexact Hb
  isplitl [Hs3 Hs4 Hs5 Hs6 Hs7 Hs]
  · isplitl [Hs3]; · iexact Hs3
    isplitl [Hs4]; · iexact Hs4
    isplitl [Hs5]; · iexact Hs5
    isplitl [Hs6]; · iexact Hs6
    isplitl [Hs7]; · iexact Hs7
    iexact Hs
  iexact HW

/-- The task's run in the launch's form: from the worker's operands, the subcore's scoped buffers and semaphores and what
    it owes, to its results, the same buffers and semaphores, what it owes. The three scratch buffers and the five
    semaphores are taken out of the scoped ones, the rest set aside across the run. -/
theorem tile_wrap (hF : (K (F := F)).Facts) (hidsF : ∀ d n, (idsF m d n).toNat < 1000) (hbody : TileBody m hidsF)
    (O : CellTallies nD τ sig (HIx 1)) (W : Waits sig (HIx 1)) (hO : ∀ g, O g none = 0) :
    iprop(levAts (K (F := F)).L (K (F := F)).lev ∗ emp ∗ goP m d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_kernel L tV (Memref.isWhole_whole _) iV (Memref.isWhole_whole _) oV (Memref.isWhole_whole _) s5 (Memref.isWhole_whole _) s6 (Memref.isWhole_whole _) s7 (Memref.isWhole_whole _) cc0_scratch3 cc0_scratch4 cc0_scratch5 cc0_scratch6 cc0_scoped0)
          fun _ => iprop(tdP m d L ∗ scopedBufs (V d (cV L) (jV L)) ∗ scopedSems0 (V d (cV L) (jV L)) ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goP
  iintro ⟨#Hlv, -, ⟨Hi, Ht, %fo, Ho⟩, ⟨⟨%f5, H5⟩, ⟨%f6, H6⟩, ⟨%f7, H7⟩, Hbufs⟩, ⟨Hs3, Hs4, Hs5, Hs6, Hs7, Hsems⟩, HO⟩
  iapply (wp_mono frame _ Set.univ (fun _ => final_regroup d L m O W _ _))
  iapply (wp_frame_r frame _ Set.univ)
  isplitr [Hbufs Hsems]
  · iapply (hbody d L O W hO fo f5 f6 f6 f7 f7)
    isplitr; · iexact Hlv
    isplitr [HO]
    · iapply (pre_regroup d L m fo f5 f6 f7)
      isplitl [Hi Ht Ho]
      · isplitl [Hi]; · iexact Hi
        isplitl [Ht]; · iexact Ht
        iexact Ho
      isplitl [H5]; · iexact H5
      isplitl [H6]; · iexact H6
      isplitl [H7]; · iexact H7
      unfold tileSems
      isplitl [Hs3]; · iexact Hs3
      isplitl [Hs4]; · iexact Hs4
      isplitl [Hs5]; · iexact Hs5
      isplitl [Hs6]; · iexact Hs6
      iexact Hs7
    · iexact HO
  · isplitl [Hbufs] <;> iassumption

/-! ## The obligation -/

theorem defs₀_vector (c : Fin τ.nSC) (s : Fin τ.nSub) :
    defs₀ (F := F) (.scVector c s) 0 ()
      = SparseCore.onTile hcore0 hsub0 (fun c s => cc0_gather_kernel (coordsV c s)
          tV (Memref.isWhole_whole _) iV (Memref.isWhole_whole _) oV (Memref.isWhole_whole _) s5 (Memref.isWhole_whole _) s6 (Memref.isWhole_whole _) s7 (Memref.isWhole_whole _) cc0_scratch3 cc0_scratch4 cc0_scratch5 cc0_scratch6 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Given the task's run at every grid point, the launch theorem's obligation for the one vector-subcore call. -/
theorem tileObl_of_body (hidsF : ∀ d n, (idsF m d n).toNat < 1000) (hbody : TileBody m hidsF) :
    (K (F := F)).TileObl (D (F := F)) 𝒱 (P m) v₀ 0 := by
  intro d c i O W hO _ _
  -- this kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have h := tile_wrap d (coordsV ⟨_, hc.1⟩ ⟨_, hc.2⟩) m facts hidsF hbody O W hO
  -- the kernel function as a variable: the two sides then differ only in how the thread and the payloads are spelled
  generalize cc0_gather_kernel (F := F) (coordsV ⟨_, hc.1⟩ ⟨_, hc.2⟩) tV (Memref.isWhole_whole _) iV (Memref.isWhole_whole _) oV (Memref.isWhole_whole _) s5 (Memref.isWhole_whole _) s6 (Memref.isWhole_whole _) s7 (Memref.isWhole_whole _) cc0_scratch3 cc0_scratch4 cc0_scratch5 cc0_scratch6 cc0_scoped0 = prog at h ⊢
  exact h.trans (wp_mono frame _ _ fun _ => obl_post)

end Cert.Proof.KI

end
-- ==== Proof.TileObl.lean ====
/-
  The launch's obligation for the lookup kernel's one call, from the precondition's bound on the row numbers.
-/
import proofs.«208231_g67989332295774_cont_9to1_m_298_26_alg».proof.Proof.Tile
import proofs.«208231_g67989332295774_cont_9to1_m_298_26_alg».proof.Proof.TileWrap

noncomputable section

namespace Cert.Proof.KI

open Cert.KernelIdeal Cert.KernelIdeal.Gen
open Idealize.ShloMosaic

variable {F : FTy → Type} [FloatOps F]

/-- The launch's obligation for the one call, from the bound on the row numbers: the flat ids are the row numbers
    re-indexed, so the bound holds of them; the task's run then gives the obligation. -/
theorem tileObl (m : (ℓ : Loc nD τ sig) → Buf (Elt F) ℓ)
    (hids : ∀ d j, (m ((SparseCore.T d).loc main_arg1) j).toNat < 1000) :
    (K (F := F)).TileObl (D (F := F)) 𝒱 (P m) v₀ 0 :=
  have hidsF : ∀ d n, (idsF m d n).toNat < 1000 := fun d n => Cert.Proof.HostValue.idsFlat_lt _ (hids d) n
  tileObl_of_body m hidsF (tile_body m hidsF)

end Cert.Proof.KI

end
-- ==== Proof.Bits.Tile.lean ====
/-
  The task of one vector subcore of the lookup kernel, run once at a symbolic grid point. The worker fetches its 1600
  ids; then, chunk by chunk (forty chunks of forty ids, two list rows and two row buffers used in turn), it writes the
  list of 120 row numbers 3·id + t of the chunk's ids, gathers those rows of the padded table, and copies them to its
  part of the staged output, the next chunk's list being written while the previous gather and copy are in flight.
  Every list entry is 3·id + t with id < 1000, so every gather reads rows that exist; after the last copy has landed
  the worker's 4800 staged rows hold, for each of its ids, the three 128-wide pieces of that id's padded table row.
-/
import proofs.«208231_g67989332295774_cont_9to1_m_298_26_alg».proof.Proof.Bits.TileRes
import proofs.«208231_g67989332295774_cont_9to1_m_298_26_alg».proof.Proof.Bits.ListFacts
import proofs.«208231_g67989332295774_cont_9to1_m_298_26_alg».proof.Proof.Bits.ValueFacts
import proofs.«208231_g67989332295774_cont_9to1_m_298_26_alg».proof.Proof.Bits.OutSplit
import proofs.«208231_g67989332295774_cont_9to1_m_298_26_alg».proof.Proof.Gen.Kernel.Skeleton

noncomputable section

namespace Cert.Proof.KB

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- An assertion set aside for a moment: the same assertion, under a name the run does not read as a buffer's. -/
def aside (X : sProp 𝕄) : sProp 𝕄 := X
omit [FloatOps F] in
theorem aside_intro (X : sProp 𝕄) : X ⊢ aside (F := F) X := BI.Entails.refl _
omit [FloatOps F] in
theorem aside_elim (X : sProp 𝕄) : aside (F := F) X ⊢ X := BI.Entails.refl _

set_option maxHeartbeats 40000000 in
set_option maxRecDepth 65536 in
/-- The task runs: from its ids, its read share of the table, its staged rows and its scratch, to the same with the
    staged rows holding the table rows its ids name. -/
theorem tile_body (m : (ℓ : Loc nD τ sig) → Buf (Elt F) ℓ) (hidsF : ∀ d n, (idsF m d n).toNat < 1000) : TileBody m hidsF := by
  intro d L O W hO fo f5 g0 g1 r0 r1
  unfold tilePre tileSems
  iintro ⟨#Hlv, ⟨Hi, Ht, Ho, H5, HJ0, HJ1, HR0, HR1, Hc3, Hc4, Hc5, Hc6, Hc7⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  have hO0 : OutInv (idsF m d) (tabF m d) L 0 fo := outInv_zero (idsF m d) (tabF m d) L fo
  -- the staged rows as two rectangles: chunks 0–38's, and chunk 39's, kept aside until its write-back is issued
  ihave Ho2 := (show (((oV).view.loc (V d (cV L) (jV L)) ↦[(oV).view.setOn (oR L).set]{fullShare} fo : sProp 𝕄)
      ⊢ iprop(((oV).view.loc (V d (cV L) (jV L)) ↦[(oV).view.setOn (oRA L).set]{fullShare} fo)
          ∗ ((oV).view.loc (V d (cV L) (jV L)) ↦[(oV).view.setOn (oRB L).set]{fullShare} fo))) from (oPts_AB (F := F) d L fo).1) $$ Ho
  icases Ho2 with ⟨HoA, HoB⟩
  ihave HoBa := (aside_intro (F := F) _) $$ HoB
  -- chunk 0: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL0, %hgL0, HJ0⟩
  have hJ0 := jb_facts L 0 (by decide) (idsF m d) (hidsF d) (s5_read L (idsF m d) f5) JB0.view hgL0
  have hin0 : ∀ (x : S120.Idx), BitVec.toNat (View.read (Elt F) (JB0).view gL0 x) < 3000 := hJ0.1
  clear hgL0
  -- chunk 1: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL1, %hgL1, HJ1⟩
  have hJ1 := jb_facts L 1 (by decide) (idsF m d) (hidsF d) (s5_read L (idsF m d) f5) JB1.view hgL1
  have hin1 : ∀ (x : S120.Idx), BitVec.toNat (View.read (Elt F) (JB1).view gL1 x) < 3000 := hJ1.1
  clear hgL1
  ihave HR0' := (pts_name (F := F) _) $$ HR0
  icases HR0' with ⟨%rR0, %hrR0, HR0⟩
  have hR0 := gathered_rows (F := F) RW0.view hrR0
  have hRows0 := chunk_rows (idsF m d) (tabF m d) L (c := 0) (by omega) hR0 hJ0.2 (hidsF d)
  clear hrR0 hR0 hJ0
  -- chunk 2: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL2, %hgL2, HJ0⟩
  have hJ2 := jb_facts L 2 (by decide) (idsF m d) (hidsF d) (s5_read L (idsF m d) f5) JB0.view hgL2
  have hin2 : ∀ (x : S120.Idx), BitVec.toNat (View.read (Elt F) (JB0).view gL2 x) < 3000 := hJ2.1
  clear hgL2
  ihave HR1' := (pts_name (F := F) _) $$ HR1
  icases HR1' with ⟨%rR1, %hrR1, HR1⟩
  have hR1 := gathered_rows (F := F) RW1.view hrR1
  have hRows1 := chunk_rows (idsF m d) (tabF m d) L (c := 1) (by omega) hR1 hJ1.2 (hidsF d)
  clear hrR1 hR1 hJ1
  ihave Ho' := (pts_name (F := F) _) $$ HoA
  icases Ho' with ⟨%fO0, %hfO0, HoA⟩
  have hO1 : OutInv (idsF m d) (tabF m d) L 1 fO0 :=
    outInv_step (idsF m d) (tabF m d) L (c := 0) (by omega) hfO0 (closedOff_rows rfl (by unfold wid; omega)) hO0 hRows0
  clear hfO0 hO0 hRows0
  -- chunk 3: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL3, %hgL3, HJ1⟩
  have hJ3 := jb_facts L 3 (by decide) (idsF m d) (hidsF d) (s5_read L (idsF m d) f5) JB1.view hgL3
  have hin3 : ∀ (x : S120.Idx), BitVec.toNat (View.read (Elt F) (JB1).view gL3 x) < 3000 := hJ3.1
  clear hgL3
  ihave HR0' := (pts_name (F := F) _) $$ HR0
  icases HR0' with ⟨%rR2, %hrR2, HR0⟩
  have hR2 := gathered_rows (F := F) RW0.view hrR2
  have hRows2 := chunk_rows (idsF m d) (tabF m d) L (c := 2) (by omega) hR2 hJ2.2 (hidsF d)
  clear hrR2 hR2 hJ2
  ihave Ho' := (pts_name (F := F) _) $$ HoA
  icases Ho' with ⟨%fO1, %hfO1, HoA⟩
  have hO2 : OutInv (idsF m d) (tabF m d) L 2 fO1 :=
    outInv_step (idsF m d) (tabF m d) L (c := 1) (by omega) hfO1 (closedOff_rows rfl (by unfold wid; omega)) hO1 hRows1
  clear hfO1 hO1 hRows1
  -- chunk 4: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL4, %hgL4, HJ0⟩
  have hJ4 := jb_facts L 4 (by decide) (idsF m d) (hidsF d) (s5_read L (idsF m d) f5) JB0.view hgL4
  have hin4 : ∀ (x : S120.Idx), BitVec.toNat (View.read (Elt F) (JB0).view gL4 x) < 3000 := hJ4.1
  clear hgL4
  ihave HR1' := (pts_name (F := F) _) $$ HR1
  icases HR1' with ⟨%rR3, %hrR3, HR1⟩
  have hR3 := gathered_rows (F := F) RW1.view hrR3
  have hRows3 := chunk_rows (idsF m d) (tabF m d) L (c := 3) (by omega) hR3 hJ3.2 (hidsF d)
  clear hrR3 hR3 hJ3
  ihave Ho' := (pts_name (F := F) _) $$ HoA
  icases Ho' with ⟨%fO2, %hfO2, HoA⟩
  have hO3 : OutInv (idsF m d) (tabF m d) L 3 fO2 :=
    outInv_step (idsF m d) (tabF m d) L (c := 2) (by omega) hfO2 (closedOff_rows rfl (by unfold wid; omega)) hO2 hRows2
  clear hfO2 hO2 hRows2
  -- chunk 5: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL5, %hgL5, HJ1⟩
  have hJ5 := jb_facts L 5 (by decide) (idsF m d) (hidsF d) (s5_read L (idsF m d) f5) JB1.view hgL5
  have hin5 : ∀ (x : S120.Idx), BitVec.toNat (View.read (Elt F) (JB1).view gL5 x) < 3000 := hJ5.1
  clear hgL5
  ihave HR0' := (pts_name (F := F) _) $$ HR0
  icases HR0' with ⟨%rR4, %hrR4, HR0⟩
  have hR4 := gathered_rows (F := F) RW0.view hrR4
  have hRows4 := chunk_rows (idsF m d) (tabF m d) L (c := 4) (by omega) hR4 hJ4.2 (hidsF d)
  clear hrR4 hR4 hJ4
  ihave Ho' := (pts_name (F := F) _) $$ HoA
  icases Ho' with ⟨%fO3, %hfO3, HoA⟩
  have hO4 : OutInv (idsF m d) (tabF m d) L 4 fO3 :=
    outInv_step (idsF m d) (tabF m d) L (c := 3) (by omega) hfO3 (closedOff_rows rfl (by unfold wid; omega)) hO3 hRows3
  clear hfO3 hO3 hRows3
  -- chunk 6: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL6, %hgL6, HJ0⟩
  have hJ6 := jb_facts L 6 (by decide) (idsF m d) (hidsF d) (s5_read L (idsF m d) f5) JB0.view hgL6
  have hin6 : ∀ (x : S120.Idx), BitVec.toNat (View.read (Elt F) (JB0).view gL6 x) < 3000 := hJ6.1
  clear hgL6
  ihave HR1' := (pts_name (F := F) _) $$ HR1
  icases HR1' with ⟨%rR5, %hrR5, HR1⟩
  have hR5 := gathered_rows (F := F) RW1.view hrR5
  have hRows5 := chunk_rows (idsF m d) (tabF m d) L (c := 5) (by omega) hR5 hJ5.2 (hidsF d)
  clear hrR5 hR5 hJ5
  ihave Ho' := (pts_name (F := F) _) $$ HoA
  icases Ho' with ⟨%fO4, %hfO4, HoA⟩
  have hO5 : OutInv (idsF m d) (tabF m d) L 5 fO4 :=
    outInv_step (idsF m d) (tabF m d) L (c := 4) (by omega) hfO4 (closedOff_rows rfl (by unfold wid; omega)) hO4 hRows4
  clear hfO4 hO4 hRows4
  -- chunk 7: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL7, %hgL7, HJ1⟩
  have hJ7 := jb_facts L 7 (by decide) (idsF m d) (hidsF d) (s5_read L (idsF m d) f5) JB1.view hgL7
  have hin7 : ∀ (x : S120.Idx), BitVec.toNat (View.read (Elt F) (JB1).view gL7 x) < 3000 := hJ7.1
  clear hgL7
  ihave HR0' := (pts_name (F := F) _) $$ HR0
  icases HR0' with ⟨%rR6, %hrR6, HR0⟩
  have hR6 := gathered_rows (F := F) RW0.view hrR6
  have hRows6 := chunk_rows (idsF m d) (tabF m d) L (c := 6) (by omega) hR6 hJ6.2 (hidsF d)
  clear hrR6 hR6 hJ6
  ihave Ho' := (pts_name (F := F) _) $$ HoA
  icases Ho' with ⟨%fO5, %hfO5, HoA⟩
  have hO6 : OutInv (idsF m d) (tabF m d) L 6 fO5 :=
    outInv_step (idsF m d) (tabF m d) L (c := 5) (by omega) hfO5 (closedOff_rows rfl (by unfold wid; omega)) hO5 hRows5
  clear hfO5 hO5 hRows5
  -- chunk 8: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL8, %hgL8, HJ0⟩
  have hJ8 := jb_facts L 8 (by decide) (idsF m d) (hidsF d) (s5_read L (idsF m d) f5) JB0.view hgL8
  have hin8 : ∀ (x : S120.Idx), BitVec.toNat (View.read (Elt F) (JB0).view gL8 x) < 3000 := hJ8.1
  clear hgL8
  ihave HR1' := (pts_name (F := F) _) $$ HR1
  icases HR1' with ⟨%rR7, %hrR7, HR1⟩
  have hR7 := gathered_rows (F := F) RW1.view hrR7
  have hRows7 := chunk_rows (idsF m d) (tabF m d) L (c := 7) (by omega) hR7 hJ7.2 (hidsF d)
  clear hrR7 hR7 hJ7
  ihave Ho' := (pts_name (F := F) _) $$ HoA
  icases Ho' with ⟨%fO6, %hfO6, HoA⟩
  have hO7 : OutInv (idsF m d) (tabF m d) L 7 fO6 :=
    outInv_step (idsF m d) (tabF m d) L (c := 6) (by omega) hfO6 (closedOff_rows rfl (by unfold wid; omega)) hO6 hRows6
  clear hfO6 hO6 hRows6
  -- chunk 9: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL9, %hgL9, HJ1⟩
  have hJ9 := jb_facts L 9 (by decide) (idsF m d) (hidsF d) (s5_read L (idsF m d) f5) JB1.view hgL9
  have hin9 : ∀ (x : S120.Idx), BitVec.toNat (View.read (Elt F) (JB1).view gL9 x) < 3000 := hJ9.1
  clear hgL9
  ihave HR0' := (pts_name (F := F) _) $$ HR0
  icases HR0' with ⟨%rR8, %hrR8, HR0⟩
  have hR8 := gathered_rows (F := F) RW0.view hrR8
  have hRows8 := chunk_rows (idsF m d) (tabF m d) L (c := 8) (by omega) hR8 hJ8.2 (hidsF d)
  clear hrR8 hR8 hJ8
  ihave Ho' := (pts_name (F := F) _) $$ HoA
  icases Ho' with ⟨%fO7, %hfO7, HoA⟩
  have hO8 : OutInv (idsF m d) (tabF m d) L 8 fO7 :=
    outInv_step (idsF m d) (tabF m d) L (c := 7) (by omega) hfO7 (closedOff_rows rfl (by unfold wid; omega)) hO7 hRows7
  clear hfO7 hO7 hRows7
  -- chunk 10: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL10, %hgL10, HJ0⟩
  have hJ10 := jb_facts L 10 (by decide) (idsF m d) (hidsF d) (s5_read L (idsF m d) f5) JB0.view hgL10
  have hin10 : ∀ (x : S120.Idx), BitVec.toNat (View.read (Elt F) (JB0).view gL10 x) < 3000 := hJ10.1
  clear hgL10
  ihave HR1' := (pts_name (F := F) _) $$ HR1
  icases HR1' with ⟨%rR9, %hrR9, HR1⟩
  have hR9 := gathered_rows (F := F) RW1.view hrR9
  have hRows9 := chunk_rows (idsF m d) (tabF m d) L (c := 9) (by omega) hR9 hJ9.2 (hidsF d)
  clear hrR9 hR9 hJ9
  ihave Ho' := (pts_name (F := F) _) $$ HoA
  icases Ho' with ⟨%fO8, %hfO8, HoA⟩
  have hO9 : OutInv (idsF m d) (tabF m d) L 9 fO8 :=
    outInv_step (idsF m d) (tabF m d) L (c := 8) (by omega) hfO8 (closedOff_rows rfl (by unfold wid; omega)) hO8 hRows8
  clear hfO8 hO8 hRows8
  -- chunk 11: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL11, %hgL11, HJ1⟩
  have hJ11 := jb_facts L 11 (by decide) (idsF m d) (hidsF d) (s5_read L (idsF m d) f5) JB1.view hgL11
  have hin11 : ∀ (x : S120.Idx), BitVec.toNat (View.read (Elt F) (JB1).view gL11 x) < 3000 := hJ11.1
  clear hgL11
  ihave HR0' := (pts_name (F := F) _) $$ HR0
  icases HR0' with ⟨%rR10, %hrR10, HR0⟩
  have hR10 := gathered_rows (F := F) RW0.view hrR10
  have hRows10 := chunk_rows (idsF m d) (tabF m d) L (c := 10) (by omega) hR10 hJ10.2 (hidsF d)
  clear hrR10 hR10 hJ10
  ihave Ho' := (pts_name (F := F) _) $$ HoA
  icases Ho' with ⟨%fO9, %hfO9, HoA⟩
  have hO10 : OutInv (idsF m d) (tabF m d) L 10 fO9 :=
    outInv_step (idsF m d) (tabF m d) L (c := 9) (by omega) hfO9 (closedOff_rows rfl (by unfold wid; omega)) hO9 hRows9
  clear hfO9 hO9 hRows9
  -- chunk 12: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL12, %hgL12, HJ0⟩
  have hJ12 := jb_facts L 12 (by decide) (idsF m d) (hidsF d) (s5_read L (idsF m d) f5) JB0.view hgL12
  have hin12 : ∀ (x : S120.Idx), BitVec.toNat (View.read (Elt F) (JB0).view gL12 x) < 3000 := hJ12.1
  clear hgL12
  ihave HR1' := (pts_name (F := F) _) $$ HR1
  icases HR1' with ⟨%rR11, %hrR11, HR1⟩
  have hR11 := gathered_rows (F := F) RW1.view hrR11
  have hRows11 := chunk_rows (idsF m d) (tabF m d) L (c := 11) (by omega) hR11 hJ11.2 (hidsF d)
  clear hrR11 hR11 hJ11
  ihave Ho' := (pts_name (F := F) _) $$ HoA
  icases Ho' with ⟨%fO10, %hfO10, HoA⟩
  have hO11 : OutInv (idsF m d) (tabF m d) L 11 fO10 :=
    outInv_step (idsF m d) (tabF m d) L (c := 10) (by omega) hfO10 (closedOff_rows rfl (by unfold wid; omega)) hO10 hRows10
  clear hfO10 hO10 hRows10
  -- chunk 13: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL13, %hgL13, HJ1⟩
  have hJ13 := jb_facts L 13 (by decide) (idsF m d) (hidsF d) (s5_read L (idsF m d) f5) JB1.view hgL13
  have hin13 : ∀ (x : S120.Idx), BitVec.toNat (View.read (Elt F) (JB1).view gL13 x) < 3000 := hJ13.1
  clear hgL13
  ihave HR0' := (pts_name (F := F) _) $$ HR0
  icases HR0' with ⟨%rR12, %hrR12, HR0⟩
  have hR12 := gathered_rows (F := F) RW0.view hrR12
  have hRows12 := chunk_rows (idsF m d) (tabF m d) L (c := 12) (by omega) hR12 hJ12.2 (hidsF d)
  clear hrR12 hR12 hJ12
  ihave Ho' := (pts_name (F := F) _) $$ HoA
  icases Ho' with ⟨%fO11, %hfO11, HoA⟩
  have hO12 : OutInv (idsF m d) (tabF m d) L 12 fO11 :=
    outInv_step (idsF m d) (tabF m d) L (c := 11) (by omega) hfO11 (closedOff_rows rfl (by unfold wid; omega)) hO11 hRows11
  clear hfO11 hO11 hRows11
  -- chunk 14: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL14, %hgL14, HJ0⟩
  have hJ14 := jb_facts L 14 (by decide) (idsF m d) (hidsF d) (s5_read L (idsF m d) f5) JB0.view hgL14
  have hin14 : ∀ (x : S120.Idx), BitVec.toNat (View.read (Elt F) (JB0).view gL14 x) < 3000 := hJ14.1
  clear hgL14
  ihave HR1' := (pts_name (F := F) _) $$ HR1
  icases HR1' with ⟨%rR13, %hrR13, HR1⟩
  have hR13 := gathered_rows (F := F) RW1.view hrR13
  have hRows13 := chunk_rows (idsF m d) (tabF m d) L (c := 13) (by omega) hR13 hJ13.2 (hidsF d)
  clear hrR13 hR13 hJ13
  ihave Ho' := (pts_name (F := F) _) $$ HoA
  icases Ho' with ⟨%fO12, %hfO12, HoA⟩
  have hO13 : OutInv (idsF m d) (tabF m d) L 13 fO12 :=
    outInv_step (idsF m d) (tabF m d) L (c := 12) (by omega) hfO12 (closedOff_rows rfl (by unfold wid; omega)) hO12 hRows12
  clear hfO12 hO12 hRows12
  -- chunk 15: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL15, %hgL15, HJ1⟩
  have hJ15 := jb_facts L 15 (by decide) (idsF m d) (hidsF d) (s5_read L (idsF m d) f5) JB1.view hgL15
  have hin15 : ∀ (x : S120.Idx), BitVec.toNat (View.read (Elt F) (JB1).view gL15 x) < 3000 := hJ15.1
  clear hgL15
  ihave HR0' := (pts_name (F := F) _) $$ HR0
  icases HR0' with ⟨%rR14, %hrR14, HR0⟩
  have hR14 := gathered_rows (F := F) RW0.view hrR14
  have hRows14 := chunk_rows (idsF m d) (tabF m d) L (c := 14) (by omega) hR14 hJ14.2 (hidsF d)
  clear hrR14 hR14 hJ14
  ihave Ho' := (pts_name (F := F) _) $$ HoA
  icases Ho' with ⟨%fO13, %hfO13, HoA⟩
  have hO14 : OutInv (idsF m d) (tabF m d) L 14 fO13 :=
    outInv_step (idsF m d) (tabF m d) L (c := 13) (by omega) hfO13 (closedOff_rows rfl (by unfold wid; omega)) hO13 hRows13
  clear hfO13 hO13 hRows13
  -- chunk 16: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL16, %hgL16, HJ0⟩
  have hJ16 := jb_facts L 16 (by decide) (idsF m d) (hidsF d) (s5_read L (idsF m d) f5) JB0.view hgL16
  have hin16 : ∀ (x : S120.Idx), BitVec.toNat (View.read (Elt F) (JB0).view gL16 x) < 3000 := hJ16.1
  clear hgL16
  ihave HR1' := (pts_name (F := F) _) $$ HR1
  icases HR1' with ⟨%rR15, %hrR15, HR1⟩
  have hR15 := gathered_rows (F := F) RW1.view hrR15
  have hRows15 := chunk_rows (idsF m d) (tabF m d) L (c := 15) (by omega) hR15 hJ15.2 (hidsF d)
  clear hrR15 hR15 hJ15
  ihave Ho' := (pts_name (F := F) _) $$ HoA
  icases Ho' with ⟨%fO14, %hfO14, HoA⟩
  have hO15 : OutInv (idsF m d) (tabF m d) L 15 fO14 :=
    outInv_step (idsF m d) (tabF m d) L (c := 14) (by omega) hfO14 (closedOff_rows rfl (by unfold wid; omega)) hO14 hRows14
  clear hfO14 hO14 hRows14
  -- chunk 17: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL17, %hgL17, HJ1⟩
  have hJ17 := jb_facts L 17 (by decide) (idsF m d) (hidsF d) (s5_read L (idsF m d) f5) JB1.view hgL17
  have hin17 : ∀ (x : S120.Idx), BitVec.toNat (View.read (Elt F) (JB1).view gL17 x) < 3000 := hJ17.1
  clear hgL17
  ihave HR0' := (pts_name (F := F) _) $$ HR0
  icases HR0' with ⟨%rR16, %hrR16, HR0⟩
  have hR16 := gathered_rows (F := F) RW0.view hrR16
  have hRows16 := chunk_rows (idsF m d) (tabF m d) L (c := 16) (by omega) hR16 hJ16.2 (hidsF d)
  clear hrR16 hR16 hJ16
  ihave Ho' := (pts_name (F := F) _) $$ HoA
  icases Ho' with ⟨%fO15, %hfO15, HoA⟩
  have hO16 : OutInv (idsF m d) (tabF m d) L 16 fO15 :=
    outInv_step (idsF m d) (tabF m d) L (c := 15) (by omega) hfO15 (closedOff_rows rfl (by unfold wid; omega)) hO15 hRows15
  clear hfO15 hO15 hRows15
  -- chunk 18: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL18, %hgL18, HJ0⟩
  have hJ18 := jb_facts L 18 (by decide) (idsF m d) (hidsF d) (s5_read L (idsF m d) f5) JB0.view hgL18
  have hin18 : ∀ (x : S120.Idx), BitVec.toNat (View.read (Elt F) (JB0).view gL18 x) < 3000 := hJ18.1
  clear hgL18
  ihave HR1' := (pts_name (F := F) _) $$ HR1
  icases HR1' with ⟨%rR17, %hrR17, HR1⟩
  have hR17 := gathered_rows (F := F) RW1.view hrR17
  have hRows17 := chunk_rows (idsF m d) (tabF m d) L (c := 17) (by omega) hR17 hJ17.2 (hidsF d)
  clear hrR17 hR17 hJ17
  ihave Ho' := (pts_name (F := F) _) $$ HoA
  icases Ho' with ⟨%fO16, %hfO16, HoA⟩
  have hO17 : OutInv (idsF m d) (tabF m d) L 17 fO16 :=
    outInv_step (idsF m d) (tabF m d) L (c := 16) (by omega) hfO16 (closedOff_rows rfl (by unfold wid; omega)) hO16 hRows16
  clear hfO16 hO16 hRows16
  -- chunk 19: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL19, %hgL19, HJ1⟩
  have hJ19 := jb_facts L 19 (by decide) (idsF m d) (hidsF d) (s5_read L (idsF m d) f5) JB1.view hgL19
  have hin19 : ∀ (x : S120.Idx), BitVec.toNat (View.read (Elt F) (JB1).view gL19 x) < 3000 := hJ19.1
  clear hgL19
  ihave HR0' := (pts_name (F := F) _) $$ HR0
  icases HR0' with ⟨%rR18, %hrR18, HR0⟩
  have hR18 := gathered_rows (F := F) RW0.view hrR18
  have hRows18 := chunk_rows (idsF m d) (tabF m d) L (c := 18) (by omega) hR18 hJ18.2 (hidsF d)
  clear hrR18 hR18 hJ18
  ihave Ho' := (pts_name (F := F) _) $$ HoA
  icases Ho' with ⟨%fO17, %hfO17, HoA⟩
  have hO18 : OutInv (idsF m d) (tabF m d) L 18 fO17 :=
    outInv_step (idsF m d) (tabF m d) L (c := 17) (by omega) hfO17 (closedOff_rows rfl (by unfold wid; omega)) hO17 hRows17
  clear hfO17 hO17 hRows17
  -- chunk 20: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL20, %hgL20, HJ0⟩
  have hJ20 := jb_facts L 20 (by decide) (idsF m d) (hidsF d) (s5_read L (idsF m d) f5) JB0.view hgL20
  have hin20 : ∀ (x : S120.Idx), BitVec.toNat (View.read (Elt F) (JB0).view gL20 x) < 3000 := hJ20.1
  clear hgL20
  ihave HR1' := (pts_name (F := F) _) $$ HR1
  icases HR1' with ⟨%rR19, %hrR19, HR1⟩
  have hR19 := gathered_rows (F := F) RW1.view hrR19
  have hRows19 := chunk_rows (idsF m d) (tabF m d) L (c := 19) (by omega) hR19 hJ19.2 (hidsF d)
  clear hrR19 hR19 hJ19
  ihave Ho' := (pts_name (F := F) _) $$ HoA
  icases Ho' with ⟨%fO18, %hfO18, HoA⟩
  have hO19 : OutInv (idsF m d) (tabF m d) L 19 fO18 :=
    outInv_step (idsF m d) (tabF m d) L (c := 18) (by omega) hfO18 (closedOff_rows rfl (by unfold wid; omega)) hO18 hRows18
  clear hfO18 hO18 hRows18
  -- chunk 21: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL21, %hgL21, HJ1⟩
  have hJ21 := jb_facts L 21 (by decide) (idsF m d) (hidsF d) (s5_read L (idsF m d) f5) JB1.view hgL21
  have hin21 : ∀ (x : S120.Idx), BitVec.toNat (View.read (Elt F) (JB1).view gL21 x) < 3000 := hJ21.1
  clear hgL21
  ihave HR0' := (pts_name (F := F) _) $$ HR0
  icases HR0' with ⟨%rR20, %hrR20, HR0⟩
  have hR20 := gathered_rows (F := F) RW0.view hrR20
  have hRows20 := chunk_rows (idsF m d) (tabF m d) L (c := 20) (by omega) hR20 hJ20.2 (hidsF d)
  clear hrR20 hR20 hJ20
  ihave Ho' := (pts_name (F := F) _) $$ HoA
  icases Ho' with ⟨%fO19, %hfO19, HoA⟩
  have hO20 : OutInv (idsF m d) (tabF m d) L 20 fO19 :=
    outInv_step (idsF m d) (tabF m d) L (c := 19) (by omega) hfO19 (closedOff_rows rfl (by unfold wid; omega)) hO19 hRows19
  clear hfO19 hO19 hRows19
  -- chunk 22: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL22, %hgL22, HJ0⟩
  have hJ22 := jb_facts L 22 (by decide) (idsF m d) (hidsF d) (s5_read L (idsF m d) f5) JB0.view hgL22
  have hin22 : ∀ (x : S120.Idx), BitVec.toNat (View.read (Elt F) (JB0).view gL22 x) < 3000 := hJ22.1
  clear hgL22
  ihave HR1' := (pts_name (F := F) _) $$ HR1
  icases HR1' with ⟨%rR21, %hrR21, HR1⟩
  have hR21 := gathered_rows (F := F) RW1.view hrR21
  have hRows21 := chunk_rows (idsF m d) (tabF m d) L (c := 21) (by omega) hR21 hJ21.2 (hidsF d)
  clear hrR21 hR21 hJ21
  ihave Ho' := (pts_name (F := F) _) $$ HoA
  icases Ho' with ⟨%fO20, %hfO20, HoA⟩
  have hO21 : OutInv (idsF m d) (tabF m d) L 21 fO20 :=
    outInv_step (idsF m d) (tabF m d) L (c := 20) (by omega) hfO20 (closedOff_rows rfl (by unfold wid; omega)) hO20 hRows20
  clear hfO20 hO20 hRows20
  -- chunk 23: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL23, %hgL23, HJ1⟩
  have hJ23 := jb_facts L 23 (by decide) (idsF m d) (hidsF d) (s5_read L (idsF m d) f5) JB1.view hgL23
  have hin23 : ∀ (x : S120.Idx), BitVec.toNat (View.read (Elt F) (JB1).view gL23 x) < 3000 := hJ23.1
  clear hgL23
  ihave HR0' := (pts_name (F := F) _) $$ HR0
  icases HR0' with ⟨%rR22, %hrR22, HR0⟩
  have hR22 := gathered_rows (F := F) RW0.view hrR22
  have hRows22 := chunk_rows (idsF m d) (tabF m d) L (c := 22) (by omega) hR22 hJ22.2 (hidsF d)
  clear hrR22 hR22 hJ22
  ihave Ho' := (pts_name (F := F) _) $$ HoA
  icases Ho' with ⟨%fO21, %hfO21, HoA⟩
  have hO22 : OutInv (idsF m d) (tabF m d) L 22 fO21 :=
    outInv_step (idsF m d) (tabF m d) L (c := 21) (by omega) hfO21 (closedOff_rows rfl (by unfold wid; omega)) hO21 hRows21
  clear hfO21 hO21 hRows21
  -- chunk 24: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL24, %hgL24, HJ0⟩
  have hJ24 := jb_facts L 24 (by decide) (idsF m d) (hidsF d) (s5_read L (idsF m d) f5) JB0.view hgL24
  have hin24 : ∀ (x : S120.Idx), BitVec.toNat (View.read (Elt F) (JB0).view gL24 x) < 3000 := hJ24.1
  clear hgL24
  ihave HR1' := (pts_name (F := F) _) $$ HR1
  icases HR1' with ⟨%rR23, %hrR23, HR1⟩
  have hR23 := gathered_rows (F := F) RW1.view hrR23
  have hRows23 := chunk_rows (idsF m d) (tabF m d) L (c := 23) (by omega) hR23 hJ23.2 (hidsF d)
  clear hrR23 hR23 hJ23
  ihave Ho' := (pts_name (F := F) _) $$ HoA
  icases Ho' with ⟨%fO22, %hfO22, HoA⟩
  have hO23 : OutInv (idsF m d) (tabF m d) L 23 fO22 :=
    outInv_step (idsF m d) (tabF m d) L (c := 22) (by omega) hfO22 (closedOff_rows rfl (by unfold wid; omega)) hO22 hRows22
  clear hfO22 hO22 hRows22
  -- chunk 25: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL25, %hgL25, HJ1⟩
  have hJ25 := jb_facts L 25 (by decide) (idsF m d) (hidsF d) (s5_read L (idsF m d) f5) JB1.view hgL25
  have hin25 : ∀ (x : S120.Idx), BitVec.toNat (View.read (Elt F) (JB1).view gL25 x) < 3000 := hJ25.1
  clear hgL25
  ihave HR0' := (pts_name (F := F) _) $$ HR0
  icases HR0' with ⟨%rR24, %hrR24, HR0⟩
  have hR24 := gathered_rows (F := F) RW0.view hrR24
  have hRows24 := chunk_rows (idsF m d) (tabF m d) L (c := 24) (by omega) hR24 hJ24.2 (hidsF d)
  clear hrR24 hR24 hJ24
  ihave Ho' := (pts_name (F := F) _) $$ HoA
  icases Ho' with ⟨%fO23, %hfO23, HoA⟩
  have hO24 : OutInv (idsF m d) (tabF m d) L 24 fO23 :=
    outInv_step (idsF m d) (tabF m d) L (c := 23) (by omega) hfO23 (closedOff_rows rfl (by unfold wid; omega)) hO23 hRows23
  clear hfO23 hO23 hRows23
  -- chunk 26: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL26, %hgL26, HJ0⟩
  have hJ26 := jb_facts L 26 (by decide) (idsF m d) (hidsF d) (s5_read L (idsF m d) f5) JB0.view hgL26
  have hin26 : ∀ (x : S120.Idx), BitVec.toNat (View.read (Elt F) (JB0).view gL26 x) < 3000 := hJ26.1
  clear hgL26
  ihave HR1' := (pts_name (F := F) _) $$ HR1
  icases HR1' with ⟨%rR25, %hrR25, HR1⟩
  have hR25 := gathered_rows (F := F) RW1.view hrR25
  have hRows25 := chunk_rows (idsF m d) (tabF m d) L (c := 25) (by omega) hR25 hJ25.2 (hidsF d)
  clear hrR25 hR25 hJ25
  ihave Ho' := (pts_name (F := F) _) $$ HoA
  icases Ho' with ⟨%fO24, %hfO24, HoA⟩
  have hO25 : OutInv (idsF m d) (tabF m d) L 25 fO24 :=
    outInv_step (idsF m d) (tabF m d) L (c := 24) (by omega) hfO24 (closedOff_rows rfl (by unfold wid; omega)) hO24 hRows24
  clear hfO24 hO24 hRows24
  -- chunk 27: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL27, %hgL27, HJ1⟩
  have hJ27 := jb_facts L 27 (by decide) (idsF m d) (hidsF d) (s5_read L (idsF m d) f5) JB1.view hgL27
  have hin27 : ∀ (x : S120.Idx), BitVec.toNat (View.read (Elt F) (JB1).view gL27 x) < 3000 := hJ27.1
  clear hgL27
  ihave HR0' := (pts_name (F := F) _) $$ HR0
  icases HR0' with ⟨%rR26, %hrR26, HR0⟩
  have hR26 := gathered_rows (F := F) RW0.view hrR26
  have hRows26 := chunk_rows (idsF m d) (tabF m d) L (c := 26) (by omega) hR26 hJ26.2 (hidsF d)
  clear hrR26 hR26 hJ26
  ihave Ho' := (pts_name (F := F) _) $$ HoA
  icases Ho' with ⟨%fO25, %hfO25, HoA⟩
  have hO26 : OutInv (idsF m d) (tabF m d) L 26 fO25 :=
    outInv_step (idsF m d) (tabF m d) L (c := 25) (by omega) hfO25 (closedOff_rows rfl (by unfold wid; omega)) hO25 hRows25
  clear hfO25 hO25 hRows25
  -- chunk 28: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL28, %hgL28, HJ0⟩
  have hJ28 := jb_facts L 28 (by decide) (idsF m d) (hidsF d) (s5_read L (idsF m d) f5) JB0.view hgL28
  have hin28 : ∀ (x : S120.Idx), BitVec.toNat (View.read (Elt F) (JB0).view gL28 x) < 3000 := hJ28.1
  clear hgL28
  ihave HR1' := (pts_name (F := F) _) $$ HR1
  icases HR1' with ⟨%rR27, %hrR27, HR1⟩
  have hR27 := gathered_rows (F := F) RW1.view hrR27
  have hRows27 := chunk_rows (idsF m d) (tabF m d) L (c := 27) (by omega) hR27 hJ27.2 (hidsF d)
  clear hrR27 hR27 hJ27
  ihave Ho' := (pts_name (F := F) _) $$ HoA
  icases Ho' with ⟨%fO26, %hfO26, HoA⟩
  have hO27 : OutInv (idsF m d) (tabF m d) L 27 fO26 :=
    outInv_step (idsF m d) (tabF m d) L (c := 26) (by omega) hfO26 (closedOff_rows rfl (by unfold wid; omega)) hO26 hRows26
  clear hfO26 hO26 hRows26
  -- chunk 29: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL29, %hgL29, HJ1⟩
  have hJ29 := jb_facts L 29 (by decide) (idsF m d) (hidsF d) (s5_read L (idsF m d) f5) JB1.view hgL29
  have hin29 : ∀ (x : S120.Idx), BitVec.toNat (View.read (Elt F) (JB1).view gL29 x) < 3000 := hJ29.1
  clear hgL29
  ihave HR0' := (pts_name (F := F) _) $$ HR0
  icases HR0' with ⟨%rR28, %hrR28, HR0⟩
  have hR28 := gathered_rows (F := F) RW0.view hrR28
  have hRows28 := chunk_rows (idsF m d) (tabF m d) L (c := 28) (by omega) hR28 hJ28.2 (hidsF d)
  clear hrR28 hR28 hJ28
  ihave Ho' := (pts_name (F := F) _) $$ HoA
  icases Ho' with ⟨%fO27, %hfO27, HoA⟩
  have hO28 : OutInv (idsF m d) (tabF m d) L 28 fO27 :=
    outInv_step (idsF m d) (tabF m d) L (c := 27) (by omega) hfO27 (closedOff_rows rfl (by unfold wid; omega)) hO27 hRows27
  clear hfO27 hO27 hRows27
  -- chunk 30: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL30, %hgL30, HJ0⟩
  have hJ30 := jb_facts L 30 (by decide) (idsF m d) (hidsF d) (s5_read L (idsF m d) f5) JB0.view hgL30
  have hin30 : ∀ (x : S120.Idx), BitVec.toNat (View.read (Elt F) (JB0).view gL30 x) < 3000 := hJ30.1
  clear hgL30
  ihave HR1' := (pts_name (F := F) _) $$ HR1
  icases HR1' with ⟨%rR29, %hrR29, HR1⟩
  have hR29 := gathered_rows (F := F) RW1.view hrR29
  have hRows29 := chunk_rows (idsF m d) (tabF m d) L (c := 29) (by omega) hR29 hJ29.2 (hidsF d)
  clear hrR29 hR29 hJ29
  ihave Ho' := (pts_name (F := F) _) $$ HoA
  icases Ho' with ⟨%fO28, %hfO28, HoA⟩
  have hO29 : OutInv (idsF m d) (tabF m d) L 29 fO28 :=
    outInv_step (idsF m d) (tabF m d) L (c := 28) (by omega) hfO28 (closedOff_rows rfl (by unfold wid; omega)) hO28 hRows28
  clear hfO28 hO28 hRows28
  -- chunk 31: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL31, %hgL31, HJ1⟩
  have hJ31 := jb_facts L 31 (by decide) (idsF m d) (hidsF d) (s5_read L (idsF m d) f5) JB1.view hgL31
  have hin31 : ∀ (x : S120.Idx), BitVec.toNat (View.read (Elt F) (JB1).view gL31 x) < 3000 := hJ31.1
  clear hgL31
  ihave HR0' := (pts_name (F := F) _) $$ HR0
  icases HR0' with ⟨%rR30, %hrR30, HR0⟩
  have hR30 := gathered_rows (F := F) RW0.view hrR30
  have hRows30 := chunk_rows (idsF m d) (tabF m d) L (c := 30) (by omega) hR30 hJ30.2 (hidsF d)
  clear hrR30 hR30 hJ30
  ihave Ho' := (pts_name (F := F) _) $$ HoA
  icases Ho' with ⟨%fO29, %hfO29, HoA⟩
  have hO30 : OutInv (idsF m d) (tabF m d) L 30 fO29 :=
    outInv_step (idsF m d) (tabF m d) L (c := 29) (by omega) hfO29 (closedOff_rows rfl (by unfold wid; omega)) hO29 hRows29
  clear hfO29 hO29 hRows29
  -- chunk 32: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL32, %hgL32, HJ0⟩
  have hJ32 := jb_facts L 32 (by decide) (idsF m d) (hidsF d) (s5_read L (idsF m d) f5) JB0.view hgL32
  have hin32 : ∀ (x : S120.Idx), BitVec.toNat (View.read (Elt F) (JB0).view gL32 x) < 3000 := hJ32.1
  clear hgL32
  ihave HR1' := (pts_name (F := F) _) $$ HR1
  icases HR1' with ⟨%rR31, %hrR31, HR1⟩
  have hR31 := gathered_rows (F := F) RW1.view hrR31
  have hRows31 := chunk_rows (idsF m d) (tabF m d) L (c := 31) (by omega) hR31 hJ31.2 (hidsF d)
  clear hrR31 hR31 hJ31
  ihave Ho' := (pts_name (F := F) _) $$ HoA
  icases Ho' with ⟨%fO30, %hfO30, HoA⟩
  have hO31 : OutInv (idsF m d) (tabF m d) L 31 fO30 :=
    outInv_step (idsF m d) (tabF m d) L (c := 30) (by omega) hfO30 (closedOff_rows rfl (by unfold wid; omega)) hO30 hRows30
  clear hfO30 hO30 hRows30
  -- chunk 33: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL33, %hgL33, HJ1⟩
  have hJ33 := jb_facts L 33 (by decide) (idsF m d) (hidsF d) (s5_read L (idsF m d) f5) JB1.view hgL33
  have hin33 : ∀ (x : S120.Idx), BitVec.toNat (View.read (Elt F) (JB1).view gL33 x) < 3000 := hJ33.1
  clear hgL33
  ihave HR0' := (pts_name (F := F) _) $$ HR0
  icases HR0' with ⟨%rR32, %hrR32, HR0⟩
  have hR32 := gathered_rows (F := F) RW0.view hrR32
  have hRows32 := chunk_rows (idsF m d) (tabF m d) L (c := 32) (by omega) hR32 hJ32.2 (hidsF d)
  clear hrR32 hR32 hJ32
  ihave Ho' := (pts_name (F := F) _) $$ HoA
  icases Ho' with ⟨%fO31, %hfO31, HoA⟩
  have hO32 : OutInv (idsF m d) (tabF m d) L 32 fO31 :=
    outInv_step (idsF m d) (tabF m d) L (c := 31) (by omega) hfO31 (closedOff_rows rfl (by unfold wid; omega)) hO31 hRows31
  clear hfO31 hO31 hRows31
  -- chunk 34: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL34, %hgL34, HJ0⟩
  have hJ34 := jb_facts L 34 (by decide) (idsF m d) (hidsF d) (s5_read L (idsF m d) f5) JB0.view hgL34
  have hin34 : ∀ (x : S120.Idx), BitVec.toNat (View.read (Elt F) (JB0).view gL34 x) < 3000 := hJ34.1
  clear hgL34
  ihave HR1' := (pts_name (F := F) _) $$ HR1
  icases HR1' with ⟨%rR33, %hrR33, HR1⟩
  have hR33 := gathered_rows (F := F) RW1.view hrR33
  have hRows33 := chunk_rows (idsF m d) (tabF m d) L (c := 33) (by omega) hR33 hJ33.2 (hidsF d)
  clear hrR33 hR33 hJ33
  ihave Ho' := (pts_name (F := F) _) $$ HoA
  icases Ho' with ⟨%fO32, %hfO32, HoA⟩
  have hO33 : OutInv (idsF m d) (tabF m d) L 33 fO32 :=
    outInv_step (idsF m d) (tabF m d) L (c := 32) (by omega) hfO32 (closedOff_rows rfl (by unfold wid; omega)) hO32 hRows32
  clear hfO32 hO32 hRows32
  -- chunk 35: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL35, %hgL35, HJ1⟩
  have hJ35 := jb_facts L 35 (by decide) (idsF m d) (hidsF d) (s5_read L (idsF m d) f5) JB1.view hgL35
  have hin35 : ∀ (x : S120.Idx), BitVec.toNat (View.read (Elt F) (JB1).view gL35 x) < 3000 := hJ35.1
  clear hgL35
  ihave HR0' := (pts_name (F := F) _) $$ HR0
  icases HR0' with ⟨%rR34, %hrR34, HR0⟩
  have hR34 := gathered_rows (F := F) RW0.view hrR34
  have hRows34 := chunk_rows (idsF m d) (tabF m d) L (c := 34) (by omega) hR34 hJ34.2 (hidsF d)
  clear hrR34 hR34 hJ34
  ihave Ho' := (pts_name (F := F) _) $$ HoA
  icases Ho' with ⟨%fO33, %hfO33, HoA⟩
  have hO34 : OutInv (idsF m d) (tabF m d) L 34 fO33 :=
    outInv_step (idsF m d) (tabF m d) L (c := 33) (by omega) hfO33 (closedOff_rows rfl (by unfold wid; omega)) hO33 hRows33
  clear hfO33 hO33 hRows33
  -- chunk 36: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL36, %hgL36, HJ0⟩
  have hJ36 := jb_facts L 36 (by decide) (idsF m d) (hidsF d) (s5_read L (idsF m d) f5) JB0.view hgL36
  have hin36 : ∀ (x : S120.Idx), BitVec.toNat (View.read (Elt F) (JB0).view gL36 x) < 3000 := hJ36.1
  clear hgL36
  ihave HR1' := (pts_name (F := F) _) $$ HR1
  icases HR1' with ⟨%rR35, %hrR35, HR1⟩
  have hR35 := gathered_rows (F := F) RW1.view hrR35
  have hRows35 := chunk_rows (idsF m d) (tabF m d) L (c := 35) (by omega) hR35 hJ35.2 (hidsF d)
  clear hrR35 hR35 hJ35
  ihave Ho' := (pts_name (F := F) _) $$ HoA
  icases Ho' with ⟨%fO34, %hfO34, HoA⟩
  have hO35 : OutInv (idsF m d) (tabF m d) L 35 fO34 :=
    outInv_step (idsF m d) (tabF m d) L (c := 34) (by omega) hfO34 (closedOff_rows rfl (by unfold wid; omega)) hO34 hRows34
  clear hfO34 hO34 hRows34
  -- chunk 37: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL37, %hgL37, HJ1⟩
  have hJ37 := jb_facts L 37 (by decide) (idsF m d) (hidsF d) (s5_read L (idsF m d) f5) JB1.view hgL37
  have hin37 : ∀ (x : S120.Idx), BitVec.toNat (View.read (Elt F) (JB1).view gL37 x) < 3000 := hJ37.1
  clear hgL37
  ihave HR0' := (pts_name (F := F) _) $$ HR0
  icases HR0' with ⟨%rR36, %hrR36, HR0⟩
  have hR36 := gathered_rows (F := F) RW0.view hrR36
  have hRows36 := chunk_rows (idsF m d) (tabF m d) L (c := 36) (by omega) hR36 hJ36.2 (hidsF d)
  clear hrR36 hR36 hJ36
  ihave Ho' := (pts_name (F := F) _) $$ HoA
  icases Ho' with ⟨%fO35, %hfO35, HoA⟩
  have hO36 : OutInv (idsF m d) (tabF m d) L 36 fO35 :=
    outInv_step (idsF m d) (tabF m d) L (c := 35) (by omega) hfO35 (closedOff_rows rfl (by unfold wid; omega)) hO35 hRows35
  clear hfO35 hO35 hRows35
  -- chunk 38: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ0a := (aside_intro (F := F) _) $$ HJ0
  sl_exec_parts
  ihave HJ0 := (aside_elim (F := F) _) $$ HJ0a
  ihave HJ0' := (pts_name (F := F) _) $$ HJ0
  icases HJ0' with ⟨%gL38, %hgL38, HJ0⟩
  have hJ38 := jb_facts L 38 (by decide) (idsF m d) (hidsF d) (s5_read L (idsF m d) f5) JB0.view hgL38
  have hin38 : ∀ (x : S120.Idx), BitVec.toNat (View.read (Elt F) (JB0).view gL38 x) < 3000 := hJ38.1
  clear hgL38
  ihave HR1' := (pts_name (F := F) _) $$ HR1
  icases HR1' with ⟨%rR37, %hrR37, HR1⟩
  have hR37 := gathered_rows (F := F) RW1.view hrR37
  have hRows37 := chunk_rows (idsF m d) (tabF m d) L (c := 37) (by omega) hR37 hJ37.2 (hidsF d)
  clear hrR37 hR37 hJ37
  ihave Ho' := (pts_name (F := F) _) $$ HoA
  icases Ho' with ⟨%fO36, %hfO36, HoA⟩
  have hO37 : OutInv (idsF m d) (tabF m d) L 37 fO36 :=
    outInv_step (idsF m d) (tabF m d) L (c := 36) (by omega) hfO36 (closedOff_rows rfl (by unfold wid; omega)) hO36 hRows36
  clear hfO36 hO36 hRows36
  -- chunk 39: its list (nine indexed stores), then up to its gather's issue
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  sl_exec_parts
  rw [SparseCore.vectorStoreIdx_bind (c := V d (cV L) (jV L))]
  set_option sl_exec.maxSteps 2 in sl_exec_parts
  ihave HJ1a := (aside_intro (F := F) _) $$ HJ1
  sl_exec_parts
  ihave HJ1 := (aside_elim (F := F) _) $$ HJ1a
  ihave HJ1' := (pts_name (F := F) _) $$ HJ1
  icases HJ1' with ⟨%gL39, %hgL39, HJ1⟩
  have hJ39 := jb_facts L 39 (by decide) (idsF m d) (hidsF d) (s5_read L (idsF m d) f5) JB1.view hgL39
  have hin39 : ∀ (x : S120.Idx), BitVec.toNat (View.read (Elt F) (JB1).view gL39 x) < 3000 := hJ39.1
  clear hgL39
  ihave HR0' := (pts_name (F := F) _) $$ HR0
  icases HR0' with ⟨%rR38, %hrR38, HR0⟩
  have hR38 := gathered_rows (F := F) RW0.view hrR38
  have hRows38 := chunk_rows (idsF m d) (tabF m d) L (c := 38) (by omega) hR38 hJ38.2 (hidsF d)
  clear hrR38 hR38 hJ38
  ihave Ho' := (pts_name (F := F) _) $$ HoA
  icases Ho' with ⟨%fO37, %hfO37, HoA⟩
  have hO38 : OutInv (idsF m d) (tabF m d) L 38 fO37 :=
    outInv_step (idsF m d) (tabF m d) L (c := 37) (by omega) hfO37 (closedOff_rows rfl (by unfold wid; omega)) hO37 hRows37
  clear hfO37 hO37 hRows37
  -- the last gather, chunk 38's write-back, the last gather's wait; chunk 39's rows named
  sl_exec_parts
  ihave HoB := (aside_elim (F := F) _) $$ HoBa
  ihave HR1' := (pts_name (F := F) _) $$ HR1
  icases HR1' with ⟨%rR39, %hrR39, HR1⟩
  have hR39 := gathered_rows (F := F) RW1.view hrR39
  have hRows39 := chunk_rows (idsF m d) (tabF m d) L (c := 39) (by omega) hR39 hJ39.2 (hidsF d)
  clear hrR39 hR39 hJ39
  -- chunk 39's write-back and the last two waits
  sl_exec_parts
  ihave HoA' := (pts_name (F := F) _) $$ HoA
  icases HoA' with ⟨%fO38, %hfO38, HoA⟩
  have hO39 : OutInv (idsF m d) (tabF m d) L 39 fO38 :=
    outInv_step (idsF m d) (tabF m d) L (c := 38) (by omega) hfO38 (closedOff_rows rfl (by unfold wid; omega)) hO38 hRows38
  ihave HoB' := (pts_name (F := F) _) $$ HoB
  icases HoB' with ⟨%fB, %hfB, HoB⟩
  have hB := outAt_last (idsF m d) (tabF m d) L hfB (closedOff_rows rfl (by unfold wid; omega)) hRows39
  ihave Hj := (oPts_AB_join (F := F) d L fO38 fB) $$ [HoA HoB]
  · isplitl [HoA]; · iexact HoA
    iexact HoB
  icases Hj with ⟨%gF, %hgF, Ho⟩
  have hTV : TileVal m d L gF := tileVal_of_AB m d L fO38 fB gF hO39 hB hgF
  sl_step
  unfold tilePost tileSems
  isplitl [Hi Ht Ho H5 HJ0 HJ1 HR0 HR1 Hc3 Hc4 Hc5 Hc6 Hc7]
  · isplitl [Hi]; · iexact Hi
    isplitl [Ht]; · iexact Ht
    isplitl [Ho]
    · iexists gF; isplitr
      · ipureintro; exact hTV
      · iexact Ho
    isplitl [H5]; · iexists _; iexact H5
    isplitl [HJ0]; · iexists _; iexact HJ0
    isplitl [HJ1]; · iexists _; iexact HJ1
    isplitl [HR0]; · iexists _; iexact HR0
    isplitl [HR1]; · iexists _; iexact HR1
    isplitl [Hc3]; · iexact Hc3
    isplitl [Hc4]; · iexact Hc4
    isplitl [Hc5]; · iexact Hc5
    isplitl [Hc6]; · iexact Hc6
    iexact Hc7
  iexists _; isplitr
  swap; · iexact HO
  ipureintro; intro p hp
  repeat (rcases Finset.mem_insert.mp hp with hp' | hp; · exact .inr (hp' ▸ rfl))
  exact .inl hp

end Cert.Proof.KB

end
-- ==== Proof.lean ====
/- The proof of `Cert.Claim` (proofs.«208231_g67989332295774_cont_9to1_m_298_26_alg».proof.Defs) — frame_Kernel ∧ frame_KernelIdeal ∧ frame_ReferenceIdeal ∧ preserves_Kernel_KernelIdeal ∧ algebraic_KernelIdeal_ReferenceIdeal.
   An embedding lookup: a table of 1000 rows of 300 numbers, a 1024 × 50 array of row numbers, the result at (b, l, k) entry
   k of table row ids(b, l). The kernel pads each table row to 384 and cuts it into three rows of 128; for each of the 51200
   flat ids its SparseCore workers gather the three 128-wide pieces of that padded row into a staged array, which the host
   reads as 1024 × 50 × 384 and slices back to the 300 columns: the lookup, the padding never showing. The reference is a
   take with negative ids wrapped and out-of-range rows masked; under the precondition 0 ≤ ids ≤ 999 neither does anything
   and it is the same lookup. Both runs name their result by the one specification term, so the comparison is immediate;
   each frame is a run with the value dropped; the ideal pass rewrote nothing, so preservation is trivial. -/
import proofs.«208231_g67989332295774_cont_9to1_m_298_26_alg».proof.Defs
import proofs.«208231_g67989332295774_cont_9to1_m_298_26_alg».proof.Proof.Gen.Kernel
import proofs.«208231_g67989332295774_cont_9to1_m_298_26_alg».proof.Proof.Gen.Kernel.Skeleton
import proofs.«208231_g67989332295774_cont_9to1_m_298_26_alg».proof.Proof.Gen.KernelIdeal
import proofs.«208231_g67989332295774_cont_9to1_m_298_26_alg».proof.Proof.Gen.KernelIdeal.Skeleton
import proofs.«208231_g67989332295774_cont_9to1_m_298_26_alg».proof.Proof.Gen.ReferenceIdeal
import proofs.«208231_g67989332295774_cont_9to1_m_298_26_alg».proof.Proof.Gen.Pre_input_domain
import Idealize.ShloMosaic.Adequacy
import Idealize.ShloMosaic.Init
import proofs.«208231_g67989332295774_cont_9to1_m_298_26_alg».proof.Proof.PreFacts
import proofs.«208231_g67989332295774_cont_9to1_m_298_26_alg».proof.Proof.RefAgree
import proofs.«208231_g67989332295774_cont_9to1_m_298_26_alg».proof.Proof.Main
import proofs.«208231_g67989332295774_cont_9to1_m_298_26_alg».proof.Proof.Bits.Main
import proofs.«208231_g67989332295774_cont_9to1_m_298_26_alg».proof.Proof.TileObl
import proofs.«208231_g67989332295774_cont_9to1_m_298_26_alg».proof.Proof.Bits.TileObl

noncomputable section

namespace Cert.Proof

open Idealize.ShloMosaic Idealize.SL.Sem

/-- The kernel program at the bit-exact instance runs and leaves its arguments unchanged: its run with the value dropped.
    The bound on the row numbers the run asks for is what the precondition says of them. -/
theorem frame_Kernel : Cert.frame_Kernel := fun m ρ hpre =>
  (θ_run Cert.Kernel.defs _ _).mono (fun _ h c => (h c).2)
    (KB.run_main (F := Bits) m ρ (fun d => PreFacts.ids_lt _ _ (hpre d))
      (KB.tileObl m (fun d => PreFacts.ids_lt _ _ (hpre d))))

/-- The same at the ideal instance. -/
theorem frame_KernelIdeal : Cert.frame_KernelIdeal := fun m ρ hpre =>
  (θ_run Cert.KernelIdeal.defs _ _).mono (fun _ h c => (h c).2)
    (KI.run_main (F := Ideal) m ρ (fun d => PreFacts.ids_lt _ _ (hpre d))
      (KI.tileObl m (fun d => PreFacts.ids_lt _ _ (hpre d))))

/-- Both programs compute the specification's lookup of the kernel's arguments: the kernel by its run, the reference,
    from a memory agreeing on the arguments, by its own. -/
theorem algebraic : Cert.algebraic_KernelIdeal_ReferenceIdeal := fun m ρ m' ρ' hpre hagree =>
  ⟨fun c => Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    KI.run_main (F := Ideal) m ρ (fun d => PreFacts.ids_lt _ _ (hpre d))
      (KI.tileObl m (fun d => PreFacts.ids_lt _ _ (hpre d))),
    Ref.run_agree m m' ρ' hpre hagree⟩

theorem claim : Cert.Claim :=
  ⟨Cert.Kernel.Gen.facts, Cert.KernelIdeal.Gen.facts, Cert.ReferenceIdeal.Gen.facts, Cert.Pre_input_domain.Gen.facts,
    frame_Kernel, frame_KernelIdeal, Ref.frame, trivial, algebraic⟩

end Cert.Proof

end
